-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v224) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x200000x3 : Shape := ⟨3, ![4, 200000, 3]⟩
abbrev S4x3 : Shape := ⟨2, ![4, 3]⟩
abbrev S4x4 : Shape := ⟨2, ![4, 4]⟩
abbrev S4x480x640 : Shape := ⟨3, ![4, 480, 640]⟩
abbrev S_ : Shape := ⟨0, ![]⟩

class Facts : Prop where
  bcast_S_S4x200000x3 : S_.BroadcastsInDim S4x200000x3 (![] : Fin 0 → Fin S4x200000x3.rank)
  reducesTo_S4x200000x3_S_d0_1_2 : S4x200000x3.ReducesTo [0, 1, 2] S_
  h_S_ : 0 < S_.numel
  bcast_S_S4x3 : S_.BroadcastsInDim S4x3 (![] : Fin 0 → Fin S4x3.rank)
  reducesTo_S4x3_S_d0_1 : S4x3.ReducesTo [0, 1] S_
  bcast_S_S4x4 : S_.BroadcastsInDim S4x4 (![] : Fin 0 → Fin S4x4.rank)
  reducesTo_S4x4_S_d0_1 : S4x4.ReducesTo [0, 1] S_
  bcast_S_S4x480x640 : S_.BroadcastsInDim S4x480x640 (![] : Fin 0 → Fin S4x480x640.rank)
  reducesTo_S4x480x640_S_d0_1_2 : S4x480x640.ReducesTo [0, 1, 2] S_

variable [Facts]

def fn_part1 {F : FTy → Type} [FloatOps F] (main_v13 : IVec S_ 1) (main_v16 : IVec S4x480x640 1) : IVec S_ 1 :=
  let main_c_5 : IVec S_ 1 := constantI S_ 1 1#1
  let main_v17 : IVec S_ 1 := (fun x v => Host.reduce IntOp.andi x v reducesTo_S4x480x640_S_d0_1_2 h_S_) main_v16 main_c_5
  let main_v18 : IVec S_ 1 := andi main_v13 main_v17
  main_v18

def fn {F : FTy → Type} [FloatOps F] (main_arg0 : FVec F S4x200000x3 .f32) (main_arg1 : FVec F S4x3 .f32) (main_arg2 : FVec F S4x4 .f32) (main_arg3 : FVec F S4x480x640 .f32) : IVec S_ 1 :=
  let main_v0 : FVec F S4x200000x3 .f32 := Host.absf main_arg0
  let main_cst : FVec F S_ .f32 := constant S_ .f32 0x7F800000#32
  let main_v1 : FVec F S4x200000x3 .f32 := broadcastInDim S4x200000x3 ![] bcast_S_S4x200000x3 main_cst
  let main_v2 : IVec S4x200000x3 1 := cmpf .olt main_v0 main_v1
  let main_c : IVec S_ 1 := constantI S_ 1 1#1
  let main_v3 : IVec S_ 1 := (fun x v => Host.reduce IntOp.andi x v reducesTo_S4x200000x3_S_d0_1_2 h_S_) main_v2 main_c
  let main_v4 : FVec F S4x3 .f32 := Host.absf main_arg1
  let main_cst_0 : FVec F S_ .f32 := constant S_ .f32 0x7F800000#32
  let main_v5 : FVec F S4x3 .f32 := broadcastInDim S4x3 ![] bcast_S_S4x3 main_cst_0
  let main_v6 : IVec S4x3 1 := cmpf .olt main_v4 main_v5
  let main_c_1 : IVec S_ 1 := constantI S_ 1 1#1
  let main_v7 : IVec S_ 1 := (fun x v => Host.reduce IntOp.andi x v reducesTo_S4x3_S_d0_1 h_S_) main_v6 main_c_1
  let main_v8 : IVec S_ 1 := andi main_v3 main_v7
  let main_v9 : FVec F S4x4 .f32 := Host.absf main_arg2
  let main_cst_2 : FVec F S_ .f32 := constant S_ .f32 0x7F800000#32
  let main_v10 : FVec F S4x4 .f32 := broadcastInDim S4x4 ![] bcast_S_S4x4 main_cst_2
  let main_v11 : IVec S4x4 1 := cmpf .olt main_v9 main_v10
  let main_c_3 : IVec S_ 1 := constantI S_ 1 1#1
  let main_v12 : IVec S_ 1 := (fun x v => Host.reduce IntOp.andi x v reducesTo_S4x4_S_d0_1 h_S_) main_v11 main_c_3
  let main_v13 : IVec S_ 1 := andi main_v8 main_v12
  let main_v14 : FVec F S4x480x640 .f32 := Host.absf main_arg3
  let main_cst_4 : FVec F S_ .f32 := constant S_ .f32 0x7F800000#32
  let main_v15 : FVec F S4x480x640 .f32 := broadcastInDim S4x480x640 ![] bcast_S_S4x480x640 main_cst_4
  let main_v16 : IVec S4x480x640 1 := cmpf .olt main_v14 main_v15
  fn_part1 (F := F) main_v13 main_v16
-- ==== Kernel.lean ====
abbrev S4x200000x3 : Shape := ⟨3, ![4, 200000, 3]⟩
abbrev S4x3 : Shape := ⟨2, ![4, 3]⟩
abbrev S4x4 : Shape := ⟨2, ![4, 4]⟩
abbrev S4x480x640 : Shape := ⟨3, ![4, 480, 640]⟩
abbrev S4 : Shape := ⟨1, ![4]⟩
abbrev S_ : Shape := ⟨0, ![]⟩
abbrev S4x1 : Shape := ⟨2, ![4, 1]⟩
abbrev S1x4 : Shape := ⟨2, ![1, 4]⟩
abbrev S4x1x3 : Shape := ⟨3, ![4, 1, 3]⟩
abbrev S4x3x3 : Shape := ⟨3, ![4, 3, 3]⟩
abbrev S1x1000x3 : Shape := ⟨3, ![1, 1000, 3]⟩
abbrev S1x1x3 : Shape := ⟨3, ![1, 1, 3]⟩
abbrev S1x3x3 : Shape := ⟨3, ![1, 3, 3]⟩
abbrev S1x480x640 : Shape := ⟨3, ![1, 480, 640]⟩
abbrev S1000x3 : Shape := ⟨2, ![1000, 3]⟩
abbrev S3 : Shape := ⟨1, ![3]⟩
abbrev S3x3 : Shape := ⟨2, ![3, 3]⟩
abbrev S480x640 : Shape := ⟨2, ![480, 640]⟩
abbrev S1000x1 : Shape := ⟨2, ![1000, 1]⟩
abbrev S1000 : Shape := ⟨1, ![1000]⟩
abbrev S1 : Shape := ⟨1, ![1]⟩
abbrev S1x1 : Shape := ⟨2, ![1, 1]⟩
abbrev S1000x480 : Shape := ⟨2, ![1000, 480]⟩
abbrev S1000x640 : Shape := ⟨2, ![1000, 640]⟩

abbrev nBuf : Space → Nat
  | .hbm => 122
  | .vmem => 10
  | .smem => 0
  | _ => 0

abbrev bufTy : (tb : Table) → Fin (tcTables nBuf tb) → BufTy
  | .hbm, ⟨0, _⟩ => ⟨S4x200000x3, .f32⟩
  | .hbm, ⟨1, _⟩ => ⟨S4x3, .f32⟩
  | .hbm, ⟨2, _⟩ => ⟨S4x4, .f32⟩
  | .hbm, ⟨3, _⟩ => ⟨S4x480x640, .f32⟩
  | .hbm, ⟨4, _⟩ => ⟨S4, .f32⟩
  | .hbm, ⟨5, _⟩ => ⟨S4x4, .f32⟩
  | .hbm, ⟨6, _⟩ => ⟨S_, .f32⟩
  | .hbm, ⟨7, _⟩ => ⟨S4, .f32⟩
  | .hbm, ⟨8, _⟩ => ⟨S4x1, .f32⟩
  | .hbm, ⟨9, _⟩ => ⟨S4x1, .f32⟩
  | .hbm, ⟨10, _⟩ => ⟨S4x4, .f32⟩
  | .hbm, ⟨11, _⟩ => ⟨S4x4, .f32⟩
  | .hbm, ⟨12, _⟩ => ⟨S1x4, .f32⟩
  | .hbm, ⟨13, _⟩ => ⟨S4x4, .f32⟩
  | .hbm, ⟨14, _⟩ => ⟨S4x4, .f32⟩
  | .hbm, ⟨15, _⟩ => ⟨S4x1, .f32⟩
  | .hbm, ⟨16, _⟩ => ⟨S4, .f32⟩
  | .hbm, ⟨17, _⟩ => ⟨S4x1, .f32⟩
  | .hbm, ⟨18, _⟩ => ⟨S4, .f32⟩
  | .hbm, ⟨19, _⟩ => ⟨S4x1, .f32⟩
  | .hbm, ⟨20, _⟩ => ⟨S4, .f32⟩
  | .hbm, ⟨21, _⟩ => ⟨S4x1, .f32⟩
  | .hbm, ⟨22, _⟩ => ⟨S4, .f32⟩
  | .hbm, ⟨23, _⟩ => ⟨S4, .f32⟩
  | .hbm, ⟨24, _⟩ => ⟨S4, .f32⟩
  | .hbm, ⟨25, _⟩ => ⟨S4, .f32⟩
  | .hbm, ⟨26, _⟩ => ⟨S4, .f32⟩
  | .hbm, ⟨27, _⟩ => ⟨S4, .f32⟩
  | .hbm, ⟨28, _⟩ => ⟨S4, .f32⟩
  | .hbm, ⟨29, _⟩ => ⟨S4, .f32⟩
  | .hbm, ⟨30, _⟩ => ⟨S4, .f32⟩
  | .hbm, ⟨31, _⟩ => ⟨S4, .f32⟩
  | .hbm, ⟨32, _⟩ => ⟨S_, .f32⟩
  | .hbm, ⟨33, _⟩ => ⟨S4, .f32⟩
  | .hbm, ⟨34, _⟩ => ⟨S4, .f32⟩
  | .hbm, ⟨35, _⟩ => ⟨S_, .f32⟩
  | .hbm, ⟨36, _⟩ => ⟨S4, .f32⟩
  | .hbm, ⟨37, _⟩ => ⟨S4, .f32⟩
  | .hbm, ⟨38, _⟩ => ⟨S_, .f32⟩
  | .hbm, ⟨39, _⟩ => ⟨S4, .f32⟩
  | .hbm, ⟨40, _⟩ => ⟨S4, .f32⟩
  | .hbm, ⟨41, _⟩ => ⟨S4, .f32⟩
  | .hbm, ⟨42, _⟩ => ⟨S_, .f32⟩
  | .hbm, ⟨43, _⟩ => ⟨S4, .f32⟩
  | .hbm, ⟨44, _⟩ => ⟨S4, .f32⟩
  | .hbm, ⟨45, _⟩ => ⟨S_, .f32⟩
  | .hbm, ⟨46, _⟩ => ⟨S4, .f32⟩
  | .hbm, ⟨47, _⟩ => ⟨S4, .f32⟩
  | .hbm, ⟨48, _⟩ => ⟨S4, .f32⟩
  | .hbm, ⟨49, _⟩ => ⟨S_, .f32⟩
  | .hbm, ⟨50, _⟩ => ⟨S4, .f32⟩
  | .hbm, ⟨51, _⟩ => ⟨S4, .f32⟩
  | .hbm, ⟨52, _⟩ => ⟨S_, .f32⟩
  | .hbm, ⟨53, _⟩ => ⟨S4, .f32⟩
  | .hbm, ⟨54, _⟩ => ⟨S4, .f32⟩
  | .hbm, ⟨55, _⟩ => ⟨S4, .f32⟩
  | .hbm, ⟨56, _⟩ => ⟨S_, .f32⟩
  | .hbm, ⟨57, _⟩ => ⟨S4, .f32⟩
  | .hbm, ⟨58, _⟩ => ⟨S4, .f32⟩
  | .hbm, ⟨59, _⟩ => ⟨S_, .f32⟩
  | .hbm, ⟨60, _⟩ => ⟨S4, .f32⟩
  | .hbm, ⟨61, _⟩ => ⟨S4, .f32⟩
  | .hbm, ⟨62, _⟩ => ⟨S4, .f32⟩
  | .hbm, ⟨63, _⟩ => ⟨S_, .f32⟩
  | .hbm, ⟨64, _⟩ => ⟨S4, .f32⟩
  | .hbm, ⟨65, _⟩ => ⟨S4, .f32⟩
  | .hbm, ⟨66, _⟩ => ⟨S_, .f32⟩
  | .hbm, ⟨67, _⟩ => ⟨S4, .f32⟩
  | .hbm, ⟨68, _⟩ => ⟨S4, .f32⟩
  | .hbm, ⟨69, _⟩ => ⟨S_, .f32⟩
  | .hbm, ⟨70, _⟩ => ⟨S4, .f32⟩
  | .hbm, ⟨71, _⟩ => ⟨S4, .f32⟩
  | .hbm, ⟨72, _⟩ => ⟨S4, .f32⟩
  | .hbm, ⟨73, _⟩ => ⟨S_, .f32⟩
  | .hbm, ⟨74, _⟩ => ⟨S4, .f32⟩
  | .hbm, ⟨75, _⟩ => ⟨S4, .f32⟩
  | .hbm, ⟨76, _⟩ => ⟨S_, .f32⟩
  | .hbm, ⟨77, _⟩ => ⟨S4, .f32⟩
  | .hbm, ⟨78, _⟩ => ⟨S4, .f32⟩
  | .hbm, ⟨79, _⟩ => ⟨S4, .f32⟩
  | .hbm, ⟨80, _⟩ => ⟨S_, .f32⟩
  | .hbm, ⟨81, _⟩ => ⟨S4, .f32⟩
  | .hbm, ⟨82, _⟩ => ⟨S4, .f32⟩
  | .hbm, ⟨83, _⟩ => ⟨S_, .f32⟩
  | .hbm, ⟨84, _⟩ => ⟨S4, .f32⟩
  | .hbm, ⟨85, _⟩ => ⟨S4, .f32⟩
  | .hbm, ⟨86, _⟩ => ⟨S4, .f32⟩
  | .hbm, ⟨87, _⟩ => ⟨S_, .f32⟩
  | .hbm, ⟨88, _⟩ => ⟨S4, .f32⟩
  | .hbm, ⟨89, _⟩ => ⟨S4, .f32⟩
  | .hbm, ⟨90, _⟩ => ⟨S_, .f32⟩
  | .hbm, ⟨91, _⟩ => ⟨S4, .f32⟩
  | .hbm, ⟨92, _⟩ => ⟨S4, .f32⟩
  | .hbm, ⟨93, _⟩ => ⟨S4, .f32⟩
  | .hbm, ⟨94, _⟩ => ⟨S_, .f32⟩
  | .hbm, ⟨95, _⟩ => ⟨S4, .f32⟩
  | .hbm, ⟨96, _⟩ => ⟨S4, .f32⟩
  | .hbm, ⟨97, _⟩ => ⟨S_, .f32⟩
  | .hbm, ⟨98, _⟩ => ⟨S4, .f32⟩
  | .hbm, ⟨99, _⟩ => ⟨S4, .f32⟩
  | .hbm, ⟨100, _⟩ => ⟨S_, .f32⟩
  | .hbm, ⟨101, _⟩ => ⟨S4, .f32⟩
  | .hbm, ⟨102, _⟩ => ⟨S4, .f32⟩
  | .hbm, ⟨103, _⟩ => ⟨S4, .f32⟩
  | .hbm, ⟨104, _⟩ => ⟨S4x1, .f32⟩
  | .hbm, ⟨105, _⟩ => ⟨S4x1, .f32⟩
  | .hbm, ⟨106, _⟩ => ⟨S4x1, .f32⟩
  | .hbm, ⟨107, _⟩ => ⟨S4x3, .f32⟩
  | .hbm, ⟨108, _⟩ => ⟨S4x1, .f32⟩
  | .hbm, ⟨109, _⟩ => ⟨S4x1, .f32⟩
  | .hbm, ⟨110, _⟩ => ⟨S4x1, .f32⟩
  | .hbm, ⟨111, _⟩ => ⟨S4x3, .f32⟩
  | .hbm, ⟨112, _⟩ => ⟨S4x1, .f32⟩
  | .hbm, ⟨113, _⟩ => ⟨S4x1, .f32⟩
  | .hbm, ⟨114, _⟩ => ⟨S4x1, .f32⟩
  | .hbm, ⟨115, _⟩ => ⟨S4x3, .f32⟩
  | .hbm, ⟨116, _⟩ => ⟨S4x1x3, .f32⟩
  | .hbm, ⟨117, _⟩ => ⟨S4x1x3, .f32⟩
  | .hbm, ⟨118, _⟩ => ⟨S4x1x3, .f32⟩
  | .hbm, ⟨119, _⟩ => ⟨S4x3x3, .f32⟩
  | .hbm, ⟨120, _⟩ => ⟨S4x1x3, .f32⟩
  | .hbm, ⟨121, _⟩ => ⟨S4x480x640, .f32⟩
  | .local _ .vmem, ⟨0, _⟩ => ⟨S1x1000x3, .f32⟩
  | .local _ .vmem, ⟨1, _⟩ => ⟨S1x1000x3, .f32⟩
  | .local _ .vmem, ⟨2, _⟩ => ⟨S1x1x3, .f32⟩
  | .local _ .vmem, ⟨3, _⟩ => ⟨S1x1x3, .f32⟩
  | .local _ .vmem, ⟨4, _⟩ => ⟨S1x3x3, .f32⟩
  | .local _ .vmem, ⟨5, _⟩ => ⟨S1x3x3, .f32⟩
  | .local _ .vmem, ⟨6, _⟩ => ⟨S1x480x640, .f32⟩
  | .local _ .vmem, ⟨7, _⟩ => ⟨S1x480x640, .f32⟩
  | .local _ .vmem, ⟨8, _⟩ => ⟨S1x480x640, .f32⟩
  | .local _ .vmem, ⟨9, _⟩ => ⟨S1x480x640, .f32⟩
  | _, _ => ⟨S4x200000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_1 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_cst_7 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_8 : Ref sig .tc := ⟨.hbm, 56, rfl⟩
abbrev main_v43 : Ref sig .tc := ⟨.hbm, 57, rfl⟩
abbrev main_v44 : Ref sig .tc := ⟨.hbm, 58, rfl⟩
abbrev main_cst_9 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_10 : Ref sig .tc := ⟨.hbm, 63, rfl⟩
abbrev main_v48 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_cst_12 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_13 : Ref sig .tc := ⟨.hbm, 73, rfl⟩
abbrev main_v55 : Ref sig .tc := ⟨.hbm, 74, rfl⟩
abbrev main_v56 : Ref sig .tc := ⟨.hbm, 75, rfl⟩
abbrev main_cst_14 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_15 : Ref sig .tc := ⟨.hbm, 80, rfl⟩
abbrev main_v60 : Ref sig .tc := ⟨.hbm, 81, rfl⟩
abbrev main_v61 : Ref sig .tc := ⟨.hbm, 82, rfl⟩
abbrev main_cst_16 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_17 : Ref sig .tc := ⟨.hbm, 87, rfl⟩
abbrev main_v65 : Ref sig .tc := ⟨.hbm, 88, rfl⟩
abbrev main_v66 : Ref sig .tc := ⟨.hbm, 89, rfl⟩
abbrev main_cst_18 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_19 : Ref sig .tc := ⟨.hbm, 94, rfl⟩
abbrev main_v70 : Ref sig .tc := ⟨.hbm, 95, rfl⟩
abbrev main_v71 : Ref sig .tc := ⟨.hbm, 96, rfl⟩
abbrev main_cst_20 : Ref sig .tc := ⟨.hbm, 97, rfl⟩
abbrev main_v72 : Ref sig .tc := ⟨.hbm, 98, rfl⟩
abbrev main_v73 : Ref sig .tc := ⟨.hbm, 99, rfl⟩
abbrev main_cst_21 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 200], ![false, false]⟩

@[reducible] def k0_t1_loop : Scf.Loop 32 :=
  let c0_i32 : BitVec 32 := 0#32
  let c25_i32 : BitVec 32 := 25#32
  let v89 : BitVec 32 := Scalar.addi c0_i32 c25_i32
  let c1_i32 : BitVec 32 := 1#32
  ⟨c0_i32, v89, c1_i32⟩
def k0_cond1 (i : grid0.Coords) : BitVec 1 :=
  let arg1 : BitVec 32 := BitVec.ofNat 32 (i 1).val
  let c0_i32_18 : BitVec 32 := 0#32
  let v91 : BitVec 1 := Scalar.cmpi .eq arg1 c0_i32_18
  let v92 : BitVec 32 := Scalar.extui v91
  let c0_i32_19 : BitVec 32 := 0#32
  let v93 : BitVec 1 := Scalar.cmpi .ne v92 c0_i32_19
  v93

def k0_cond2 (i : grid0.Coords) : BitVec 1 :=
  let arg1 : BitVec 32 := BitVec.ofNat 32 (i 1).val
  let c0_i32_20 : BitVec 32 := 0#32
  let v94 : BitVec 1 := Scalar.cmpi .ne arg1 c0_i32_20
  let v95 : BitVec 32 := Scalar.extui v94
  let c0_i32_21 : BitVec 32 := 0#32
  let v96 : BitVec 1 := Scalar.cmpi .ne v95 c0_i32_21
  v96

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x480x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x480x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S4x4_S4_d1 : S4x4.ReducesTo [1] S4
  h_S_ : 0 < S_.numel
  bcast_S4_S4x1_0 : S4.BroadcastsInDim S4x1 (![0] : Fin 1 → Fin S4x1.rank)
  bcast_S4x1_S4x4_0_1 : S4x1.BroadcastsInDim S4x4 (![0, 1] : Fin 2 → Fin S4x4.rank)
  bcast_S4_S1x4_1 : S4.BroadcastsInDim S1x4 (![1] : Fin 1 → Fin S1x4.rank)
  bcast_S1x4_S4x4_0_1 : S1x4.BroadcastsInDim S4x4 (![0, 1] : Fin 2 → Fin S4x4.rank)
  slices_S4x4_S4x1_0_0 : S4x4.Slices ![0, 0] S4x1
  shapeCasts_S4x1_S4 : S4x1.ShapeCasts S4
  slices_S4x4_S4x1_0_1 : S4x4.Slices ![0, 1] S4x1
  slices_S4x4_S4x1_0_2 : S4x4.Slices ![0, 2] S4x1
  slices_S4x4_S4x1_0_3 : S4x4.Slices ![0, 3] S4x1
  bcast_S_S4 : S_.BroadcastsInDim S4 (![] : Fin 0 → Fin S4.rank)
  concatenates_S4x1_S4x1_S4x1_S4x3_d1 : Shape.Concatenates [S4x1, S4x1, S4x1] S4x3 1
  bcast_S4x3_S4x1x3_0_2 : S4x3.BroadcastsInDim S4x1x3 (![0, 2] : Fin 2 → Fin S4x1x3.rank)
  concatenates_S4x1x3_S4x1x3_S4x1x3_S4x3x3_d1 : Shape.Concatenates [S4x1x3, S4x1x3, S4x1x3] S4x3x3 1
  shapeCasts_S4x3_S4x1x3 : S4x3.ShapeCasts S4x1x3
  inb_S1x1000x3_S1x1000x3_0_0_0 : ∀ a, (![0, 0, 0] : Fin 3 → Nat) a + S1x1000x3.size a ≤ S1x1000x3.size a
  h_S1x1000x3 : 0 < S1x1000x3.numel
  shapeCasts_S1x1000x3_S1000x3 : S1x1000x3.ShapeCasts S1000x3
  inb_S1x1x3_S1x1x3_0_0_0 : ∀ a, (![0, 0, 0] : Fin 3 → Nat) a + S1x1x3.size a ≤ S1x1x3.size a
  h_S1x1x3 : 0 < S1x1x3.numel
  shapeCasts_S1x1x3_S3 : S1x1x3.ShapeCasts S3
  inb_S1x3x3_S1x3x3_0_0_0 : ∀ a, (![0, 0, 0] : Fin 3 → Nat) a + S1x3x3.size a ≤ S1x3x3.size a
  h_S1x3x3 : 0 < S1x3x3.numel
  shapeCasts_S1x3x3_S3x3 : S1x3x3.ShapeCasts S3x3
  inb_S1x480x640_S1x480x640_0_0_0 : ∀ a, (![0, 0, 0] : Fin 3 → Nat) a + S1x480x640.size a ≤ S1x480x640.size a
  h_S1x480x640 : 0 < S1x480x640.numel
  shapeCasts_S1x480x640_S480x640 : S1x480x640.ShapeCasts S480x640
  slices_S1000x3_o0_0_S1000x1 : S1000x3.Slices ![0, 0] S1000x1
  shapeCasts_S1000x1_S1000 : S1000x1.ShapeCasts S1000
  slices_S3_o0_S1 : S3.Slices ![0] S1
  inpos_S1_p0 : ∀ a, (![0] : Fin 1 → Nat) a < S1.size a
  slices_S1000x3_o0_1_S1000x1 : S1000x3.Slices ![0, 1] S1000x1
  slices_S3_o1_S1 : S3.Slices ![1] S1
  slices_S1000x3_o0_2_S1000x1 : S1000x3.Slices ![0, 2] S1000x1
  slices_S3_o2_S1 : S3.Slices ![2] S1
  slices_S3x3_o0_0_S1x1 : S3x3.Slices ![0, 0] S1x1
  inpos_S1x1_p0_0 : ∀ a, (![0, 0] : Fin 2 → Nat) a < S1x1.size a
  slices_S3x3_o1_0_S1x1 : S3x3.Slices ![1, 0] S1x1
  slices_S3x3_o2_0_S1x1 : S3x3.Slices ![2, 0] S1x1
  slices_S3x3_o0_1_S1x1 : S3x3.Slices ![0, 1] S1x1
  slices_S3x3_o1_1_S1x1 : S3x3.Slices ![1, 1] S1x1
  slices_S3x3_o2_1_S1x1 : S3x3.Slices ![2, 1] S1x1
  slices_S3x3_o0_2_S1x1 : S3x3.Slices ![0, 2] S1x1
  slices_S3x3_o1_2_S1x1 : S3x3.Slices ![1, 2] S1x1
  slices_S3x3_o2_2_S1x1 : S3x3.Slices ![2, 2] S1x1
  iota_S1000x480_d1_w32 : S1000x480.Iotas .tc 32 [1]
  iota_S1000x640_d1_w32 : S1000x640.Iotas .tc 32 [1]
  shapeCasts_S1000_S1000x1 : S1000.ShapeCasts S1000x1
  broadcasts_S1000x1_S1000x480 : S1000x1.Broadcasts S1000x480
  natLt_1_32 : 1 < 32
  broadcasts_S1000x1_S1000x640 : S1000x1.Broadcasts S1000x640
  reduces_S1000x640_S1000 : S1000x640.Reduces [1] S1000
  shapeCasts_S480x640_S1x480x640 : S480x640.ShapeCasts S1x480x640
  dot_S1000x480_S480x640_S1000x640_1_0_0_1_n_n_wf : DotDims.WF S1000x480 S480x640 S1000x640 [1] [0] [0] [1] [] []
  dot_S1000x480_S1000x640_S480x640_0_0_1_1_n_n_wf : DotDims.WF S1000x480 S1000x640 S480x640 [0] [0] [1] [1] [] []
  hrank0 : 0 < grid0.rank
  k0_t1_ok : k0_t1_loop.OK
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1000x3.size a ≤ S4x200000x3.size a
  hwx0_0 : ∀ i : grid0.Coords, EltTy.bits .f32 = 32 ∨ (Rect.block (s := S4x200000x3) S1x1000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x3.size a ≤ S4x1x3.size a
  hwx0_1 : ∀ i : grid0.Coords, EltTy.bits .f32 = 32 ∨ (Rect.block (s := S4x1x3) S1x1x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x3.size a ≤ S4x3x3.size a
  hwx0_2 : ∀ i : grid0.Coords, EltTy.bits .f32 = 32 ∨ (Rect.block (s := S4x3x3) S1x3x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x480x640.size a ≤ S4x480x640.size a
  hwx0_3 : ∀ i : grid0.Coords, EltTy.bits .f32 = 32 ∨ (Rect.block (s := S4x480x640) S1x480x640.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x480x640.size a ≤ S4x480x640.size a
  hwx0_4 : ∀ i : grid0.Coords, EltTy.bits .f32 = 32 ∨ (Rect.block (s := S4x480x640) S1x480x640.size (cc0_transform_4 i) (hinb0_4 i)).WholeWords (EltTy.packing .f32)

variable [Facts₀]

def dot_S1000x480_S480x640_S1000x640_1_0_0_1_n_n : DotDims S1000x480 S480x640 S1000x640 where
  lhsContracting := [1]
  rhsContracting := [0]
  lhsNonContracting := [0]
  rhsNonContracting := [1]
  lhsBatch := []
  rhsBatch := []
  wf := dot_S1000x480_S480x640_S1000x640_1_0_0_1_n_n_wf
def dot_S1000x480_S1000x640_S480x640_0_0_1_1_n_n : DotDims S1000x480 S1000x640 S480x640 where
  lhsContracting := [0]
  rhsContracting := [0]
  lhsNonContracting := [1]
  rhsNonContracting := [1]
  lhsBatch := []
  rhsBatch := []
  wf := dot_S1000x480_S1000x640_S480x640_0_0_1_1_n_n_wf

abbrev win0_0 : Pipeline.Window sig grid0 :=
  Pipeline.Window.ofSpec (Memref.whole main_arg0) S1x1000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v93) S1x1x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v92) S1x3x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x480x640.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v94) S1x480x640.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) && !(k0_cond2 i == 1#1) | ⟨_ + 5, h⟩ => absurd h (Nat.not_lt.2 (Nat.le_add_left _ _))

class Facts : Prop extends Facts₀ where

variable [Facts]
-- ==== ReferenceIdeal.lean ====
abbrev S4x200000x3 : Shape := ⟨3, ![4, 200000, 3]⟩
abbrev S4x3 : Shape := ⟨2, ![4, 3]⟩
abbrev S4x4 : Shape := ⟨2, ![4, 4]⟩
abbrev S4x480x640 : Shape := ⟨3, ![4, 480, 640]⟩
abbrev S4 : Shape := ⟨1, ![4]⟩
abbrev S4x1x3 : Shape := ⟨3, ![4, 1, 3]⟩
abbrev S_ : Shape := ⟨0, ![]⟩
abbrev S4x1 : Shape := ⟨2, ![4, 1]⟩
abbrev S1x4 : Shape := ⟨2, ![1, 4]⟩
abbrev S4x3x3 : Shape := ⟨3, ![4, 3, 3]⟩
abbrev S4x200000x1 : Shape := ⟨3, ![4, 200000, 1]⟩
abbrev S4x200000 : Shape := ⟨2, ![4, 200000]⟩
abbrev S5 : Shape := ⟨1, ![5]⟩
abbrev S1x1x5 : Shape := ⟨3, ![1, 1, 5]⟩
abbrev S4x200000x5 : Shape := ⟨3, ![4, 200000, 5]⟩
abbrev S4x200000x5x1 : Shape := ⟨4, ![4, 200000, 5, 1]⟩
abbrev S4x200000x1x5 : Shape := ⟨4, ![4, 200000, 1, 5]⟩
abbrev S4x200000x5x5 : Shape := ⟨4, ![4, 200000, 5, 5]⟩
abbrev S4x1x1x1 : Shape := ⟨4, ![4, 1, 1, 1]⟩
abbrev S4x200000x5x5x1 : Shape := ⟨5, ![4, 200000, 5, 5, 1]⟩
abbrev S4x200000x5x5x3 : Shape := ⟨5, ![4, 200000, 5, 5, 3]⟩
abbrev S4x200000x1x1 : Shape := ⟨4, ![4, 200000, 1, 1]⟩

abbrev nBuf : Space → Nat
  | .hbm => 298
  | .vmem => 0
  | .smem => 0
  | _ => 0

abbrev hbmTy0_0 (i : Nat) : BufTy := match i % 128 with
  | 0 => ⟨S4x200000x3, .f32⟩
  | 1 => ⟨S4x3, .f32⟩
  | 2 => ⟨S4x4, .f32⟩
  | 3 => ⟨S4x480x640, .f32⟩
  | 4 => ⟨S4, .f32⟩
  | 5 => ⟨S4x1x3, .f32⟩
  | 6 => ⟨S4x200000x3, .f32⟩
  | 7 => ⟨S4x200000x3, .f32⟩
  | 8 => ⟨S4x4, .f32⟩
  | 9 => ⟨S_, .f32⟩
  | 10 => ⟨S4, .f32⟩
  | 11 => ⟨S4x1, .f32⟩
  | 12 => ⟨S4x1, .f32⟩
  | 13 => ⟨S4x4, .f32⟩
  | 14 => ⟨S4x4, .f32⟩
  | 15 => ⟨S1x4, .f32⟩
  | 16 => ⟨S4x4, .f32⟩
  | 17 => ⟨S4x4, .f32⟩
  | 18 => ⟨S4x1, .f32⟩
  | 19 => ⟨S4, .f32⟩
  | 20 => ⟨S4x1, .f32⟩
  | 21 => ⟨S4, .f32⟩
  | 22 => ⟨S4x1, .f32⟩
  | 23 => ⟨S4, .f32⟩
  | 24 => ⟨S4x1, .f32⟩
  | 25 => ⟨S4, .f32⟩
  | 26 => ⟨S4, .f32⟩
  | 27 => ⟨S4, .f32⟩
  | 28 => ⟨S4, .f32⟩
  | 29 => ⟨S4, .f32⟩
  | 30 => ⟨S4, .f32⟩
  | 31 => ⟨S4, .f32⟩
  | 32 => ⟨S4, .f32⟩
  | 33 => ⟨S4, .f32⟩
  | 34 => ⟨S4, .f32⟩
  | 35 => ⟨S_, .f32⟩
  | 36 => ⟨S4, .f32⟩
  | 37 => ⟨S4, .f32⟩
  | 38 => ⟨S_, .f32⟩
  | 39 => ⟨S4, .f32⟩
  | 40 => ⟨S4, .f32⟩
  | 41 => ⟨S_, .f32⟩
  | 42 => ⟨S4, .f32⟩
  | 43 => ⟨S4, .f32⟩
  | 44 => ⟨S4, .f32⟩
  | 45 => ⟨S_, .f32⟩
  | 46 => ⟨S4, .f32⟩
  | 47 => ⟨S4, .f32⟩
  | 48 => ⟨S_, .f32⟩
  | 49 => ⟨S4, .f32⟩
  | 50 => ⟨S4, .f32⟩
  | 51 => ⟨S4, .f32⟩
  | 52 => ⟨S_, .f32⟩
  | 53 => ⟨S4, .f32⟩
  | 54 => ⟨S4, .f32⟩
  | 55 => ⟨S_, .f32⟩
  | 56 => ⟨S4, .f32⟩
  | 57 => ⟨S4, .f32⟩
  | 58 => ⟨S4, .f32⟩
  | 59 => ⟨S_, .f32⟩
  | 60 => ⟨S4, .f32⟩
  | 61 => ⟨S4, .f32⟩
  | 62 => ⟨S_, .f32⟩
  | 63 => ⟨S4, .f32⟩
  | 64 => ⟨S4, .f32⟩
  | 65 => ⟨S4, .f32⟩
  | 66 => ⟨S_, .f32⟩
  | 67 => ⟨S4, .f32⟩
  | 68 => ⟨S4, .f32⟩
  | 69 => ⟨S_, .f32⟩
  | 70 => ⟨S4, .f32⟩
  | 71 => ⟨S4, .f32⟩
  | 72 => ⟨S_, .f32⟩
  | 73 => ⟨S4, .f32⟩
  | 74 => ⟨S4, .f32⟩
  | 75 => ⟨S4, .f32⟩
  | 76 => ⟨S_, .f32⟩
  | 77 => ⟨S4, .f32⟩
  | 78 => ⟨S4, .f32⟩
  | 79 => ⟨S_, .f32⟩
  | 80 => ⟨S4, .f32⟩
  | 81 => ⟨S4, .f32⟩
  | 82 => ⟨S4, .f32⟩
  | 83 => ⟨S_, .f32⟩
  | 84 => ⟨S4, .f32⟩
  | 85 => ⟨S4, .f32⟩
  | 86 => ⟨S_, .f32⟩
  | 87 => ⟨S4, .f32⟩
  | 88 => ⟨S4, .f32⟩
  | 89 => ⟨S4, .f32⟩
  | 90 => ⟨S_, .f32⟩
  | 91 => ⟨S4, .f32⟩
  | 92 => ⟨S4, .f32⟩
  | 93 => ⟨S_, .f32⟩
  | 94 => ⟨S4, .f32⟩
  | 95 => ⟨S4, .f32⟩
  | 96 => ⟨S4, .f32⟩
  | 97 => ⟨S_, .f32⟩
  | 98 => ⟨S4, .f32⟩
  | 99 => ⟨S4, .f32⟩
  | 100 => ⟨S_, .f32⟩
  | 101 => ⟨S4, .f32⟩
  | 102 => ⟨S4, .f32⟩
  | 103 => ⟨S_, .f32⟩
  | 104 => ⟨S4, .f32⟩
  | 105 => ⟨S4, .f32⟩
  | 106 => ⟨S4, .f32⟩
  | 107 => ⟨S4x1, .f32⟩
  | 108 => ⟨S4x1, .f32⟩
  | 109 => ⟨S4x1, .f32⟩
  | 110 => ⟨S4x3, .f32⟩
  | 111 => ⟨S4x1, .f32⟩
  | 112 => ⟨S4x1, .f32⟩
  | 113 => ⟨S4x1, .f32⟩
  | 114 => ⟨S4x3, .f32⟩
  | 115 => ⟨S4x1, .f32⟩
  | 116 => ⟨S4x1, .f32⟩
  | 117 => ⟨S4x1, .f32⟩
  | 118 => ⟨S4x3, .f32⟩
  | 119 => ⟨S4x1x3, .f32⟩
  | 120 => ⟨S4x1x3, .f32⟩
  | 121 => ⟨S4x1x3, .f32⟩
  | 122 => ⟨S4x3x3, .f32⟩
  | 123 => ⟨S4x200000x3, .f32⟩
  | 124 => ⟨S4x200000x1, .f32⟩
  | 125 => ⟨S4x200000, .f32⟩
  | 126 => ⟨S4x200000x1, .f32⟩
  | 127 => ⟨S4x200000, .f32⟩
  | _ => ⟨S4x200000x3, .f32⟩

abbrev hbmTy0_1 (i : Nat) : BufTy := match i % 128 with
  | 0 => ⟨S4x200000x1, .f32⟩
  | 1 => ⟨S4x200000, .f32⟩
  | 2 => ⟨S_, .f32⟩
  | 3 => ⟨S4x200000, .f32⟩
  | 4 => ⟨S4x200000, .i1⟩
  | 5 => ⟨S_, .f32⟩
  | 6 => ⟨S_, .f32⟩
  | 7 => ⟨S4x200000, .f32⟩
  | 8 => ⟨S4x200000, .f32⟩
  | 9 => ⟨S4x200000, .f32⟩
  | 10 => ⟨S_, .f32⟩
  | 11 => ⟨S4x200000, .f32⟩
  | 12 => ⟨S4x200000, .f32⟩
  | 13 => ⟨S_, .f32⟩
  | 14 => ⟨S4x200000, .f32⟩
  | 15 => ⟨S4x200000, .f32⟩
  | 16 => ⟨S4x200000, .f32⟩
  | 17 => ⟨S_, .f32⟩
  | 18 => ⟨S4x200000, .f32⟩
  | 19 => ⟨S4x200000, .f32⟩
  | 20 => ⟨S_, .f32⟩
  | 21 => ⟨S4x200000, .f32⟩
  | 22 => ⟨S4x200000, .f32⟩
  | 23 => ⟨S5, .i32⟩
  | 24 => ⟨S_, .i32⟩
  | 25 => ⟨S5, .i32⟩
  | 26 => ⟨S5, .i32⟩
  | 27 => ⟨S4x200000, .f32⟩
  | 28 => ⟨S4x200000, .i32⟩
  | 29 => ⟨S4x200000x1, .i32⟩
  | 30 => ⟨S1x1x5, .i32⟩
  | 31 => ⟨S4x200000x5, .i32⟩
  | 32 => ⟨S4x200000x5, .i32⟩
  | 33 => ⟨S4x200000x5, .i32⟩
  | 34 => ⟨S4x200000, .f32⟩
  | 35 => ⟨S4x200000, .i32⟩
  | 36 => ⟨S4x200000x1, .i32⟩
  | 37 => ⟨S1x1x5, .i32⟩
  | 38 => ⟨S4x200000x5, .i32⟩
  | 39 => ⟨S4x200000x5, .i32⟩
  | 40 => ⟨S4x200000x5, .i32⟩
  | 41 => ⟨S4x200000x5, .f32⟩
  | 42 => ⟨S4x200000x1, .f32⟩
  | 43 => ⟨S4x200000x5, .f32⟩
  | 44 => ⟨S4x200000x5, .f32⟩
  | 45 => ⟨S4x200000x5, .f32⟩
  | 46 => ⟨S4x200000x1, .f32⟩
  | 47 => ⟨S4x200000x5, .f32⟩
  | 48 => ⟨S4x200000x5, .f32⟩
  | 49 => ⟨S4x200000x5x1, .f32⟩
  | 50 => ⟨S4x200000x5x1, .f32⟩
  | 51 => ⟨S4x200000x1x5, .f32⟩
  | 52 => ⟨S4x200000x1x5, .f32⟩
  | 53 => ⟨S4x200000x5x5, .f32⟩
  | 54 => ⟨S4x200000x5x5, .f32⟩
  | 55 => ⟨S4x200000x5x5, .f32⟩
  | 56 => ⟨S4x200000x5x5, .f32⟩
  | 57 => ⟨S_, .f32⟩
  | 58 => ⟨S4x200000x5x5, .f32⟩
  | 59 => ⟨S4x200000x5x5, .f32⟩
  | 60 => ⟨S4x200000x5x5, .f32⟩
  | 61 => ⟨S_, .f32⟩
  | 62 => ⟨S4x200000x5x5, .f32⟩
  | 63 => ⟨S4x200000x5x5, .f32⟩
  | 64 => ⟨S4x200000x5x1, .i32⟩
  | 65 => ⟨S4x200000x5x5, .i32⟩
  | 66 => ⟨S4x200000x1x5, .i32⟩
  | 67 => ⟨S4x200000x5x5, .i32⟩
  | 68 => ⟨S_, .i32⟩
  | 69 => ⟨S4x200000x5x5, .i32⟩
  | 70 => ⟨S4x200000x5x5, .i1⟩
  | 71 => ⟨S_, .i32⟩
  | 72 => ⟨S4x200000x5x5, .i32⟩
  | 73 => ⟨S4x200000x5x5, .i1⟩
  | 74 => ⟨S4x200000x5x5, .i1⟩
  | 75 => ⟨S_, .i32⟩
  | 76 => ⟨S4x200000x5x5, .i32⟩
  | 77 => ⟨S4x200000x5x5, .i1⟩
  | 78 => ⟨S4x200000x5x5, .i1⟩
  | 79 => ⟨S_, .i32⟩
  | 80 => ⟨S4x200000x5x5, .i32⟩
  | 81 => ⟨S4x200000x5x5, .i1⟩
  | 82 => ⟨S4x200000x5x5, .i1⟩
  | 83 => ⟨S_, .i32⟩
  | 84 => ⟨S_, .i32⟩
  | 85 => ⟨S_, .i32⟩
  | 86 => ⟨S4x200000x5x5, .i32⟩
  | 87 => ⟨S4x200000x5x5, .i32⟩
  | 88 => ⟨S_, .i32⟩
  | 89 => ⟨S4x200000x5x5, .i32⟩
  | 90 => ⟨S4x200000x5x5, .i32⟩
  | 91 => ⟨S_, .i32⟩
  | 92 => ⟨S_, .i32⟩
  | 93 => ⟨S_, .i32⟩
  | 94 => ⟨S4x200000x5x5, .i32⟩
  | 95 => ⟨S4x200000x5x5, .i32⟩
  | 96 => ⟨S_, .i32⟩
  | 97 => ⟨S4x200000x5x5, .i32⟩
  | 98 => ⟨S4x200000x5x5, .i32⟩
  | 99 => ⟨S4, .i32⟩
  | 100 => ⟨S4x1x1x1, .i32⟩
  | 101 => ⟨S_, .i32⟩
  | 102 => ⟨S4x1x1x1, .i32⟩
  | 103 => ⟨S4x1x1x1, .i1⟩
  | 104 => ⟨S_, .i32⟩
  | 105 => ⟨S4x1x1x1, .i32⟩
  | 106 => ⟨S4x1x1x1, .i32⟩
  | 107 => ⟨S4x1x1x1, .i32⟩
  | 108 => ⟨S_, .i32⟩
  | 109 => ⟨S4x200000x5x5, .i32⟩
  | 110 => ⟨S4x200000x5x5, .i1⟩
  | 111 => ⟨S_, .i32⟩
  | 112 => ⟨S4x200000x5x5, .i32⟩
  | 113 => ⟨S4x200000x5x5, .i32⟩
  | 114 => ⟨S4x200000x5x5, .i32⟩
  | 115 => ⟨S_, .i32⟩
  | 116 => ⟨S4x200000x5x5, .i32⟩
  | 117 => ⟨S4x200000x5x5, .i1⟩
  | 118 => ⟨S_, .i32⟩
  | 119 => ⟨S4x200000x5x5, .i32⟩
  | 120 => ⟨S4x200000x5x5, .i32⟩
  | 121 => ⟨S4x200000x5x5, .i32⟩
  | 122 => ⟨S4x200000x5x5, .i32⟩
  | 123 => ⟨S4x200000x5x5x1, .i32⟩
  | 124 => ⟨S4x200000x5x5x1, .i32⟩
  | 125 => ⟨S4x200000x5x5x1, .i32⟩
  | 126 => ⟨S4x200000x5x5x3, .i32⟩
  | 127 => ⟨S4x200000x5x5, .f32⟩
  | _ => ⟨S4x200000x3, .f32⟩

abbrev hbmTy0_2 (i : Nat) : BufTy := match i % 128 with
  | 0 => ⟨S4x200000x1x1, .f32⟩
  | 1 => ⟨S_, .f32⟩
  | 2 => ⟨S4x200000x1x1, .f32⟩
  | 3 => ⟨S4x200000x1x1, .i1⟩
  | 4 => ⟨S4x200000x5x5, .i1⟩
  | 5 => ⟨S4x200000x5x5, .i1⟩
  | 6 => ⟨S4x200000x5x5, .f32⟩
  | 7 => ⟨S4x200000x5x5, .i1⟩
  | 8 => ⟨S4x200000x5x5, .i1⟩
  | 9 => ⟨S_, .f32⟩
  | 10 => ⟨S_, .f32⟩
  | 11 => ⟨S4x200000x5x5, .f32⟩
  | 12 => ⟨S4x200000x5x5, .f32⟩
  | 13 => ⟨S_, .f32⟩
  | 14 => ⟨S4x480x640, .f32⟩
  | 15 => ⟨S_, .i32⟩
  | 16 => ⟨S4x1x1x1, .i32⟩
  | 17 => ⟨S4x1x1x1, .i1⟩
  | 18 => ⟨S_, .i32⟩
  | 19 => ⟨S4x1x1x1, .i32⟩
  | 20 => ⟨S4x1x1x1, .i32⟩
  | 21 => ⟨S4x1x1x1, .i32⟩
  | 22 => ⟨S_, .i32⟩
  | 23 => ⟨S4x200000x5x5, .i32⟩
  | 24 => ⟨S4x200000x5x5, .i1⟩
  | 25 => ⟨S_, .i32⟩
  | 26 => ⟨S4x200000x5x5, .i32⟩
  | 27 => ⟨S4x200000x5x5, .i32⟩
  | 28 => ⟨S4x200000x5x5, .i32⟩
  | 29 => ⟨S_, .i32⟩
  | 30 => ⟨S4x200000x5x5, .i32⟩
  | 31 => ⟨S4x200000x5x5, .i1⟩
  | 32 => ⟨S_, .i32⟩
  | 33 => ⟨S4x200000x5x5, .i32⟩
  | 34 => ⟨S4x200000x5x5, .i32⟩
  | 35 => ⟨S4x200000x5x5, .i32⟩
  | 36 => ⟨S4x200000x5x5, .i32⟩
  | 37 => ⟨S4x200000x5x5x1, .i32⟩
  | 38 => ⟨S4x200000x5x5x1, .i32⟩
  | 39 => ⟨S4x200000x5x5x1, .i32⟩
  | 40 => ⟨S4x200000x5x5x3, .i32⟩
  | 41 => ⟨S4x480x640, .f32⟩
  | _ => ⟨S4x200000x3, .f32⟩

abbrev hbmTy (i : Nat) : BufTy := match i / 128 with
  | 0 => hbmTy0_0 i
  | 1 => hbmTy0_1 i
  | 2 => hbmTy0_2 i
  | _ => ⟨S4x200000x3, .f32⟩

abbrev bufTy : (tb : Table) → Fin (tcTables nBuf tb) → BufTy
  | .hbm, ⟨i, _⟩ => hbmTy i
  | _, _ => ⟨S4x200000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_1 : Ref sig .tc := ⟨.hbm, 35, rfl⟩
abbrev main_v29 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_4 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_6 : Ref sig .tc := ⟨.hbm, 52, rfl⟩
abbrev main_v41 : Ref sig .tc := ⟨.hbm, 53, rfl⟩
abbrev main_v42 : Ref sig .tc := ⟨.hbm, 54, rfl⟩
abbrev main_cst_7 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_8 : Ref sig .tc := ⟨.hbm, 59, rfl⟩
abbrev main_v46 : Ref sig .tc := ⟨.hbm, 60, rfl⟩
abbrev main_v47 : Ref sig .tc := ⟨.hbm, 61, rfl⟩
abbrev main_cst_9 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_10 : Ref sig .tc := ⟨.hbm, 66, rfl⟩
abbrev main_v51 : Ref sig .tc := ⟨.hbm, 67, rfl⟩
abbrev main_v52 : Ref sig .tc := ⟨.hbm, 68, rfl⟩
abbrev main_cst_11 : Ref sig .tc := ⟨.hbm, 69, rfl⟩
abbrev main_v53 : Ref sig .tc := ⟨.hbm, 70, rfl⟩
abbrev main_v54 : Ref sig .tc := ⟨.hbm, 71, rfl⟩
abbrev main_cst_12 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_13 : Ref sig .tc := ⟨.hbm, 76, rfl⟩
abbrev main_v58 : Ref sig .tc := ⟨.hbm, 77, rfl⟩
abbrev main_v59 : Ref sig .tc := ⟨.hbm, 78, rfl⟩
abbrev main_cst_14 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_15 : Ref sig .tc := ⟨.hbm, 83, rfl⟩
abbrev main_v63 : Ref sig .tc := ⟨.hbm, 84, rfl⟩
abbrev main_v64 : Ref sig .tc := ⟨.hbm, 85, rfl⟩
abbrev main_cst_16 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_17 : Ref sig .tc := ⟨.hbm, 90, rfl⟩
abbrev main_v68 : Ref sig .tc := ⟨.hbm, 91, rfl⟩
abbrev main_v69 : Ref sig .tc := ⟨.hbm, 92, rfl⟩
abbrev main_cst_18 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_19 : Ref sig .tc := ⟨.hbm, 97, rfl⟩
abbrev main_v73 : Ref sig .tc := ⟨.hbm, 98, rfl⟩
abbrev main_v74 : Ref sig .tc := ⟨.hbm, 99, rfl⟩
abbrev main_cst_20 : Ref sig .tc := ⟨.hbm, 100, rfl⟩
abbrev main_v75 : Ref sig .tc := ⟨.hbm, 101, rfl⟩
abbrev main_v76 : Ref sig .tc := ⟨.hbm, 102, rfl⟩
abbrev main_cst_21 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_cst_22 : Ref sig .tc := ⟨.hbm, 130, rfl⟩
abbrev main_v103 : Ref sig .tc := ⟨.hbm, 131, rfl⟩
abbrev main_v104 : Ref sig .tc := ⟨.hbm, 132, rfl⟩
abbrev main_cst_23 : Ref sig .tc := ⟨.hbm, 133, rfl⟩
abbrev main_call0_v0 : Ref sig .tc := ⟨.hbm, 134, rfl⟩
abbrev main_call0_v1 : Ref sig .tc := ⟨.hbm, 135, rfl⟩
abbrev main_v105 : Ref sig .tc := ⟨.hbm, 136, rfl⟩
abbrev main_v106 : Ref sig .tc := ⟨.hbm, 137, rfl⟩
abbrev main_cst_24 : Ref sig .tc := ⟨.hbm, 138, rfl⟩
abbrev main_v107 : Ref sig .tc := ⟨.hbm, 139, rfl⟩
abbrev main_v108 : Ref sig .tc := ⟨.hbm, 140, rfl⟩
abbrev main_cst_25 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_cst_26 : Ref sig .tc := ⟨.hbm, 145, rfl⟩
abbrev main_v112 : Ref sig .tc := ⟨.hbm, 146, rfl⟩
abbrev main_v113 : Ref sig .tc := ⟨.hbm, 147, rfl⟩
abbrev main_cst_27 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_c : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_cst_28 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_cst_29 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_c_30 : Ref sig .tc := ⟨.hbm, 196, rfl⟩
abbrev main_v158 : Ref sig .tc := ⟨.hbm, 197, rfl⟩
abbrev main_v159 : Ref sig .tc := ⟨.hbm, 198, rfl⟩
abbrev main_c_31 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_c_32 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_c_33 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_c_34 : Ref sig .tc := ⟨.hbm, 211, rfl⟩
abbrev main_c_35 : Ref sig .tc := ⟨.hbm, 212, rfl⟩
abbrev main_call1_v0 : Ref sig .tc := ⟨.hbm, 213, rfl⟩
abbrev main_call1_v1 : Ref sig .tc := ⟨.hbm, 214, rfl⟩
abbrev main_call1_v2 : Ref sig .tc := ⟨.hbm, 215, rfl⟩
abbrev main_call1_v3 : Ref sig .tc := ⟨.hbm, 216, rfl⟩
abbrev main_call1_v4 : Ref sig .tc := ⟨.hbm, 217, rfl⟩
abbrev main_v169 : Ref sig .tc := ⟨.hbm, 218, rfl⟩
abbrev main_c_36 : Ref sig .tc := ⟨.hbm, 219, rfl⟩
abbrev main_c_37 : Ref sig .tc := ⟨.hbm, 220, rfl⟩
abbrev main_call2_v0 : Ref sig .tc := ⟨.hbm, 221, rfl⟩
abbrev main_call2_v1 : Ref sig .tc := ⟨.hbm, 222, rfl⟩
abbrev main_call2_v2 : Ref sig .tc := ⟨.hbm, 223, rfl⟩
abbrev main_call2_v3 : Ref sig .tc := ⟨.hbm, 224, rfl⟩
abbrev main_call2_v4 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_c_38 : Ref sig .tc := ⟨.hbm, 229, rfl⟩
abbrev main_v173 : Ref sig .tc := ⟨.hbm, 230, rfl⟩
abbrev main_v174 : Ref sig .tc := ⟨.hbm, 231, rfl⟩
abbrev main_c_39 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_c_40 : Ref sig .tc := ⟨.hbm, 236, rfl⟩
abbrev main_v178 : Ref sig .tc := ⟨.hbm, 237, rfl⟩
abbrev main_v179 : Ref sig .tc := ⟨.hbm, 238, rfl⟩
abbrev main_c_41 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_c_42 : Ref sig .tc := ⟨.hbm, 243, rfl⟩
abbrev main_v183 : Ref sig .tc := ⟨.hbm, 244, rfl⟩
abbrev main_v184 : Ref sig .tc := ⟨.hbm, 245, rfl⟩
abbrev main_c_43 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_cst_44 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_cst_45 : Ref sig .tc := ⟨.hbm, 265, rfl⟩
abbrev main_call3_v0 : Ref sig .tc := ⟨.hbm, 266, rfl⟩
abbrev main_call3_v1 : Ref sig .tc := ⟨.hbm, 267, rfl⟩
abbrev main_v202 : Ref sig .tc := ⟨.hbm, 268, rfl⟩
abbrev main_cst_46 : Ref sig .tc := ⟨.hbm, 269, rfl⟩
abbrev main_v203 : Ref sig .tc := ⟨.hbm, 270, rfl⟩
abbrev main_c_47 : Ref sig .tc := ⟨.hbm, 271, rfl⟩
abbrev main_v204 : Ref sig .tc := ⟨.hbm, 272, rfl⟩
abbrev main_v205 : Ref sig .tc := ⟨.hbm, 273, rfl⟩
abbrev main_c_48 : Ref sig .tc := ⟨.hbm, 274, rfl⟩
abbrev main_v206 : Ref sig .tc := ⟨.hbm, 275, rfl⟩
abbrev main_v207 : Ref sig .tc := ⟨.hbm, 276, rfl⟩
abbrev main_v208 : Ref sig .tc := ⟨.hbm, 277, rfl⟩
abbrev main_c_49 : Ref sig .tc := ⟨.hbm, 278, rfl⟩
abbrev main_v209 : Ref sig .tc := ⟨.hbm, 279, rfl⟩
abbrev main_v210 : Ref sig .tc := ⟨.hbm, 280, rfl⟩
abbrev main_c_50 : Ref sig .tc := ⟨.hbm, 281, rfl⟩
abbrev main_v211 : Ref sig .tc := ⟨.hbm, 282, rfl⟩
abbrev main_v212 : Ref sig .tc := ⟨.hbm, 283, rfl⟩
abbrev main_v213 : Ref sig .tc := ⟨.hbm, 284, rfl⟩
abbrev main_c_51 : Ref sig .tc := ⟨.hbm, 285, rfl⟩
abbrev main_v214 : Ref sig .tc := ⟨.hbm, 286, rfl⟩
abbrev main_v215 : Ref sig .tc := ⟨.hbm, 287, rfl⟩
abbrev main_c_52 : Ref sig .tc := ⟨.hbm, 288, rfl⟩
abbrev main_v216 : Ref sig .tc := ⟨.hbm, 289, rfl⟩
abbrev main_v217 : Ref sig .tc := ⟨.hbm, 290, rfl⟩
abbrev main_v218 : Ref sig .tc := ⟨.hbm, 291, rfl⟩
abbrev main_v219 : Ref sig .tc := ⟨.hbm, 292, rfl⟩
abbrev main_v220 : Ref sig .tc := ⟨.hbm, 293, rfl⟩
abbrev main_v221 : Ref sig .tc := ⟨.hbm, 294, rfl⟩
abbrev main_v222 : Ref sig .tc := ⟨.hbm, 295, rfl⟩
abbrev main_v223 : Ref sig .tc := ⟨.hbm, 296, rfl⟩
abbrev main_v224 : Ref sig .tc := ⟨.hbm, 297, rfl⟩

abbrev nD : Nat := 1
abbrev τ : Topo := Topo.v7x

variable {F : FTy → Type} [FloatOps F]

class Facts₀ : Prop where
  bcast_S4x3_S4x1x3_0_2 : S4x3.BroadcastsInDim S4x1x3 (![0, 2] : Fin 2 → Fin S4x1x3.rank)
  bcast_S4x1x3_S4x200000x3_0_1_2 : S4x1x3.BroadcastsInDim S4x200000x3 (![0, 1, 2] : Fin 3 → Fin S4x200000x3.rank)
  reducesTo_S4x4_S4_d1 : S4x4.ReducesTo [1] S4
  h_S_ : 0 < S_.numel
  bcast_S4_S4x1_0 : S4.BroadcastsInDim S4x1 (![0] : Fin 1 → Fin S4x1.rank)
  bcast_S4x1_S4x4_0_1 : S4x1.BroadcastsInDim S4x4 (![0, 1] : Fin 2 → Fin S4x4.rank)
  bcast_S4_S1x4_1 : S4.BroadcastsInDim S1x4 (![1] : Fin 1 → Fin S1x4.rank)
  bcast_S1x4_S4x4_0_1 : S1x4.BroadcastsInDim S4x4 (![0, 1] : Fin 2 → Fin S4x4.rank)
  slices_S4x4_S4x1_0_0 : S4x4.Slices ![0, 0] S4x1
  shapeCasts_S4x1_S4 : S4x1.ShapeCasts S4
  slices_S4x4_S4x1_0_1 : S4x4.Slices ![0, 1] S4x1
  slices_S4x4_S4x1_0_2 : S4x4.Slices ![0, 2] S4x1
  slices_S4x4_S4x1_0_3 : S4x4.Slices ![0, 3] S4x1
  bcast_S_S4 : S_.BroadcastsInDim S4 (![] : Fin 0 → Fin S4.rank)
  concatenates_S4x1_S4x1_S4x1_S4x3_d1 : Shape.Concatenates [S4x1, S4x1, S4x1] S4x3 1
  concatenates_S4x1x3_S4x1x3_S4x1x3_S4x3x3_d1 : Shape.Concatenates [S4x1x3, S4x1x3, S4x1x3] S4x3x3 1
  slices_S4x200000x3_S4x200000x1_0_0_0 : S4x200000x3.Slices ![0, 0, 0] S4x200000x1
  shapeCasts_S4x200000x1_S4x200000 : S4x200000x1.ShapeCasts S4x200000
  slices_S4x200000x3_S4x200000x1_0_0_1 : S4x200000x3.Slices ![0, 0, 1] S4x200000x1
  slices_S4x200000x3_S4x200000x1_0_0_2 : S4x200000x3.Slices ![0, 0, 2] S4x200000x1
  bcast_S_S4x200000 : S_.BroadcastsInDim S4x200000 (![] : Fin 0 → Fin S4x200000.rank)
  bcast_S_S5 : S_.BroadcastsInDim S5 (![] : Fin 0 → Fin S5.rank)
  bcast_S4x200000_S4x200000x1_0_1 : S4x200000.BroadcastsInDim S4x200000x1 (![0, 1] : Fin 2 → Fin S4x200000x1.rank)
  bcast_S5_S1x1x5_2 : S5.BroadcastsInDim S1x1x5 (![2] : Fin 1 → Fin S1x1x5.rank)
  bcast_S4x200000x1_S4x200000x5_0_1_2 : S4x200000x1.BroadcastsInDim S4x200000x5 (![0, 1, 2] : Fin 3 → Fin S4x200000x5.rank)
  bcast_S1x1x5_S4x200000x5_0_1_2 : S1x1x5.BroadcastsInDim S4x200000x5 (![0, 1, 2] : Fin 3 → Fin S4x200000x5.rank)
  bcast_S4x200000x5_S4x200000x5x1_0_1_2 : S4x200000x5.BroadcastsInDim S4x200000x5x1 (![0, 1, 2] : Fin 3 → Fin S4x200000x5x1.rank)
  bcast_S4x200000x5_S4x200000x1x5_0_1_3 : S4x200000x5.BroadcastsInDim S4x200000x1x5 (![0, 1, 3] : Fin 3 → Fin S4x200000x1x5.rank)
  bcast_S4x200000x5x1_S4x200000x5x5_0_1_2_3 : S4x200000x5x1.BroadcastsInDim S4x200000x5x5 (![0, 1, 2, 3] : Fin 4 → Fin S4x200000x5x5.rank)
  bcast_S4x200000x1x5_S4x200000x5x5_0_1_2_3 : S4x200000x1x5.BroadcastsInDim S4x200000x5x5 (![0, 1, 2, 3] : Fin 4 → Fin S4x200000x5x5.rank)
  bcast_S_S4x200000x5x5 : S_.BroadcastsInDim S4x200000x5x5 (![] : Fin 0 → Fin S4x200000x5x5.rank)
  bcast_S4_S4x1x1x1_0 : S4.BroadcastsInDim S4x1x1x1 (![0] : Fin 1 → Fin S4x1x1x1.rank)
  bcast_S_S4x1x1x1 : S_.BroadcastsInDim S4x1x1x1 (![] : Fin 0 → Fin S4x1x1x1.rank)
  bcast_S4x1x1x1_S4x200000x5x5_0_1_2_3 : S4x1x1x1.BroadcastsInDim S4x200000x5x5 (![0, 1, 2, 3] : Fin 4 → Fin S4x200000x5x5.rank)
  bcast_S4x200000x5x5_S4x200000x5x5x1_0_1_2_3 : S4x200000x5x5.BroadcastsInDim S4x200000x5x5x1 (![0, 1, 2, 3] : Fin 4 → Fin S4x200000x5x5x1.rank)
  concatenates_S4x200000x5x5x1_S4x200000x5x5x1_S4x200000x5x5x1_S4x200000x5x5x3_d4 : Shape.Concatenates [S4x200000x5x5x1, S4x200000x5x5x1, S4x200000x5x5x1] S4x200000x5x5x3 4
  bcast_S4x200000_S4x200000x1x1_0_1 : S4x200000.BroadcastsInDim S4x200000x1x1 (![0, 1] : Fin 2 → Fin S4x200000x1x1.rank)
  bcast_S_S4x200000x1x1 : S_.BroadcastsInDim S4x200000x1x1 (![] : Fin 0 → Fin S4x200000x1x1.rank)
  bcast_S4x200000x1x1_S4x200000x5x5_0_1_2_3 : S4x200000x1x1.BroadcastsInDim S4x200000x5x5 (![0, 1, 2, 3] : Fin 4 → Fin S4x200000x5x5.rank)
  bcast_S_S4x480x640 : S_.BroadcastsInDim S4x480x640 (![] : Fin 0 → Fin S4x480x640.rank)
  dot_S4x200000x3_S4x3x3_S4x200000x3_2_1_1_2_0_0_wf : DotDims.WF S4x200000x3 S4x3x3 S4x200000x3 [2] [1] [1] [2] [0] [0]
  gather_S4x480x640_S4x200000x5x5x3_S4x200000x5x5_n_012_n_n_012_4_111_wf : GatherDims.WF S4x480x640 S4x200000x5x5x3 S4x200000x5x5 [] [0, 1, 2] [] [0, 1, 2] [] 4 ![1, 1, 1]
  scatter_S4x480x640_S4x200000x5x5x3_S4x200000x5x5_n_012_012_4_wf : ScatterDims.WF S4x480x640 S4x200000x5x5x3 S4x200000x5x5 [] [0, 1, 2] [0, 1, 2] 4

variable [Facts₀]

def dot_S4x200000x3_S4x3x3_S4x200000x3_2_1_1_2_0_0 : DotDims S4x200000x3 S4x3x3 S4x200000x3 where
  lhsContracting := [2]
  rhsContracting := [1]
  lhsNonContracting := [1]
  rhsNonContracting := [2]
  lhsBatch := [0]
  rhsBatch := [0]
  wf := dot_S4x200000x3_S4x3x3_S4x200000x3_2_1_1_2_0_0_wf
def gather_S4x480x640_S4x200000x5x5x3_S4x200000x5x5_n_012_n_n_012_4_111 : GatherDims S4x480x640 S4x200000x5x5x3 S4x200000x5x5 where
  offsetDims := []
  collapsedSliceDims := [0, 1, 2]
  operandBatchingDims := []
  startIndicesBatchingDims := []
  startIndexMap := [0, 1, 2]
  indexVectorDim := 4
  sliceSizes := ![1, 1, 1]
  wf := gather_S4x480x640_S4x200000x5x5x3_S4x200000x5x5_n_012_n_n_012_4_111_wf
def scatter_S4x480x640_S4x200000x5x5x3_S4x200000x5x5_n_012_012_4 : ScatterDims S4x480x640 S4x200000x5x5x3 S4x200000x5x5 where
  updateWindowDims := []
  insertedWindowDims := [0, 1, 2]
  scatterDimsToOperandDims := [0, 1, 2]
  indexVectorDim := 4
  wf := scatter_S4x480x640_S4x200000x5x5x3_S4x200000x5x5_n_012_012_4_wf

class Facts : Prop extends Facts₀ where

variable [Facts]
-- ==== Proof.KB.Kit.lean ====
/-
  The kernel side of the frame of `Cert.Kernel`, first half: what its one region finds and what its body's two
  conditionals say, stated once for any float instance `F`.

  * @main is 117 host operations followed by the region. `V` is each TensorCore buffer after those operations;
    `hmain` is @main up to the region in the form the launch theorem takes; `V_main_arg0 … V_main_arg3` say
    that no host operation has an argument array as its result, so the region finds the four as launched.
  * `iblk` is a window's block at a grid point, read off `V`; `before0_0_of … before0_3_of`: an input
    window's current staging buffer holds that block at every point — also at the points of a batch after its first,
    where windows 1, 2 and 3 are not fetched again because their block index has not moved.
  * `frame_of`: from a run that ends in the library's frame post, the four argument arrays end as launched
    (arrays 0 and 3 are staged by windows 0 and 3; arrays 1 and 2 are staged by no window — the windows stage
    arrays the host operations computed from them — and are among the buffers the region passes by).
  * The grid is 4 batches by 200 chunks, `t = 200 · batch + chunk`. The body's first conditional (`cond0_0`) holds
    exactly at chunk 0, its second (`cond0_1`) exactly at the other chunks; so the output window is stored into
    at every point (`live0_4`).
-/
import proofs.«147334_j72576357367816_1_alg».proof.Proof.Gen.Kernel.Launch
import proofs.«147334_j72576357367816_1_alg».proof.Proof.Gen.Kernel.Skeleton
import proofs.«147334_j72576357367816_1_alg».proof.Proof.Gen.Kernel.Points
import proofs.«147334_j72576357367816_1_alg».proof.Proof.Gen.Kernel.Loops
import Idealize.ShloMosaic.Lib.Pipeline.FrameBody
import Idealize.ShloMosaic.Lib.Ring
import Idealize.ShloMosaic.Lib.Tactic

-- the host prefix is a list of 117 operations: walking it recurses once per operation
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s TensorCore buffer `b` holds when the region is entered: the launch contents run through the
    host operations that come before the region. -/
abbrev V (c : Dev nD) (b : Ref sig .tc) : Buf (Elt F) ((c : Thread nD τ).loc b) :=
  StableHlo.after hostOps0 (fun b => m (c, b)) b

/-- None of the host operations allocates a buffer. -/
theorem hostOps0_fresh : (hostOps0 : List (HloOp τ sig (Elt F))).Forall fun op => op.fresh = ∅ := by
  simp only [List.Forall]
  repeat' constructor

/-- @main is its host operations and then the region, so it meets the launch theorem's hypothesis on @main with
    the region-entry contents `V`. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Closes `hostOps0.Forall fun op => b ∉ op.writes` for an argument array `b`: every host operation writes exactly
    its one result, and each result is a reference other than `b` (references are compared by decision). -/
local macro "result_of_none" : tactic => `(tactic| (
  simp only [hostOps0, List.Forall, StableHlo.nullary_writes, StableHlo.unary_writes, StableHlo.binary_writes,
    StableHlo.reshape_writes, StableHlo.nary_writes, Finset.mem_singleton]
  repeat' apply And.intro
  all_goals exact StableHlo.devRef_ne_of_ne (by decide)))

/-- The particle positions are the result of no host operation. -/
theorem V_main_arg0 (c : Dev nD) : V m c main_arg0 = m ((c : Thread nD τ).loc main_arg0) :=
  StableHlo.after_of_forall_not_mem (b := Proc.devRef .tc main_arg0) _ _
    (List.forall_iff_forall_mem.mp (by result_of_none))

/-- The camera positions are the result of no host operation (the region reads a reshaped copy). -/
theorem V_main_arg1 (c : Dev nD) : V m c main_arg1 = m ((c : Thread nD τ).loc main_arg1) :=
  StableHlo.after_of_forall_not_mem (b := Proc.devRef .tc main_arg1) _ _
    (List.forall_iff_forall_mem.mp (by result_of_none))

/-- The camera quaternions are the result of no host operation (the region reads the rotation matrices made of them). -/
theorem V_main_arg2 (c : Dev nD) : V m c main_arg2 = m ((c : Thread nD τ).loc main_arg2) :=
  StableHlo.after_of_forall_not_mem (b := Proc.devRef .tc main_arg2) _ _
    (List.forall_iff_forall_mem.mp (by result_of_none))

/-- The depth images are the result of no host operation. -/
theorem V_main_arg3 (c : Dev nD) : V m c main_arg3 = m ((c : Thread nD τ).loc main_arg3) :=
  StableHlo.after_of_forall_not_mem (b := Proc.devRef .tc main_arg3) _ _
    (List.forall_iff_forall_mem.mp (by result_of_none))

/-! ## The windows' blocks -/

/-- Window `w`'s block at grid point `t`, read off the window's array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The chunk of 1000 particle positions: fetched at every point; whatever proof data has `V`'s array and a body that
    leaves the block in place finds the block in the window's current staging buffer. -/
theorem before0_0_of {c : Dev nD} (dat : Dat τ (Elt F) Unit ℕ (UR sig nD τ) ℕ cfg0 c)
    (hA : dat.A 0 = V m c (Pipeline.arrRef spec0 0)) (hafter : ∀ t, dat.after 0 t = iblk m c 0 t)
    (t : Fin cfg0.N) (d) : dat.before 0 t d = iblk m c 0 t := by
  have hkeep : ∀ t, (cfg0.win 0).cut (cfg0.grid.coords t) (dat.after 0 t) = dat.blockOf 0 t := fun t => by
    rw [hafter]; unfold Dat.blockOf iblk; rw [hA]; try rfl
  rw [dat.before_in_eq_fetched 0 rfl (fun _ => rfl) (fun _ _ _ => rfl) hkeep t d]
  unfold Dat.fetched Dat.blockOf iblk; rw [hA]; try rfl

/-- The batch's camera position: fetched at the batch's first chunk only; at its other chunks the block index is the
    one of the chunk before, and the buffer still holds the block. -/
theorem before0_1_of {c : Dev nD} (dat : Dat τ (Elt F) Unit ℕ (UR sig nD τ) ℕ cfg0 c)
    (hA : dat.A 1 = V m c (Pipeline.arrRef spec0 1)) (hafter : ∀ t, dat.after 1 t = iblk m c 1 t)
    (t : Fin cfg0.N) (d) : dat.before 1 t d = iblk m c 1 t := by
  have hkeep : ∀ t, (cfg0.win 1).cut (cfg0.grid.coords t) (dat.after 1 t) = dat.blockOf 1 t := fun t => by
    rw [hafter]; unfold Dat.blockOf iblk; rw [hA]; try rfl
  rw [dat.before_in_eq_fetched 1 rfl (fun _ => rfl) (fun _ _ _ => rfl) hkeep t d]
  unfold Dat.fetched Dat.blockOf iblk; rw [hA]; try rfl

/-- The batch's rotation matrix: as the camera position. -/
theorem before0_2_of {c : Dev nD} (dat : Dat τ (Elt F) Unit ℕ (UR sig nD τ) ℕ cfg0 c)
    (hA : dat.A 2 = V m c (Pipeline.arrRef spec0 2)) (hafter : ∀ t, dat.after 2 t = iblk m c 2 t)
    (t : Fin cfg0.N) (d) : dat.before 2 t d = iblk m c 2 t := by
  have hkeep : ∀ t, (cfg0.win 2).cut (cfg0.grid.coords t) (dat.after 2 t) = dat.blockOf 2 t := fun t => by
    rw [hafter]; unfold Dat.blockOf iblk; rw [hA]; try rfl
  rw [dat.before_in_eq_fetched 2 rfl (fun _ => rfl) (fun _ _ _ => rfl) hkeep t d]
  unfold Dat.fetched Dat.blockOf iblk; rw [hA]; try rfl

/-- The batch's depth image: as the camera position. -/
theorem before0_3_of {c : Dev nD} (dat : Dat τ (Elt F) Unit ℕ (UR sig nD τ) ℕ cfg0 c)
    (hA : dat.A 3 = V m c (Pipeline.arrRef spec0 3)) (hafter : ∀ t, dat.after 3 t = iblk m c 3 t)
    (t : Fin cfg0.N) (d) : dat.before 3 t d = iblk m c 3 t := by
  have hkeep : ∀ t, (cfg0.win 3).cut (cfg0.grid.coords t) (dat.after 3 t) = dat.blockOf 3 t := fun t => by
    rw [hafter]; unfold Dat.blockOf iblk; rw [hA]; try rfl
  rw [dat.before_in_eq_fetched 3 rfl (fun _ => rfl) (fun _ _ _ => rfl) hkeep t d]
  unfold Dat.fetched Dat.blockOf iblk; rw [hA]; try rfl

/-! ## The argument arrays at the end of a frame run -/

/-- A run of @main that ends in the library's frame post, for proof data whose arrays are the region-entry contents,
    ends with the four argument arrays as launched. Arrays 0 and 3 are input windows' arrays: the library keeps an
    input's array at its entry contents. Arrays 1 and 2 are unscoped and no window's array: the post's second clause
    keeps them at `V`. Each is then as launched by `V_main_arg0 … V_main_arg3`. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats 0 c).arrAt_in 0 rfl _).trans ((hA c 0).trans (V_main_arg0 m c))),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).1 3).trans (((dats 0 c).arrAt_in 3 rfl _).trans ((hA c 3).trans (V_main_arg3 m c)))⟩) h

/-! ## The body's two conditionals over the grid -/

/-- The body's first conditional: the chunk coordinate is 0 (the output block is set). -/
abbrev cond0_0 (i : grid0.Coords) : Prop := k0_cond1 i = 1#1
/-- The body's second conditional: the chunk coordinate is not 0 (the output block is added to). -/
abbrev cond0_1 (i : grid0.Coords) : Prop := k0_cond2 i = 1#1

/-- The first conditional holds exactly at the first chunk of a batch — decided over the 800 points. -/
theorem hcond0_0 : ∀ t : Fin cfg0.N, cond0_0 (grid0.coords t) ↔ t.val % 200 = 0 :=
  (by decide +kernel : ∀ t : Fin grid0.N, cond0_0 (grid0.coords t) ↔ t.val % 200 = 0)
/-- The second holds exactly at the other chunks. -/
theorem hcond0_1 : ∀ t : Fin cfg0.N, cond0_1 (grid0.coords t) ↔ ¬ t.val % 200 = 0 :=
  (by decide +kernel : ∀ t : Fin grid0.N, cond0_1 (grid0.coords t) ↔ ¬ t.val % 200 = 0)

/-- At every coordinate one of the two conditionals holds (both read the chunk coordinate alone: decided over its
    200 values), so the body stores into the output window at every point: the window is idle nowhere. -/
theorem live0_4 : ∀ i : grid0.Coords, cfg0.idle 4 i = false := fun i =>
  (by decide +kernel : ∀ j : Fin 200,
    (!(Scalar.cmpi .ne (Scalar.extui (Scalar.cmpi .eq (BitVec.ofNat 32 j.val) 0#32)) 0#32 == 1#1)
      && !(Scalar.cmpi .ne (Scalar.extui (Scalar.cmpi .ne (BitVec.ofNat 32 j.val) 0#32)) 0#32 == 1#1)) = false) (i 1)

/-! ## The staging memrefs the body is called with -/

/-- One staging buffer of the output window, through which the window's contents are stated (which of the two does
    not matter: a whole buffer's contents are read back the same through either). -/
abbrev VO0_4 : View sig .tc .vmem S1x480x640 .f32 := (Memref.whole cc0_stg4_0 : Memref sig .tc .vmem S1x480x640 .f32).view

/-- Each window's current staging memref at point `t`, spelled as the pipeline passes it to the body, and that it is a
    whole buffer. -/
abbrev ms0_0 (t : Fin cfg0.N) : Memref sig .tc .vmem S1x1000x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3x3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x480x640 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x480x640 .f32 := win0_4.stage (cfg0.slots t 4)
abbrev hs0_4 (t : Fin cfg0.N) : (ms0_4 t).IsWhole := hstage0_4 ((cfg0.slots t 4).cast nbuf0_4)

end Cert.Kernel.Hand

end
-- ==== Proof.KB.LoopInv.lean ====
/-
  The footprint loop of the splat kernel's body as a pure recursion. The loop's region neither loads nor stores: a
  trip computes, from the values the body loaded before the loop, the trip's row and column indices, two one-hot
  matrices and their scatter product, and adds that product to the block it carries. So the region at a trip is the
  return of a pure function (`trip0`, `k0_t1_body_eq`), the block carried into trip `k` is that function applied
  `k` times to the initial block (`accTo`), and the loop's invariant holds no memory at all: it says only that the
  carried block is `accTo … k` (`loopInv_k0_t1`).
-/
import proofs.«147334_j72576357367816_1_alg».proof.Proof.KB.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- ONE TRIP of the footprint loop as a pure function of the trip `k` and the carried block `acc`: the trip's
    row and column indices and its validity mask (the three results of the first part), the one-hot column matrix
    and the masked, weighted one-hot row matrix (the two results of the second part), and the carried block plus
    their scatter product (the yield). Nothing is loaded or stored inside the loop, so this is all a trip does. -/
def trip0 (v5 : FVec F S3x3 .f32) (v7 : FVec F S480x640 .f32) (v13 : FVec F S1000 .f32) (v19 : FVec F S1000 .f32) (v25 : FVec F S1000 .f32) (v39 : FVec F S1000 .f32) (v43 : FVec F S1000 .f32) (v45 : F .f32) (v86 : IVec S1000x480 32) (v87 : IVec S1000x640 32) (k : Fin k0_t1_loop.trips) (acc : FVec F S480x640 .f32) : FVec F S480x640 .f32 :=
  k0_pay25 acc (k0_pay6 (F := F) v87 (k0_pay4 (k0_pay22 v5 v13 v19 v25 v39) 0#32 1#32 k))
    (k0_pay7 v7 (k0_pay18 v5 v13 v19 v25) (k0_pay20 v5 v13 v19 v25 v39) (k0_pay21 v5 v13 v19 v25 v43 v45) v86 v87
      (k0_pay3 (k0_pay23 v5 v13 v19 v25 v43 v45) 0#32 1#32 k) (k0_pay4 (k0_pay22 v5 v13 v19 v25 v39) 0#32 1#32 k)
      (k0_pay5 (k0_pay22 v5 v13 v19 v25 v39) (k0_pay23 v5 v13 v19 v25 v43 v45) 0#32 1#32 k))

/-- The loop's region at trip `k` from `acc` is the RETURN of `trip0`: its two parts are their skeletons, each the
    return of its payloads, and the yield is the last payload of them. -/
theorem k0_t1_body_eq (i : grid0.Coords) (arg2 : Memref sig .tc .vmem S1x1000x3 .f32) (harg2 : arg2.IsWhole) (arg3 : Memref sig .tc .vmem S1x1x3 .f32) (harg3 : arg3.IsWhole) (arg4 : Memref sig .tc .vmem S1x3x3 .f32) (harg4 : arg4.IsWhole) (arg5 : Memref sig .tc .vmem S1x480x640 .f32) (harg5 : arg5.IsWhole) (arg6 : Memref sig .tc .vmem S1x480x640 .f32) (harg6 : arg6.IsWhole) (arg1 : BitVec 32) (v5 : FVec F S3x3 .f32) (v7 : FVec F S480x640 .f32) (v13 : FVec F S1000 .f32) (v19 : FVec F S1000 .f32) (v25 : FVec F S1000 .f32) (v39 : FVec F S1000 .f32) (v43 : FVec F S1000 .f32) (v45 : F .f32) (v86 : IVec S1000x480 32) (v87 : IVec S1000x640 32) (k : Fin k0_t1_loop.trips) (acc : FVec F S480x640 .f32) :
    k0_t1_body i arg2 harg2 arg3 harg3 arg4 harg4 arg5 harg5 arg6 harg6 arg1 v5 v7 v13 v19 v25 v39 v43 v45 v86 v87 k acc = .ret (trip0 v5 v7 v13 v19 v25 v39 v43 v45 v86 v87 k acc) := by
  unfold k0_t1_body
  simp only [k0_part1_eq_skeleton, k0_part2_eq_skeleton]
  unfold k0_part1_skel k0_part2_skel trip0
  rfl

/-- The block carried INTO trip `k`: the trips before `k` applied in order to the initial block (past the trip
    count it stays what the last trip left). -/
def accTo (v5 : FVec F S3x3 .f32) (v7 : FVec F S480x640 .f32) (v13 : FVec F S1000 .f32) (v19 : FVec F S1000 .f32) (v25 : FVec F S1000 .f32) (v39 : FVec F S1000 .f32) (v43 : FVec F S1000 .f32) (v45 : F .f32) (v86 : IVec S1000x480 32) (v87 : IVec S1000x640 32) (init : FVec F S480x640 .f32) : ℕ → FVec F S480x640 .f32
  | 0 => init
  | k + 1 => if h : k < k0_t1_loop.trips then trip0 v5 v7 v13 v19 v25 v39 v43 v45 v86 v87 ⟨k, h⟩ (accTo v5 v7 v13 v19 v25 v39 v43 v45 v86 v87 init k) else accTo v5 v7 v13 v19 v25 v39 v43 v45 v86 v87 init k

theorem accTo_zero (v5 : FVec F S3x3 .f32) (v7 : FVec F S480x640 .f32) (v13 : FVec F S1000 .f32) (v19 : FVec F S1000 .f32) (v25 : FVec F S1000 .f32) (v39 : FVec F S1000 .f32) (v43 : FVec F S1000 .f32) (v45 : F .f32) (v86 : IVec S1000x480 32) (v87 : IVec S1000x640 32) (init : FVec F S480x640 .f32) : accTo v5 v7 v13 v19 v25 v39 v43 v45 v86 v87 init 0 = init := rfl

theorem accTo_succ (v5 : FVec F S3x3 .f32) (v7 : FVec F S480x640 .f32) (v13 : FVec F S1000 .f32) (v19 : FVec F S1000 .f32) (v25 : FVec F S1000 .f32) (v39 : FVec F S1000 .f32) (v43 : FVec F S1000 .f32) (v45 : F .f32) (v86 : IVec S1000x480 32) (v87 : IVec S1000x640 32) (init : FVec F S480x640 .f32) (k : Fin k0_t1_loop.trips) :
    accTo v5 v7 v13 v19 v25 v39 v43 v45 v86 v87 init (k.val + 1) = trip0 v5 v7 v13 v19 v25 v39 v43 v45 v86 v87 k (accTo v5 v7 v13 v19 v25 v39 v43 v45 v86 v87 init k.val) := by
  rw [accTo]; exact dif_pos k.isLt

set_option warn.classDefReducibility false in
/-- The footprint loop's invariant: it holds no memory (the region neither loads nor stores); before trip `k` the
    carried block is `accTo … init k`. One trip is the return of `trip0` (`k0_t1_body_eq`). -/
@[sl_loop] noncomputable def loopInv_k0_t1 (c : Dev nD) (E : Set ℕ) (i : grid0.Coords) (arg2 : Memref sig .tc .vmem S1x1000x3 .f32) (harg2 : arg2.IsWhole) (arg3 : Memref sig .tc .vmem S1x1x3 .f32) (harg3 : arg3.IsWhole) (arg4 : Memref sig .tc .vmem S1x3x3 .f32) (harg4 : arg4.IsWhole) (arg5 : Memref sig .tc .vmem S1x480x640 .f32) (harg5 : arg5.IsWhole) (arg6 : Memref sig .tc .vmem S1x480x640 .f32) (harg6 : arg6.IsWhole) (arg1 : BitVec 32) (v5 : FVec F S3x3 .f32) (v7 : FVec F S480x640 .f32) (v13 : FVec F S1000 .f32) (v19 : FVec F S1000 .f32) (v25 : FVec F S1000 .f32) (v39 : FVec F S1000 .f32) (v43 : FVec F S1000 .f32) (v45 : F .f32) (v86 : IVec S1000x480 32) (v87 : IVec S1000x640 32) (init : FVec F S480x640 .f32) :
    LoopInvTy_k0_t1 (F := F) Unit ℕ (UR sig nD τ) ℕ Variants.none c none E i arg2 harg2 arg3 harg3 arg4 harg4 arg5 harg5 arg6 harg6 arg1 v5 v7 v13 v19 v25 v39 v43 v45 v86 v87 init where
  inv := fun k acc => iprop(⌜acc = accTo v5 v7 v13 v19 v25 v39 v43 v45 v86 v87 init k⌝)
  step := fun k acc => by
    rw [k0_t1_body_eq]
    iintro %h
    subst h
    sl_step
    ipureintro
    exact (accTo_succ v5 v7 v13 v19 v25 v39 v43 v45 v86 v87 init k).symm

end Cert.Kernel.Hand

end
-- ==== Proof.KB.RunA.lean ====
/-
  The splat kernel's whole body run at the FIRST chunk of a batch (the first conditional taken, the second not): on
  whole staging memrefs — the four inputs at their contents, the output block at anything — the body loads the inputs,
  goes through the footprint loop by its invariant (the carried block is `accTo … k`), and stores the accumulated block
  over the output. What the output block ends with is a list of written pieces that the run itself finds; the
  definition packs that list with the proof that the body runs to any continuation holding the inputs as they were
  and the output block with those pieces written.
-/
import proofs.«147334_j72576357367816_1_alg».proof.Proof.KB.LoopInv

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the proof term of the run is large: a larger heartbeat budget for this one definition
set_option maxHeartbeats 1000000 in
/-- What the body's stores leave in the output block, as pieces (last first), AT THE FIRST CHUNK (`cond0_0` holds,
    `cond0_1` does not), with the proof that the body runs from the inputs' contents and any output contents to the
    continuation: each conditional is decided by the case's hypotheses, the loop by `loopInv_k0_t1`. -/
noncomputable def kernelRun0_A (c : Dev nD) (i : grid0.Coords) (arg2 : Memref sig .tc .vmem S1x1000x3 .f32) (harg2 : arg2.IsWhole) (arg3 : Memref sig .tc .vmem S1x1x3 .f32) (harg3 : arg3.IsWhole)
    (arg4 : Memref sig .tc .vmem S1x3x3 .f32) (harg4 : arg4.IsWhole) (arg5 : Memref sig .tc .vmem S1x480x640 .f32) (harg5 : arg5.IsWhole) (arg6 : Memref sig .tc .vmem S1x480x640 .f32) (harg6 : arg6.IsWhole)
    (hc0 : cond0_0 i) (hc1 : ¬cond0_1 i) (x0 : Vec F S1x1000x3 .f32) (x1 : Vec F S1x1x3 .f32) (x2 : Vec F S1x3x3 .f32) (x3 : Vec F S1x480x640 .f32) :
    { L4 : List (View.Piece (Elt F) S1x480x640 .f32) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3
               ∗ (∃ f, arg6.view.loc (c : Thread nD τ) ↦[arg6.view.set]{fullShare} arg6.view.writes (Elt F) f L4)) -∗ K ⟨⟩))
        ⊢ wp frame (wpE (defs₀ (F := F)) Variants.none c none) E (cc0__splat_kernel i arg2 harg2 arg3 harg3 arg4 harg4 arg5 harg5 arg6 harg6) K } := by
  refine ⟨?_, fun E K => ?run⟩
  case run =>
    simp only [cc0__splat_kernel_eq_skeleton]; unfold cc0__splat_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Hand

end
-- ==== Proof.KB.RunB.lean ====
/-
  The splat kernel's whole body run at a LATER chunk of a batch (the first conditional not taken, the second taken):
  on whole staging memrefs — the four inputs at their contents, the output block at its running contents — the body
  loads the inputs, goes through the footprint loop by its invariant, loads the output block, adds the accumulated
  block to it and stores the sum over the output. What the output block ends with is a list of written pieces that
  the run itself finds; the definition packs that list with the proof that the body runs to any continuation holding
  the inputs as they were and the output block with those pieces written.
-/
import proofs.«147334_j72576357367816_1_alg».proof.Proof.KB.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the proof term of the run is large: a larger heartbeat budget for this one definition
set_option maxHeartbeats 1000000 in
/-- What the body's stores leave in the output block, as pieces (last first), AT A LATER CHUNK (`cond0_0` does not
    hold, `cond0_1` does), with the proof that the body runs from the inputs' contents and the output's running
    contents `xo4` to the continuation: each conditional is decided by the case's hypotheses, the loop by
    `loopInv_k0_t1`. -/
noncomputable def kernelRun0_B (c : Dev nD) (i : grid0.Coords) (arg2 : Memref sig .tc .vmem S1x1000x3 .f32) (harg2 : arg2.IsWhole) (arg3 : Memref sig .tc .vmem S1x1x3 .f32) (harg3 : arg3.IsWhole)
    (arg4 : Memref sig .tc .vmem S1x3x3 .f32) (harg4 : arg4.IsWhole) (arg5 : Memref sig .tc .vmem S1x480x640 .f32) (harg5 : arg5.IsWhole) (arg6 : Memref sig .tc .vmem S1x480x640 .f32) (harg6 : arg6.IsWhole)
    (hc0 : ¬cond0_0 i) (hc1 : cond0_1 i) (x0 : Vec F S1x1000x3 .f32) (x1 : Vec F S1x1x3 .f32) (x2 : Vec F S1x3x3 .f32) (x3 : Vec F S1x480x640 .f32) (xo4 : Vec F S1x480x640 .f32) :
    { L4 : List (View.Piece (Elt F) S1x480x640 .f32) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
          ∗ (iprop(owns (c : Thread nD τ) arg2 fullShare x0 ∗ owns (c : Thread nD τ) arg3 fullShare x1 ∗ owns (c : Thread nD τ) arg4 fullShare x2 ∗ owns (c : Thread nD τ) arg5 fullShare x3
               ∗ (∃ f, arg6.view.loc (c : Thread nD τ) ↦[arg6.view.set]{fullShare} arg6.view.writes (Elt F) f L4)) -∗ K ⟨⟩))
        ⊢ wp frame (wpE (defs₀ (F := F)) Variants.none c none) E (cc0__splat_kernel i arg2 harg2 arg3 harg3 arg4 harg4 arg5 harg5 arg6 harg6) K } := by
  refine ⟨?_, fun E K => ?run⟩
  case run =>
    simp only [cc0__splat_kernel_eq_skeleton]; unfold cc0__splat_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Hand

end
-- ==== Proof.KB.Frame.lean ====
/-
  The kernel side of the frame of `Cert.Kernel`, second half: the run of @main to the library's frame post, and from
  it that the four argument arrays end as launched — for any float instance `F`.

  The grid is 4 batches by 200 chunks. The output window's block is the batch's image: its index moves only with the
  batch, so its staging buffer is written back once per batch, after the batch's last chunk, and between two chunks
  of one batch the buffer is kept. The body SETS the buffer at chunk 0 (case A) and ADDS TO it at chunks 1 … 199
  (case B). So what the buffer holds after point `t` is a recursion on `t` (`outsAt0`): case A's contents at a batch's first
  chunk, case B's contents over what the point before left at the others. With that as the output window's `after`, and
  each input window's `after` its block (the body only reads the inputs), the body's two runs give the library's body
  obligation at every point, and the launch theorem gives the run.
-/
import proofs.«147334_j72576357367816_1_alg».proof.Proof.KB.Kit
import proofs.«147334_j72576357367816_1_alg».proof.Proof.KB.RunA
import proofs.«147334_j72576357367816_1_alg».proof.Proof.KB.RunB

-- membership of an index in the one 480 by 640 rectangle is looked at structurally, once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output window's staging buffer -/

/-- Case A's stores into the output buffer tile its block (they are whole-block stores), so every index of the block
    lies in one of them. -/
theorem cover0_A_4 (c : Dev nD) (i : grid0.Coords) (arg2 : Memref sig .tc .vmem S1x1000x3 .f32) (harg2 : arg2.IsWhole) (arg3 : Memref sig .tc .vmem S1x1x3 .f32) (harg3 : arg3.IsWhole)
    (arg4 : Memref sig .tc .vmem S1x3x3 .f32) (harg4 : arg4.IsWhole) (arg5 : Memref sig .tc .vmem S1x480x640 .f32) (harg5 : arg5.IsWhole) (arg6 : Memref sig .tc .vmem S1x480x640 .f32) (harg6 : arg6.IsWhole)
    (hc0 : cond0_0 i) (hc1 : ¬cond0_1 i) (x0 : Vec F S1x1000x3 .f32) (x1 : Vec F S1x1x3 .f32) (x2 : Vec F S1x3x3 .f32) (x3 : Vec F S1x480x640 .f32) (y : S1x480x640.Idx) :
    ∃ pc ∈ (kernelRun0_A c i arg2 harg2 arg3 harg3 arg4 harg4 arg5 harg5 arg6 harg6 hc0 hc1 x0 x1 x2 x3).1, y ∈ pc.1.set :=
  View.cover_of_tiledL (kernelRun0_A c i arg2 harg2 arg3 harg3 arg4 harg4 arg5 harg5 arg6 harg6 hc0 hc1 x0 x1 x2 x3).1 S1x480x640.size (by sl_kernel_rfl) y

/-- What case A leaves in the output buffer: its stores read back. The stores cover the block, so what they are
    written over does not matter; it is stated over arbitrary contents. -/
def out0_A_4 (c : Dev nD) (i : grid0.Coords) (arg2 : Memref sig .tc .vmem S1x1000x3 .f32) (harg2 : arg2.IsWhole) (arg3 : Memref sig .tc .vmem S1x1x3 .f32) (harg3 : arg3.IsWhole)
    (arg4 : Memref sig .tc .vmem S1x3x3 .f32) (harg4 : arg4.IsWhole) (arg5 : Memref sig .tc .vmem S1x480x640 .f32) (harg5 : arg5.IsWhole) (arg6 : Memref sig .tc .vmem S1x480x640 .f32) (harg6 : arg6.IsWhole)
    (hc0 : cond0_0 i) (hc1 : ¬cond0_1 i) (x0 : Vec F S1x1000x3 .f32) (x1 : Vec F S1x1x3 .f32) (x2 : Vec F S1x3x3 .f32) (x3 : Vec F S1x480x640 .f32) : Vec F S1x480x640 .f32 :=
  VO0_4.read (Elt F) (VO0_4.writes (Elt F) VO0_4.junk (kernelRun0_A c i arg2 harg2 arg3 harg3 arg4 harg4 arg5 harg5 arg6 harg6 hc0 hc1 x0 x1 x2 x3).1)

/-- Case B's stores into the output buffer tile its block as well. -/
theorem cover0_B_4 (c : Dev nD) (i : grid0.Coords) (arg2 : Memref sig .tc .vmem S1x1000x3 .f32) (harg2 : arg2.IsWhole) (arg3 : Memref sig .tc .vmem S1x1x3 .f32) (harg3 : arg3.IsWhole)
    (arg4 : Memref sig .tc .vmem S1x3x3 .f32) (harg4 : arg4.IsWhole) (arg5 : Memref sig .tc .vmem S1x480x640 .f32) (harg5 : arg5.IsWhole) (arg6 : Memref sig .tc .vmem S1x480x640 .f32) (harg6 : arg6.IsWhole)
    (hc0 : ¬cond0_0 i) (hc1 : cond0_1 i) (x0 : Vec F S1x1000x3 .f32) (x1 : Vec F S1x1x3 .f32) (x2 : Vec F S1x3x3 .f32) (x3 : Vec F S1x480x640 .f32) (xo4 : Vec F S1x480x640 .f32) (y : S1x480x640.Idx) :
    ∃ pc ∈ (kernelRun0_B c i arg2 harg2 arg3 harg3 arg4 harg4 arg5 harg5 arg6 harg6 hc0 hc1 x0 x1 x2 x3 xo4).1, y ∈ pc.1.set :=
  View.cover_of_tiledL (kernelRun0_B c i arg2 harg2 arg3 harg3 arg4 harg4 arg5 harg5 arg6 harg6 hc0 hc1 x0 x1 x2 x3 xo4).1 S1x480x640.size (by sl_kernel_rfl) y

/-- What case B leaves in the output buffer, given what the buffer held when the body was entered (`xo4`). -/
def out0_B_4 (c : Dev nD) (i : grid0.Coords) (arg2 : Memref sig .tc .vmem S1x1000x3 .f32) (harg2 : arg2.IsWhole) (arg3 : Memref sig .tc .vmem S1x1x3 .f32) (harg3 : arg3.IsWhole)
    (arg4 : Memref sig .tc .vmem S1x3x3 .f32) (harg4 : arg4.IsWhole) (arg5 : Memref sig .tc .vmem S1x480x640 .f32) (harg5 : arg5.IsWhole) (arg6 : Memref sig .tc .vmem S1x480x640 .f32) (harg6 : arg6.IsWhole)
    (hc0 : ¬cond0_0 i) (hc1 : cond0_1 i) (x0 : Vec F S1x1000x3 .f32) (x1 : Vec F S1x1x3 .f32) (x2 : Vec F S1x3x3 .f32) (x3 : Vec F S1x480x640 .f32) (xo4 : Vec F S1x480x640 .f32) : Vec F S1x480x640 .f32 :=
  VO0_4.read (Elt F) (VO0_4.writes (Elt F) VO0_4.junk (kernelRun0_B c i arg2 harg2 arg3 harg3 arg4 harg4 arg5 harg5 arg6 harg6 hc0 hc1 x0 x1 x2 x3 xo4).1)

/-! ## The output buffer point by point -/

/-- What the output window's staging buffer holds after the body at position `n`. At a batch's first chunk
    (`n % 200 = 0`) the body sets it: case A at the point's memrefs and input blocks. At any other chunk the body
    adds to what the chunk before left: case B at the point's memrefs and input blocks over the value at `n - 1`
    (the buffer is not written back between the two). -/
def outsAt0 (c : Dev nD) : (n : ℕ) → n < cfg0.N → Vec F S1x480x640 .f32
  | 0, hn =>
    out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩)
      ((hcond0_0 ⟨0, hn⟩).mpr (Nat.zero_mod _)) (fun h => (hcond0_1 ⟨0, hn⟩).mp h (Nat.zero_mod _))
      (iblk m c 0 ⟨0, hn⟩) (iblk m c 1 ⟨0, hn⟩) (iblk m c 2 ⟨0, hn⟩) (iblk m c 3 ⟨0, hn⟩)
  | n + 1, hn =>
    if h0 : (n + 1) % 200 = 0 then
      out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩)
        ((hcond0_0 ⟨n + 1, hn⟩).mpr h0) (fun h => (hcond0_1 ⟨n + 1, hn⟩).mp h h0)
        (iblk m c 0 ⟨n + 1, hn⟩) (iblk m c 1 ⟨n + 1, hn⟩) (iblk m c 2 ⟨n + 1, hn⟩) (iblk m c 3 ⟨n + 1, hn⟩)
    else
      out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩)
        (fun h => h0 ((hcond0_0 ⟨n + 1, hn⟩).mp h)) ((hcond0_1 ⟨n + 1, hn⟩).mpr h0)
        (iblk m c 0 ⟨n + 1, hn⟩) (iblk m c 1 ⟨n + 1, hn⟩) (iblk m c 2 ⟨n + 1, hn⟩) (iblk m c 3 ⟨n + 1, hn⟩) (outsAt0 c n (Nat.lt_of_succ_lt hn))

/-- `outsAt0` at a batch's first chunk: case A's contents. -/
theorem outsAt0_A (c : Dev nD) (t : Fin cfg0.N) (h0 : t.val % 200 = 0) :
    outsAt0 m c t.val t.isLt = out0_A_4 c (grid0.coords t) (ms0_0 t) (hs0_0 t) (ms0_1 t) (hs0_1 t) (ms0_2 t) (hs0_2 t) (ms0_3 t) (hs0_3 t) (ms0_4 t) (hs0_4 t)
      ((hcond0_0 t).mpr h0) (fun h => (hcond0_1 t).mp h h0) (iblk m c 0 t) (iblk m c 1 t) (iblk m c 2 t) (iblk m c 3 t) := by
  obtain ⟨n, hn⟩ := t
  cases n with
  | zero => exact rfl
  | succ n => exact (dif_pos h0).trans rfl

/-- `outsAt0` at any other chunk: case B's contents over what the point before left. -/
theorem outsAt0_B (c : Dev nD) (t : Fin cfg0.N) (h0 : ¬t.val % 200 = 0) :
    outsAt0 m c t.val t.isLt = out0_B_4 c (grid0.coords t) (ms0_0 t) (hs0_0 t) (ms0_1 t) (hs0_1 t) (ms0_2 t) (hs0_2 t) (ms0_3 t) (hs0_3 t) (ms0_4 t) (hs0_4 t)
      (fun h => h0 ((hcond0_0 t).mp h)) ((hcond0_1 t).mpr h0) (iblk m c 0 t) (iblk m c 1 t) (iblk m c 2 t) (iblk m c 3 t)
      (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans rfl

/-! ## The pipeline's proof data -/

/-- The proof data of the pipeline on core `c`: each window's array as the region finds it; after the body at point
    `t` each input window's buffer at its block (the body only reads it) and the output window's at `outsAt0`; the
    invariant the library's class invariant (the kernel has no scratch); nothing owed; the arrays held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt0 m c t.val t.isLt
  Φ _ := Pipeline.ΦA spec0 c
  q _ := fullShare
  owed _ := 0

/-- The proof data's arrays are the region-entry contents, by projecting the definition (the fold over the host
    prefix inside `V` is not opened). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outsAt0 m c t.val t.isLt := by dsimp only [dats]

/-- What the body finds in each input window's current buffer: the window's block, at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- At a chunk other than a batch's first the output window's current buffer holds what the body left at the point
    before: the point is not the first; the point before is not a batch's last chunk (`(t - 1) % 200 = 199` would make
    `t % 200 = 0`), so nothing was written back in between; the window is stored into at every point and is uncut. -/
theorem before0_4_B (c : Dev nD) (t : Fin cfg0.N) (h0 : ¬t.val % 200 = 0) (d) :
    (dats m 0 c).before 4 t d = outsAt0 m c (t.val - 1) (Nat.lt_of_le_of_lt (Nat.sub_le _ _) t.isLt) := by
  have hN : t.val < 800 := lt_of_lt_of_eq t.isLt (show cfg0.N = 800 from N_0)
  rw [Dat.before_out_kept _ 4 rfl t (by omega)
    (Bool.eq_false_iff.mpr fun h => by have := (flush0_4 _).mp h; dsimp only at this; omega)
    live0_4 (fun _ _ => rfl)]
  dsimp only [dats]

/-! ## The body obligation -/

/-- What the body is called with at point `t`: the invariant, what the core owes, and each window's current staging
    buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What it returns: the same at the next point, each buffer at what the body leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point. The input buffers hold their blocks. At a batch's first chunk case A's run applies to
    whatever the output buffer holds; at another chunk the output buffer holds what the point before left and case B's
    run applies to that. Either run hands the inputs back unchanged and the output buffer at its stores over some
    contents; the stores cover the block, so the buffer reads as `outsAt0` says. The invariant and what is owed pass
    through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  by_cases h0 : t.val % 200 = 0
  · rw [outsAt0_A m c t h0]
    unfold out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (fun h => (hcond0_1 t).mp h h0)
      (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro
    exact View.read_writes_of_cover _ _ _ _ _ (cover0_A_4 c _ _ _ _ _ _ _ _ _ _ _ _ _ _ _ _ _)
  · rw [outsAt0_B m c t h0]
    simp only [before0_4_B m c t h0]
    unfold out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) ((hcond0_1 t).mpr h0)
      (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro
    exact View.read_writes_of_cover _ _ _ _ _ (cover0_B_4 c _ _ _ _ _ _ _ _ _ _ _ _ _ _ _ _ _ _)

/-- The library's body obligation at every point: its conjunction over the five windows written out, and the output
    window's clause for an idle point discarded (no point is idle for it, `live0_4`). -/
theorem body_obligation (c : Dev nD) : BodyObligation (dats (F := F) m 0 c) (defs₀ (F := F)) Variants.none () Set.univ := fun t => by
  rw [bigSep_W0, bigSep_W0]
  rw [show cfg0.idle (4 : Fin 5) (cfg0.grid.coords t) = false from live0_4 _]
  exact sound_body m c t

/-! ## The run and the frame -/

-- the launch theorem's implicit arguments are found by unifying its conclusion with this one, which takes unfolding
-- plain definitions inside a metavariable's type
set_option backward.isDefEq.respectTransparency.types false in
/-- At the compiled mesh, for any values, from any memory with zero counters: every weakly fair execution of @main on
    the TensorCores terminates, and in every final state each array of the pipeline holds what the library computes
    from the proof data and every other unscoped buffer what the region found in it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any `F`: @main runs, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.KI.Kit.lean ====
/-
  The kernel side of the frame of `Cert.KernelIdeal`, first half: what its one region finds and what its body's two
  conditionals say, stated once for any float instance `F`.

  * @main is 117 host operations followed by the region. `V` is each TensorCore buffer after those operations;
    `hmain` is @main up to the region in the form the launch theorem takes; `V_main_arg0 … V_main_arg3` say
    that no host operation has an argument array as its result, so the region finds the four as launched.
  * `iblk` is a window's block at a grid point, read off `V`; `before0_0_of … before0_3_of`: an input
    window's current staging buffer holds that block at every point — also at the points of a batch after its first,
    where windows 1, 2 and 3 are not fetched again because their block index has not moved.
  * `frame_of`: from a run that ends in the library's frame post, the four argument arrays end as launched
    (arrays 0 and 3 are staged by windows 0 and 3; arrays 1 and 2 are staged by no window — the windows stage
    arrays the host operations computed from them — and are among the buffers the region passes by).
  * The grid is 4 batches by 200 chunks, `t = 200 · batch + chunk`. The body's first conditional (`cond0_0`) holds
    exactly at chunk 0, its second (`cond0_1`) exactly at the other chunks; so the output window is stored into
    at every point (`live0_4`).
-/
import proofs.«147334_j72576357367816_1_alg».proof.Proof.Gen.KernelIdeal.Launch
import proofs.«147334_j72576357367816_1_alg».proof.Proof.Gen.KernelIdeal.Skeleton
import proofs.«147334_j72576357367816_1_alg».proof.Proof.Gen.KernelIdeal.Points
import proofs.«147334_j72576357367816_1_alg».proof.Proof.Gen.KernelIdeal.Loops
import Idealize.ShloMosaic.Lib.Pipeline.FrameBody
import Idealize.ShloMosaic.Lib.Ring
import Idealize.ShloMosaic.Lib.Tactic

-- the host prefix is a list of 117 operations: walking it recurses once per operation
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s TensorCore buffer `b` holds when the region is entered: the launch contents run through the
    host operations that come before the region. -/
abbrev V (c : Dev nD) (b : Ref sig .tc) : Buf (Elt F) ((c : Thread nD τ).loc b) :=
  StableHlo.after hostOps0 (fun b => m (c, b)) b

/-- None of the host operations allocates a buffer. -/
theorem hostOps0_fresh : (hostOps0 : List (HloOp τ sig (Elt F))).Forall fun op => op.fresh = ∅ := by
  simp only [List.Forall]
  repeat' constructor

/-- @main is its host operations and then the region, so it meets the launch theorem's hypothesis on @main with
    the region-entry contents `V`. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Closes `hostOps0.Forall fun op => b ∉ op.writes` for an argument array `b`: every host operation writes exactly
    its one result, and each result is a reference other than `b` (references are compared by decision). -/
local macro "result_of_none" : tactic => `(tactic| (
  simp only [hostOps0, List.Forall, StableHlo.nullary_writes, StableHlo.unary_writes, StableHlo.binary_writes,
    StableHlo.reshape_writes, StableHlo.nary_writes, Finset.mem_singleton]
  repeat' apply And.intro
  all_goals exact StableHlo.devRef_ne_of_ne (by decide)))

/-- The particle positions are the result of no host operation. -/
theorem V_main_arg0 (c : Dev nD) : V m c main_arg0 = m ((c : Thread nD τ).loc main_arg0) :=
  StableHlo.after_of_forall_not_mem (b := Proc.devRef .tc main_arg0) _ _
    (List.forall_iff_forall_mem.mp (by result_of_none))

/-- The camera positions are the result of no host operation (the region reads a reshaped copy). -/
theorem V_main_arg1 (c : Dev nD) : V m c main_arg1 = m ((c : Thread nD τ).loc main_arg1) :=
  StableHlo.after_of_forall_not_mem (b := Proc.devRef .tc main_arg1) _ _
    (List.forall_iff_forall_mem.mp (by result_of_none))

/-- The camera quaternions are the result of no host operation (the region reads the rotation matrices made of them). -/
theorem V_main_arg2 (c : Dev nD) : V m c main_arg2 = m ((c : Thread nD τ).loc main_arg2) :=
  StableHlo.after_of_forall_not_mem (b := Proc.devRef .tc main_arg2) _ _
    (List.forall_iff_forall_mem.mp (by result_of_none))

/-- The depth images are the result of no host operation. -/
theorem V_main_arg3 (c : Dev nD) : V m c main_arg3 = m ((c : Thread nD τ).loc main_arg3) :=
  StableHlo.after_of_forall_not_mem (b := Proc.devRef .tc main_arg3) _ _
    (List.forall_iff_forall_mem.mp (by result_of_none))

/-! ## The windows' blocks -/

/-- Window `w`'s block at grid point `t`, read off the window's array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The chunk of 1000 particle positions: fetched at every point; whatever proof data has `V`'s array and a body that
    leaves the block in place finds the block in the window's current staging buffer. -/
theorem before0_0_of {c : Dev nD} (dat : Dat τ (Elt F) Unit ℕ (UR sig nD τ) ℕ cfg0 c)
    (hA : dat.A 0 = V m c (Pipeline.arrRef spec0 0)) (hafter : ∀ t, dat.after 0 t = iblk m c 0 t)
    (t : Fin cfg0.N) (d) : dat.before 0 t d = iblk m c 0 t := by
  have hkeep : ∀ t, (cfg0.win 0).cut (cfg0.grid.coords t) (dat.after 0 t) = dat.blockOf 0 t := fun t => by
    rw [hafter]; unfold Dat.blockOf iblk; rw [hA]; try rfl
  rw [dat.before_in_eq_fetched 0 rfl (fun _ => rfl) (fun _ _ _ => rfl) hkeep t d]
  unfold Dat.fetched Dat.blockOf iblk; rw [hA]; try rfl

/-- The batch's camera position: fetched at the batch's first chunk only; at its other chunks the block index is the
    one of the chunk before, and the buffer still holds the block. -/
theorem before0_1_of {c : Dev nD} (dat : Dat τ (Elt F) Unit ℕ (UR sig nD τ) ℕ cfg0 c)
    (hA : dat.A 1 = V m c (Pipeline.arrRef spec0 1)) (hafter : ∀ t, dat.after 1 t = iblk m c 1 t)
    (t : Fin cfg0.N) (d) : dat.before 1 t d = iblk m c 1 t := by
  have hkeep : ∀ t, (cfg0.win 1).cut (cfg0.grid.coords t) (dat.after 1 t) = dat.blockOf 1 t := fun t => by
    rw [hafter]; unfold Dat.blockOf iblk; rw [hA]; try rfl
  rw [dat.before_in_eq_fetched 1 rfl (fun _ => rfl) (fun _ _ _ => rfl) hkeep t d]
  unfold Dat.fetched Dat.blockOf iblk; rw [hA]; try rfl

/-- The batch's rotation matrix: as the camera position. -/
theorem before0_2_of {c : Dev nD} (dat : Dat τ (Elt F) Unit ℕ (UR sig nD τ) ℕ cfg0 c)
    (hA : dat.A 2 = V m c (Pipeline.arrRef spec0 2)) (hafter : ∀ t, dat.after 2 t = iblk m c 2 t)
    (t : Fin cfg0.N) (d) : dat.before 2 t d = iblk m c 2 t := by
  have hkeep : ∀ t, (cfg0.win 2).cut (cfg0.grid.coords t) (dat.after 2 t) = dat.blockOf 2 t := fun t => by
    rw [hafter]; unfold Dat.blockOf iblk; rw [hA]; try rfl
  rw [dat.before_in_eq_fetched 2 rfl (fun _ => rfl) (fun _ _ _ => rfl) hkeep t d]
  unfold Dat.fetched Dat.blockOf iblk; rw [hA]; try rfl

/-- The batch's depth image: as the camera position. -/
theorem before0_3_of {c : Dev nD} (dat : Dat τ (Elt F) Unit ℕ (UR sig nD τ) ℕ cfg0 c)
    (hA : dat.A 3 = V m c (Pipeline.arrRef spec0 3)) (hafter : ∀ t, dat.after 3 t = iblk m c 3 t)
    (t : Fin cfg0.N) (d) : dat.before 3 t d = iblk m c 3 t := by
  have hkeep : ∀ t, (cfg0.win 3).cut (cfg0.grid.coords t) (dat.after 3 t) = dat.blockOf 3 t := fun t => by
    rw [hafter]; unfold Dat.blockOf iblk; rw [hA]; try rfl
  rw [dat.before_in_eq_fetched 3 rfl (fun _ => rfl) (fun _ _ _ => rfl) hkeep t d]
  unfold Dat.fetched Dat.blockOf iblk; rw [hA]; try rfl

/-! ## The argument arrays at the end of a frame run -/

/-- A run of @main that ends in the library's frame post, for proof data whose arrays are the region-entry contents,
    ends with the four argument arrays as launched. Arrays 0 and 3 are input windows' arrays: the library keeps an
    input's array at its entry contents. Arrays 1 and 2 are unscoped and no window's array: the post's second clause
    keeps them at `V`. Each is then as launched by `V_main_arg0 … V_main_arg3`. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats 0 c).arrAt_in 0 rfl _).trans ((hA c 0).trans (V_main_arg0 m c))),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).1 3).trans (((dats 0 c).arrAt_in 3 rfl _).trans ((hA c 3).trans (V_main_arg3 m c)))⟩) h

/-! ## The body's two conditionals over the grid -/

/-- The body's first conditional: the chunk coordinate is 0 (the output block is set). -/
abbrev cond0_0 (i : grid0.Coords) : Prop := k0_cond1 i = 1#1
/-- The body's second conditional: the chunk coordinate is not 0 (the output block is added to). -/
abbrev cond0_1 (i : grid0.Coords) : Prop := k0_cond2 i = 1#1

/-- The first conditional holds exactly at the first chunk of a batch — decided over the 800 points. -/
theorem hcond0_0 : ∀ t : Fin cfg0.N, cond0_0 (grid0.coords t) ↔ t.val % 200 = 0 :=
  (by decide +kernel : ∀ t : Fin grid0.N, cond0_0 (grid0.coords t) ↔ t.val % 200 = 0)
/-- The second holds exactly at the other chunks. -/
theorem hcond0_1 : ∀ t : Fin cfg0.N, cond0_1 (grid0.coords t) ↔ ¬ t.val % 200 = 0 :=
  (by decide +kernel : ∀ t : Fin grid0.N, cond0_1 (grid0.coords t) ↔ ¬ t.val % 200 = 0)

/-- At every coordinate one of the two conditionals holds (both read the chunk coordinate alone: decided over its
    200 values), so the body stores into the output window at every point: the window is idle nowhere. -/
theorem live0_4 : ∀ i : grid0.Coords, cfg0.idle 4 i = false := fun i =>
  (by decide +kernel : ∀ j : Fin 200,
    (!(Scalar.cmpi .ne (Scalar.extui (Scalar.cmpi .eq (BitVec.ofNat 32 j.val) 0#32)) 0#32 == 1#1)
      && !(Scalar.cmpi .ne (Scalar.extui (Scalar.cmpi .ne (BitVec.ofNat 32 j.val) 0#32)) 0#32 == 1#1)) = false) (i 1)

/-! ## The staging memrefs the body is called with -/

/-- One staging buffer of the output window, through which the window's contents are stated (which of the two does
    not matter: a whole buffer's contents are read back the same through either). -/
abbrev VO0_4 : View sig .tc .vmem S1x480x640 .f32 := (Memref.whole cc0_stg4_0 : Memref sig .tc .vmem S1x480x640 .f32).view

/-- Each window's current staging memref at point `t`, spelled as the pipeline passes it to the body, and that it is a
    whole buffer. -/
abbrev ms0_0 (t : Fin cfg0.N) : Memref sig .tc .vmem S1x1000x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3x3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x480x640 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x480x640 .f32 := win0_4.stage (cfg0.slots t 4)
abbrev hs0_4 (t : Fin cfg0.N) : (ms0_4 t).IsWhole := hstage0_4 ((cfg0.slots t 4).cast nbuf0_4)

end Cert.KernelIdeal.Hand

end
-- ==== Proof.KI.LoopInv.lean ====
/-
  The footprint loop of the splat kernel's body as a pure recursion. The loop's region neither loads nor stores: a
  trip computes, from the values the body loaded before the loop, the trip's row and column indices, two one-hot
  matrices and their scatter product, and adds that product to the block it carries. So the region at a trip is the
  return of a pure function (`trip0`, `k0_t1_body_eq`), the block carried into trip `k` is that function applied
  `k` times to the initial block (`accTo`), and the loop's invariant holds no memory at all: it says only that the
  carried block is `accTo … k` (`loopInv_k0_t1`).
-/
import proofs.«147334_j72576357367816_1_alg».proof.Proof.KI.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- ONE TRIP of the footprint loop as a pure function of the trip `k` and the carried block `acc`: the trip's
    row and column indices and its validity mask (the three results of the first part), the one-hot column matrix
    and the masked, weighted one-hot row matrix (the two results of the second part), and the carried block plus
    their scatter product (the yield). Nothing is loaded or stored inside the loop, so this is all a trip does. -/
def trip0 (v5 : FVec F S3x3 .f32) (v7 : FVec F S480x640 .f32) (v13 : FVec F S1000 .f32) (v19 : FVec F S1000 .f32) (v25 : FVec F S1000 .f32) (v39 : FVec F S1000 .f32) (v43 : FVec F S1000 .f32) (v45 : F .f32) (v86 : IVec S1000x480 32) (v87 : IVec S1000x640 32) (k : Fin k0_t1_loop.trips) (acc : FVec F S480x640 .f32) : FVec F S480x640 .f32 :=
  k0_pay25 acc (k0_pay6 (F := F) v87 (k0_pay4 (k0_pay22 v5 v13 v19 v25 v39) 0#32 1#32 k))
    (k0_pay7 v7 (k0_pay18 v5 v13 v19 v25) (k0_pay20 v5 v13 v19 v25 v39) (k0_pay21 v5 v13 v19 v25 v43 v45) v86 v87
      (k0_pay3 (k0_pay23 v5 v13 v19 v25 v43 v45) 0#32 1#32 k) (k0_pay4 (k0_pay22 v5 v13 v19 v25 v39) 0#32 1#32 k)
      (k0_pay5 (k0_pay22 v5 v13 v19 v25 v39) (k0_pay23 v5 v13 v19 v25 v43 v45) 0#32 1#32 k))

/-- The loop's region at trip `k` from `acc` is the RETURN of `trip0`: its two parts are their skeletons, each the
    return of its payloads, and the yield is the last payload of them. -/
theorem k0_t1_body_eq (i : grid0.Coords) (arg2 : Memref sig .tc .vmem S1x1000x3 .f32) (harg2 : arg2.IsWhole) (arg3 : Memref sig .tc .vmem S1x1x3 .f32) (harg3 : arg3.IsWhole) (arg4 : Memref sig .tc .vmem S1x3x3 .f32) (harg4 : arg4.IsWhole) (arg5 : Memref sig .tc .vmem S1x480x640 .f32) (harg5 : arg5.IsWhole) (arg6 : Memref sig .tc .vmem S1x480x640 .f32) (harg6 : arg6.IsWhole) (arg1 : BitVec 32) (v5 : FVec F S3x3 .f32) (v7 : FVec F S480x640 .f32) (v13 : FVec F S1000 .f32) (v19 : FVec F S1000 .f32) (v25 : FVec F S1000 .f32) (v39 : FVec F S1000 .f32) (v43 : FVec F S1000 .f32) (v45 : F .f32) (v86 : IVec S1000x480 32) (v87 : IVec S1000x640 32) (k : Fin k0_t1_loop.trips) (acc : FVec F S480x640 .f32) :
    k0_t1_body i arg2 harg2 arg3 harg3 arg4 harg4 arg5 harg5 arg6 harg6 arg1 v5 v7 v13 v19 v25 v39 v43 v45 v86 v87 k acc = .ret (trip0 v5 v7 v13 v19 v25 v39 v43 v45 v86 v87 k acc) := by
  unfold k0_t1_body
  simp only [k0_part1_eq_skeleton, k0_part2_eq_skeleton]
  unfold k0_part1_skel k0_part2_skel trip0
  rfl

/-- The block carried INTO trip `k`: the trips before `k` applied in order to the initial block (past the trip
    count it stays what the last trip left). -/
def accTo (v5 : FVec F S3x3 .f32) (v7 : FVec F S480x640 .f32) (v13 : FVec F S1000 .f32) (v19 : FVec F S1000 .f32) (v25 : FVec F S1000 .f32) (v39 : FVec F S1000 .f32) (v43 : FVec F S1000 .f32) (v45 : F .f32) (v86 : IVec S1000x480 32) (v87 : IVec S1000x640 32) (init : FVec F S480x640 .f32) : ℕ → FVec F S480x640 .f32
  | 0 => init
  | k + 1 => if h : k < k0_t1_loop.trips then trip0 v5 v7 v13 v19 v25 v39 v43 v45 v86 v87 ⟨k, h⟩ (accTo v5 v7 v13 v19 v25 v39 v43 v45 v86 v87 init k) else accTo v5 v7 v13 v19 v25 v39 v43 v45 v86 v87 init k

theorem accTo_zero (v5 : FVec F S3x3 .f32) (v7 : FVec F S480x640 .f32) (v13 : FVec F S1000 .f32) (v19 : FVec F S1000 .f32) (v25 : FVec F S1000 .f32) (v39 : FVec F S1000 .f32) (v43 : FVec F S1000 .f32) (v45 : F .f32) (v86 : IVec S1000x480 32) (v87 : IVec S1000x640 32) (init : FVec F S480x640 .f32) : accTo v5 v7 v13 v19 v25 v39 v43 v45 v86 v87 init 0 = init := rfl

theorem accTo_succ (v5 : FVec F S3x3 .f32) (v7 : FVec F S480x640 .f32) (v13 : FVec F S1000 .f32) (v19 : FVec F S1000 .f32) (v25 : FVec F S1000 .f32) (v39 : FVec F S1000 .f32) (v43 : FVec F S1000 .f32) (v45 : F .f32) (v86 : IVec S1000x480 32) (v87 : IVec S1000x640 32) (init : FVec F S480x640 .f32) (k : Fin k0_t1_loop.trips) :
    accTo v5 v7 v13 v19 v25 v39 v43 v45 v86 v87 init (k.val + 1) = trip0 v5 v7 v13 v19 v25 v39 v43 v45 v86 v87 k (accTo v5 v7 v13 v19 v25 v39 v43 v45 v86 v87 init k.val) := by
  rw [accTo]; exact dif_pos k.isLt

set_option warn.classDefReducibility false in
/-- The footprint loop's invariant: it holds no memory (the region neither loads nor stores); before trip `k` the
    carried block is `accTo … init k`. One trip is the return of `trip0` (`k0_t1_body_eq`). -/
@[sl_loop] noncomputable def loopInv_k0_t1 (c : Dev nD) (E : Set ℕ) (i : grid0.Coords) (arg2 : Memref sig .tc .vmem S1x1000x3 .f32) (harg2 : arg2.IsWhole) (arg3 : Memref sig .tc .vmem S1x1x3 .f32) (harg3 : arg3.IsWhole) (arg4 : Memref sig .tc .vmem S1x3x3 .f32) (harg4 : arg4.IsWhole) (arg5 : Memref sig .tc .vmem S1x480x640 .f32) (harg5 : arg5.IsWhole) (arg6 : Memref sig .tc .vmem S1x480x640 .f32) (harg6 : arg6.IsWhole) (arg1 : BitVec 32) (v5 : FVec F S3x3 .f32) (v7 : FVec F S480x640 .f32) (v13 : FVec F S1000 .f32) (v19 : FVec F S1000 .f32) (v25 : FVec F S1000 .f32) (v39 : FVec F S1000 .f32) (v43 : FVec F S1000 .f32) (v45 : F .f32) (v86 : IVec S1000x480 32) (v87 : IVec S1000x640 32) (init : FVec F S480x640 .f32) :
    LoopInvTy_k0_t1 (F := F) Unit ℕ (UR sig nD τ) ℕ Variants.none c none E i arg2 harg2 arg3 harg3 arg4 harg4 arg5 harg5 arg6 harg6 arg1 v5 v7 v13 v19 v25 v39 v43 v45 v86 v87 init where
  inv := fun k acc => iprop(⌜acc = accTo v5 v7 v13 v19 v25 v39 v43 v45 v86 v87 init k⌝)
  step := fun k acc => by
    rw [k0_t1_body_eq]
    iintro %h
    subst h
    sl_step
    ipureintro
    exact (accTo_succ v5 v7 v13 v19 v25 v39 v43 v45 v86 v87 init k).symm

end Cert.KernelIdeal.Hand

end
-- ==== Proof.KI.RunA.lean ====
/-
  The splat kernel's whole body run at the FIRST chunk of a batch (the first conditional taken, the second not): on
  whole staging memrefs — the four inputs at their contents, the output block at anything — the body loads the inputs,
  goes through the footprint loop by its invariant (the carried block is `accTo … k`), and stores the accumulated block
  over the output. What the output block ends with is a list of written pieces that the run itself finds; the
  definition packs that list with the proof that the body runs to any continuation holding the inputs as they were
  and the output block with those pieces written.
-/
import proofs.«147334_j72576357367816_1_alg».proof.Proof.KI.LoopInv

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the proof term of the run is large: a larger heartbeat budget for this one definition
set_option maxHeartbeats 1000000 in
/-- What the body's stores leave in the output block, as pieces (last first), AT THE FIRST CHUNK (`cond0_0` holds,
    `cond0_1` does not), with the proof that the body runs from the inputs' contents and any output contents to the
    continuation: each conditional is decided by the case's hypotheses, the loop by `loopInv_k0_t1`. -/
noncomputable def kernelRun0_A (c : Dev nD) (i : grid0.Coords) (arg2 : Memref sig .tc .vmem S1x1000x3 .f32) (harg2 : arg2.IsWhole) (arg3 : Memref sig .tc .vmem S1x1x3 .f32) (harg3 : arg3.IsWhole)
    (arg4 : Memref sig .tc .vmem S1x3x3 .f32) (harg4 : arg4.IsWhole) (arg5 : Memref sig .tc .vmem S1x480x640 .f32) (harg5 : arg5.IsWhole) (arg6 : Memref sig .tc .vmem S1x480x640 .f32) (harg6 : arg6.IsWhole)
    (hc0 : cond0_0 i) (hc1 : ¬cond0_1 i) (x0 : Vec F S1x1000x3 .f32) (x1 : Vec F S1x1x3 .f32) (x2 : Vec F S1x3x3 .f32) (x3 : Vec F S1x480x640 .f32) :
    { L4 : List (View.Piece (Elt F) S1x480x640 .f32) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
          ∗ (iprop(owns (c : Thread nD τ) arg2 fullShare x0 ∗ owns (c : Thread nD τ) arg3 fullShare x1 ∗ owns (c : Thread nD τ) arg4 fullShare x2 ∗ owns (c : Thread nD τ) arg5 fullShare x3
               ∗ (∃ f, arg6.view.loc (c : Thread nD τ) ↦[arg6.view.set]{fullShare} arg6.view.writes (Elt F) f L4)) -∗ K ⟨⟩))
        ⊢ wp frame (wpE (defs₀ (F := F)) Variants.none c none) E (cc0__splat_kernel i arg2 harg2 arg3 harg3 arg4 harg4 arg5 harg5 arg6 harg6) K } := by
  refine ⟨?_, fun E K => ?run⟩
  case run =>
    simp only [cc0__splat_kernel_eq_skeleton]; unfold cc0__splat_kernel_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Hand

end
-- ==== Proof.KI.RunB.lean ====
/-
  The splat kernel's whole body run at a LATER chunk of a batch (the first conditional not taken, the second taken):
  on whole staging memrefs — the four inputs at their contents, the output block at its running contents — the body
  loads the inputs, goes through the footprint loop by its invariant, loads the output block, adds the accumulated
  block to it and stores the sum over the output. What the output block ends with is a list of written pieces that
  the run itself finds; the definition packs that list with the proof that the body runs to any continuation holding
  the inputs as they were and the output block with those pieces written.
-/
import proofs.«147334_j72576357367816_1_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the proof term of the run is large: a larger heartbeat budget for this one definition
set_option maxHeartbeats 1000000 in
/-- What the body's stores leave in the output block, as pieces (last first), AT A LATER CHUNK (`cond0_0` does not
    hold, `cond0_1` does), with the proof that the body runs from the inputs' contents and the output's running
    contents `xo4` to the continuation: each conditional is decided by the case's hypotheses, the loop by
    `loopInv_k0_t1`. -/
noncomputable def kernelRun0_B (c : Dev nD) (i : grid0.Coords) (arg2 : Memref sig .tc .vmem S1x1000x3 .f32) (harg2 : arg2.IsWhole) (arg3 : Memref sig .tc .vmem S1x1x3 .f32) (harg3 : arg3.IsWhole)
    (arg4 : Memref sig .tc .vmem S1x3x3 .f32) (harg4 : arg4.IsWhole) (arg5 : Memref sig .tc .vmem S1x480x640 .f32) (harg5 : arg5.IsWhole) (arg6 : Memref sig .tc .vmem S1x480x640 .f32) (harg6 : arg6.IsWhole)
    (hc0 : ¬cond0_0 i) (hc1 : cond0_1 i) (x0 : Vec F S1x1000x3 .f32) (x1 : Vec F S1x1x3 .f32) (x2 : Vec F S1x3x3 .f32) (x3 : Vec F S1x480x640 .f32) (xo4 : Vec F S1x480x640 .f32) :
    { L4 : List (View.Piece (Elt F) S1x480x640 .f32) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
          ∗ (iprop(owns (c : Thread nD τ) arg2 fullShare x0 ∗ owns (c : Thread nD τ) arg3 fullShare x1 ∗ owns (c : Thread nD τ) arg4 fullShare x2 ∗ owns (c : Thread nD τ) arg5 fullShare x3
               ∗ (∃ f, arg6.view.loc (c : Thread nD τ) ↦[arg6.view.set]{fullShare} arg6.view.writes (Elt F) f L4)) -∗ K ⟨⟩))
        ⊢ wp frame (wpE (defs₀ (F := F)) Variants.none c none) E (cc0__splat_kernel i arg2 harg2 arg3 harg3 arg4 harg4 arg5 harg5 arg6 harg6) K } := by
  refine ⟨?_, fun E K => ?run⟩
  case run =>
    simp only [cc0__splat_kernel_eq_skeleton]; unfold cc0__splat_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Hand

end
-- ==== Proof.KI.Frame.lean ====
/-
  The kernel side of the frame of `Cert.KernelIdeal`, second half: the run of @main to the library's frame post, and from
  it that the four argument arrays end as launched — for any float instance `F`.

  The grid is 4 batches by 200 chunks. The output window's block is the batch's image: its index moves only with the
  batch, so its staging buffer is written back once per batch, after the batch's last chunk, and between two chunks
  of one batch the buffer is kept. The body SETS the buffer at chunk 0 (case A) and ADDS TO it at chunks 1 … 199
  (case B). So what the buffer holds after point `t` is a recursion on `t` (`outsAt0`): case A's contents at a batch's first
  chunk, case B's contents over what the point before left at the others. With that as the output window's `after`, and
  each input window's `after` its block (the body only reads the inputs), the body's two runs give the library's body
  obligation at every point, and the launch theorem gives the run.
-/
import proofs.«147334_j72576357367816_1_alg».proof.Proof.KI.Kit
import proofs.«147334_j72576357367816_1_alg».proof.Proof.KI.RunA
import proofs.«147334_j72576357367816_1_alg».proof.Proof.KI.RunB

-- membership of an index in the one 480 by 640 rectangle is looked at structurally, once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output window's staging buffer -/

/-- Case A's stores into the output buffer tile its block (they are whole-block stores), so every index of the block
    lies in one of them. -/
theorem cover0_A_4 (c : Dev nD) (i : grid0.Coords) (arg2 : Memref sig .tc .vmem S1x1000x3 .f32) (harg2 : arg2.IsWhole) (arg3 : Memref sig .tc .vmem S1x1x3 .f32) (harg3 : arg3.IsWhole)
    (arg4 : Memref sig .tc .vmem S1x3x3 .f32) (harg4 : arg4.IsWhole) (arg5 : Memref sig .tc .vmem S1x480x640 .f32) (harg5 : arg5.IsWhole) (arg6 : Memref sig .tc .vmem S1x480x640 .f32) (harg6 : arg6.IsWhole)
    (hc0 : cond0_0 i) (hc1 : ¬cond0_1 i) (x0 : Vec F S1x1000x3 .f32) (x1 : Vec F S1x1x3 .f32) (x2 : Vec F S1x3x3 .f32) (x3 : Vec F S1x480x640 .f32) (y : S1x480x640.Idx) :
    ∃ pc ∈ (kernelRun0_A c i arg2 harg2 arg3 harg3 arg4 harg4 arg5 harg5 arg6 harg6 hc0 hc1 x0 x1 x2 x3).1, y ∈ pc.1.set :=
  View.cover_of_tiledL (kernelRun0_A c i arg2 harg2 arg3 harg3 arg4 harg4 arg5 harg5 arg6 harg6 hc0 hc1 x0 x1 x2 x3).1 S1x480x640.size (by sl_kernel_rfl) y

/-- What case A leaves in the output buffer: its stores read back. The stores cover the block, so what they are
    written over does not matter; it is stated over arbitrary contents. -/
def out0_A_4 (c : Dev nD) (i : grid0.Coords) (arg2 : Memref sig .tc .vmem S1x1000x3 .f32) (harg2 : arg2.IsWhole) (arg3 : Memref sig .tc .vmem S1x1x3 .f32) (harg3 : arg3.IsWhole)
    (arg4 : Memref sig .tc .vmem S1x3x3 .f32) (harg4 : arg4.IsWhole) (arg5 : Memref sig .tc .vmem S1x480x640 .f32) (harg5 : arg5.IsWhole) (arg6 : Memref sig .tc .vmem S1x480x640 .f32) (harg6 : arg6.IsWhole)
    (hc0 : cond0_0 i) (hc1 : ¬cond0_1 i) (x0 : Vec F S1x1000x3 .f32) (x1 : Vec F S1x1x3 .f32) (x2 : Vec F S1x3x3 .f32) (x3 : Vec F S1x480x640 .f32) : Vec F S1x480x640 .f32 :=
  VO0_4.read (Elt F) (VO0_4.writes (Elt F) VO0_4.junk (kernelRun0_A c i arg2 harg2 arg3 harg3 arg4 harg4 arg5 harg5 arg6 harg6 hc0 hc1 x0 x1 x2 x3).1)

/-- Case B's stores into the output buffer tile its block as well. -/
theorem cover0_B_4 (c : Dev nD) (i : grid0.Coords) (arg2 : Memref sig .tc .vmem S1x1000x3 .f32) (harg2 : arg2.IsWhole) (arg3 : Memref sig .tc .vmem S1x1x3 .f32) (harg3 : arg3.IsWhole)
    (arg4 : Memref sig .tc .vmem S1x3x3 .f32) (harg4 : arg4.IsWhole) (arg5 : Memref sig .tc .vmem S1x480x640 .f32) (harg5 : arg5.IsWhole) (arg6 : Memref sig .tc .vmem S1x480x640 .f32) (harg6 : arg6.IsWhole)
    (hc0 : ¬cond0_0 i) (hc1 : cond0_1 i) (x0 : Vec F S1x1000x3 .f32) (x1 : Vec F S1x1x3 .f32) (x2 : Vec F S1x3x3 .f32) (x3 : Vec F S1x480x640 .f32) (xo4 : Vec F S1x480x640 .f32) (y : S1x480x640.Idx) :
    ∃ pc ∈ (kernelRun0_B c i arg2 harg2 arg3 harg3 arg4 harg4 arg5 harg5 arg6 harg6 hc0 hc1 x0 x1 x2 x3 xo4).1, y ∈ pc.1.set :=
  View.cover_of_tiledL (kernelRun0_B c i arg2 harg2 arg3 harg3 arg4 harg4 arg5 harg5 arg6 harg6 hc0 hc1 x0 x1 x2 x3 xo4).1 S1x480x640.size (by sl_kernel_rfl) y

/-- What case B leaves in the output buffer, given what the buffer held when the body was entered (`xo4`). -/
def out0_B_4 (c : Dev nD) (i : grid0.Coords) (arg2 : Memref sig .tc .vmem S1x1000x3 .f32) (harg2 : arg2.IsWhole) (arg3 : Memref sig .tc .vmem S1x1x3 .f32) (harg3 : arg3.IsWhole)
    (arg4 : Memref sig .tc .vmem S1x3x3 .f32) (harg4 : arg4.IsWhole) (arg5 : Memref sig .tc .vmem S1x480x640 .f32) (harg5 : arg5.IsWhole) (arg6 : Memref sig .tc .vmem S1x480x640 .f32) (harg6 : arg6.IsWhole)
    (hc0 : ¬cond0_0 i) (hc1 : cond0_1 i) (x0 : Vec F S1x1000x3 .f32) (x1 : Vec F S1x1x3 .f32) (x2 : Vec F S1x3x3 .f32) (x3 : Vec F S1x480x640 .f32) (xo4 : Vec F S1x480x640 .f32) : Vec F S1x480x640 .f32 :=
  VO0_4.read (Elt F) (VO0_4.writes (Elt F) VO0_4.junk (kernelRun0_B c i arg2 harg2 arg3 harg3 arg4 harg4 arg5 harg5 arg6 harg6 hc0 hc1 x0 x1 x2 x3 xo4).1)

/-! ## The output buffer point by point -/

/-- What the output window's staging buffer holds after the body at position `n`. At a batch's first chunk
    (`n % 200 = 0`) the body sets it: case A at the point's memrefs and input blocks. At any other chunk the body
    adds to what the chunk before left: case B at the point's memrefs and input blocks over the value at `n - 1`
    (the buffer is not written back between the two). -/
def outsAt0 (c : Dev nD) : (n : ℕ) → n < cfg0.N → Vec F S1x480x640 .f32
  | 0, hn =>
    out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩)
      ((hcond0_0 ⟨0, hn⟩).mpr (Nat.zero_mod _)) (fun h => (hcond0_1 ⟨0, hn⟩).mp h (Nat.zero_mod _))
      (iblk m c 0 ⟨0, hn⟩) (iblk m c 1 ⟨0, hn⟩) (iblk m c 2 ⟨0, hn⟩) (iblk m c 3 ⟨0, hn⟩)
  | n + 1, hn =>
    if h0 : (n + 1) % 200 = 0 then
      out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩)
        ((hcond0_0 ⟨n + 1, hn⟩).mpr h0) (fun h => (hcond0_1 ⟨n + 1, hn⟩).mp h h0)
        (iblk m c 0 ⟨n + 1, hn⟩) (iblk m c 1 ⟨n + 1, hn⟩) (iblk m c 2 ⟨n + 1, hn⟩) (iblk m c 3 ⟨n + 1, hn⟩)
    else
      out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩)
        (fun h => h0 ((hcond0_0 ⟨n + 1, hn⟩).mp h)) ((hcond0_1 ⟨n + 1, hn⟩).mpr h0)
        (iblk m c 0 ⟨n + 1, hn⟩) (iblk m c 1 ⟨n + 1, hn⟩) (iblk m c 2 ⟨n + 1, hn⟩) (iblk m c 3 ⟨n + 1, hn⟩) (outsAt0 c n (Nat.lt_of_succ_lt hn))

/-- `outsAt0` at a batch's first chunk: case A's contents. -/
theorem outsAt0_A (c : Dev nD) (t : Fin cfg0.N) (h0 : t.val % 200 = 0) :
    outsAt0 m c t.val t.isLt = out0_A_4 c (grid0.coords t) (ms0_0 t) (hs0_0 t) (ms0_1 t) (hs0_1 t) (ms0_2 t) (hs0_2 t) (ms0_3 t) (hs0_3 t) (ms0_4 t) (hs0_4 t)
      ((hcond0_0 t).mpr h0) (fun h => (hcond0_1 t).mp h h0) (iblk m c 0 t) (iblk m c 1 t) (iblk m c 2 t) (iblk m c 3 t) := by
  obtain ⟨n, hn⟩ := t
  cases n with
  | zero => exact rfl
  | succ n => exact (dif_pos h0).trans rfl

/-- `outsAt0` at any other chunk: case B's contents over what the point before left. -/
theorem outsAt0_B (c : Dev nD) (t : Fin cfg0.N) (h0 : ¬t.val % 200 = 0) :
    outsAt0 m c t.val t.isLt = out0_B_4 c (grid0.coords t) (ms0_0 t) (hs0_0 t) (ms0_1 t) (hs0_1 t) (ms0_2 t) (hs0_2 t) (ms0_3 t) (hs0_3 t) (ms0_4 t) (hs0_4 t)
      (fun h => h0 ((hcond0_0 t).mp h)) ((hcond0_1 t).mpr h0) (iblk m c 0 t) (iblk m c 1 t) (iblk m c 2 t) (iblk m c 3 t)
      (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans rfl

/-! ## The pipeline's proof data -/

/-- The proof data of the pipeline on core `c`: each window's array as the region finds it; after the body at point
    `t` each input window's buffer at its block (the body only reads it) and the output window's at `outsAt0`; the
    invariant the library's class invariant (the kernel has no scratch); nothing owed; the arrays held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt0 m c t.val t.isLt
  Φ _ := Pipeline.ΦA spec0 c
  q _ := fullShare
  owed _ := 0

/-- The proof data's arrays are the region-entry contents, by projecting the definition (the fold over the host
    prefix inside `V` is not opened). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outsAt0 m c t.val t.isLt := by dsimp only [dats]

/-- What the body finds in each input window's current buffer: the window's block, at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- At a chunk other than a batch's first the output window's current buffer holds what the body left at the point
    before: the point is not the first; the point before is not a batch's last chunk (`(t - 1) % 200 = 199` would make
    `t % 200 = 0`), so nothing was written back in between; the window is stored into at every point and is uncut. -/
theorem before0_4_B (c : Dev nD) (t : Fin cfg0.N) (h0 : ¬t.val % 200 = 0) (d) :
    (dats m 0 c).before 4 t d = outsAt0 m c (t.val - 1) (Nat.lt_of_le_of_lt (Nat.sub_le _ _) t.isLt) := by
  have hN : t.val < 800 := lt_of_lt_of_eq t.isLt (show cfg0.N = 800 from N_0)
  rw [Dat.before_out_kept _ 4 rfl t (by omega)
    (Bool.eq_false_iff.mpr fun h => by have := (flush0_4 _).mp h; dsimp only at this; omega)
    live0_4 (fun _ _ => rfl)]
  dsimp only [dats]

/-! ## The body obligation -/

/-- What the body is called with at point `t`: the invariant, what the core owes, and each window's current staging
    buffer at what it then holds. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- What it returns: the same at the next point, each buffer at what the body leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point. The input buffers hold their blocks. At a batch's first chunk case A's run applies to
    whatever the output buffer holds; at another chunk the output buffer holds what the point before left and case B's
    run applies to that. Either run hands the inputs back unchanged and the output buffer at its stores over some
    contents; the stores cover the block, so the buffer reads as `outsAt0` says. The invariant and what is owed pass
    through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  by_cases h0 : t.val % 200 = 0
  · rw [outsAt0_A m c t h0]
    unfold out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (fun h => (hcond0_1 t).mp h h0)
      (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro
    exact View.read_writes_of_cover _ _ _ _ _ (cover0_A_4 c _ _ _ _ _ _ _ _ _ _ _ _ _ _ _ _ _)
  · rw [outsAt0_B m c t h0]
    simp only [before0_4_B m c t h0]
    unfold out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) ((hcond0_1 t).mpr h0)
      (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro
    exact View.read_writes_of_cover _ _ _ _ _ (cover0_B_4 c _ _ _ _ _ _ _ _ _ _ _ _ _ _ _ _ _ _)

/-- The library's body obligation at every point: its conjunction over the five windows written out, and the output
    window's clause for an idle point discarded (no point is idle for it, `live0_4`). -/
theorem body_obligation (c : Dev nD) : BodyObligation (dats (F := F) m 0 c) (defs₀ (F := F)) Variants.none () Set.univ := fun t => by
  rw [bigSep_W0, bigSep_W0]
  rw [show cfg0.idle (4 : Fin 5) (cfg0.grid.coords t) = false from live0_4 _]
  exact sound_body m c t

/-! ## The run and the frame -/

-- the launch theorem's implicit arguments are found by unifying its conclusion with this one, which takes unfolding
-- plain definitions inside a metavariable's type
set_option backward.isDefEq.respectTransparency.types false in
/-- At the compiled mesh, for any values, from any memory with zero counters: every weakly fair execution of @main on
    the TensorCores terminates, and in every final state each array of the pipeline holds what the library computes
    from the proof data and every other unscoped buffer what the region found in it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any `F`: @main runs, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.KI.Pure.lean ====
/-
  The kernel body's arithmetic at one grid point as pure functions of the four blocks it loads (positions, camera position,
  rotation matrix, depth image): the depth, the projected point and its pixel for each of the 1000 particles; for each of the
  25 footprint offsets the rows, columns, the column one-hot matrix, the row one-hot matrix scaled by the kept weight, and the
  trip's yield (the accumulator plus their contraction over the particles); and the point's accumulated image, the fold of
  the yields from zero. Composed from the named payloads of the body, nothing else.
-/
import proofs.«147334_j72576357367816_1_alg».proof.Proof.Gen.KernelIdeal.Skeleton
import Idealize.ShloMosaic.Lib.Exec.Context

noncomputable section

namespace Cert.KernelIdeal.Hand

open Cert.KernelIdeal Cert.KernelIdeal.Gen Idealize.ShloMosaic Idealize.SL.Sem

variable {F : FTy → Type} [FloatOps F]

theorem trips_eq : k0_t1_loop.trips = 25 := by decide

section
variable (v0 : Vec F S1x1000x3 .f32) (v2 : Vec F S1x1x3 .f32) (v4 : Vec F S1x3x3 .f32) (v6 : Vec F S1x480x640 .f32)

/-- The particles' depths (camera-frame z). -/
def zv : FVec F S1000 .f32 := k0_pay18 (k0_pay10 v4) (k0_pay12 v0 v2) (k0_pay13 v0 v2) (k0_pay14 v0 v2)
/-- The projected points. -/
def pxv : FVec F S1000 .f32 := k0_pay20 (k0_pay10 v4) (k0_pay12 v0 v2) (k0_pay13 v0 v2) (k0_pay14 v0 v2) (k0_pay15 v0 v2 v4)
def pyv : FVec F S1000 .f32 := k0_pay21 (k0_pay10 v4) (k0_pay12 v0 v2) (k0_pay13 v0 v2) (k0_pay14 v0 v2) (k0_pay16 v0 v2 v4) (k0_pay17 v4)
/-- Their pixels. -/
def cxv : IVec S1000 32 := k0_pay22 (k0_pay10 v4) (k0_pay12 v0 v2) (k0_pay13 v0 v2) (k0_pay14 v0 v2) (k0_pay15 v0 v2 v4)
def cyv : IVec S1000 32 := k0_pay23 (k0_pay10 v4) (k0_pay12 v0 v2) (k0_pay13 v0 v2) (k0_pay14 v0 v2) (k0_pay16 v0 v2 v4) (k0_pay17 v4)
/-- Trip k: the rows, the columns, and the first three of the four in-image tests. -/
def rowv (k : Fin k0_t1_loop.trips) : IVec S1000 32 := k0_pay3 (cyv v0 v2 v4) 0#32 1#32 k
def colv (k : Fin k0_t1_loop.trips) : IVec S1000 32 := k0_pay4 (cxv v0 v2 v4) 0#32 1#32 k
def inbv (k : Fin k0_t1_loop.trips) : IVec S1000 1 := k0_pay5 (cxv v0 v2 v4) (cyv v0 v2 v4) 0#32 1#32 k
/-- Trip k: the column one-hot matrix [particle, column]. -/
def ohcv (k : Fin k0_t1_loop.trips) : FVec F S1000x640 .f32 :=
  k0_pay6 (F := F) (iota .tc S1000x640 32 [1] iota_S1000x640_d1_w32) (colv v0 v2 v4 k)
/-- Trip k: the row one-hot matrix scaled by the kept weight [particle, row]. -/
def rwv (k : Fin k0_t1_loop.trips) : FVec F S1000x480 .f32 :=
  k0_pay7 (k0_pay11 v6) (zv v0 v2 v4) (pxv v0 v2 v4) (pyv v0 v2 v4) (iota .tc S1000x480 32 [1] iota_S1000x480_d1_w32)
    (iota .tc S1000x640 32 [1] iota_S1000x640_d1_w32) (rowv v0 v2 v4 k) (colv v0 v2 v4 k) (inbv v0 v2 v4 k)
/-- Trip k's yield from the accumulator `acc`. -/
def tripYield (k : Fin k0_t1_loop.trips) (acc : FVec F S480x640 .f32) : FVec F S480x640 .f32 :=
  k0_pay25 acc (ohcv v0 v2 v4 k) (rwv v0 v2 v4 v6 k)
/-- The point's accumulated image: the yields folded over the 25 trips from zero. -/
def pointAcc : FVec F S480x640 .f32 := Scf.fold (tripYield v0 v2 v4 v6) (k0_pay24 (F := F))

end

end Cert.KernelIdeal.Hand

end
-- ==== Proof.KI.Value.lean ====
/-
  The kernel's VALUE off its frame run, for any float instance F: what the result array holds when @main ends, as a
  closed form of the launch contents.

  One grid point (batch b, chunk ch) computes, from the four blocks it loads, an image: the fold over the 25 footprint
  trips of the trip's yield, from the zero image (pointAcc). The body's run carries the image through the loop as a
  recursion on the trip; that recursion, over the values the body computes before the loop, is the fold
  (accTo_eq_pointAcc). So the one store of each of the body's two cases writes

    * at a batch's first chunk the image itself with a leading unit axis (out_A),
    * at any other chunk what the buffer held plus the image (out_B),

  and what the output window's staging buffer holds after point n is a recursion on n with no run inside (chain,
  outsAt_eq). The window's block is the batch's image; it is written back after the batch's last chunk, point
  200 b + 199, and these four blocks tile the result array. So the result array ends, at (b, r, q), at what point
  200 b + 199 leaves at (0, r, q) (result, final_o), and @main's run ends with the result array there and the four
  argument arrays as launched (run_value).
-/
import proofs.«147334_j72576357367816_1_alg».proof.Proof.KI.Frame
import proofs.«147334_j72576357367816_1_alg».proof.Proof.KI.Pure
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

variable {F : FTy → Type} [FloatOps F]

/-! ## The footprint loop's result is the point's fold -/

/-- A sequence that starts at `init` and advances by `g k` at step `k` is, after `k` steps, the fold of `g` over the first
    `k` trips. -/
theorem eq_foldl_take {σ : Type} {n : ℕ} (g : Fin n → σ → σ) (init : σ) (a : ℕ → σ) (h0 : a 0 = init)
    (hs : ∀ k : Fin n, a (k.val + 1) = g k (a k.val)) :
    ∀ k, k ≤ n → a k = ((List.finRange n).take k).foldl (fun acc k => g k acc) init
  | 0, _ => by rw [List.take_zero, List.foldl_nil, h0]
  | k + 1, hk => by
    have hlt : k < (List.finRange n).length := by rw [List.length_finRange]; omega
    rw [List.take_succ_eq_append_getElem hlt, List.foldl_append, ← eq_foldl_take g init a h0 hs k (by omega),
      List.getElem_finRange]
    exact hs ⟨k, by omega⟩

/-- So after all the trips it is `Scf.fold g init`. -/
theorem eq_fold {σ : Type} {n : ℕ} (g : Fin n → σ → σ) (init : σ) (a : ℕ → σ) (h0 : a 0 = init)
    (hs : ∀ k : Fin n, a (k.val + 1) = g k (a k.val)) : a n = Scf.fold g init := by
  rw [Scf.fold_eq, eq_foldl_take g init a h0 hs n (Nat.le_refl _), List.take_of_length_le (by rw [List.length_finRange])]

section
variable (v0 : Vec F S1x1000x3 .f32) (v2 : Vec F S1x1x3 .f32) (v4 : Vec F S1x3x3 .f32) (v6 : Vec F S1x480x640 .f32)

/-- One trip over the values the body computes from its four loaded blocks before the loop is the trip's yield. -/
theorem trip0_eq (k : Fin k0_t1_loop.trips) (acc : FVec F S480x640 .f32) :
    trip0 (k0_pay10 v4) (k0_pay11 v6) (k0_pay12 v0 v2) (k0_pay13 v0 v2) (k0_pay14 v0 v2) (k0_pay15 v0 v2 v4) (k0_pay16 v0 v2 v4)
      (k0_pay17 v4) (iota .tc S1000x480 32 [1] iota_S1000x480_d1_w32) (iota .tc S1000x640 32 [1] iota_S1000x640_d1_w32) k acc
    = tripYield v0 v2 v4 v6 k acc := rfl

/-- The block the loop carries out of its last trip, started from the zero block, is the point's accumulated image. -/
theorem accTo_eq_pointAcc :
    accTo (k0_pay10 v4) (k0_pay11 v6) (k0_pay12 v0 v2) (k0_pay13 v0 v2) (k0_pay14 v0 v2) (k0_pay15 v0 v2 v4) (k0_pay16 v0 v2 v4)
      (k0_pay17 v4) (iota .tc S1000x480 32 [1] iota_S1000x480_d1_w32) (iota .tc S1000x640 32 [1] iota_S1000x640_d1_w32)
      (k0_pay24 (F := F)) k0_t1_loop.trips
    = pointAcc v0 v2 v4 v6 :=
  eq_fold (tripYield v0 v2 v4 v6) (k0_pay24 (F := F)) _ rfl fun k => (accTo_succ _ _ _ _ _ _ _ _ _ _ _ k).trans (trip0_eq v0 v2 v4 v6 k _)

end

/-! ## What each case's store writes -/

theorem hz3 : (![0, 0, 0] : Fin 3 → Nat) = fun _ => 0 := funext fun a => by fin_cases a <;> rfl

/-- CASE A (a batch's first chunk): the body's one store covers the output block with the point's image under a leading
    unit axis. The image is what the loop carries out of its last trip from the zero image, over the values computed
    from the four loaded blocks; each load reads a whole buffer, so it reads the block the buffer holds. -/
theorem out_A (c : Dev nD) (i : grid0.Coords) (arg2 : Memref sig .tc .vmem S1x1000x3 .f32) (harg2 : arg2.IsWhole) (arg3 : Memref sig .tc .vmem S1x1x3 .f32) (harg3 : arg3.IsWhole)
    (arg4 : Memref sig .tc .vmem S1x3x3 .f32) (harg4 : arg4.IsWhole) (arg5 : Memref sig .tc .vmem S1x480x640 .f32) (harg5 : arg5.IsWhole) (arg6 : Memref sig .tc .vmem S1x480x640 .f32) (harg6 : arg6.IsWhole)
    (hc0 : cond0_0 i) (hc1 : ¬cond0_1 i) (x0 : Vec F S1x1000x3 .f32) (x1 : Vec F S1x1x3 .f32) (x2 : Vec F S1x3x3 .f32) (x3 : Vec F S1x480x640 .f32) :
    out0_A_4 c i arg2 harg2 arg3 harg3 arg4 harg4 arg5 harg5 arg6 harg6 hc0 hc1 x0 x1 x2 x3 = k0_pay1 (pointAcc x0 x1 x2 x3) := by
  unfold out0_A_4
  rw [View.read_writes_eq_canon _ _ _ (cover0_A_4 c i arg2 harg2 arg3 harg3 arg4 harg4 arg5 harg5 arg6 harg6 hc0 hc1 x0 x1 x2 x3)]
  unfold kernelRun0_A
  dsimp only
  sl_unfold_words
  rw [View.canon_unit_zero hz3]
  simp only [View.readAt_eq_ld, harg2.read_unread, harg3.read_unread, harg4.read_unread, harg5.read_unread,
    View.ld_unit_zero (S := S1x1000x3) hz3, View.ld_unit_zero (S := S1x1x3) hz3, View.ld_unit_zero (S := S1x3x3) hz3,
    View.ld_unit_zero (S := S1x480x640) hz3]
  exact congrArg k0_pay1 (accTo_eq_pointAcc x0 x1 x2 x3)

/-- CASE B (any other chunk): the one store covers the output block with what the buffer held plus the point's image. -/
theorem out_B (c : Dev nD) (i : grid0.Coords) (arg2 : Memref sig .tc .vmem S1x1000x3 .f32) (harg2 : arg2.IsWhole) (arg3 : Memref sig .tc .vmem S1x1x3 .f32) (harg3 : arg3.IsWhole)
    (arg4 : Memref sig .tc .vmem S1x3x3 .f32) (harg4 : arg4.IsWhole) (arg5 : Memref sig .tc .vmem S1x480x640 .f32) (harg5 : arg5.IsWhole) (arg6 : Memref sig .tc .vmem S1x480x640 .f32) (harg6 : arg6.IsWhole)
    (hc0 : ¬cond0_0 i) (hc1 : cond0_1 i) (x0 : Vec F S1x1000x3 .f32) (x1 : Vec F S1x1x3 .f32) (x2 : Vec F S1x3x3 .f32) (x3 : Vec F S1x480x640 .f32) (xo4 : Vec F S1x480x640 .f32) :
    out0_B_4 c i arg2 harg2 arg3 harg3 arg4 harg4 arg5 harg5 arg6 harg6 hc0 hc1 x0 x1 x2 x3 xo4 = k0_pay2 (pointAcc x0 x1 x2 x3) xo4 := by
  unfold out0_B_4
  rw [View.read_writes_eq_canon _ _ _ (cover0_B_4 c i arg2 harg2 arg3 harg3 arg4 harg4 arg5 harg5 arg6 harg6 hc0 hc1 x0 x1 x2 x3 xo4)]
  unfold kernelRun0_B
  dsimp only
  sl_unfold_words
  rw [View.canon_unit_zero hz3]
  simp only [View.readAt_eq_ld, harg2.read_unread, harg3.read_unread, harg4.read_unread, harg5.read_unread, harg6.read_unread,
    View.ld_unit_zero (S := S1x1000x3) hz3, View.ld_unit_zero (S := S1x1x3) hz3, View.ld_unit_zero (S := S1x3x3) hz3,
    View.ld_unit_zero (S := S1x480x640) hz3]
  exact congrArg (k0_pay2 · xo4) (accTo_eq_pointAcc x0 x1 x2 x3)

variable (m : (ℓ : Loc nD τ sig) → Buf (Elt F) ℓ) (ρ : Dev nD → PrngReg)

/-! ## The output buffer after each point, in closed form -/

/-- The image one grid point accumulates: the pure fold at the point's four input blocks. -/
def accAt (c : Dev nD) (t : Fin cfg0.N) : FVec F S480x640 .f32 :=
  pointAcc (iblk m c 0 t) (iblk m c 1 t) (iblk m c 2 t) (iblk m c 3 t)

/-- What the output window's staging buffer holds after point `n`: at a batch's first chunk the point's image, at any
    other chunk what the chunk before left plus the point's image. -/
def chain (c : Dev nD) : (n : ℕ) → n < cfg0.N → Vec F S1x480x640 .f32
  | 0, h => k0_pay1 (accAt m c ⟨0, h⟩)
  | n + 1, h =>
    if (n + 1) % 200 = 0 then k0_pay1 (accAt m c ⟨n + 1, h⟩)
    else k0_pay2 (accAt m c ⟨n + 1, h⟩) (chain c n (Nat.lt_of_succ_lt h))

/-- At a batch's first chunk. -/
theorem chain_A (c : Dev nD) (t : Fin cfg0.N) (h : t.val % 200 = 0) : chain m c t.val t.isLt = k0_pay1 (accAt m c t) := by
  obtain ⟨n, hn⟩ := t
  cases n with
  | zero => rfl
  | succ n => exact if_pos h

/-- At any other chunk. -/
theorem chain_B (c : Dev nD) (t : Fin cfg0.N) (h : ¬ t.val % 200 = 0) :
    chain m c t.val t.isLt = k0_pay2 (accAt m c t) (chain m c (t.val - 1) (Nat.lt_of_le_of_lt (Nat.sub_le _ _) t.isLt)) := by
  obtain ⟨n, hn⟩ := t
  cases n with
  | zero => exact absurd (Nat.zero_mod _) h
  | succ n => exact (if_neg h).trans rfl

/-- The value does not depend on how the point's position is written. -/
theorem chain_congr (c : Dev nD) {n n' : ℕ} (e : n = n') (h : n < cfg0.N) (h' : n' < cfg0.N) : chain m c n h = chain m c n' h' := by
  subst e; rfl

/-! ## The result array -/

theorem lastChunk_lt (b : ℕ) (hb : b < 4) : b * 200 + 199 < cfg0.N := by
  rw [show cfg0.N = 800 from N_0]; omega

/-- The result array: at (b, r, q) what the LAST chunk's point of batch b leaves at (0, r, q). -/
def result (c : Dev nD) : Buf (Elt F) ((c : Thread nD τ).loc main_v94) :=
  fun (i : S4x480x640.Idx) => chain m c ((i 0).val * 200 + 199) (lastChunk_lt _ (i 0).isLt) (ix3 (0 : Fin 1) (i 1 : Fin 480) (i 2 : Fin 640))

theorem result_apply (c : Dev nD) (b : Fin 4) (r : Fin 480) (q : Fin 640) :
    result m c (ix3 b r q) = chain m c (b.val * 200 + 199) (by have := b.isLt; rw [show cfg0.N = 800 from N_0]; omega) (ix3 (0 : Fin 1) r q) := rfl

/-- The result array read at an index whose batch's last point is `n`. -/
theorem result_at (c : Dev nD) (i : S4x480x640.Idx) (n : ℕ) (hn : n < cfg0.N) (y : S1x480x640.Idx)
    (h0 : (i 0).val * 200 + 199 = n) (h1 : (y 1).val = (i 1).val) (h2 : (y 2).val = (i 2).val) :
    result m c i = chain m c n hn y := by
  subst h0
  show chain m c _ _ (ix3 (0 : Fin 1) (i 1 : Fin 480) (i 2 : Fin 640)) = chain m c _ _ y
  congr 1
  funext a
  match a with
  | ⟨0, _⟩ => exact Fin.ext (by have : (y 0).val < 1 := (y 0).isLt; show (0 : ℕ) = (y 0).val; omega)
  | ⟨1, _⟩ => exact Fin.ext h1.symm
  | ⟨2, _⟩ => exact Fin.ext h2.symm

/-- What the output window's staging buffer holds after point `n` (the frame's recursion over the two cases' found
    pieces) IS the closed form — by induction on the point. -/
theorem outsAt_eq (c : Dev nD) : ∀ (n : ℕ) (h : n < cfg0.N), outsAt0 m c n h = chain m c n h
  | 0, h => by
    rw [outsAt0_A m c ⟨0, h⟩ (Nat.zero_mod _), chain_A m c ⟨0, h⟩ (Nat.zero_mod _)]
    exact out_A (F := F) c _ _ _ _ _ _ _ _ _ _ _ _ _ _ _ _ _
  | n + 1, h => by
    by_cases h0 : (n + 1) % 200 = 0
    · rw [outsAt0_A m c ⟨n + 1, h⟩ h0, chain_A m c ⟨n + 1, h⟩ h0]
      exact out_A (F := F) c _ _ _ _ _ _ _ _ _ _ _ _ _ _ _ _ _
    · rw [outsAt0_B m c ⟨n + 1, h⟩ h0, chain_B m c ⟨n + 1, h⟩ h0, out_B]
      show k0_pay2 _ (outsAt0 m c n _) = k0_pay2 _ (chain m c n _)
      rw [outsAt_eq c n]
      rfl

/-! ## The output window over the grid -/

/-- The output window's block index at point `t` is the batch, decided over the 800 points. -/
theorem idx_facts4 : ∀ t : Fin cfg0.N, win0_4.index t (0 : Fin 3) = t.val / 200 ∧ win0_4.index t (1 : Fin 3) = 0 ∧ win0_4.index t (2 : Fin 3) = 0 :=
  (by decide +kernel : ∀ t : Fin grid0.N, win0_4.index t (0 : Fin 3) = t.val / 200 ∧ win0_4.index t (1 : Fin 3) = 0 ∧ win0_4.index t (2 : Fin 3) = 0)

/-- An index of the result array is in point `t`'s block iff each coordinate is in the block's range on its axis. -/
theorem mem_blk4 (t : Fin cfg0.N) (i : S4x480x640.Idx) :
    i ∈ ((cfg0.win 4).blk t).view.set ↔ ∀ a : Fin 3, win0_4.index t a * S1x480x640.size a ≤ (i a).val ∧ (i a).val < win0_4.index t a * S1x480x640.size a + S1x480x640.size a := by
  show i ∈ ((View.whole main_v94).slice (win0_4.rect t)).set ↔ _
  rw [View.set_slice_whole, Rect.mem_set_unit]
  exact Iff.rfl

/-- The block of the result array a batch's last point writes back is what that point leaves in the buffer. -/
theorem read_result (c : Dev nD) (t : Fin cfg0.N) (hf : t.val % 200 = 199) :
    ((cfg0.win 4).blk t).view.read (Elt F) (result m c) = chain m c t.val t.isLt := by
  obtain ⟨e0, e1, e2⟩ := idx_facts4 t
  have hN : t.val < 800 := lt_of_lt_of_eq t.isLt (show cfg0.N = 800 from N_0)
  funext x
  rw [View.read_apply]
  refine result_at m c _ t.val t.isLt x ?_ ?_ ?_
  · show (win0_4.index t (0 : Fin 3) * 1 + 1 * (x 0).val) * 200 + 199 = t.val
    have : (x 0).val < 1 := (x 0).isLt
    omega
  · show (x 1).val = win0_4.index t (1 : Fin 3) * 480 + 1 * (x 1).val
    omega
  · show (x 2).val = win0_4.index t (2 : Fin 3) * 640 + 1 * (x 2).val
    omega

/-- Every index of the result array is in the block of its batch's last point. -/
theorem cover4 (i : S4x480x640.Idx) : ∃ t : Fin cfg0.N, (cfg0.win 4).flush t = true ∧ i ∈ ((cfg0.win 4).blk t).view.set := by
  have hb : (i 0).val < 4 := (i 0).isLt
  have hr : (i 1).val < 480 := (i 1).isLt
  have hq : (i 2).val < 640 := (i 2).isLt
  refine ⟨⟨(i 0).val * 200 + 199, lastChunk_lt _ hb⟩, (flush0_4 _).mpr (by show ((i 0).val * 200 + 199) % 200 = 199; omega), ?_⟩
  rw [mem_blk4]
  obtain ⟨e0, e1, e2⟩ := idx_facts4 ⟨(i 0).val * 200 + 199, lastChunk_lt _ hb⟩
  have e0' : win0_4.index ⟨(i 0).val * 200 + 199, lastChunk_lt _ hb⟩ (0 : Fin 3) = (i 0).val := by rw [e0]; show ((i 0).val * 200 + 199) / 200 = _; omega
  intro a
  match a with
  | ⟨0, _⟩ => show win0_4.index _ (0 : Fin 3) * 1 ≤ (i 0).val ∧ (i 0).val < win0_4.index _ (0 : Fin 3) * 1 + 1; omega
  | ⟨1, _⟩ => show win0_4.index _ (1 : Fin 3) * 480 ≤ (i 1).val ∧ (i 1).val < win0_4.index _ (1 : Fin 3) * 480 + 480; omega
  | ⟨2, _⟩ => show win0_4.index _ (2 : Fin 3) * 640 ≤ (i 2).val ∧ (i 2).val < win0_4.index _ (2 : Fin 3) * 640 + 640; omega

/-! ## The result array after the run -/

/-- What a batch's last point writes back is its block of the result array. -/
theorem flushed_eq (c : Dev nD) (t : Fin cfg0.N) (hf : (cfg0.win 4).flush t = true) :
    (dats m 0 c).flushed 4 t = ((cfg0.win 4).blk t).view.read (Elt F) (result m c) := by
  show (cfg0.win 4).cut (grid0.coords t) ((dats m 0 c).after 4 t) = _
  rw [after0_4, outsAt_eq, read_result m c t ((flush0_4 t).mp hf)]
  rfl

/-- So the result array ends holding `result`: the four written-back blocks tile it. -/
theorem final_o (c : Dev nD) : (dats m 0 c).arrAt 4 cfg0.N = result m c :=
  (dats m 0 c).arrAt_eq_of_cover 4 (result m c) (flushed_eq m c) cover4

/-- The run, read: the result array at the closed form, the four argument arrays as launched. -/
theorem run_value : θ_run defs (onTc (τ := τ) (main (F := F))) ⟨m, fun _ => 0, ρ⟩ fun r => ∀ c : Dev nD,
      r.2.mem ((c.tc : Thread nD τ).loc main_v94) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).1 4).trans (final_o m c),
     ((h c).1 0).trans (((dats m 0 c).arrAt_in 0 rfl _).trans ((A_eq m c 0).trans (V_main_arg0 m c))),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).1 3).trans (((dats m 0 c).arrAt_in 3 rfl _).trans ((A_eq m c 3).trans (V_main_arg3 m c)))⟩) (run_main m ρ)

end Cert.KernelIdeal.Hand

end
-- ==== Proof.Spec.lean ====
/-
  The specification of the splat: what both programs compute, one particle and one footprint offset at a time.

  Per batch b and particle n: the camera-frame coordinates are the three-term products of the offset position with a column
  of the rotation matrix; the projection divides by the depth where it is positive (by one elsewhere), scales by the focal
  length and shifts to the principal point; the pixel is the floor, as a 32-bit integer. Per footprint offset (ky, kx), each in
  {-2, …, 2}: the row and column, whether they lie in the image, their clamps, the Gaussian weight of the distance from the
  projected point to the pixel centre, the depth image at the clamped pixel, the visibility test, and the weight kept when
  visible. The image is the sum, over particles and offsets whose clamped pixel is (r, c), of the kept weights.
  Everything is an extended real or a 32-bit word; no array operation occurs here.
-/
import Idealize.ShloMosaic.PureOps.Ideal
import Idealize.ShloMosaic.Lib.ValueIdx

noncomputable section

namespace Cert.Spec

open Idealize.ShloMosaic Idealize.ShloMosaic.ValueIdx
open scoped BigOperators

/-- An extended real: the value of a 32-bit float at the exact instance. -/
abbrev E : Type := Ideal .f32

abbrev SLocs : Shape := ⟨3, ![4, 200000, 3]⟩
abbrev SPose : Shape := ⟨2, ![4, 3]⟩
abbrev SRotm : Shape := ⟨3, ![4, 3, 3]⟩
abbrev SDepth : Shape := ⟨3, ![4, 480, 640]⟩

/-- The float constants of the programs, by their patterns: 0, 1, 2, the focal length 540 and the principal point (320, 240). -/
def k0 : E := FloatOps.ofBits (F := Ideal) .f32 0x00000000#32
def k1 : E := FloatOps.ofBits (F := Ideal) .f32 0x3F800000#32
def k2 : E := FloatOps.ofBits (F := Ideal) .f32 0x40000000#32
def kf : E := FloatOps.ofBits (F := Ideal) .f32 0x44070000#32
def kcx : E := FloatOps.ofBits (F := Ideal) .f32 0x43A00000#32
def kcy : E := FloatOps.ofBits (F := Ideal) .f32 0x43700000#32

section
variable (L : SLocs.Idx → E) (P : SPose.Idx → E) (R : SRotm.Idx → E) (D : SDepth.Idx → E)

/-- Coordinate k of particle n's position relative to the camera of batch b. -/
def rel (b : Fin 4) (n : Fin 200000) (k : Fin 3) : E := FloatOps.subf (L (ix3 b n k)) (P (ix2 b k))

/-- Camera-frame coordinate j: the position relative to the camera against column j of the rotation matrix. -/
def cam (b : Fin 4) (n : Fin 200000) (j : Fin 3) : E :=
  FloatOps.addf (FloatOps.addf (FloatOps.mulf (rel L P b n 0) (R (ix3 b 0 j))) (FloatOps.mulf (rel L P b n 1) (R (ix3 b 1 j))))
    (FloatOps.mulf (rel L P b n 2) (R (ix3 b 2 j)))

/-- The depth where it is positive, one elsewhere. -/
def zs (b : Fin 4) (n : Fin 200000) : E :=
  Scalar.select (FloatOps.cmpf .ogt (cam L P R b n 2) k0) (cam L P R b n 2) k1

/-- The projected point. -/
def px (b : Fin 4) (n : Fin 200000) : E := FloatOps.addf (FloatOps.mulf (FloatOps.divf (cam L P R b n 0) (zs L P R b n)) kf) kcx
def py (b : Fin 4) (n : Fin 200000) : E := FloatOps.addf (FloatOps.mulf (FloatOps.divf (cam L P R b n 1) (zs L P R b n)) kf) kcy

/-- Its pixel: the floors, as 32-bit integers. -/
def cx (b : Fin 4) (n : Fin 200000) : BitVec 32 := FloatOps.fptosi 32 (FloatOps.floor (px L P R b n))
def cy (b : Fin 4) (n : Fin 200000) : BitVec 32 := FloatOps.fptosi 32 (FloatOps.floor (py L P R b n))

/-- Footprint offset k ∈ {0, …, 4} as the word k - 2. -/
def off (k : Fin 5) : BitVec 32 := IntOp.subi (BitVec.ofNat 32 k.val) 2#32

def row (b : Fin 4) (n : Fin 200000) (ky : Fin 5) : BitVec 32 := IntOp.addi (cy L P R b n) (off ky)
def col (b : Fin 4) (n : Fin 200000) (kx : Fin 5) : BitVec 32 := IntOp.addi (cx L P R b n) (off kx)

/-- The clamp of a word to [lo, hi] in the signed order, as both programs spell it. -/
def clamp (lo hi x : BitVec 32) : BitVec 32 := IntOp.minsi hi (IntOp.maxsi lo x)

def rowc (b : Fin 4) (n : Fin 200000) (ky : Fin 5) : BitVec 32 := clamp 0#32 479#32 (row L P R b n ky)
def colc (b : Fin 4) (n : Fin 200000) (kx : Fin 5) : BitVec 32 := clamp 0#32 639#32 (col L P R b n kx)

/-- The pixel lies in the image. -/
def inb (b : Fin 4) (n : Fin 200000) (ky kx : Fin 5) : BitVec 1 :=
  IntOp.andi (IntOp.andi (IntOp.andi (IntOp.cmpi .sge (row L P R b n ky) 0#32) (IntOp.cmpi .slt (row L P R b n ky) 480#32))
    (IntOp.cmpi .sge (col L P R b n kx) 0#32)) (IntOp.cmpi .slt (col L P R b n kx) 640#32)

/-- The Gaussian weight of the pixel centre's distance from the projected point. -/
def gw (b : Fin 4) (n : Fin 200000) (ky kx : Fin 5) : E :=
  FloatOps.mulf k1 (FloatOps.exp (FloatOps.divf (FloatOps.subf k0
    (FloatOps.addf
      (FloatOps.mulf (FloatOps.subf (FloatOps.sitofp .f32 (row L P R b n ky)) (py L P R b n)) (FloatOps.subf (FloatOps.sitofp .f32 (row L P R b n ky)) (py L P R b n)))
      (FloatOps.mulf (FloatOps.subf (FloatOps.sitofp .f32 (col L P R b n kx)) (px L P R b n)) (FloatOps.subf (FloatOps.sitofp .f32 (col L P R b n kx)) (px L P R b n)))))
    k2))

/-- The clamped row and column as indices of the image. -/
def rI (b : Fin 4) (n : Fin 200000) (ky : Fin 5) : Fin 480 := ⟨(rowc L P R b n ky).toNat % 480, Nat.mod_lt _ (by decide)⟩
def cI (b : Fin 4) (n : Fin 200000) (kx : Fin 5) : Fin 640 := ⟨(colc L P R b n kx).toNat % 640, Nat.mod_lt _ (by decide)⟩

/-- The occlusion depth at the clamped pixel. -/
def dval (b : Fin 4) (n : Fin 200000) (ky kx : Fin 5) : E := D (ix3 b (rI L P R b n ky) (cI L P R b n kx))

/-- In the image, in front of the camera, and not behind the depth image. -/
def valid (b : Fin 4) (n : Fin 200000) (ky kx : Fin 5) : BitVec 1 :=
  IntOp.andi (IntOp.andi (inb L P R b n ky kx) (FloatOps.cmpf .ogt (cam L P R b n 2) k0))
    (FloatOps.cmpf .ole (cam L P R b n 2) (dval L P R D b n ky kx))

/-- The weight kept when visible. -/
def wt (b : Fin 4) (n : Fin 200000) (ky kx : Fin 5) : E := Scalar.select (valid L P R D b n ky kx) (gw L P R b n ky kx) k0

/-- THE IMAGE: at pixel (r, c) of batch b, the sum over particles and footprint offsets whose clamped pixel is (r, c) of
    the kept weights. -/
def splat (b : Fin 4) (r : Fin 480) (c : Fin 640) : E :=
  ∑ n : Fin 200000, ∑ ky : Fin 5, ∑ kx : Fin 5,
    if (BitVec.ofNat 32 r.val = rowc L P R b n ky ∧ BitVec.ofNat 32 c.val = colc L P R b n kx) then wt L P R D b n ky kx else 0

end

/-! ## Numbering: particle n = chunk · 1000 + lane, footprint offset k = 5 · ky + kx -/

/-- Particle `p` of chunk `ch`. -/
def pn (ch : Fin 200) (p : Fin 1000) : Fin 200000 := ⟨ch.val * 1000 + p.val, by have := ch.isLt; have := p.isLt; omega⟩
/-- The row offset and the column offset of the loop's trip `k`. -/
def kyOf (k : Fin 25) : Fin 5 := ⟨k.val / 5, by have := k.isLt; omega⟩
def kxOf (k : Fin 25) : Fin 5 := ⟨k.val % 5, by omega⟩

/-! ## The clamp's range -/

/-- A clamp to [0, hi] with 0 ≤ hi < 2^31 is a word between 0 and hi in the signed order; so it is its own natural number. -/
theorem clamp_range (hi x : BitVec 32) (hhi : hi.toNat < 2 ^ 31) :
    (clamp 0#32 hi x).toNat ≤ hi.toNat ∧ (clamp 0#32 hi x).toInt = ((clamp 0#32 hi x).toNat : Int) := by
  unfold clamp IntOp.minsi IntOp.maxsi
  have h0 : (0#32 : BitVec 32).toInt = 0 := by decide
  have key : ∀ y : BitVec 32, 0 ≤ y.toInt → y.toInt = (y.toNat : Int) := by
    intro y hy
    have hlt := y.isLt
    rw [BitVec.toInt_eq_toNat_cond] at hy ⊢
    split_ifs at hy ⊢ with h
    · rfl
    · omega
  have hhiI : hi.toInt = (hi.toNat : Int) := by
    rw [BitVec.toInt_eq_toNat_cond, if_pos (by omega)]
  by_cases h1 : x.slt 0#32 = true
  · rw [if_pos h1]
    by_cases h2 : hi.slt 0#32 = true
    · exfalso; have := BitVec.slt_iff_toInt_lt.mp h2; omega
    · rw [if_neg h2]; exact ⟨by simp, by decide⟩
  · rw [if_neg h1]
    have hx : 0 ≤ x.toInt := by
      by_contra hc; exact h1 (BitVec.slt_iff_toInt_lt.mpr (by omega))
    by_cases h2 : hi.slt x = true
    · rw [if_pos h2]; exact ⟨le_refl _, hhiI⟩
    · rw [if_neg h2]
      have h3 : ¬ hi.toInt < x.toInt := fun h => h2 (BitVec.slt_iff_toInt_lt.mpr h)
      have hxN := key x hx
      exact ⟨by omega, hxN⟩

end Cert.Spec

end
-- ==== Proof.KI.PointValue.lean ====
/-
  The splat kernel's arithmetic at one grid point, read at an index, is the specification's.

  Per particle p of the chunk: the position relative to the camera, the three camera-frame coordinates, the guarded
  depth, the projected point and its pixel are the specification's scalars at particle chunk · 1000 + p. Per footprint
  offset (trip k of 25, row offset k / 5 − 2 and column offset k % 5 − 2): the row and the column, the in-image tests, the
  row and column one-hot matrices (one exactly at the clamped row, the clamped column), the depth image at the clamped
  pixel — a contraction of the row one-hot matrix with the image, then a sum against the column one-hot matrix, each a
  sum with ONE non-zero term —, the kept weight, and the trip's yield: the accumulator plus the contraction over the
  particles of the weighted row one-hot matrix with the column one-hot matrix, which at pixel (r, c) is the sum of the
  kept weights of the particles whose clamped pixel is (r, c). Folding the 25 yields from zero gives the point's image.
  Only 0 · x = 0, 1 · x = x and 0 + x = x are used of the extended reals' arithmetic: no distributivity, no cancellation.
-/
import proofs.«147334_j72576357367816_1_alg».proof.Proof.KI.Pure
import proofs.«147334_j72576357367816_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx
open scoped BigOperators

/-! ## Shape operations at an index: a trailing unit axis, a unit block, a static position -/

section Layout
variable {α : Type}

/-- An [a, 1] array cast to [a] reads, at i, the operand at (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An [a] array cast to [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A [1, 1, a] array cast to [a] reads, at i, the operand at (0, 0, i). -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

/-- One column [a, 1] broadcast over b columns reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The unit block of a vector at offset o, read at its static position 0, is the vector at o. -/
theorem extractAt_slice1 {n : ℕ} (o : ℕ) (x : (⟨1, ![n]⟩ : Shape).Idx → α)
    (hs : (⟨1, ![n]⟩ : Shape).Slices ![o] ⟨1, ![1]⟩) (hp : ∀ a, (![0] : Fin 1 → ℕ) a < (⟨1, ![1]⟩ : Shape).size a)
    (k : Fin n) (hk : k.val = o) :
    extractAt ![0] (extractStridedSlice ⟨1, ![1]⟩ ![o] x hs) hp = x (ix1 k) := by
  unfold extractAt
  refine extractStridedSlice_apply _ x hs _ (ix1 k) fun ax => ?_
  match ax with
  | ⟨0, _⟩ => show k.val = o + 0; omega

/-- The unit block of a matrix at offsets (o0, o1), read at its static position (0, 0), is the matrix at (o0, o1). -/
theorem extractAt_slice2 {n0 n1 : ℕ} (o0 o1 : ℕ) (x : (⟨2, ![n0, n1]⟩ : Shape).Idx → α)
    (hs : (⟨2, ![n0, n1]⟩ : Shape).Slices ![o0, o1] ⟨2, ![1, 1]⟩)
    (hp : ∀ a, (![0, 0] : Fin 2 → ℕ) a < (⟨2, ![1, 1]⟩ : Shape).size a)
    (j : Fin n0) (k : Fin n1) (hj : j.val = o0) (hk : k.val = o1) :
    extractAt ![0, 0] (extractStridedSlice ⟨2, ![1, 1]⟩ ![o0, o1] x hs) hp = x (ix2 j k) := by
  unfold extractAt
  refine extractStridedSlice_apply _ x hs _ (ix2 j k) fun ax => ?_
  match ax with
  | ⟨0, _⟩ => show j.val = o0 + 0; omega
  | ⟨1, _⟩ => show k.val = o1 + 0; omega

end Layout

/-! ## The loaded blocks as blocks of the arrays -/

/-- The four blocks a grid point loads are the blocks of batch b (and, for the positions, chunk ch) of the four arrays. -/
structure Loaded (v0 : Vec Ideal S1x1000x3 .f32) (v2 : Vec Ideal S1x1x3 .f32) (v4 : Vec Ideal S1x3x3 .f32) (v6 : Vec Ideal S1x480x640 .f32)
    (L : Spec.SLocs.Idx → Spec.E) (P : Spec.SPose.Idx → Spec.E) (R : Spec.SRotm.Idx → Spec.E) (D : Spec.SDepth.Idx → Spec.E)
    (b : Fin 4) (ch : Fin 200) : Prop where
  h0 : ∀ (p : Fin 1000) (k : Fin 3), v0 (ix3 (0 : Fin 1) p k) = L (ix3 b (Spec.pn ch p) k)
  h2 : ∀ k : Fin 3, v2 (ix3 (0 : Fin 1) (0 : Fin 1) k) = P (ix2 b k)
  h4 : ∀ j k : Fin 3, v4 (ix3 (0 : Fin 1) j k) = R (ix3 b j k)
  h6 : ∀ (r : Fin 480) (c : Fin 640), v6 (ix3 (0 : Fin 1) r c) = D (ix3 b r c)

section Point
variable {v0 : Vec Ideal S1x1000x3 .f32} {v2 : Vec Ideal S1x1x3 .f32} {v4 : Vec Ideal S1x3x3 .f32} {v6 : Vec Ideal S1x480x640 .f32}
  {L : Spec.SLocs.Idx → Spec.E} {P : Spec.SPose.Idx → Spec.E} {R : Spec.SRotm.Idx → Spec.E} {D : Spec.SDepth.Idx → Spec.E}
  {b : Fin 4} {ch : Fin 200}

/-- Column k of the positions block, as a vector over the particles, at particle p. -/
theorem posCol_apply (v0 : Vec Ideal S1x1000x3 .f32) (o : ℕ) (hs : S1000x3.Slices ![0, o] S1000x1) (p : Fin 1000) (k : Fin 3) (hk : k.val = o) :
    shapeCast S1000 (extractStridedSlice S1000x1 ![0, o] (k0_pay8 v0) hs) shapeCasts_S1000x1_S1000 (ix1 p)
      = v0 (ix3 (0 : Fin 1) p k) := by
  refine (shapeCast_a1_a_apply _ _ p).trans ?_
  refine (slice2_axis1_apply o _ hs p (0 : Fin 1) k (by show k.val = o + 0; omega)).trans ?_
  exact shapeCast_1ab_ab_apply v0 _ p k

/-- Coordinate k of the camera position block. -/
theorem camPos_apply (v2 : Vec Ideal S1x1x3 .f32) (o : ℕ) (hs : S3.Slices ![o] S1) (k : Fin 3) (hk : k.val = o) :
    extractAt ![0] (extractStridedSlice S1 ![o] (k0_pay9 v2) hs) inpos_S1_p0 = v2 (ix3 (0 : Fin 1) (0 : Fin 1) k) :=
  (extractAt_slice1 o _ hs _ k hk).trans (shapeCast_11a_a_apply v2 _ k)

/-- Entry (j, k) of the rotation block. -/
theorem rot_apply (v4 : Vec Ideal S1x3x3 .f32) (o0 o1 : ℕ) (hs : S3x3.Slices ![o0, o1] S1x1) (j k : Fin 3) (hj : j.val = o0) (hk : k.val = o1) :
    extractAt ![0, 0] (extractStridedSlice S1x1 ![o0, o1] (k0_pay10 v4) hs) inpos_S1x1_p0_0 = v4 (ix3 (0 : Fin 1) j k) :=
  (extractAt_slice2 o0 o1 _ hs _ j k hj hk).trans (shapeCast_1ab_ab_apply v4 _ j k)

/-- The position relative to the camera, coordinate 0, at particle p. -/
theorem rel0_apply (hl : Loaded v0 v2 v4 v6 L P R D b ch) (p : Fin 1000) :
    k0_pay12 v0 v2 (ix1 p) = Spec.rel L P b (Spec.pn ch p) 0 :=
  congrArg₂ FloatOps.subf ((posCol_apply v0 0 _ p 0 rfl).trans (hl.h0 p 0)) ((camPos_apply v2 0 _ 0 rfl).trans (hl.h2 0))

/-- Coordinate 1. -/
theorem rel1_apply (hl : Loaded v0 v2 v4 v6 L P R D b ch) (p : Fin 1000) :
    k0_pay13 v0 v2 (ix1 p) = Spec.rel L P b (Spec.pn ch p) 1 :=
  congrArg₂ FloatOps.subf ((posCol_apply v0 1 _ p 1 rfl).trans (hl.h0 p 1)) ((camPos_apply v2 1 _ 1 rfl).trans (hl.h2 1))

/-- Coordinate 2. -/
theorem rel2_apply (hl : Loaded v0 v2 v4 v6 L P R D b ch) (p : Fin 1000) :
    k0_pay14 v0 v2 (ix1 p) = Spec.rel L P b (Spec.pn ch p) 2 :=
  congrArg₂ FloatOps.subf ((posCol_apply v0 2 _ p 2 rfl).trans (hl.h0 p 2)) ((camPos_apply v2 2 _ 2 rfl).trans (hl.h2 2))

/-- Entry (j, k) of the rotation matrix of batch b. -/
theorem rotm_apply (hl : Loaded v0 v2 v4 v6 L P R D b ch) (o0 o1 : ℕ) (hs : S3x3.Slices ![o0, o1] S1x1) (j k : Fin 3)
    (hj : j.val = o0) (hk : k.val = o1) :
    extractAt ![0, 0] (extractStridedSlice S1x1 ![o0, o1] (k0_pay10 v4) hs) inpos_S1x1_p0_0 = R (ix3 b j k) :=
  (rot_apply v4 o0 o1 hs j k hj hk).trans (hl.h4 j k)

/-- The camera-frame x at particle p. -/
theorem cam0_apply (hl : Loaded v0 v2 v4 v6 L P R D b ch) (p : Fin 1000) :
    k0_pay15 v0 v2 v4 (ix1 p) = Spec.cam L P R b (Spec.pn ch p) 0 :=
  congrArg₂ FloatOps.addf
    (congrArg₂ FloatOps.addf (congrArg₂ FloatOps.mulf (rel0_apply hl p) (rotm_apply hl 0 0 _ 0 0 rfl rfl))
      (congrArg₂ FloatOps.mulf (rel1_apply hl p) (rotm_apply hl 1 0 _ 1 0 rfl rfl)))
    (congrArg₂ FloatOps.mulf (rel2_apply hl p) (rotm_apply hl 2 0 _ 2 0 rfl rfl))

/-- The depth (camera-frame z) at particle p. -/
theorem zv_apply (hl : Loaded v0 v2 v4 v6 L P R D b ch) (p : Fin 1000) :
    zv v0 v2 v4 (ix1 p) = Spec.cam L P R b (Spec.pn ch p) 2 :=
  congrArg₂ FloatOps.addf
    (congrArg₂ FloatOps.addf (congrArg₂ FloatOps.mulf (rel0_apply hl p) (rotm_apply hl 0 2 _ 0 2 rfl rfl))
      (congrArg₂ FloatOps.mulf (rel1_apply hl p) (rotm_apply hl 1 2 _ 1 2 rfl rfl)))
    (congrArg₂ FloatOps.mulf (rel2_apply hl p) (rotm_apply hl 2 2 _ 2 2 rfl rfl))

/-- The guarded depth (the depth where positive, one elsewhere) at particle p. -/
theorem zs_apply (hl : Loaded v0 v2 v4 v6 L P R D b ch) (p : Fin 1000) :
    k0_pay19 (k0_pay10 v4) (k0_pay12 v0 v2) (k0_pay13 v0 v2) (k0_pay14 v0 v2) (ix1 p) = Spec.zs L P R b (Spec.pn ch p) := by
  show Scalar.select (FloatOps.cmpf .ogt (zv v0 v2 v4 (ix1 p)) Spec.k0) (zv v0 v2 v4 (ix1 p)) Spec.k1 = _
  rw [zv_apply hl p]
  rfl

/-- The projected x at particle p. -/
theorem pxv_apply (hl : Loaded v0 v2 v4 v6 L P R D b ch) (p : Fin 1000) :
    pxv v0 v2 v4 (ix1 p) = Spec.px L P R b (Spec.pn ch p) :=
  congrArg (fun t => FloatOps.addf (FloatOps.mulf t Spec.kf) Spec.kcx) (congrArg₂ FloatOps.divf (cam0_apply hl p) (zs_apply hl p))

/-- The projected y at particle p. -/
theorem pyv_apply (hl : Loaded v0 v2 v4 v6 L P R D b ch) (p : Fin 1000) :
    pyv v0 v2 v4 (ix1 p) = Spec.py L P R b (Spec.pn ch p) := by
  have ecam : FloatOps.addf (FloatOps.addf (k0_pay16 v0 v2 v4 (ix1 p)) (FloatOps.mulf (k0_pay13 v0 v2 (ix1 p)) (k0_pay17 v4)))
      (FloatOps.mulf (k0_pay14 v0 v2 (ix1 p))
        (extractAt ![0, 0] (extractStridedSlice S1x1 ![2, 1] (k0_pay10 v4) slices_S3x3_o2_1_S1x1) inpos_S1x1_p0_0))
      = Spec.cam L P R b (Spec.pn ch p) 1 :=
    congrArg₂ FloatOps.addf
      (congrArg₂ FloatOps.addf (congrArg₂ FloatOps.mulf (rel0_apply hl p) (rotm_apply hl 0 1 _ 0 1 rfl rfl))
        (congrArg₂ FloatOps.mulf (rel1_apply hl p) (rotm_apply hl 1 1 _ 1 1 rfl rfl)))
      (congrArg₂ FloatOps.mulf (rel2_apply hl p) (rotm_apply hl 2 1 _ 2 1 rfl rfl))
  exact congrArg (fun t => FloatOps.addf (FloatOps.mulf t Spec.kf) Spec.kcy) (congrArg₂ FloatOps.divf ecam (zs_apply hl p))

/-- The pixel column at particle p. -/
theorem cxv_apply (hl : Loaded v0 v2 v4 v6 L P R D b ch) (p : Fin 1000) :
    cxv v0 v2 v4 (ix1 p) = Spec.cx L P R b (Spec.pn ch p) :=
  congrArg (fun t => FloatOps.fptosi 32 (FloatOps.floor t)) (pxv_apply hl p)

/-- The pixel row at particle p. -/
theorem cyv_apply (hl : Loaded v0 v2 v4 v6 L P R D b ch) (p : Fin 1000) :
    cyv v0 v2 v4 (ix1 p) = Spec.cy L P R b (Spec.pn ch p) :=
  congrArg (fun t => FloatOps.fptosi 32 (FloatOps.floor t)) (pyv_apply hl p)

end Point

/-! ## The footprint offsets of trip k -/

/-- The floor of a word's quotient by 5, as the loop body spells it: the quotient rounded toward zero, less one where the
    signs of dividend and divisor differ and the remainder is not zero. -/
def floorDiv5 (a : BitVec 32) : BitVec 32 :=
  Scalar.select
    (Scalar.andi
      (Scalar.cmpi .ne
        (Scalar.subi (Scalar.extui (Scalar.cmpi .sgt a 0#32)) (Scalar.extui (Scalar.cmpi .slt a 0#32)))
        (Scalar.subi (Scalar.extui (Scalar.cmpi .sgt 5#32 0#32)) (Scalar.extui (Scalar.cmpi .slt 5#32 0#32))))
      (Scalar.cmpi .ne (Scalar.remsi a 5#32) 0#32))
    (Scalar.subi (Scalar.divsi a 5#32) 1#32) (Scalar.divsi a 5#32)

/-- The remainder of the floor division by 5, as the loop body spells it: the remainder of the dividend's sign, plus the
    divisor where that remainder is not zero and its sign differs from the divisor's (the divisor replaced by one were it zero). -/
def floorMod5 (a : BitVec 32) : BitVec 32 :=
  Scalar.select
    (Scalar.andi
      (Scalar.xori (Scalar.cmpi .slt (Scalar.remsi a (Scalar.select (Scalar.cmpi .eq 5#32 0#32) 1#32 5#32)) 0#32)
        (Scalar.cmpi .slt (Scalar.select (Scalar.cmpi .eq 5#32 0#32) 1#32 5#32) 0#32))
      (Scalar.cmpi .ne (Scalar.remsi a (Scalar.select (Scalar.cmpi .eq 5#32 0#32) 1#32 5#32)) 0#32))
    (Scalar.addi (Scalar.remsi a (Scalar.select (Scalar.cmpi .eq 5#32 0#32) 1#32 5#32)) (Scalar.select (Scalar.cmpi .eq 5#32 0#32) 1#32 5#32))
    (Scalar.remsi a (Scalar.select (Scalar.cmpi .eq 5#32 0#32) 1#32 5#32))

/-- At each of the 25 trips the row offset is the word (k / 5) − 2. -/
theorem offY_eq : ∀ k : Fin k0_t1_loop.trips,
    Scalar.subi (floorDiv5 (Scf.iv 0#32 1#32 k)) 2#32 = Spec.off (Spec.kyOf (k.cast trips_eq)) := by decide

/-- At each of the 25 trips the column offset is the word (k % 5) − 2. -/
theorem offX_eq : ∀ k : Fin k0_t1_loop.trips,
    Scalar.subi (floorMod5 (Scf.iv 0#32 1#32 k)) 2#32 = Spec.off (Spec.kxOf (k.cast trips_eq)) := by decide

/-! ## The rows, the columns and the one-hot matrices of trip k -/

/-- The float of a widened equality test of two words: one where they are equal, zero elsewhere. -/
theorem onehot_val (x y : BitVec 32) :
    FloatOps.sitofp (F := Ideal) .f32 ((IntOp.cmpi .eq x y).setWidth 32) = if x = y then (1 : EReal) else 0 := by
  by_cases h : x = y
  · subst h
    rw [if_pos rfl]
    have h1 : IntOp.cmpi .eq x x = 1#1 := by simp [IntOp.cmpi]
    rw [h1]
    show (((((1#1 : BitVec 1).setWidth 32).toInt : ℝ)) : EReal) = 1
    have h2 : ((1#1 : BitVec 1).setWidth 32).toInt = 1 := by decide
    rw [h2]; simp
  · rw [if_neg h]
    have h1 : IntOp.cmpi .eq x y = 0#1 := by
      show BitVec.ofBool (x == y) = 0#1
      rw [beq_eq_false_iff_ne.mpr h]; rfl
    rw [h1]
    show (((((0#1 : BitVec 1).setWidth 32).toInt : ℝ)) : EReal) = 0
    have h2 : ((0#1 : BitVec 1).setWidth 32).toInt = 0 := by decide
    rw [h2]; simp

/-- A vector of words, clamped to [0, hi], as a column broadcast over b lanes, at (p, c): the clamp of the word at p. -/
theorem clampCol_apply {nb : ℕ} (hi : BitVec 32) (v : IVec S1000 32) (hb : S1000x1.Broadcasts ⟨2, ![1000, nb]⟩) (p : Fin 1000) (c : Fin nb) :
    broadcastTo ⟨2, ![1000, nb]⟩ (shapeCast S1000x1 (minsi (broadcast S1000 hi) (maxsi (broadcast S1000 0#32) v)) shapeCasts_S1000_S1000x1) hb (ix2 p c)
      = Spec.clamp 0#32 hi (v (ix1 p)) :=
  (broadcastTo_a1_ab_apply _ hb p c).trans (shapeCast_a_a1_apply _ shapeCasts_S1000_S1000x1 p 0)

/-- The column one-hot matrix of a vector of columns, at (p, c): one where column c is the clamp of the column at particle p. -/
theorem pay6_apply (v129 : IVec S1000 32) (p : Fin 1000) (c : Fin 640) :
    k0_pay6 (F := Ideal) (iota .tc S1000x640 32 [1] iota_S1000x640_d1_w32) v129 (ix2 p c)
      = if BitVec.ofNat 32 c.val = Spec.clamp 0#32 639#32 (v129 (ix1 p)) then (1 : EReal) else 0 := by
  refine Eq.trans ?_ (onehot_val _ _)
  exact congrArg₂ (fun s t => FloatOps.sitofp (F := Ideal) .f32 ((IntOp.cmpi .eq s t).setWidth 32))
    (iota_single_apply .tc S1000x640 32 1 iota_S1000x640_d1_w32 (ix2 p c))
    (clampCol_apply 639#32 v129 broadcasts_S1000x1_S1000x640 p c)

section Trip
variable {v0 : Vec Ideal S1x1000x3 .f32} {v2 : Vec Ideal S1x1x3 .f32} {v4 : Vec Ideal S1x3x3 .f32} {v6 : Vec Ideal S1x480x640 .f32}
  {L : Spec.SLocs.Idx → Spec.E} {P : Spec.SPose.Idx → Spec.E} {R : Spec.SRotm.Idx → Spec.E} {D : Spec.SDepth.Idx → Spec.E}
  {b : Fin 4} {ch : Fin 200}

/-- The row of trip k at particle p. -/
theorem rowv_apply (hl : Loaded v0 v2 v4 v6 L P R D b ch) (k : Fin k0_t1_loop.trips) (p : Fin 1000) :
    rowv v0 v2 v4 k (ix1 p) = Spec.row L P R b (Spec.pn ch p) (Spec.kyOf (k.cast trips_eq)) :=
  congrArg₂ IntOp.addi (cyv_apply hl p) (offY_eq k)

/-- The column of trip k at particle p. -/
theorem colv_apply (hl : Loaded v0 v2 v4 v6 L P R D b ch) (k : Fin k0_t1_loop.trips) (p : Fin 1000) :
    colv v0 v2 v4 k (ix1 p) = Spec.col L P R b (Spec.pn ch p) (Spec.kxOf (k.cast trips_eq)) :=
  congrArg₂ IntOp.addi (cxv_apply hl p) (offX_eq k)

/-- The first three in-image tests of trip k at particle p. -/
theorem inbv_apply (hl : Loaded v0 v2 v4 v6 L P R D b ch) (k : Fin k0_t1_loop.trips) (p : Fin 1000) :
    inbv v0 v2 v4 k (ix1 p)
      = IntOp.andi (IntOp.andi (IntOp.cmpi .sge (Spec.row L P R b (Spec.pn ch p) (Spec.kyOf (k.cast trips_eq))) 0#32)
            (IntOp.cmpi .slt (Spec.row L P R b (Spec.pn ch p) (Spec.kyOf (k.cast trips_eq))) 480#32))
          (IntOp.cmpi .sge (Spec.col L P R b (Spec.pn ch p) (Spec.kxOf (k.cast trips_eq))) 0#32) :=
  congrArg₂ (fun r c => IntOp.andi (IntOp.andi (IntOp.cmpi .sge r 0#32) (IntOp.cmpi .slt r 480#32)) (IntOp.cmpi .sge c 0#32))
    (rowv_apply hl k p) (colv_apply hl k p)

/-- The column one-hot matrix of trip k at (p, c). -/
theorem ohcv_apply (hl : Loaded v0 v2 v4 v6 L P R D b ch) (k : Fin k0_t1_loop.trips) (p : Fin 1000) (c : Fin 640) :
    ohcv (F := Ideal) v0 v2 v4 k (ix2 p c)
      = if BitVec.ofNat 32 c.val = Spec.colc L P R b (Spec.pn ch p) (Spec.kxOf (k.cast trips_eq)) then (1 : EReal) else 0 := by
  refine (pay6_apply _ p c).trans ?_
  rw [colv_apply hl k p]
  rfl

end Trip

/-! ## Sums against a one-hot row, and a clamped word as an index -/

/-- A sum of products whose left factors are one at exactly one index and zero elsewhere is the right factor there. -/
theorem sum_onehot_mul {n : ℕ} (Q : Fin n → Prop) [DecidablePred Q] (i0 : Fin n) (h : ∀ i, Q i ↔ i = i0) (f : Fin n → EReal) :
    ∑ i, (if Q i then (1 : EReal) else 0) * f i = f i0 := by
  rw [Finset.sum_eq_single i0]
  · rw [if_pos ((h i0).mpr rfl), one_mul]
  · intro i _ hne
    rw [if_neg (fun hq => hne ((h i).mp hq)), zero_mul]
  · intro hni
    exact absurd (Finset.mem_univ _) hni

/-- The same with the one-hot factors on the right. -/
theorem sum_mul_onehot {n : ℕ} (Q : Fin n → Prop) [DecidablePred Q] (i0 : Fin n) (h : ∀ i, Q i ↔ i = i0) (f : Fin n → EReal) :
    ∑ i, f i * (if Q i then (1 : EReal) else 0) = f i0 := by
  rw [Finset.sum_eq_single i0]
  · rw [if_pos ((h i0).mpr rfl), mul_one]
  · intro i _ hne
    rw [if_neg (fun hq => hne ((h i).mp hq)), mul_zero]
  · intro hni
    exact absurd (Finset.mem_univ _) hni

/-- An index below n is, as a word, the clamp of x to [0, hi] (hi < n ≤ 2^31) exactly when it is that clamp's number. -/
theorem ofNat_eq_clamp_iff {n : ℕ} (hi : BitVec 32) (hhi : hi.toNat < n) (hn : n ≤ 2 ^ 31) (x : BitVec 32) (r : Fin n) :
    BitVec.ofNat 32 r.val = Spec.clamp 0#32 hi x ↔ r.val = (Spec.clamp 0#32 hi x).toNat % n := by
  have hle := (Spec.clamp_range hi x (by omega)).1
  rw [Nat.mod_eq_of_lt (show (Spec.clamp 0#32 hi x).toNat < n by omega)]
  constructor
  · intro h
    have h' := congrArg BitVec.toNat h
    rw [BitVec.toNat_ofNat, Nat.mod_eq_of_lt (by have := r.isLt; omega)] at h'
    exact h'
  · intro h
    apply BitVec.eq_of_toNat_eq
    rw [BitVec.toNat_ofNat, h]
    exact Nat.mod_eq_of_lt (Spec.clamp 0#32 hi x).isLt

/-- A word's clamp to [0, 479] as a row of the image, and to [0, 639] as a column. -/
def rowIx (x : BitVec 32) : Fin 480 := ⟨(Spec.clamp 0#32 479#32 x).toNat % 480, Nat.mod_lt _ (by decide)⟩
def colIx (x : BitVec 32) : Fin 640 := ⟨(Spec.clamp 0#32 639#32 x).toNat % 640, Nat.mod_lt _ (by decide)⟩

theorem row_onehot_iff (x : BitVec 32) (r : Fin 480) : BitVec.ofNat 32 r.val = Spec.clamp 0#32 479#32 x ↔ r = rowIx x :=
  (ofNat_eq_clamp_iff 479#32 (by decide) (by decide) x r).trans (Fin.ext_iff (a := r) (b := rowIx x)).symm

theorem col_onehot_iff (x : BitVec 32) (c : Fin 640) : BitVec.ofNat 32 c.val = Spec.clamp 0#32 639#32 x ↔ c = colIx x :=
  (ofNat_eq_clamp_iff 639#32 (by decide) (by decide) x c).trans (Fin.ext_iff (a := c) (b := colIx x)).symm

/-! ## The two contractions' index maps, coordinate by coordinate -/

/-- The gather's dimension numbers ([p, r] against [r, c]) and the scatter's ([p, r] against [p, c], both contracting p). -/
abbrev D₁ : DotDims S1000x480 S480x640 S1000x640 := dot_S1000x480_S480x640_S1000x640_1_0_0_1_n_n
abbrev D₂ : DotDims S1000x480 S1000x640 S480x640 := dot_S1000x480_S1000x640_S480x640_0_0_1_1_n_n

/-- The gather's contraction runs over the 480 rows; the scatter's over the 1000 particles. -/
def e₁ : D₁.contr.Idx ≃ Fin 480 := contrEquiv1 D₁ 480 rfl rfl
def e₂ : D₂.contr.Idx ≃ Fin 1000 := contrEquiv1 D₂ 1000 rfl rfl

theorem lhs₁_0 (j : S1000x640.Idx) (q : D₁.contr.Idx) : (D₁.lhsIdx j q 0 : ℕ) = j 0 := by
  simp [DotDims.lhsIdx, dot_S1000x480_S480x640_S1000x640_1_0_0_1_n_n]; rfl
theorem lhs₁_1 (j : S1000x640.Idx) (q : D₁.contr.Idx) : (D₁.lhsIdx j q 1 : ℕ) = q ⟨0, by decide⟩ :=
  D₁.lhsIdx_val_of_single (cl := 1) rfl j q
theorem rhs₁_0 (j : S1000x640.Idx) (q : D₁.contr.Idx) : (D₁.rhsIdx j q 0 : ℕ) = q ⟨0, by decide⟩ :=
  D₁.rhsIdx_val_of_single (cr := 0) rfl j q
theorem rhs₁_1 (j : S1000x640.Idx) (q : D₁.contr.Idx) : (D₁.rhsIdx j q 1 : ℕ) = j 1 := by
  simp [DotDims.rhsIdx, dot_S1000x480_S480x640_S1000x640_1_0_0_1_n_n]; rfl

theorem lhs₂_0 (j : S480x640.Idx) (q : D₂.contr.Idx) : (D₂.lhsIdx j q 0 : ℕ) = q ⟨0, by decide⟩ :=
  D₂.lhsIdx_val_of_single (cl := 0) rfl j q
theorem lhs₂_1 (j : S480x640.Idx) (q : D₂.contr.Idx) : (D₂.lhsIdx j q 1 : ℕ) = j 0 := by
  simp [DotDims.lhsIdx, dot_S1000x480_S1000x640_S480x640_0_0_1_1_n_n]; rfl
theorem rhs₂_0 (j : S480x640.Idx) (q : D₂.contr.Idx) : (D₂.rhsIdx j q 0 : ℕ) = q ⟨0, by decide⟩ :=
  D₂.rhsIdx_val_of_single (cr := 0) rfl j q
theorem rhs₂_1 (j : S480x640.Idx) (q : D₂.contr.Idx) : (D₂.rhsIdx j q 1 : ℕ) = j 1 := by
  simp [DotDims.rhsIdx, dot_S1000x480_S1000x640_S480x640_0_0_1_1_n_n]; rfl

/-- The gather's operand indices at output (p, c) and row r: (p, r) and (r, c). -/
theorem lhsIdx₁_eq (p : Fin 1000) (c : Fin 640) (r : Fin 480) : D₁.lhsIdx (ix2 p c) (e₁.symm r) = ix2 p r := by
  funext a
  refine Fin.ext ?_
  match a with
  | ⟨0, _⟩ => exact lhs₁_0 _ _
  | ⟨1, _⟩ => exact (lhs₁_1 _ _).trans (contrEquiv1_symm_val D₁ 480 rfl rfl r)
theorem rhsIdx₁_eq (p : Fin 1000) (c : Fin 640) (r : Fin 480) : D₁.rhsIdx (ix2 p c) (e₁.symm r) = ix2 r c := by
  funext a
  refine Fin.ext ?_
  match a with
  | ⟨0, _⟩ => exact (rhs₁_0 _ _).trans (contrEquiv1_symm_val D₁ 480 rfl rfl r)
  | ⟨1, _⟩ => exact rhs₁_1 _ _

/-- The scatter's operand indices at output (r, c) and particle p: (p, r) and (p, c). -/
theorem lhsIdx₂_eq (r : Fin 480) (c : Fin 640) (p : Fin 1000) : D₂.lhsIdx (ix2 r c) (e₂.symm p) = ix2 p r := by
  funext a
  refine Fin.ext ?_
  match a with
  | ⟨0, _⟩ => exact (lhs₂_0 _ _).trans (contrEquiv1_symm_val D₂ 1000 rfl rfl p)
  | ⟨1, _⟩ => exact lhs₂_1 _ _
theorem rhsIdx₂_eq (r : Fin 480) (c : Fin 640) (p : Fin 1000) : D₂.rhsIdx (ix2 r c) (e₂.symm p) = ix2 p c := by
  funext a
  refine Fin.ext ?_
  match a with
  | ⟨0, _⟩ => exact (rhs₂_0 _ _).trans (contrEquiv1_symm_val D₂ 1000 rfl rfl p)
  | ⟨1, _⟩ => exact rhs₂_1 _ _

/-! ## The row one-hot matrix, the depth at the clamped pixel, and the weighted row matrix -/

/-- The row one-hot matrix [particle, row] of a vector of rows: the lane index compared with the clamped row. -/
def ohrOf (v127 : IVec S1000 32) : FVec Ideal S1000x480 .f32 :=
  sitofp .f32 (extui 32 (cmpi .eq (iota .tc S1000x480 32 [1] iota_S1000x480_d1_w32)
    (broadcastTo S1000x480 (shapeCast S1000x1 (minsi (broadcast S1000 479#32) (maxsi (broadcast S1000 0#32) v127)) shapeCasts_S1000_S1000x1)
      broadcasts_S1000x1_S1000x480)) natLt_1_32)

/-- At (p, r): one where row r is the clamp of the row at particle p. -/
theorem ohrOf_apply (v127 : IVec S1000 32) (p : Fin 1000) (r : Fin 480) :
    ohrOf v127 (ix2 p r) = if BitVec.ofNat 32 r.val = Spec.clamp 0#32 479#32 (v127 (ix1 p)) then (1 : EReal) else 0 := by
  refine Eq.trans ?_ (onehot_val _ _)
  exact congrArg₂ (fun s t => FloatOps.sitofp (F := Ideal) .f32 ((IntOp.cmpi .eq s t).setWidth 32))
    (iota_single_apply .tc S1000x480 32 1 iota_S1000x480_d1_w32 (ix2 p r))
    (clampCol_apply 479#32 v127 broadcasts_S1000x1_S1000x480 p r)

/-- The one-hot rows against the depth image: [particle, column]. -/
def dotOf (v7 : FVec Ideal S480x640 .f32) (v127 : IVec S1000 32) : FVec Ideal S1000x640 .f32 :=
  matmul D₁ (some .fp32) (ohrOf v127) v7 (constant S1000x640 .f32 0x00000000#32)

/-- At (p, c) it is the depth image at the clamped row of particle p and column c: the sum over the rows has one term. -/
theorem dotOf_apply (v7 : FVec Ideal S480x640 .f32) (v127 : IVec S1000 32) (p : Fin 1000) (c : Fin 640) :
    dotOf v7 v127 (ix2 p c) = v7 (ix2 (rowIx (v127 (ix1 p))) c) := by
  refine (Ideal.matmul_constant_zero_apply D₁ (some .fp32) (ohrOf v127) v7 (ix2 p c)).trans ?_
  rw [← Equiv.sum_comp e₁.symm]
  refine (Finset.sum_congr rfl fun r _ => ?_).trans
    (sum_onehot_mul (fun r : Fin 480 => BitVec.ofNat 32 r.val = Spec.clamp 0#32 479#32 (v127 (ix1 p))) (rowIx (v127 (ix1 p)))
      (row_onehot_iff _) (fun r => v7 (ix2 r c)))
  rw [lhsIdx₁_eq, rhsIdx₁_eq, ohrOf_apply]

/-- The depth at the clamped pixel, per particle: the gathered rows against the column one-hot matrix, summed over the columns. -/
def gatherOf (v7 : FVec Ideal S480x640 .f32) (v127 v129 : IVec S1000 32) : FVec Ideal S1000 .f32 :=
  multiReduction .add [1] S1000
    (mulf (dotOf v7 v127) (k0_pay6 (F := Ideal) (iota .tc S1000x640 32 [1] iota_S1000x640_d1_w32) v129))
    0x00000000#32 reduces_S1000x640_S1000 (.inl rfl) rfl

/-- The index over particle p with column c put back. -/
theorem lift_eq (p : Fin 1000) (c : Fin 640) :
    Shape.Reduces.lift (s := S1000x640) (a := 1) (t := S1000) reduces_S1000x640_S1000 (ix1 p) c = ix2 p c := by
  funext a
  refine Fin.ext ?_
  match a with
  | ⟨0, _⟩ => rfl
  | ⟨1, _⟩ => rfl

/-- At particle p it is the depth image at the clamped pixel: the sum over the columns has one term. -/
theorem gatherOf_apply (v7 : FVec Ideal S480x640 .f32) (v127 v129 : IVec S1000 32) (p : Fin 1000) :
    gatherOf v7 v127 v129 (ix1 p) = v7 (ix2 (rowIx (v127 (ix1 p))) (colIx (v129 (ix1 p)))) := by
  refine (Ideal.multiReduction_add_single _ 0x00000000#32 reduces_S1000x640_S1000 (.inl rfl) rfl (ix1 p)).trans ?_
  show ∑ c : Fin 640, mulf (dotOf v7 v127) (k0_pay6 (F := Ideal) (iota .tc S1000x640 32 [1] iota_S1000x640_d1_w32) v129)
      (Shape.Reduces.lift (s := S1000x640) (a := 1) (t := S1000) reduces_S1000x640_S1000 (ix1 p) c) = _
  refine (Finset.sum_congr rfl fun c _ => ?_).trans
    (sum_mul_onehot (fun c : Fin 640 => BitVec.ofNat 32 c.val = Spec.clamp 0#32 639#32 (v129 (ix1 p))) (colIx (v129 (ix1 p)))
      (col_onehot_iff _) (fun c => v7 (ix2 (rowIx (v127 (ix1 p))) c)))
  rw [lift_eq]
  show dotOf v7 v127 (ix2 p c) * k0_pay6 (F := Ideal) (iota .tc S1000x640 32 [1] iota_S1000x640_d1_w32) v129 (ix2 p c) = _
  rw [dotOf_apply, pay6_apply]

/-- The weighted row matrix at (p, r), over any inputs: the row one-hot entry times the weight kept at particle p (the
    Gaussian weight where the pixel is in the image, the depth positive and not behind the depth image; zero elsewhere). -/
theorem pay7_apply (v7 : FVec Ideal S480x640 .f32) (v67 v76 v81 : FVec Ideal S1000 .f32) (v127 v129 : IVec S1000 32) (v137 : IVec S1000 1)
    (p : Fin 1000) (r : Fin 480) :
    k0_pay7 v7 v67 v76 v81 (iota .tc S1000x480 32 [1] iota_S1000x480_d1_w32) (iota .tc S1000x640 32 [1] iota_S1000x640_d1_w32)
        v127 v129 v137 (ix2 p r)
      = FloatOps.mulf (ohrOf v127 (ix2 p r))
        (Scalar.select
          (IntOp.andi
            (IntOp.andi (IntOp.andi (v137 (ix1 p)) (IntOp.cmpi .slt (v129 (ix1 p)) 640#32)) (FloatOps.cmpf .ogt (v67 (ix1 p)) Spec.k0))
            (FloatOps.cmpf .ole (v67 (ix1 p)) (gatherOf v7 v127 v129 (ix1 p))))
          (FloatOps.mulf Spec.k1 (FloatOps.exp (FloatOps.divf (FloatOps.subf Spec.k0
            (FloatOps.addf
              (FloatOps.mulf (FloatOps.subf (FloatOps.sitofp .f32 (v127 (ix1 p))) (v81 (ix1 p)))
                (FloatOps.subf (FloatOps.sitofp .f32 (v127 (ix1 p))) (v81 (ix1 p))))
              (FloatOps.mulf (FloatOps.subf (FloatOps.sitofp .f32 (v129 (ix1 p))) (v76 (ix1 p)))
                (FloatOps.subf (FloatOps.sitofp .f32 (v129 (ix1 p))) (v76 (ix1 p))))))
            Spec.k2)))
          Spec.k0) :=
  congrArg (FloatOps.mulf (ohrOf v127 (ix2 p r)))
    ((broadcastTo_a1_ab_apply _ broadcasts_S1000x1_S1000x480 p r).trans (shapeCast_a_a1_apply _ shapeCasts_S1000_S1000x1 p 0))

/-- A product of a one-hot entry, a weight and a one-hot entry is the weight where both hold, zero elsewhere. -/
theorem onehot_mul_mul (A B : Prop) [Decidable A] [Decidable B] (w : EReal) :
    (if A then (1 : EReal) else 0) * w * (if B then (1 : EReal) else 0) = if A ∧ B then w else 0 := by
  by_cases hA : A <;> by_cases hB : B <;> simp [hA, hB]

/-- A left fold of yields, each adding a term at index i, is at i the start plus the terms' sum. -/
theorem foldl_yield_apply {n : ℕ} {ι : Type} (g : Fin n → (ι → EReal) → (ι → EReal)) (t : Fin n → EReal) (i : ι)
    (hg : ∀ k acc, g k acc i = acc i + t k) :
    ∀ (l : List (Fin n)) (init : ι → EReal), l.foldl (fun acc k => g k acc) init i = init i + (l.map t).sum
  | [], init => by simp
  | k :: l, init => by
    rw [List.foldl_cons, foldl_yield_apply g t i hg l (g k init), hg, List.map_cons, List.sum_cons, add_assoc]

section Yield
variable {v0 : Vec Ideal S1x1000x3 .f32} {v2 : Vec Ideal S1x1x3 .f32} {v4 : Vec Ideal S1x3x3 .f32} {v6 : Vec Ideal S1x480x640 .f32}
  {L : Spec.SLocs.Idx → Spec.E} {P : Spec.SPose.Idx → Spec.E} {R : Spec.SRotm.Idx → Spec.E} {D : Spec.SDepth.Idx → Spec.E}
  {b : Fin 4} {ch : Fin 200}

/-- The depth image block at (r, c). -/
theorem depth_apply (hl : Loaded v0 v2 v4 v6 L P R D b ch) (r : Fin 480) (c : Fin 640) : k0_pay11 v6 (ix2 r c) = D (ix3 b r c) :=
  (shapeCast_1ab_ab_apply v6 _ r c).trans (hl.h6 r c)

/-- The weighted row matrix of trip k at (p, r): the row one-hot entry times the kept weight of particle p at the trip's offset. -/
theorem rwv_apply (hl : Loaded v0 v2 v4 v6 L P R D b ch) (k : Fin k0_t1_loop.trips) (p : Fin 1000) (r : Fin 480) :
    rwv v0 v2 v4 v6 k (ix2 p r)
      = (if BitVec.ofNat 32 r.val = Spec.rowc L P R b (Spec.pn ch p) (Spec.kyOf (k.cast trips_eq)) then (1 : EReal) else 0)
        * Spec.wt L P R D b (Spec.pn ch p) (Spec.kyOf (k.cast trips_eq)) (Spec.kxOf (k.cast trips_eq)) := by
  refine (pay7_apply _ _ _ _ _ _ _ p r).trans ?_
  rw [ohrOf_apply, gatherOf_apply, rowv_apply hl k p, colv_apply hl k p, inbv_apply hl k p, zv_apply hl p, pxv_apply hl p,
    pyv_apply hl p, depth_apply hl]
  rfl

end Yield

/-- TRIP k's YIELD at pixel (r, c): the accumulator there plus, over the chunk's particles whose clamped pixel at the trip's
    offset is (r, c), the kept weights. -/
theorem tripYield_apply
    (v0 : Vec Ideal S1x1000x3 .f32) (v2 : Vec Ideal S1x1x3 .f32) (v4 : Vec Ideal S1x3x3 .f32) (v6 : Vec Ideal S1x480x640 .f32)
    (L : Spec.SLocs.Idx → Spec.E) (P : Spec.SPose.Idx → Spec.E) (R : Spec.SRotm.Idx → Spec.E) (D : Spec.SDepth.Idx → Spec.E) (b : Fin 4) (ch : Fin 200)
    (h0 : ∀ (p : Fin 1000) (k : Fin 3), v0 (ix3 (0 : Fin 1) p k) = L (ix3 b (Spec.pn ch p) k))
    (h2 : ∀ k : Fin 3, v2 (ix3 (0 : Fin 1) (0 : Fin 1) k) = P (ix2 b k))
    (h4 : ∀ j k : Fin 3, v4 (ix3 (0 : Fin 1) j k) = R (ix3 b j k))
    (h6 : ∀ (r : Fin 480) (c : Fin 640), v6 (ix3 (0 : Fin 1) r c) = D (ix3 b r c))
    (k : Fin k0_t1_loop.trips) (acc : FVec Ideal S480x640 .f32) (r : Fin 480) (c : Fin 640) :
    tripYield v0 v2 v4 v6 k acc (ix2 r c)
      = acc (ix2 r c) + ∑ p : Fin 1000,
          if (BitVec.ofNat 32 r.val = Spec.rowc L P R b (Spec.pn ch p) (Spec.kyOf (k.cast trips_eq)) ∧ BitVec.ofNat 32 c.val = Spec.colc L P R b (Spec.pn ch p) (Spec.kxOf (k.cast trips_eq)))
          then Spec.wt L P R D b (Spec.pn ch p) (Spec.kyOf (k.cast trips_eq)) (Spec.kxOf (k.cast trips_eq)) else 0 := by
  have hl : Loaded v0 v2 v4 v6 L P R D b ch := ⟨h0, h2, h4, h6⟩
  show acc (ix2 r c) + matmul D₂ none (rwv v0 v2 v4 v6 k) (ohcv v0 v2 v4 k) (constant S480x640 .f32 0x00000000#32) (ix2 r c) = _
  refine congrArg (acc (ix2 r c) + ·) ?_
  refine (Ideal.matmul_constant_zero_apply D₂ none (rwv v0 v2 v4 v6 k) (ohcv v0 v2 v4 k) (ix2 r c)).trans ?_
  rw [← Equiv.sum_comp e₂.symm]
  refine Finset.sum_congr rfl fun p _ => ?_
  rw [lhsIdx₂_eq, rhsIdx₂_eq, rwv_apply hl k p r, ohcv_apply hl k p c]
  exact onehot_mul_mul _ _ _

/-- THE POINT'S IMAGE at pixel (r, c): over the 25 footprint offsets and the chunk's particles whose clamped pixel at the
    offset is (r, c), the kept weights. -/
theorem pointAcc_apply
    (v0 : Vec Ideal S1x1000x3 .f32) (v2 : Vec Ideal S1x1x3 .f32) (v4 : Vec Ideal S1x3x3 .f32) (v6 : Vec Ideal S1x480x640 .f32)
    (L : Spec.SLocs.Idx → Spec.E) (P : Spec.SPose.Idx → Spec.E) (R : Spec.SRotm.Idx → Spec.E) (D : Spec.SDepth.Idx → Spec.E) (b : Fin 4) (ch : Fin 200)
    (h0 : ∀ (p : Fin 1000) (k : Fin 3), v0 (ix3 (0 : Fin 1) p k) = L (ix3 b (Spec.pn ch p) k))
    (h2 : ∀ k : Fin 3, v2 (ix3 (0 : Fin 1) (0 : Fin 1) k) = P (ix2 b k))
    (h4 : ∀ j k : Fin 3, v4 (ix3 (0 : Fin 1) j k) = R (ix3 b j k))
    (h6 : ∀ (r : Fin 480) (c : Fin 640), v6 (ix3 (0 : Fin 1) r c) = D (ix3 b r c))
    (r : Fin 480) (c : Fin 640) :
    pointAcc v0 v2 v4 v6 (ix2 r c)
      = ∑ k : Fin 25, ∑ p : Fin 1000,
          if (BitVec.ofNat 32 r.val = Spec.rowc L P R b (Spec.pn ch p) (Spec.kyOf k) ∧ BitVec.ofNat 32 c.val = Spec.colc L P R b (Spec.pn ch p) (Spec.kxOf k))
          then Spec.wt L P R D b (Spec.pn ch p) (Spec.kyOf k) (Spec.kxOf k) else 0 := by
  unfold pointAcc
  rw [Scf.fold_eq,
    foldl_yield_apply (tripYield v0 v2 v4 v6)
      (fun k => ∑ p : Fin 1000,
        if (BitVec.ofNat 32 r.val = Spec.rowc L P R b (Spec.pn ch p) (Spec.kyOf (k.cast trips_eq)) ∧ BitVec.ofNat 32 c.val = Spec.colc L P R b (Spec.pn ch p) (Spec.kxOf (k.cast trips_eq)))
        then Spec.wt L P R D b (Spec.pn ch p) (Spec.kyOf (k.cast trips_eq)) (Spec.kxOf (k.cast trips_eq)) else 0)
      (ix2 r c) (fun k acc => tripYield_apply v0 v2 v4 v6 L P R D b ch h0 h2 h4 h6 k acc r c),
    ← Fin.sum_univ_def]
  rw [show k0_pay24 (F := Ideal) (ix2 r c) = 0 from Ideal.ofBits_zero_f32, zero_add]
  exact Fintype.sum_equiv (finCongr trips_eq) _ _ (fun k => rfl)

end Cert.KernelIdeal.Hand

end
-- ==== Proof.RI.Stages.lean ====
/-
  The reference program's intermediate arrays as named pure functions of its four argument arrays: the particle
  positions locs, the camera position pose, the camera's rotation quaternion rot and the depth image depth.
  Each body is the composition of the program's operations' functions in the program's order, a call's body
  in the call's place, and each is built on the earlier ones: the values form a directed acyclic graph, one
  definition per node that later values share.
-/
import proofs.«147334_j72576357367816_1_alg».proof.ReferenceIdeal
import proofs.«147334_j72576357367816_1_alg».proof.Proof.Gen.ReferenceIdeal

noncomputable section

namespace Cert.ReferenceIdeal.Hand

open Cert.ReferenceIdeal Idealize.ShloMosaic

variable {F : FTy → Type} [FloatOps F]
variable [Facts]
open Facts₀ Facts

/-! ## The rotation matrix of the quaternion -/

/-- The quaternion divided by its Euclidean norm, then multiplied by the signs (-1, -1, -1, 1): the
    conjugate of the unit quaternion (main_v11). -/
def qn (rot : FVec F S4x4 .f32) : FVec F S4x4 .f32 :=
  mulf
    (Host.divf rot
      (broadcastInDim S4x4 ![0, 1] bcast_S4x1_S4x4_0_1
        (Host.sqrt
          (broadcastInDim S4x1 ![0] bcast_S4_S4x1_0
            (Host.reduceAdd (mulf rot rot) (constant S_ .f32 0x00000000#32) reducesTo_S4x4_S4_d1 h_S_)))))
    (broadcastInDim S4x4 ![0, 1] bcast_S1x4_S4x4_0_1
      (broadcastInDim S1x4 ![1] bcast_S4_S1x4_1
        ((fun i => FloatOps.ofBits .f32 (lit0 (S4.rowMajor i))) : FVec F S4 .f32)))

/-- The four components of that quaternion, one value per batch (main_v13, main_v15, main_v17, main_v19). -/
def q0 (rot : FVec F S4x4 .f32) : FVec F S4 .f32 :=
  shapeCast S4 (extractStridedSlice S4x1 ![0, 0] (qn rot) slices_S4x4_S4x1_0_0) shapeCasts_S4x1_S4
def q1 (rot : FVec F S4x4 .f32) : FVec F S4 .f32 :=
  shapeCast S4 (extractStridedSlice S4x1 ![0, 1] (qn rot) slices_S4x4_S4x1_0_1) shapeCasts_S4x1_S4
def q2 (rot : FVec F S4x4 .f32) : FVec F S4 .f32 :=
  shapeCast S4 (extractStridedSlice S4x1 ![0, 2] (qn rot) slices_S4x4_S4x1_0_2) shapeCasts_S4x1_S4
def q3 (rot : FVec F S4x4 .f32) : FVec F S4 .f32 :=
  shapeCast S4 (extractStridedSlice S4x1 ![0, 3] (qn rot) slices_S4x4_S4x1_0_3) shapeCasts_S4x1_S4

/-- The constants 2 and 1 at every batch. -/
def two4 : FVec F S4 .f32 := broadcastInDim S4 ![] bcast_S_S4 (constant S_ .f32 0x40000000#32)
def one4 : FVec F S4 .f32 := broadcastInDim S4 ![] bcast_S_S4 (constant S_ .f32 0x3F800000#32)

/-- The nine entries of the rotation matrix, entry (k, c) the coefficient of coordinate k of the translated point in
    coordinate c of the camera-frame point (main_v35, main_v50, main_v67; main_v40, main_v57, main_v72; main_v45,
    main_v62, main_v79). -/
def r00 (rot : FVec F S4x4 .f32) : FVec F S4 .f32 :=
  subf (subf one4 (mulf two4 (mulf (q1 rot) (q1 rot)))) (mulf two4 (mulf (q2 rot) (q2 rot)))
def r01 (rot : FVec F S4x4 .f32) : FVec F S4 .f32 :=
  addf (mulf two4 (mulf (q0 rot) (q1 rot))) (mulf two4 (mulf (q2 rot) (q3 rot)))
def r02 (rot : FVec F S4x4 .f32) : FVec F S4 .f32 :=
  subf (mulf two4 (mulf (q0 rot) (q2 rot))) (mulf two4 (mulf (q1 rot) (q3 rot)))
def r10 (rot : FVec F S4x4 .f32) : FVec F S4 .f32 :=
  subf (mulf two4 (mulf (q0 rot) (q1 rot))) (mulf two4 (mulf (q2 rot) (q3 rot)))
def r11 (rot : FVec F S4x4 .f32) : FVec F S4 .f32 :=
  subf (subf one4 (mulf two4 (mulf (q0 rot) (q0 rot)))) (mulf two4 (mulf (q2 rot) (q2 rot)))
def r12 (rot : FVec F S4x4 .f32) : FVec F S4 .f32 :=
  addf (mulf two4 (mulf (q1 rot) (q2 rot))) (mulf two4 (mulf (q0 rot) (q3 rot)))
def r20 (rot : FVec F S4x4 .f32) : FVec F S4 .f32 :=
  addf (mulf two4 (mulf (q0 rot) (q2 rot))) (mulf two4 (mulf (q1 rot) (q3 rot)))
def r21 (rot : FVec F S4x4 .f32) : FVec F S4 .f32 :=
  subf (mulf two4 (mulf (q1 rot) (q2 rot))) (mulf two4 (mulf (q0 rot) (q3 rot)))
def r22 (rot : FVec F S4x4 .f32) : FVec F S4 .f32 :=
  subf (subf one4 (mulf two4 (mulf (q0 rot) (q0 rot)))) (mulf two4 (mulf (q1 rot) (q1 rot)))

/-- A row of three entries, per batch (main_v83, main_v87, main_v91). -/
def row3 (a b c : FVec F S4 .f32) : FVec F S4x3 .f32 :=
  concatenate S4x3 1
    [⟨S4x1, broadcastInDim S4x1 ![0] bcast_S4_S4x1_0 a⟩, ⟨S4x1, broadcastInDim S4x1 ![0] bcast_S4_S4x1_0 b⟩,
      ⟨S4x1, broadcastInDim S4x1 ![0] bcast_S4_S4x1_0 c⟩]
    concatenates_S4x1_S4x1_S4x1_S4x3_d1

/-- The rotation matrices, one per batch: the three rows stacked (main_v95). -/
def rotm (rot : FVec F S4x4 .f32) : FVec F S4x3x3 .f32 :=
  concatenate S4x3x3 1
    [⟨S4x1x3, broadcastInDim S4x1x3 ![0, 2] bcast_S4x3_S4x1x3_0_2 (row3 (r00 rot) (r01 rot) (r02 rot))⟩,
      ⟨S4x1x3, broadcastInDim S4x1x3 ![0, 2] bcast_S4x3_S4x1x3_0_2 (row3 (r10 rot) (r11 rot) (r12 rot))⟩,
      ⟨S4x1x3, broadcastInDim S4x1x3 ![0, 2] bcast_S4x3_S4x1x3_0_2 (row3 (r20 rot) (r21 rot) (r22 rot))⟩]
    concatenates_S4x1x3_S4x1x3_S4x1x3_S4x3x3_d1

/-! ## The projection -/

/-- The points in the camera frame: the translated points times the rotation matrix (main_v96). -/
def pcam (locs : FVec F S4x200000x3 .f32) (pose : FVec F S4x3 .f32) (rot : FVec F S4x4 .f32) : FVec F S4x200000x3 .f32 :=
  Host.dotGeneral dot_S4x200000x3_S4x3x3_S4x200000x3_2_1_1_2_0_0 none
    (subf locs
      (broadcastInDim S4x200000x3 ![0, 1, 2] bcast_S4x1x3_S4x200000x3_0_1_2
        (broadcastInDim S4x1x3 ![0, 2] bcast_S4x3_S4x1x3_0_2 pose)))
    (rotm rot)

/-- The three camera-frame coordinates (main_v98, main_v100, main_v102). -/
def xc (locs : FVec F S4x200000x3 .f32) (pose : FVec F S4x3 .f32) (rot : FVec F S4x4 .f32) : FVec F S4x200000 .f32 :=
  shapeCast S4x200000 (extractStridedSlice S4x200000x1 ![0, 0, 0] (pcam locs pose rot) slices_S4x200000x3_S4x200000x1_0_0_0)
    shapeCasts_S4x200000x1_S4x200000
def yc (locs : FVec F S4x200000x3 .f32) (pose : FVec F S4x3 .f32) (rot : FVec F S4x4 .f32) : FVec F S4x200000 .f32 :=
  shapeCast S4x200000 (extractStridedSlice S4x200000x1 ![0, 0, 1] (pcam locs pose rot) slices_S4x200000x3_S4x200000x1_0_0_1)
    shapeCasts_S4x200000x1_S4x200000
def zc (locs : FVec F S4x200000x3 .f32) (pose : FVec F S4x3 .f32) (rot : FVec F S4x4 .f32) : FVec F S4x200000 .f32 :=
  shapeCast S4x200000 (extractStridedSlice S4x200000x1 ![0, 0, 2] (pcam locs pose rot) slices_S4x200000x3_S4x200000x1_0_0_2)
    shapeCasts_S4x200000x1_S4x200000

/-- The depth where it is positive, 1 elsewhere (main_v105). -/
def zsafe (locs : FVec F S4x200000x3 .f32) (pose : FVec F S4x3 .f32) (rot : FVec F S4x4 .f32) : FVec F S4x200000 .f32 :=
  select
    (cmpf .ogt (zc locs pose rot) (broadcastInDim S4x200000 ![] bcast_S_S4x200000 (constant S_ .f32 0x00000000#32)))
    (zc locs pose rot)
    (broadcastInDim S4x200000 ![] bcast_S_S4x200000 (id (constant S_ .f32 0x3F800000#32)))

/-- The pixel coordinates: 540 x / z + 320 and 540 y / z + 240 (main_v110, main_v115). -/
def px (locs : FVec F S4x200000x3 .f32) (pose : FVec F S4x3 .f32) (rot : FVec F S4x4 .f32) : FVec F S4x200000 .f32 :=
  addf
    (mulf (Host.divf (xc locs pose rot) (zsafe locs pose rot))
      (broadcastInDim S4x200000 ![] bcast_S_S4x200000 (constant S_ .f32 0x44070000#32)))
    (broadcastInDim S4x200000 ![] bcast_S_S4x200000 (constant S_ .f32 0x43A00000#32))
def py (locs : FVec F S4x200000x3 .f32) (pose : FVec F S4x3 .f32) (rot : FVec F S4x4 .f32) : FVec F S4x200000 .f32 :=
  addf
    (mulf (Host.divf (yc locs pose rot) (zsafe locs pose rot))
      (broadcastInDim S4x200000 ![] bcast_S_S4x200000 (constant S_ .f32 0x44070000#32)))
    (broadcastInDim S4x200000 ![] bcast_S_S4x200000 (constant S_ .f32 0x43700000#32))

/-! ## The footprint -/

/-- The five offsets -2 … 2 (main_v118). -/
def koff : IVec S5 32 :=
  subi (iotaInDim S5 32 0) (broadcastInDim S5 ![] bcast_S_S5 (constantI S_ 32 2#32))

/-- The five column indices of a point's footprint: the floor of its pixel abscissa plus the offsets (main_v125). -/
def jx (locs : FVec F S4x200000x3 .f32) (pose : FVec F S4x3 .f32) (rot : FVec F S4x4 .f32) : IVec S4x200000x5 32 :=
  addi
    (broadcastInDim S4x200000x5 ![0, 1, 2] bcast_S4x200000x1_S4x200000x5_0_1_2
      (broadcastInDim S4x200000x1 ![0, 1] bcast_S4x200000_S4x200000x1_0_1 (fptosi 32 (Host.floor (px locs pose rot)))))
    (broadcastInDim S4x200000x5 ![0, 1, 2] bcast_S1x1x5_S4x200000x5_0_1_2
      (broadcastInDim S1x1x5 ![2] bcast_S5_S1x1x5_2 koff))

/-- The five row indices: the floor of the pixel ordinate plus the offsets (main_v132). -/
def iy (locs : FVec F S4x200000x3 .f32) (pose : FVec F S4x3 .f32) (rot : FVec F S4x4 .f32) : IVec S4x200000x5 32 :=
  addi
    (broadcastInDim S4x200000x5 ![0, 1, 2] bcast_S4x200000x1_S4x200000x5_0_1_2
      (broadcastInDim S4x200000x1 ![0, 1] bcast_S4x200000_S4x200000x1_0_1 (fptosi 32 (Host.floor (py locs pose rot)))))
    (broadcastInDim S4x200000x5 ![0, 1, 2] bcast_S1x1x5_S4x200000x5_0_1_2
      (broadcastInDim S1x1x5 ![2] bcast_S5_S1x1x5_2 koff))

/-- The horizontal and vertical distances from the point to the five columns and rows (main_v136, main_v140). -/
def dxf (locs : FVec F S4x200000x3 .f32) (pose : FVec F S4x3 .f32) (rot : FVec F S4x4 .f32) : FVec F S4x200000x5 .f32 :=
  subf (sitofp .f32 (jx locs pose rot))
    (broadcastInDim S4x200000x5 ![0, 1, 2] bcast_S4x200000x1_S4x200000x5_0_1_2
      (broadcastInDim S4x200000x1 ![0, 1] bcast_S4x200000_S4x200000x1_0_1 (px locs pose rot)))
def dyf (locs : FVec F S4x200000x3 .f32) (pose : FVec F S4x3 .f32) (rot : FVec F S4x4 .f32) : FVec F S4x200000x5 .f32 :=
  subf (sitofp .f32 (iy locs pose rot))
    (broadcastInDim S4x200000x5 ![0, 1, 2] bcast_S4x200000x1_S4x200000x5_0_1_2
      (broadcastInDim S4x200000x1 ![0, 1] bcast_S4x200000_S4x200000x1_0_1 (py locs pose rot)))

/-- The Gaussian weight of each of the 5 × 5 footprint pixels: exp (-(dy² + dx²) / 2), times 1 (main_v153). -/
def wgt (locs : FVec F S4x200000x3 .f32) (pose : FVec F S4x3 .f32) (rot : FVec F S4x4 .f32) : FVec F S4x200000x5x5 .f32 :=
  mulf (broadcastInDim S4x200000x5x5 ![] bcast_S_S4x200000x5x5 (constant S_ .f32 0x3F800000#32))
    (Host.exp
      (Host.divf
        (Host.negf
          (addf
            (broadcastInDim S4x200000x5x5 ![0, 1, 2, 3] bcast_S4x200000x5x1_S4x200000x5x5_0_1_2_3
              (mulf (broadcastInDim S4x200000x5x1 ![0, 1, 2] bcast_S4x200000x5_S4x200000x5x1_0_1_2 (dyf locs pose rot))
                (broadcastInDim S4x200000x5x1 ![0, 1, 2] bcast_S4x200000x5_S4x200000x5x1_0_1_2 (dyf locs pose rot))))
            (broadcastInDim S4x200000x5x5 ![0, 1, 2, 3] bcast_S4x200000x1x5_S4x200000x5x5_0_1_2_3
              (mulf (broadcastInDim S4x200000x1x5 ![0, 1, 3] bcast_S4x200000x5_S4x200000x1x5_0_1_3 (dxf locs pose rot))
                (broadcastInDim S4x200000x1x5 ![0, 1, 3] bcast_S4x200000x5_S4x200000x1x5_0_1_3 (dxf locs pose rot))))))
        (broadcastInDim S4x200000x5x5 ![] bcast_S_S4x200000x5x5 (constant S_ .f32 0x40000000#32))))

/-- The row and the column index of each footprint pixel (main_v155, main_v157). -/
def ii (locs : FVec F S4x200000x3 .f32) (pose : FVec F S4x3 .f32) (rot : FVec F S4x4 .f32) : IVec S4x200000x5x5 32 :=
  broadcastInDim S4x200000x5x5 ![0, 1, 2, 3] bcast_S4x200000x5x1_S4x200000x5x5_0_1_2_3
    (broadcastInDim S4x200000x5x1 ![0, 1, 2] bcast_S4x200000x5_S4x200000x5x1_0_1_2 (iy locs pose rot))
def jj (locs : FVec F S4x200000x3 .f32) (pose : FVec F S4x3 .f32) (rot : FVec F S4x4 .f32) : IVec S4x200000x5x5 32 :=
  broadcastInDim S4x200000x5x5 ![0, 1, 2, 3] bcast_S4x200000x1x5_S4x200000x5x5_0_1_2_3
    (broadcastInDim S4x200000x1x5 ![0, 1, 3] bcast_S4x200000x5_S4x200000x1x5_0_1_3 (jx locs pose rot))

/-- The footprint pixel lies in the 480 × 640 image (main_v168). -/
def inb (locs : FVec F S4x200000x3 .f32) (pose : FVec F S4x3 .f32) (rot : FVec F S4x4 .f32) : IVec S4x200000x5x5 1 :=
  andi
    (andi
      (andi
        (cmpi .sge (ii locs pose rot) (broadcastInDim S4x200000x5x5 ![] bcast_S_S4x200000x5x5 (constantI S_ 32 0#32)))
        (cmpi .slt (ii locs pose rot) (broadcastInDim S4x200000x5x5 ![] bcast_S_S4x200000x5x5 (constantI S_ 32 480#32))))
      (cmpi .sge (jj locs pose rot) (broadcastInDim S4x200000x5x5 ![] bcast_S_S4x200000x5x5 (constantI S_ 32 0#32))))
    (cmpi .slt (jj locs pose rot) (broadcastInDim S4x200000x5x5 ![] bcast_S_S4x200000x5x5 (constantI S_ 32 640#32)))

/-- The row index clamped to 0 … 479 and the column index clamped to 0 … 639 (main_v169, main_v170). -/
def iic (locs : FVec F S4x200000x3 .f32) (pose : FVec F S4x3 .f32) (rot : FVec F S4x4 .f32) : IVec S4x200000x5x5 32 :=
  minsi (broadcastInDim S4x200000x5x5 ![] bcast_S_S4x200000x5x5 (id (constantI S_ 32 479#32)))
    (maxsi (broadcastInDim S4x200000x5x5 ![] bcast_S_S4x200000x5x5 (id (constantI S_ 32 0#32))) (ii locs pose rot))
def jjc (locs : FVec F S4x200000x3 .f32) (pose : FVec F S4x3 .f32) (rot : FVec F S4x4 .f32) : IVec S4x200000x5x5 32 :=
  minsi (broadcastInDim S4x200000x5x5 ![] bcast_S_S4x200000x5x5 (id (constantI S_ 32 639#32)))
    (maxsi (broadcastInDim S4x200000x5x5 ![] bcast_S_S4x200000x5x5 (id (constantI S_ 32 0#32))) (jj locs pose rot))

/-! ## The index arrays of the gather and of the scatter -/

/-- The batch number along the first axis (main_v172). -/
def bidx : IVec S4x1x1x1 32 := broadcastInDim S4x1x1x1 ![0] bcast_S4_S4x1x1x1_0 (iotaInDim S4 32 0)

/-- The batch number with a negative one moved up by 4 (main_v177, and main_v208). -/
def bwrap : IVec S4x1x1x1 32 :=
  select (cmpi .slt bidx (broadcastInDim S4x1x1x1 ![] bcast_S_S4x1x1x1 (constantI S_ 32 0#32)))
    (addi bidx (broadcastInDim S4x1x1x1 ![] bcast_S_S4x1x1x1 (constantI S_ 32 4#32))) bidx

/-- The clamped row index with a negative one moved up by 480 (main_v182, and main_v213). -/
def iiw (locs : FVec F S4x200000x3 .f32) (pose : FVec F S4x3 .f32) (rot : FVec F S4x4 .f32) : IVec S4x200000x5x5 32 :=
  select (cmpi .slt (iic locs pose rot) (broadcastInDim S4x200000x5x5 ![] bcast_S_S4x200000x5x5 (constantI S_ 32 0#32)))
    (addi (iic locs pose rot) (broadcastInDim S4x200000x5x5 ![] bcast_S_S4x200000x5x5 (constantI S_ 32 480#32)))
    (iic locs pose rot)

/-- The clamped column index with a negative one moved up by 640 (main_v187, and main_v218). -/
def jjw (locs : FVec F S4x200000x3 .f32) (pose : FVec F S4x3 .f32) (rot : FVec F S4x4 .f32) : IVec S4x200000x5x5 32 :=
  select (cmpi .slt (jjc locs pose rot) (broadcastInDim S4x200000x5x5 ![] bcast_S_S4x200000x5x5 (constantI S_ 32 0#32)))
    (addi (jjc locs pose rot) (broadcastInDim S4x200000x5x5 ![] bcast_S_S4x200000x5x5 (constantI S_ 32 640#32)))
    (jjc locs pose rot)

/-- The index vectors (batch, row, column) of the gather, one per footprint pixel (main_v192). -/
def gidx (locs : FVec F S4x200000x3 .f32) (pose : FVec F S4x3 .f32) (rot : FVec F S4x4 .f32) : IVec S4x200000x5x5x3 32 :=
  concatenate S4x200000x5x5x3 4
    [⟨S4x200000x5x5x1, broadcastInDim S4x200000x5x5x1 ![0, 1, 2, 3] bcast_S4x200000x5x5_S4x200000x5x5x1_0_1_2_3
        (broadcastInDim S4x200000x5x5 ![0, 1, 2, 3] bcast_S4x1x1x1_S4x200000x5x5_0_1_2_3 bwrap)⟩,
      ⟨S4x200000x5x5x1, broadcastInDim S4x200000x5x5x1 ![0, 1, 2, 3] bcast_S4x200000x5x5_S4x200000x5x5x1_0_1_2_3
        (iiw locs pose rot)⟩,
      ⟨S4x200000x5x5x1, broadcastInDim S4x200000x5x5x1 ![0, 1, 2, 3] bcast_S4x200000x5x5_S4x200000x5x5x1_0_1_2_3
        (jjw locs pose rot)⟩]
    concatenates_S4x200000x5x5x1_S4x200000x5x5x1_S4x200000x5x5x1_S4x200000x5x5x3_d4

/-- The depth image read at the footprint pixels (main_v193). -/
def dgat (locs : FVec F S4x200000x3 .f32) (pose : FVec F S4x3 .f32) (rot : FVec F S4x4 .f32)
    (depth : FVec F S4x480x640 .f32) : FVec F S4x200000x5x5 .f32 :=
  Host.gather gather_S4x480x640_S4x200000x5x5x3_S4x200000x5x5_n_012_n_n_012_4_111 depth (gidx locs pose rot)

/-! ## The updates and the result -/

/-- The point's depth along two unit axes (main_v194). -/
def zb (locs : FVec F S4x200000x3 .f32) (pose : FVec F S4x3 .f32) (rot : FVec F S4x4 .f32) : FVec F S4x200000x1x1 .f32 :=
  broadcastInDim S4x200000x1x1 ![0, 1] bcast_S4x200000_S4x200000x1x1_0_1 (zc locs pose rot)

/-- The footprint pixel counts: inside the image, the point in front of the camera, and the point not behind the
    depth image there (main_v201). -/
def valid (locs : FVec F S4x200000x3 .f32) (pose : FVec F S4x3 .f32) (rot : FVec F S4x4 .f32)
    (depth : FVec F S4x480x640 .f32) : IVec S4x200000x5x5 1 :=
  andi
    (andi (inb locs pose rot)
      (broadcastInDim S4x200000x5x5 ![0, 1, 2, 3] bcast_S4x200000x1x1_S4x200000x5x5_0_1_2_3
        (cmpf .ogt (zb locs pose rot)
          (broadcastInDim S4x200000x1x1 ![] bcast_S_S4x200000x1x1 (constant S_ .f32 0x00000000#32)))))
    (cmpf .ole (broadcastInDim S4x200000x5x5 ![0, 1, 2, 3] bcast_S4x200000x1x1_S4x200000x5x5_0_1_2_3 (zb locs pose rot))
      (dgat locs pose rot depth))

/-- The update of each footprint pixel: its weight where it counts, 0 elsewhere (main_v202). -/
def upd (locs : FVec F S4x200000x3 .f32) (pose : FVec F S4x3 .f32) (rot : FVec F S4x4 .f32)
    (depth : FVec F S4x480x640 .f32) : FVec F S4x200000x5x5 .f32 :=
  select (valid locs pose rot depth) (wgt locs pose rot)
    (broadcastInDim S4x200000x5x5 ![] bcast_S_S4x200000x5x5 (id (constant S_ .f32 0x00000000#32)))

/-- The index vectors of the scatter: the program builds them a second time by the same operations (main_v223). -/
def sidx (locs : FVec F S4x200000x3 .f32) (pose : FVec F S4x3 .f32) (rot : FVec F S4x4 .f32) : IVec S4x200000x5x5x3 32 :=
  gidx locs pose rot

/-- The result: the updates added into a zero image at the clamped footprint pixels (main_v224). -/
def out (locs : FVec F S4x200000x3 .f32) (pose : FVec F S4x3 .f32) (rot : FVec F S4x4 .f32)
    (depth : FVec F S4x480x640 .f32) : FVec F S4x480x640 .f32 :=
  Host.scatterAdd scatter_S4x480x640_S4x200000x5x5x3_S4x200000x5x5_n_012_012_4
    (broadcastInDim S4x480x640 ![] bcast_S_S4x480x640 (constant S_ .f32 0x00000000#32))
    (sidx locs pose rot) (upd locs pose rot depth)

end Cert.ReferenceIdeal.Hand

end
-- ==== Proof.LibConcatFold.lean ====
/-
  A concatenation of two, three or four arrays with the pieces as PLAIN arguments. The printed form keeps the pieces in
  a list of (shape, array) pairs; the array's type there depends on the pair's shape, and rewriting with an equation
  does not descend into such a pair. These wrappers are the same concatenation by definition, each piece an ordinary
  argument, so that a composed host term can be rewritten piece by piece and then unfolded back to the printed form.
-/
import Idealize.ShloMosaic.PureOps.ShapeOps

noncomputable section

namespace Cert.Lib

open Idealize.ShloMosaic

variable {α : Type}

/-- Two pieces. -/
def cat2 (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h
/-- Three pieces. -/
def cat3 (t : Shape) (a : Fin t.rank) (s₁ s₂ s₃ : Shape) (h : Shape.Concatenates [s₁, s₂, s₃] t a)
    (x₁ : s₁.Idx → α) (x₂ : s₂.Idx → α) (x₃ : s₃.Idx → α) : t.Idx → α :=
  concatenate t a [⟨s₁, x₁⟩, ⟨s₂, x₂⟩, ⟨s₃, x₃⟩] h
/-- Four pieces. -/
def cat4 (t : Shape) (a : Fin t.rank) (s₁ s₂ s₃ s₄ : Shape) (h : Shape.Concatenates [s₁, s₂, s₃, s₄] t a)
    (x₁ : s₁.Idx → α) (x₂ : s₂.Idx → α) (x₃ : s₃.Idx → α) (x₄ : s₄.Idx → α) : t.Idx → α :=
  concatenate t a [⟨s₁, x₁⟩, ⟨s₂, x₂⟩, ⟨s₃, x₃⟩, ⟨s₄, x₄⟩] h

/-- The printed two-piece concatenation is the wrapper. -/
theorem cat2_fold (t : Shape) (a : Fin t.rank) (s₁ s₂ : Shape) (x₁ : s₁.Idx → α) (x₂ : s₂.Idx → α)
    (h : Shape.Concatenates (([⟨s₁, x₁⟩, ⟨s₂, x₂⟩] : List ((s : Shape) × (s.Idx → α))).map Sigma.fst) t a) :
    concatenate t a [⟨s₁, x₁⟩, ⟨s₂, x₂⟩] h = cat2 t a s₁ s₂ h x₁ x₂ := rfl
/-- The printed three-piece concatenation is the wrapper. -/
theorem cat3_fold (t : Shape) (a : Fin t.rank) (s₁ s₂ s₃ : Shape) (x₁ : s₁.Idx → α) (x₂ : s₂.Idx → α) (x₃ : s₃.Idx → α)
    (h : Shape.Concatenates (([⟨s₁, x₁⟩, ⟨s₂, x₂⟩, ⟨s₃, x₃⟩] : List ((s : Shape) × (s.Idx → α))).map Sigma.fst) t a) :
    concatenate t a [⟨s₁, x₁⟩, ⟨s₂, x₂⟩, ⟨s₃, x₃⟩] h = cat3 t a s₁ s₂ s₃ h x₁ x₂ x₃ := rfl
/-- The printed four-piece concatenation is the wrapper. -/
theorem cat4_fold (t : Shape) (a : Fin t.rank) (s₁ s₂ s₃ s₄ : Shape) (x₁ : s₁.Idx → α) (x₂ : s₂.Idx → α) (x₃ : s₃.Idx → α)
    (x₄ : s₄.Idx → α)
    (h : Shape.Concatenates (([⟨s₁, x₁⟩, ⟨s₂, x₂⟩, ⟨s₃, x₃⟩, ⟨s₄, x₄⟩] : List ((s : Shape) × (s.Idx → α))).map Sigma.fst) t a) :
    concatenate t a [⟨s₁, x₁⟩, ⟨s₂, x₂⟩, ⟨s₃, x₃⟩, ⟨s₄, x₄⟩] h = cat4 t a s₁ s₂ s₃ s₄ h x₁ x₂ x₃ x₄ := rfl

end Cert.Lib

end
-- ==== Proof.KI.Blocks.lean ====
/-
  The kernel side's arrays as the region finds them, and its windows' blocks element by element, for any float instance.

  * The host operations before the region compute, from the launched quaternions, the rotation matrices that window 2
    reads (`V_rotm`: the same composition of operations as the reference's stage `rotm`), and reshape the launched
    camera positions [4,3] to the array [4,1,3] that window 1 reads (`V_pose3`).
  * The grid is 4 batches by 200 chunks of 1000 particles; point t has batch t / 200 (`bOf`) and chunk t % 200 (`chOf`).
    The windows' index maps, decided over the 800 points: the particle positions' block index is (batch, chunk, 0),
    every other window's is (batch, 0, 0). A block's coordinate in its array is index × block size + the coordinate
    inside the block, so each input block is read off its argument array (`iblk0_apply … iblk3_apply`), and the output
    block's element (0, r, q) lies at element (batch, r, q) of the result array (`oblk4_emb`).
-/
import proofs.«147334_j72576357367816_1_alg».proof.Proof.KI.Kit
import proofs.«147334_j72576357367816_1_alg».proof.Proof.RI.Stages
import proofs.«147334_j72576357367816_1_alg».proof.Proof.Spec
import proofs.«147334_j72576357367816_1_alg».proof.Proof.LibConcatFold
import Idealize.ShloMosaic.Lib.ValueIdx
import Idealize.ShloMosaic.Lib.Pipeline.Value
import Idealize.ShloMosaic.Lib.StableHlo.Run

-- the host prefix is a list of 117 operations: walking it recurses once per operation
set_option maxRecDepth 16384

noncomputable section

namespace Cert.KernelIdeal.Hand

open Cert.KernelIdeal Cert.KernelIdeal.Gen Idealize.ShloMosaic Idealize.ShloMosaic.TcCoe Idealize.ShloMosaic.ValueIdx

variable {F : FTy → Type} [FloatOps F] (m : (ℓ : Loc nD τ sig) → Buf (Elt F) ℓ)

/-! ## The grid point's batch and chunk -/

/-- the point's batch -/
def bOf (t : Fin cfg0.N) : Fin 4 := ⟨t.val / 200, by have h : t.val < 800 := lt_of_lt_of_eq t.isLt N_0; omega⟩
/-- the point's chunk -/
def chOf (t : Fin cfg0.N) : Fin 200 := ⟨t.val % 200, Nat.mod_lt _ (by decide)⟩

/-! ## The index maps, decided over the 800 grid points -/

/-- The particle positions' block index is (batch, chunk, 0). -/
theorem blkIndex0 : ∀ t : Fin cfg0.N, win0_0.index t (0 : Fin 3) = t.val / 200 ∧ win0_0.index t (1 : Fin 3) = t.val % 200
    ∧ win0_0.index t (2 : Fin 3) = 0 :=
  (by decide +kernel : ∀ t : Fin grid0.N, _)
/-- The camera position's block index is (batch, 0, 0). -/
theorem blkIndex1 : ∀ t : Fin cfg0.N, win0_1.index t (0 : Fin 3) = t.val / 200 ∧ win0_1.index t (1 : Fin 3) = 0
    ∧ win0_1.index t (2 : Fin 3) = 0 :=
  (by decide +kernel : ∀ t : Fin grid0.N, _)
/-- The rotation matrix's block index is (batch, 0, 0). -/
theorem blkIndex2 : ∀ t : Fin cfg0.N, win0_2.index t (0 : Fin 3) = t.val / 200 ∧ win0_2.index t (1 : Fin 3) = 0
    ∧ win0_2.index t (2 : Fin 3) = 0 :=
  (by decide +kernel : ∀ t : Fin grid0.N, _)
/-- The depth image's block index is (batch, 0, 0). -/
theorem blkIndex3 : ∀ t : Fin cfg0.N, win0_3.index t (0 : Fin 3) = t.val / 200 ∧ win0_3.index t (1 : Fin 3) = 0
    ∧ win0_3.index t (2 : Fin 3) = 0 :=
  (by decide +kernel : ∀ t : Fin grid0.N, _)
/-- The output image's block index is (batch, 0, 0). -/
theorem blkIndex4 : ∀ t : Fin cfg0.N, win0_4.index t (0 : Fin 3) = t.val / 200 ∧ win0_4.index t (1 : Fin 3) = 0
    ∧ win0_4.index t (2 : Fin 3) = 0 :=
  (by decide +kernel : ∀ t : Fin grid0.N, _)

/-! ## The host prefix: the rotation matrices -/

/-- The result of the concatenation that makes the first rows, its three pieces as plain arguments. -/
theorem cat_v80 (hxs hy) (G : Valuation τ sig (Elt F)) :
    (StableHlo.nary (τ := τ) ![main_v77, main_v78, main_v79] main_v80
        (fun u => concatenate S4x3 1 [⟨S4x1, u 0⟩, ⟨S4x1, u 1⟩, ⟨S4x1, u 2⟩] concatenates_S4x1_S4x1_S4x1_S4x3_d1) hxs hy).result G
      (no_index (Proc.devRef .tc main_v80))
    = Cert.Lib.cat3 S4x3 1 S4x1 S4x1 S4x1 concatenates_S4x1_S4x1_S4x1_S4x3_d1
        (G (Proc.devRef .tc main_v77)) (G (Proc.devRef .tc main_v78)) (G (Proc.devRef .tc main_v79)) :=
  StableHlo.nary_result _ _ _ hxs hy G
/-- The same for the second rows. -/
theorem cat_v84 (hxs hy) (G : Valuation τ sig (Elt F)) :
    (StableHlo.nary (τ := τ) ![main_v81, main_v82, main_v83] main_v84
        (fun u => concatenate S4x3 1 [⟨S4x1, u 0⟩, ⟨S4x1, u 1⟩, ⟨S4x1, u 2⟩] concatenates_S4x1_S4x1_S4x1_S4x3_d1) hxs hy).result G
      (no_index (Proc.devRef .tc main_v84))
    = Cert.Lib.cat3 S4x3 1 S4x1 S4x1 S4x1 concatenates_S4x1_S4x1_S4x1_S4x3_d1
        (G (Proc.devRef .tc main_v81)) (G (Proc.devRef .tc main_v82)) (G (Proc.devRef .tc main_v83)) :=
  StableHlo.nary_result _ _ _ hxs hy G
/-- The same for the third rows. -/
theorem cat_v88 (hxs hy) (G : Valuation τ sig (Elt F)) :
    (StableHlo.nary (τ := τ) ![main_v85, main_v86, main_v87] main_v88
        (fun u => concatenate S4x3 1 [⟨S4x1, u 0⟩, ⟨S4x1, u 1⟩, ⟨S4x1, u 2⟩] concatenates_S4x1_S4x1_S4x1_S4x3_d1) hxs hy).result G
      (no_index (Proc.devRef .tc main_v88))
    = Cert.Lib.cat3 S4x3 1 S4x1 S4x1 S4x1 concatenates_S4x1_S4x1_S4x1_S4x3_d1
        (G (Proc.devRef .tc main_v85)) (G (Proc.devRef .tc main_v86)) (G (Proc.devRef .tc main_v87)) :=
  StableHlo.nary_result _ _ _ hxs hy G
/-- The same for the concatenation that stacks the three rows. -/
theorem cat_v92 (hxs hy) (G : Valuation τ sig (Elt F)) :
    (StableHlo.nary (τ := τ) ![main_v89, main_v90, main_v91] main_v92
        (fun u => concatenate S4x3x3 1 [⟨S4x1x3, u 0⟩, ⟨S4x1x3, u 1⟩, ⟨S4x1x3, u 2⟩] concatenates_S4x1x3_S4x1x3_S4x1x3_S4x3x3_d1) hxs hy).result G
      (no_index (Proc.devRef .tc main_v92))
    = Cert.Lib.cat3 S4x3x3 1 S4x1x3 S4x1x3 S4x1x3 concatenates_S4x1x3_S4x1x3_S4x1x3_S4x3x3_d1
        (G (Proc.devRef .tc main_v89)) (G (Proc.devRef .tc main_v90)) (G (Proc.devRef .tc main_v91)) :=
  StableHlo.nary_result _ _ _ hxs hy G

/-- Reads a buffer after the host operations: each operation's result at its own buffer is its function of its operands'
    contents, and at any other buffer what was there (the buffers compared by decision); the four concatenations by the
    lemmas above, so that their pieces are rewritten in turn. -/
local macro "host_results" : tactic =>
  `(tactic| (simp (disch := decide) only [StableHlo.after_cons, StableHlo.after_nil,
      StableHlo.nullary_result', StableHlo.unary_result', StableHlo.binary_result', StableHlo.reshape_result',
      cat_v80, cat_v84, cat_v88, cat_v92,
      StableHlo.nullary_result_ne', StableHlo.unary_result_ne', StableHlo.binary_result_ne', StableHlo.reshape_result_ne',
      StableHlo.nary_result_ne']))

set_option maxHeartbeats 4000000 in
/-- The array window 2 reads is the rotation matrices of the launched quaternions: the host operations compose, in the
    same order, the operations the reference's stages name. -/
theorem V_rotm (c : Dev nD) :
    (V m c main_v92 : FVec F S4x3x3 .f32) = Cert.ReferenceIdeal.Hand.rotm (m ((c : Thread nD τ).loc main_arg2)) := by
  show StableHlo.after hostOps0 (fun b => m (c, b)) (Proc.devRef .tc main_v92) = _
  dsimp only [hostOps0]
  host_results
  rfl

/-! ## The reshaped camera position -/

set_option maxHeartbeats 4000000 in
/-- The array window 1 reads is the camera positions with a unit axis inserted: element (b, 0, k) is element (b, k). -/
theorem V_pose3 (c : Dev nD) (b : Fin 4) (k : Fin 3) :
    (V m c main_v93 : FVec F S4x1x3 .f32) (ix3 b (0 : Fin 1) k) = m ((c : Thread nD τ).loc main_arg1) (ix2 b k) := by
  show StableHlo.after hostOps0 (fun b => m (c, b)) (Proc.devRef .tc main_v93) (ix3 b (0 : Fin 1) k) = _
  dsimp only [hostOps0]
  host_results
  show shapeCast S4x1x3 (m ((c : Thread nD τ).loc main_arg1)) shapeCasts_S4x3_S4x1x3 (ix3 b (0 : Fin 1) k) = _
  refine shapeCast_apply _ _ _ (ix2 b k) ?_
  rw [Shape.rowMajor_val_two, Shape.rowMajor_val_three]
  show b.val * 3 + k.val = (b.val * 1 + 0) * 3 + k.val
  omega

/-! ## The input blocks, element by element -/

/-- The block of particle positions at point t: particle p of the chunk, coordinate k. -/
theorem iblk0_apply (c : Dev nD) (t : Fin cfg0.N) (p : Fin 1000) (k : Fin 3) :
    (iblk m c 0 t : Vec F S1x1000x3 .f32) (ix3 (0 : Fin 1) p k)
      = m ((c : Thread nD τ).loc main_arg0) (ix3 (bOf t) (Cert.Spec.pn (chOf t) p) k) := by
  obtain ⟨e0, e1, e2⟩ := blkIndex0 t
  unfold iblk
  show V m c main_arg0 (((cfg0.win 0).blk t).view.emb (ix3 (0 : Fin 1) p k)) = _
  rw [V_main_arg0]
  refine congrArg _ (funext fun a => Fin.ext ?_)
  match a with
  | ⟨0, _⟩ => show win0_0.index t (0 : Fin 3) * 1 + 1 * 0 = t.val / 200; omega
  | ⟨1, _⟩ => show win0_0.index t (1 : Fin 3) * 1000 + 1 * p.val = t.val % 200 * 1000 + p.val; omega
  | ⟨2, _⟩ => show win0_0.index t (2 : Fin 3) * 3 + 1 * k.val = k.val; omega

/-- The camera position's block at point t: coordinate k of the batch's camera. -/
theorem iblk1_apply (c : Dev nD) (t : Fin cfg0.N) (k : Fin 3) :
    (iblk m c 1 t : Vec F S1x1x3 .f32) (ix3 (0 : Fin 1) (0 : Fin 1) k) = m ((c : Thread nD τ).loc main_arg1) (ix2 (bOf t) k) := by
  obtain ⟨e0, e1, e2⟩ := blkIndex1 t
  unfold iblk
  show V m c main_v93 (((cfg0.win 1).blk t).view.emb (ix3 (0 : Fin 1) (0 : Fin 1) k)) = _
  rw [← V_pose3 m c (bOf t) k]
  refine congrArg _ (funext fun a => Fin.ext ?_)
  match a with
  | ⟨0, _⟩ => show win0_1.index t (0 : Fin 3) * 1 + 1 * 0 = t.val / 200; omega
  | ⟨1, _⟩ => show win0_1.index t (1 : Fin 3) * 1 + 1 * 0 = 0; omega
  | ⟨2, _⟩ => show win0_1.index t (2 : Fin 3) * 3 + 1 * k.val = k.val; omega

/-- The rotation matrix's block at point t: entry (j, k) of the batch's matrix. -/
theorem iblk2_apply (c : Dev nD) (t : Fin cfg0.N) (j k : Fin 3) :
    (iblk m c 2 t : Vec F S1x3x3 .f32) (ix3 (0 : Fin 1) j k)
      = Cert.ReferenceIdeal.Hand.rotm (m ((c : Thread nD τ).loc main_arg2)) (ix3 (bOf t) j k) := by
  obtain ⟨e0, e1, e2⟩ := blkIndex2 t
  unfold iblk
  show V m c main_v92 (((cfg0.win 2).blk t).view.emb (ix3 (0 : Fin 1) j k)) = _
  rw [← V_rotm m c]
  refine congrArg _ (funext fun a => Fin.ext ?_)
  match a with
  | ⟨0, _⟩ => show win0_2.index t (0 : Fin 3) * 1 + 1 * 0 = t.val / 200; omega
  | ⟨1, _⟩ => show win0_2.index t (1 : Fin 3) * 3 + 1 * j.val = j.val; omega
  | ⟨2, _⟩ => show win0_2.index t (2 : Fin 3) * 3 + 1 * k.val = k.val; omega

/-- The depth image's block at point t: pixel (r, q) of the batch's image. -/
theorem iblk3_apply (c : Dev nD) (t : Fin cfg0.N) (r : Fin 480) (q : Fin 640) :
    (iblk m c 3 t : Vec F S1x480x640 .f32) (ix3 (0 : Fin 1) r q) = m ((c : Thread nD τ).loc main_arg3) (ix3 (bOf t) r q) := by
  obtain ⟨e0, e1, e2⟩ := blkIndex3 t
  unfold iblk
  show V m c main_arg3 (((cfg0.win 3).blk t).view.emb (ix3 (0 : Fin 1) r q)) = _
  rw [V_main_arg3]
  refine congrArg _ (funext fun a => Fin.ext ?_)
  match a with
  | ⟨0, _⟩ => show win0_3.index t (0 : Fin 3) * 1 + 1 * 0 = t.val / 200; omega
  | ⟨1, _⟩ => show win0_3.index t (1 : Fin 3) * 480 + 1 * r.val = r.val; omega
  | ⟨2, _⟩ => show win0_3.index t (2 : Fin 3) * 640 + 1 * q.val = q.val; omega

/-! ## The output block's place in the result array -/

/-- Where the output window's block of point t lies in the result array: element (0, r, q) of the block is element
    (batch, r, q) of the array. -/
theorem oblk4_emb (t : Fin cfg0.N) (r : Fin 480) (q : Fin 640) :
    ((cfg0.win 4).blk t).view.emb (ix3 (0 : Fin 1) r q) = (ix3 (bOf t) r q : S4x480x640.Idx) := by
  obtain ⟨e0, e1, e2⟩ := blkIndex4 t
  refine funext fun a => Fin.ext ?_
  match a with
  | ⟨0, _⟩ => show win0_4.index t (0 : Fin 3) * 1 + 1 * 0 = t.val / 200; omega
  | ⟨1, _⟩ => show win0_4.index t (1 : Fin 3) * 480 + 1 * r.val = r.val; omega
  | ⟨2, _⟩ => show win0_4.index t (2 : Fin 3) * 640 + 1 * q.val = q.val; omega

end Cert.KernelIdeal.Hand

end
-- ==== Proof.Alg.lean ====
/-
  Regroupings of finite sums over an additive commutative monoid: the particles of all chunks are all the particles, the
  twenty-five trips of the footprint loop are the five row offsets times the five column offsets, a running accumulation is
  a sum over an initial segment, a sum with a batch selector collapses to the selected batch, and a left fold of additions
  over all indices is the starting value plus the sum. No distributivity, cancellation or subtraction is used anywhere.
-/
import proofs.«147334_j72576357367816_1_alg».proof.Proof.Spec
import Mathlib.Algebra.BigOperators.Fin
import Mathlib.Algebra.BigOperators.Group.Finset.Basic
import Mathlib.Algebra.BigOperators.Group.Finset.Piecewise
import Mathlib.Data.Fintype.BigOperators
import Mathlib.Logic.Equiv.Fin.Basic

namespace Cert.Alg

open scoped BigOperators
open Cert.Spec

/-- The pair (chunk, lane) ↦ chunk · 1000 + lane is a bijection onto the particles, so summing chunk by chunk sums everything. -/
theorem sum_chunks {M : Type} [AddCommMonoid M] (f : Fin 200000 → M) :
    ∑ ch : Fin 200, ∑ p : Fin 1000, f (Cert.Spec.pn ch p) = ∑ n : Fin 200000, f n := by
  rw [← Fintype.sum_prod_type' (fun ch p => f (Cert.Spec.pn ch p))]
  refine Fintype.sum_equiv (finProdFinEquiv : Fin 200 × Fin 1000 ≃ Fin (200 * 1000)) _ _ ?_
  rintro ⟨ch, p⟩
  congr 1
  apply Fin.ext
  simp only [Cert.Spec.pn, finProdFinEquiv_apply_val]
  omega

/-- The trip k ↦ (k / 5, k % 5) is a bijection onto the pairs of offsets. -/
theorem sum_trips {M : Type} [AddCommMonoid M] (f : Fin 5 → Fin 5 → M) :
    ∑ k : Fin 25, f (Cert.Spec.kyOf k) (Cert.Spec.kxOf k) = ∑ ky : Fin 5, ∑ kx : Fin 5, f ky kx := by
  rw [← Fintype.sum_prod_type' f]
  symm
  refine Fintype.sum_equiv (finProdFinEquiv : Fin 5 × Fin 5 ≃ Fin (5 * 5)) _ _ ?_
  rintro ⟨ky, kx⟩
  have hy : Cert.Spec.kyOf (finProdFinEquiv (ky, kx)) = ky := by
    apply Fin.ext
    have := ky.isLt; have := kx.isLt
    simp only [Cert.Spec.kyOf, finProdFinEquiv_apply_val]
    omega
  have hx : Cert.Spec.kxOf (finProdFinEquiv (ky, kx)) = kx := by
    apply Fin.ext
    have := ky.isLt; have := kx.isLt
    simp only [Cert.Spec.kxOf, finProdFinEquiv_apply_val]
    omega
  show f ky kx = f (Cert.Spec.kyOf (finProdFinEquiv (ky, kx))) (Cert.Spec.kxOf (finProdFinEquiv (ky, kx)))
  rw [hy, hx]

/-- Chunk by chunk, trip by trip, lane by lane is particle by particle, row offset by row offset, column offset by column offset. -/
theorem sum_point_regroup {M : Type} [AddCommMonoid M] (g : Fin 200000 → Fin 5 → Fin 5 → M) :
    ∑ ch : Fin 200, ∑ k : Fin 25, ∑ p : Fin 1000, g (Cert.Spec.pn ch p) (Cert.Spec.kyOf k) (Cert.Spec.kxOf k)
      = ∑ n : Fin 200000, ∑ ky : Fin 5, ∑ kx : Fin 5, g n ky kx := by
  rw [← sum_chunks (fun n => ∑ ky : Fin 5, ∑ kx : Fin 5, g n ky kx)]
  refine Finset.sum_congr rfl (fun ch _ => ?_)
  rw [Finset.sum_comm]
  refine Finset.sum_congr rfl (fun p _ => ?_)
  exact sum_trips (fun ky kx => g (Cert.Spec.pn ch p) ky kx)

/-- A sequence that starts at a 0 and adds a (j + 1) at step j + 1 is the sequence of partial sums. -/
theorem accum_eq {M : Type} [AddCommMonoid M] (a s : ℕ → M) (h0 : s 0 = a 0) (hs : ∀ j, s (j + 1) = s j + a (j + 1)) (j : ℕ) :
    s j = ∑ i ∈ Finset.range (j + 1), a i := by
  induction j with
  | zero => rw [h0, Finset.sum_range_one]
  | succ j ih => rw [hs, ih, ← Finset.sum_range_succ]

theorem sum_range_200 {M : Type} [AddCommMonoid M] (a : ℕ → M) : ∑ i ∈ Finset.range 200, a i = ∑ ch : Fin 200, a ch.val :=
  Finset.sum_range a

/-- A sum over all batches whose terms vanish off batch b is the sum at batch b. -/
theorem sum_batch_select {M : Type} [AddCommMonoid M] (b : Fin 4) (Q : Fin 4 → Fin 200000 → Fin 5 → Fin 5 → Prop)
    [∀ b' n ky kx, Decidable (Q b' n ky kx)] (w : Fin 4 → Fin 200000 → Fin 5 → Fin 5 → M) :
    ∑ b' : Fin 4, ∑ n : Fin 200000, ∑ ky : Fin 5, ∑ kx : Fin 5, (if (b' = b ∧ Q b' n ky kx) then w b' n ky kx else 0)
      = ∑ n : Fin 200000, ∑ ky : Fin 5, ∑ kx : Fin 5, if Q b n ky kx then w b n ky kx else 0 := by
  rw [Finset.sum_eq_single b]
  · refine Finset.sum_congr rfl (fun n _ => Finset.sum_congr rfl (fun ky _ => Finset.sum_congr rfl (fun kx _ => ?_)))
    by_cases hq : Q b n ky kx
    · rw [if_pos ⟨rfl, hq⟩, if_pos hq]
    · rw [if_neg (fun h => hq h.2), if_neg hq]
  · intro b' _ hb
    refine Finset.sum_eq_zero (fun n _ => Finset.sum_eq_zero (fun ky _ => Finset.sum_eq_zero (fun kx _ => ?_)))
    rw [if_neg (fun h => hb h.1)]
  · intro h
    exact absurd (Finset.mem_univ b) h

/-- A left fold of additions over a list is the starting value plus the sum of the list's terms. -/
theorem foldl_add_eq_add_sum_map {M : Type} [AddCommMonoid M] {ι : Type} (f : ι → M) (l : List ι) (a : M) :
    l.foldl (fun acc k => acc + f k) a = a + (l.map f).sum := by
  induction l generalizing a with
  | nil => simp
  | cons x xs ih => rw [List.foldl_cons, ih, List.map_cons, List.sum_cons, add_assoc]

theorem foldl_add_eq_sum {M : Type} [AddCommMonoid M] {n : ℕ} (f : Fin n → M) (a : M) :
    (List.finRange n).foldl (fun acc k => acc + f k) a = a + ∑ k : Fin n, f k := by
  rw [foldl_add_eq_add_sum_map, Fin.sum_univ_def]

end Cert.Alg
-- ==== Proof.KI.Total.lean ====
/-
  At the exact instance, the kernel's result array IS the specification's image.

  The output block of batch b is set to the first chunk's accumulated image and then has each later chunk's accumulated
  image added to it; so after chunk j it holds, at every pixel, the sum of the accumulated images of chunks 0 … j, and the
  result array holds at (b, r, q) that sum for all 200 chunks. A chunk's accumulated image at a pixel is the sum, over the
  25 footprint offsets and the chunk's 1000 particles, of the kept weights whose clamped pixel is that pixel. Summing chunk by
  chunk, offset by offset, particle by particle is summing particle by particle, row offset by row offset, column offset by
  column offset: the specification's sum.
-/
import proofs.«147334_j72576357367816_1_alg».proof.Proof.KI.Value
import proofs.«147334_j72576357367816_1_alg».proof.Proof.KI.PointValue
import proofs.«147334_j72576357367816_1_alg».proof.Proof.KI.Blocks
import proofs.«147334_j72576357367816_1_alg».proof.Proof.RI.Stages
import proofs.«147334_j72576357367816_1_alg».proof.Proof.Spec
import proofs.«147334_j72576357367816_1_alg».proof.Proof.Alg
import Idealize.ShloMosaic.Lib.ValueIdx
import Idealize.ShloMosaic.Lib.ValueLayout
import Mathlib.Algebra.BigOperators.Fin

noncomputable section

namespace Cert.KernelIdeal.Hand

open Cert.KernelIdeal Cert.KernelIdeal.Gen
open Idealize.ShloMosaic Idealize.ShloMosaic.TcCoe Idealize.ShloMosaic.ValueIdx
open Idealize.SL.Sem
open scoped BigOperators

section Total
variable (m : (ℓ : Loc nD τ sig) → Buf (Elt Ideal) ℓ)

/-- The grid point of batch b and chunk j: t = 200 · b + j. -/
abbrev tOf (b : Fin 4) (j : ℕ) (hj : j < 200) : Fin cfg0.N :=
  ⟨b.val * 200 + j, by have := b.isLt; have : cfg0.N = 800 := rfl; omega⟩

theorem bOf_tOf (b : Fin 4) (j : ℕ) (hj : j < 200) : bOf (tOf b j hj) = b := by
  apply Fin.ext
  show (b.val * 200 + j) / 200 = b.val
  omega

theorem chOf_tOf (b : Fin 4) (ch : Fin 200) : chOf (tOf b ch.val ch.isLt) = ch := by
  apply Fin.ext
  show (b.val * 200 + ch.val) % 200 = ch.val
  have := ch.isLt
  omega

/-- The point's accumulated image, read at a pixel: the sum over the trips and the chunk's particles of the kept weights
    that land there. -/
theorem accAt_apply (c : Dev nD) (t : Fin cfg0.N) (r : Fin 480) (q : Fin 640) :
    accAt m c t (ix2 r q) = ∑ k : Fin 25, ∑ p : Fin 1000,
      if (BitVec.ofNat 32 r.val = Spec.rowc (m ((c : Thread nD τ).loc main_arg0)) (m ((c : Thread nD τ).loc main_arg1)) (Cert.ReferenceIdeal.Hand.rotm (m ((c : Thread nD τ).loc main_arg2))) (bOf t) (Spec.pn (chOf t) p) (Spec.kyOf k)
          ∧ BitVec.ofNat 32 q.val = Spec.colc (m ((c : Thread nD τ).loc main_arg0)) (m ((c : Thread nD τ).loc main_arg1)) (Cert.ReferenceIdeal.Hand.rotm (m ((c : Thread nD τ).loc main_arg2))) (bOf t) (Spec.pn (chOf t) p) (Spec.kxOf k))
      then Spec.wt (m ((c : Thread nD τ).loc main_arg0)) (m ((c : Thread nD τ).loc main_arg1)) (Cert.ReferenceIdeal.Hand.rotm (m ((c : Thread nD τ).loc main_arg2))) (m ((c : Thread nD τ).loc main_arg3)) (bOf t) (Spec.pn (chOf t) p) (Spec.kyOf k) (Spec.kxOf k)
      else 0 := by
  unfold accAt
  exact pointAcc_apply (iblk m c 0 t) (iblk m c 1 t) (iblk m c 2 t) (iblk m c 3 t)
    (m ((c : Thread nD τ).loc main_arg0)) (m ((c : Thread nD τ).loc main_arg1)) (Cert.ReferenceIdeal.Hand.rotm (m ((c : Thread nD τ).loc main_arg2))) (m ((c : Thread nD τ).loc main_arg3))
    (bOf t) (chOf t) (iblk0_apply m c t) (iblk1_apply m c t) (iblk2_apply m c t) (iblk3_apply m c t) r q

/-- The block set at a batch's first chunk, read at a pixel. -/
theorem total_pay1_apply (v90 : FVec Ideal S480x640 .f32) (r : Fin 480) (q : Fin 640) :
    k0_pay1 v90 (ix3 (0 : Fin 1) r q) = v90 (ix2 r q) := by
  unfold k0_pay1
  exact shapeCast_ab_1ab_apply v90 _ 0 r q

/-- The block added to at a later chunk, read at a pixel. -/
theorem total_pay2_apply (v90 : FVec Ideal S480x640 .f32) (v97 : Vec Ideal S1x480x640 .f32) (r : Fin 480) (q : Fin 640) :
    k0_pay2 v90 v97 (ix3 (0 : Fin 1) r q) = v97 (ix3 (0 : Fin 1) r q) + v90 (ix2 r q) := by
  unfold k0_pay2
  rw [shapeCast_ab_1ab_apply _ _ 0 r q, addf_apply, shapeCast_1ab_ab_apply]

/-- After chunk j of batch b the output block holds, at each pixel, the sum of the accumulated images of chunks 0 … j. -/
theorem chain_apply (c : Dev nD) (b : Fin 4) (j : ℕ) (hj : j < 200) (r : Fin 480) (q : Fin 640) :
    chain m c (b.val * 200 + j) (tOf b j hj).isLt (ix3 (0 : Fin 1) r q)
      = ∑ i : Fin (j + 1), accAt m c (tOf b i.val (by have := i.isLt; omega)) (ix2 r q) := by
  induction j with
  | zero =>
    have hA : chain m c (b.val * 200 + 0) (tOf b 0 hj).isLt = k0_pay1 (accAt m c (tOf b 0 hj)) :=
      chain_A m c (tOf b 0 hj) (by show (b.val * 200 + 0) % 200 = 0; omega)
    rw [hA, total_pay1_apply, Fin.sum_univ_one]
    rfl
  | succ j ih =>
    have hj' : j < 200 := by omega
    have hB : chain m c (b.val * 200 + (j + 1)) (tOf b (j + 1) hj).isLt
        = k0_pay2 (accAt m c (tOf b (j + 1) hj)) (chain m c (b.val * 200 + j) (tOf b j hj').isLt) := by
      exact (chain_B m c (tOf b (j + 1) hj) (by show ¬ (b.val * 200 + (j + 1)) % 200 = 0; omega)).trans
        (congrArg (k0_pay2 (accAt m c (tOf b (j + 1) hj)))
          (chain_congr m c (by show b.val * 200 + (j + 1) - 1 = b.val * 200 + j; omega) _ _))
    rw [hB, total_pay2_apply, Fin.sum_univ_castSucc, ih hj']
    rfl

/-- THE KERNEL'S RESULT IS THE IMAGE: at every batch and pixel, the result array holds the specification's sum. -/
theorem result_eq_splat (c : Dev nD) (b : Fin 4) (r : Fin 480) (q : Fin 640) :
    result m c (ix3 b r q)
      = Cert.Spec.splat (m ((c : Thread nD τ).loc main_arg0)) (m ((c : Thread nD τ).loc main_arg1))
          (Cert.ReferenceIdeal.Hand.rotm (m ((c : Thread nD τ).loc main_arg2))) (m ((c : Thread nD τ).loc main_arg3)) b r q := by
  rw [result_apply m c b r q]
  refine (chain_apply m c b 199 (by omega) r q).trans ?_
  refine Eq.trans ?_ (Cert.Alg.sum_point_regroup (M := Spec.E) (fun n ky kx =>
    if (BitVec.ofNat 32 r.val = Spec.rowc (m ((c : Thread nD τ).loc main_arg0)) (m ((c : Thread nD τ).loc main_arg1)) (Cert.ReferenceIdeal.Hand.rotm (m ((c : Thread nD τ).loc main_arg2))) b n ky
        ∧ BitVec.ofNat 32 q.val = Spec.colc (m ((c : Thread nD τ).loc main_arg0)) (m ((c : Thread nD τ).loc main_arg1)) (Cert.ReferenceIdeal.Hand.rotm (m ((c : Thread nD τ).loc main_arg2))) b n kx)
    then Spec.wt (m ((c : Thread nD τ).loc main_arg0)) (m ((c : Thread nD τ).loc main_arg1)) (Cert.ReferenceIdeal.Hand.rotm (m ((c : Thread nD τ).loc main_arg2))) (m ((c : Thread nD τ).loc main_arg3)) b n ky kx
    else 0))
  refine Finset.sum_congr rfl (fun ch _ => ?_)
  rw [accAt_apply, bOf_tOf, chOf_tOf b ch]

end Total

end Cert.KernelIdeal.Hand

end
-- ==== Proof.RI.Ops.lean ====
/-
  The reference program's @main as the list of its 294 host operations, a call's body in the call's place, cut into
  ten consecutive pieces at the values the named stages of Stages.lean stand for; and the rewriting pass that reads
  the fold of a piece at one buffer.
-/
import proofs.«147334_j72576357367816_1_alg».proof.Proof.RI.Stages
import Idealize.ShloMosaic.Lib.StableHlo.Run
import proofs.«147334_j72576357367816_1_alg».proof.Proof.LibConcatFold

noncomputable section

namespace Cert.ReferenceIdeal.Hand

open Cert.ReferenceIdeal Idealize.ShloMosaic Idealize.ShloMosaic.TcCoe Idealize.SL.Sem Idealize.ShloMosaic.StableHlo

variable {F : FTy → Type} [FloatOps F]
variable [Facts]
open Facts₀ Facts

/-! ## The operations, in order, in ten pieces -/

/-- The translated points and the conjugate unit quaternion (up to main_v11). -/
abbrev p0 : List (HloOp τ sig (Elt F)) :=
  [ nullary main_cst (fun i => FloatOps.ofBits .f32 (lit0 (S4.rowMajor i))),
    unary main_arg1 main_v0 (broadcastInDim S4x1x3 ![0, 2] bcast_S4x3_S4x1x3_0_2),
    unary main_v0 main_v1 (broadcastInDim S4x200000x3 ![0, 1, 2] bcast_S4x1x3_S4x200000x3_0_1_2),
    binary main_arg0 main_v1 main_v2 subf,
    binary main_arg2 main_arg2 main_v3 mulf,
    nullary main_cst_0 (constant S_ .f32 0x00000000#32),
    binary main_v3 main_cst_0 main_v4 (fun x v => Host.reduceAdd x v reducesTo_S4x4_S4_d1 h_S_),
    unary main_v4 main_v5 (broadcastInDim S4x1 ![0] bcast_S4_S4x1_0),
    unary main_v5 main_v6 Host.sqrt,
    unary main_v6 main_v7 (broadcastInDim S4x4 ![0, 1] bcast_S4x1_S4x4_0_1),
    binary main_arg2 main_v7 main_v8 Host.divf,
    unary main_cst main_v9 (broadcastInDim S1x4 ![1] bcast_S4_S1x4_1),
    unary main_v9 main_v10 (broadcastInDim S4x4 ![0, 1] bcast_S1x4_S4x4_0_1),
    binary main_v8 main_v10 main_v11 mulf ]

/-- The quaternion's components, their products, and the first entries of the matrix (main_v12 … main_v48). -/
abbrev p1 : List (HloOp τ sig (Elt F)) :=
  [ unary main_v11 main_v12 (extractStridedSlice S4x1 ![0, 0] · slices_S4x4_S4x1_0_0),
    reshape main_v12 main_v13 rfl shapeCasts_S4x1_S4,
    unary main_v11 main_v14 (extractStridedSlice S4x1 ![0, 1] · slices_S4x4_S4x1_0_1),
    reshape main_v14 main_v15 rfl shapeCasts_S4x1_S4,
    unary main_v11 main_v16 (extractStridedSlice S4x1 ![0, 2] · slices_S4x4_S4x1_0_2),
    reshape main_v16 main_v17 rfl shapeCasts_S4x1_S4,
    unary main_v11 main_v18 (extractStridedSlice S4x1 ![0, 3] · slices_S4x4_S4x1_0_3),
    reshape main_v18 main_v19 rfl shapeCasts_S4x1_S4,
    binary main_v13 main_v13 main_v20 mulf,
    binary main_v15 main_v15 main_v21 mulf,
    binary main_v17 main_v17 main_v22 mulf,
    binary main_v13 main_v15 main_v23 mulf,
    binary main_v13 main_v17 main_v24 mulf,
    binary main_v13 main_v19 main_v25 mulf,
    binary main_v15 main_v17 main_v26 mulf,
    binary main_v15 main_v19 main_v27 mulf,
    binary main_v17 main_v19 main_v28 mulf,
    nullary main_cst_1 (constant S_ .f32 0x40000000#32),
    unary main_cst_1 main_v29 (broadcastInDim S4 ![] bcast_S_S4),
    binary main_v29 main_v21 main_v30 mulf,
    nullary main_cst_2 (constant S_ .f32 0x3F800000#32),
    unary main_cst_2 main_v31 (broadcastInDim S4 ![] bcast_S_S4),
    binary main_v31 main_v30 main_v32 subf,
    nullary main_cst_3 (constant S_ .f32 0x40000000#32),
    unary main_cst_3 main_v33 (broadcastInDim S4 ![] bcast_S_S4),
    binary main_v33 main_v22 main_v34 mulf,
    binary main_v32 main_v34 main_v35 subf,
    nullary main_cst_4 (constant S_ .f32 0x40000000#32),
    unary main_cst_4 main_v36 (broadcastInDim S4 ![] bcast_S_S4),
    binary main_v36 main_v23 main_v37 mulf,
    nullary main_cst_5 (constant S_ .f32 0x40000000#32),
    unary main_cst_5 main_v38 (broadcastInDim S4 ![] bcast_S_S4),
    binary main_v38 main_v28 main_v39 mulf,
    binary main_v37 main_v39 main_v40 subf,
    nullary main_cst_6 (constant S_ .f32 0x40000000#32),
    unary main_cst_6 main_v41 (broadcastInDim S4 ![] bcast_S_S4),
    binary main_v41 main_v24 main_v42 mulf,
    nullary main_cst_7 (constant S_ .f32 0x40000000#32),
    unary main_cst_7 main_v43 (broadcastInDim S4 ![] bcast_S_S4),
    binary main_v43 main_v27 main_v44 mulf,
    binary main_v42 main_v44 main_v45 addf,
    nullary main_cst_8 (constant S_ .f32 0x40000000#32),
    unary main_cst_8 main_v46 (broadcastInDim S4 ![] bcast_S_S4),
    binary main_v46 main_v23 main_v47 mulf,
    nullary main_cst_9 (constant S_ .f32 0x40000000#32),
    unary main_cst_9 main_v48 (broadcastInDim S4 ![] bcast_S_S4) ]

/-- The remaining entries, the matrix, and the points in the camera frame (main_v49 … main_v96). -/
abbrev p2 : List (HloOp τ sig (Elt F)) :=
  [ binary main_v48 main_v28 main_v49 mulf,
    binary main_v47 main_v49 main_v50 addf,
    nullary main_cst_10 (constant S_ .f32 0x40000000#32),
    unary main_cst_10 main_v51 (broadcastInDim S4 ![] bcast_S_S4),
    binary main_v51 main_v20 main_v52 mulf,
    nullary main_cst_11 (constant S_ .f32 0x3F800000#32),
    unary main_cst_11 main_v53 (broadcastInDim S4 ![] bcast_S_S4),
    binary main_v53 main_v52 main_v54 subf,
    nullary main_cst_12 (constant S_ .f32 0x40000000#32),
    unary main_cst_12 main_v55 (broadcastInDim S4 ![] bcast_S_S4),
    binary main_v55 main_v22 main_v56 mulf,
    binary main_v54 main_v56 main_v57 subf,
    nullary main_cst_13 (constant S_ .f32 0x40000000#32),
    unary main_cst_13 main_v58 (broadcastInDim S4 ![] bcast_S_S4),
    binary main_v58 main_v26 main_v59 mulf,
    nullary main_cst_14 (constant S_ .f32 0x40000000#32),
    unary main_cst_14 main_v60 (broadcastInDim S4 ![] bcast_S_S4),
    binary main_v60 main_v25 main_v61 mulf,
    binary main_v59 main_v61 main_v62 subf,
    nullary main_cst_15 (constant S_ .f32 0x40000000#32),
    unary main_cst_15 main_v63 (broadcastInDim S4 ![] bcast_S_S4),
    binary main_v63 main_v24 main_v64 mulf,
    nullary main_cst_16 (constant S_ .f32 0x40000000#32),
    unary main_cst_16 main_v65 (broadcastInDim S4 ![] bcast_S_S4),
    binary main_v65 main_v27 main_v66 mulf,
    binary main_v64 main_v66 main_v67 subf,
    nullary main_cst_17 (constant S_ .f32 0x40000000#32),
    unary main_cst_17 main_v68 (broadcastInDim S4 ![] bcast_S_S4),
    binary main_v68 main_v26 main_v69 mulf,
    nullary main_cst_18 (constant S_ .f32 0x40000000#32),
    unary main_cst_18 main_v70 (broadcastInDim S4 ![] bcast_S_S4),
    binary main_v70 main_v25 main_v71 mulf,
    binary main_v69 main_v71 main_v72 addf,
    nullary main_cst_19 (constant S_ .f32 0x40000000#32),
    unary main_cst_19 main_v73 (broadcastInDim S4 ![] bcast_S_S4),
    binary main_v73 main_v20 main_v74 mulf,
    nullary main_cst_20 (constant S_ .f32 0x3F800000#32),
    unary main_cst_20 main_v75 (broadcastInDim S4 ![] bcast_S_S4),
    binary main_v75 main_v74 main_v76 subf,
    nullary main_cst_21 (constant S_ .f32 0x40000000#32),
    unary main_cst_21 main_v77 (broadcastInDim S4 ![] bcast_S_S4),
    binary main_v77 main_v21 main_v78 mulf,
    binary main_v76 main_v78 main_v79 subf,
    unary main_v35 main_v80 (broadcastInDim S4x1 ![0] bcast_S4_S4x1_0),
    unary main_v50 main_v81 (broadcastInDim S4x1 ![0] bcast_S4_S4x1_0),
    unary main_v67 main_v82 (broadcastInDim S4x1 ![0] bcast_S4_S4x1_0),
    nary ![main_v80, main_v81, main_v82] main_v83
      (fun u => concatenate S4x3 1 [⟨S4x1, u 0⟩, ⟨S4x1, u 1⟩, ⟨S4x1, u 2⟩] concatenates_S4x1_S4x1_S4x1_S4x3_d1),
    unary main_v40 main_v84 (broadcastInDim S4x1 ![0] bcast_S4_S4x1_0),
    unary main_v57 main_v85 (broadcastInDim S4x1 ![0] bcast_S4_S4x1_0),
    unary main_v72 main_v86 (broadcastInDim S4x1 ![0] bcast_S4_S4x1_0),
    nary ![main_v84, main_v85, main_v86] main_v87
      (fun u => concatenate S4x3 1 [⟨S4x1, u 0⟩, ⟨S4x1, u 1⟩, ⟨S4x1, u 2⟩] concatenates_S4x1_S4x1_S4x1_S4x3_d1),
    unary main_v45 main_v88 (broadcastInDim S4x1 ![0] bcast_S4_S4x1_0),
    unary main_v62 main_v89 (broadcastInDim S4x1 ![0] bcast_S4_S4x1_0),
    unary main_v79 main_v90 (broadcastInDim S4x1 ![0] bcast_S4_S4x1_0),
    nary ![main_v88, main_v89, main_v90] main_v91
      (fun u => concatenate S4x3 1 [⟨S4x1, u 0⟩, ⟨S4x1, u 1⟩, ⟨S4x1, u 2⟩] concatenates_S4x1_S4x1_S4x1_S4x3_d1),
    unary main_v83 main_v92 (broadcastInDim S4x1x3 ![0, 2] bcast_S4x3_S4x1x3_0_2),
    unary main_v87 main_v93 (broadcastInDim S4x1x3 ![0, 2] bcast_S4x3_S4x1x3_0_2),
    unary main_v91 main_v94 (broadcastInDim S4x1x3 ![0, 2] bcast_S4x3_S4x1x3_0_2),
    nary ![main_v92, main_v93, main_v94] main_v95
      (fun u => concatenate S4x3x3 1 [⟨S4x1x3, u 0⟩, ⟨S4x1x3, u 1⟩, ⟨S4x1x3, u 2⟩]
        concatenates_S4x1x3_S4x1x3_S4x1x3_S4x3x3_d1),
    binary main_v2 main_v95 main_v96
      (fun l r => Host.dotGeneral dot_S4x200000x3_S4x3x3_S4x200000x3_2_1_1_2_0_0 none l r) ]

/-- The three camera-frame coordinates and the pixel coordinates (main_v97 … main_v115; the call of _where in its place). -/
abbrev p3 : List (HloOp τ sig (Elt F)) :=
  [ unary main_v96 main_v97 (extractStridedSlice S4x200000x1 ![0, 0, 0] · slices_S4x200000x3_S4x200000x1_0_0_0),
    reshape main_v97 main_v98 rfl shapeCasts_S4x200000x1_S4x200000,
    unary main_v96 main_v99 (extractStridedSlice S4x200000x1 ![0, 0, 1] · slices_S4x200000x3_S4x200000x1_0_0_1),
    reshape main_v99 main_v100 rfl shapeCasts_S4x200000x1_S4x200000,
    unary main_v96 main_v101 (extractStridedSlice S4x200000x1 ![0, 0, 2] · slices_S4x200000x3_S4x200000x1_0_0_2),
    reshape main_v101 main_v102 rfl shapeCasts_S4x200000x1_S4x200000,
    nullary main_cst_22 (constant S_ .f32 0x00000000#32),
    unary main_cst_22 main_v103 (broadcastInDim S4x200000 ![] bcast_S_S4x200000),
    binary main_v102 main_v103 main_v104 (cmpf .ogt),
    nullary main_cst_23 (constant S_ .f32 0x3F800000#32),
    unary main_cst_23 main_call0_v0 id,
    unary main_call0_v0 main_call0_v1 (broadcastInDim S4x200000 ![] bcast_S_S4x200000),
    ternary main_v104 main_v102 main_call0_v1 main_v105 select,
    binary main_v98 main_v105 main_v106 Host.divf,
    nullary main_cst_24 (constant S_ .f32 0x44070000#32),
    unary main_cst_24 main_v107 (broadcastInDim S4x200000 ![] bcast_S_S4x200000),
    binary main_v106 main_v107 main_v108 mulf,
    nullary main_cst_25 (constant S_ .f32 0x43A00000#32),
    unary main_cst_25 main_v109 (broadcastInDim S4x200000 ![] bcast_S_S4x200000),
    binary main_v108 main_v109 main_v110 addf,
    binary main_v100 main_v105 main_v111 Host.divf,
    nullary main_cst_26 (constant S_ .f32 0x44070000#32),
    unary main_cst_26 main_v112 (broadcastInDim S4x200000 ![] bcast_S_S4x200000),
    binary main_v111 main_v112 main_v113 mulf,
    nullary main_cst_27 (constant S_ .f32 0x43700000#32),
    unary main_cst_27 main_v114 (broadcastInDim S4x200000 ![] bcast_S_S4x200000),
    binary main_v113 main_v114 main_v115 addf ]

/-- The footprint's column and row indices (main_v116 … main_v132). -/
abbrev p4 : List (HloOp τ sig (Elt F)) :=
  [ nullary main_v116 (iotaInDim S5 32 0),
    nullary main_c (constantI S_ 32 2#32),
    unary main_c main_v117 (broadcastInDim S5 ![] bcast_S_S5),
    binary main_v116 main_v117 main_v118 subi,
    unary main_v110 main_v119 Host.floor,
    unary main_v119 main_v120 (fptosi 32),
    unary main_v120 main_v121 (broadcastInDim S4x200000x1 ![0, 1] bcast_S4x200000_S4x200000x1_0_1),
    unary main_v118 main_v122 (broadcastInDim S1x1x5 ![2] bcast_S5_S1x1x5_2),
    unary main_v121 main_v123 (broadcastInDim S4x200000x5 ![0, 1, 2] bcast_S4x200000x1_S4x200000x5_0_1_2),
    unary main_v122 main_v124 (broadcastInDim S4x200000x5 ![0, 1, 2] bcast_S1x1x5_S4x200000x5_0_1_2),
    binary main_v123 main_v124 main_v125 addi,
    unary main_v115 main_v126 Host.floor,
    unary main_v126 main_v127 (fptosi 32),
    unary main_v127 main_v128 (broadcastInDim S4x200000x1 ![0, 1] bcast_S4x200000_S4x200000x1_0_1),
    unary main_v118 main_v129 (broadcastInDim S1x1x5 ![2] bcast_S5_S1x1x5_2),
    unary main_v128 main_v130 (broadcastInDim S4x200000x5 ![0, 1, 2] bcast_S4x200000x1_S4x200000x5_0_1_2),
    unary main_v129 main_v131 (broadcastInDim S4x200000x5 ![0, 1, 2] bcast_S1x1x5_S4x200000x5_0_1_2),
    binary main_v130 main_v131 main_v132 addi ]

/-- The squared distances and their negated sum (main_v133 … main_v148, and the constant 2). -/
abbrev p5 : List (HloOp τ sig (Elt F)) :=
  [ unary main_v125 main_v133 (sitofp .f32),
    unary main_v110 main_v134 (broadcastInDim S4x200000x1 ![0, 1] bcast_S4x200000_S4x200000x1_0_1),
    unary main_v134 main_v135 (broadcastInDim S4x200000x5 ![0, 1, 2] bcast_S4x200000x1_S4x200000x5_0_1_2),
    binary main_v133 main_v135 main_v136 subf,
    unary main_v132 main_v137 (sitofp .f32),
    unary main_v115 main_v138 (broadcastInDim S4x200000x1 ![0, 1] bcast_S4x200000_S4x200000x1_0_1),
    unary main_v138 main_v139 (broadcastInDim S4x200000x5 ![0, 1, 2] bcast_S4x200000x1_S4x200000x5_0_1_2),
    binary main_v137 main_v139 main_v140 subf,
    unary main_v140 main_v141 (broadcastInDim S4x200000x5x1 ![0, 1, 2] bcast_S4x200000x5_S4x200000x5x1_0_1_2),
    binary main_v141 main_v141 main_v142 mulf,
    unary main_v136 main_v143 (broadcastInDim S4x200000x1x5 ![0, 1, 3] bcast_S4x200000x5_S4x200000x1x5_0_1_3),
    binary main_v143 main_v143 main_v144 mulf,
    unary main_v142 main_v145 (broadcastInDim S4x200000x5x5 ![0, 1, 2, 3] bcast_S4x200000x5x1_S4x200000x5x5_0_1_2_3),
    unary main_v144 main_v146 (broadcastInDim S4x200000x5x5 ![0, 1, 2, 3] bcast_S4x200000x1x5_S4x200000x5x5_0_1_2_3),
    binary main_v145 main_v146 main_v147 addf,
    unary main_v147 main_v148 Host.negf,
    nullary main_cst_28 (constant S_ .f32 0x40000000#32) ]

/-- The weights (main_v149 … main_v153). -/
abbrev p6 : List (HloOp τ sig (Elt F)) :=
  [ unary main_cst_28 main_v149 (broadcastInDim S4x200000x5x5 ![] bcast_S_S4x200000x5x5),
    binary main_v148 main_v149 main_v150 Host.divf,
    unary main_v150 main_v151 Host.exp,
    nullary main_cst_29 (constant S_ .f32 0x3F800000#32),
    unary main_cst_29 main_v152 (broadcastInDim S4x200000x5x5 ![] bcast_S_S4x200000x5x5),
    binary main_v152 main_v151 main_v153 mulf ]

/-- The footprint pixels' indices, the in-image mask and the clamped indices (main_v154 … main_v170; the two
    calls of clip in their places). -/
abbrev p7 : List (HloOp τ sig (Elt F)) :=
  [ unary main_v132 main_v154 (broadcastInDim S4x200000x5x1 ![0, 1, 2] bcast_S4x200000x5_S4x200000x5x1_0_1_2),
    unary main_v154 main_v155 (broadcastInDim S4x200000x5x5 ![0, 1, 2, 3] bcast_S4x200000x5x1_S4x200000x5x5_0_1_2_3),
    unary main_v125 main_v156 (broadcastInDim S4x200000x1x5 ![0, 1, 3] bcast_S4x200000x5_S4x200000x1x5_0_1_3),
    unary main_v156 main_v157 (broadcastInDim S4x200000x5x5 ![0, 1, 2, 3] bcast_S4x200000x1x5_S4x200000x5x5_0_1_2_3),
    nullary main_c_30 (constantI S_ 32 0#32),
    unary main_c_30 main_v158 (broadcastInDim S4x200000x5x5 ![] bcast_S_S4x200000x5x5),
    binary main_v155 main_v158 main_v159 (cmpi .sge),
    nullary main_c_31 (constantI S_ 32 480#32),
    unary main_c_31 main_v160 (broadcastInDim S4x200000x5x5 ![] bcast_S_S4x200000x5x5),
    binary main_v155 main_v160 main_v161 (cmpi .slt),
    binary main_v159 main_v161 main_v162 andi,
    nullary main_c_32 (constantI S_ 32 0#32),
    unary main_c_32 main_v163 (broadcastInDim S4x200000x5x5 ![] bcast_S_S4x200000x5x5),
    binary main_v157 main_v163 main_v164 (cmpi .sge),
    binary main_v162 main_v164 main_v165 andi,
    nullary main_c_33 (constantI S_ 32 640#32),
    unary main_c_33 main_v166 (broadcastInDim S4x200000x5x5 ![] bcast_S_S4x200000x5x5),
    binary main_v157 main_v166 main_v167 (cmpi .slt),
    binary main_v165 main_v167 main_v168 andi,
    nullary main_c_34 (constantI S_ 32 0#32),
    nullary main_c_35 (constantI S_ 32 479#32),
    unary main_c_34 main_call1_v0 id,
    unary main_call1_v0 main_call1_v1 (broadcastInDim S4x200000x5x5 ![] bcast_S_S4x200000x5x5),
    binary main_call1_v1 main_v155 main_call1_v2 maxsi,
    unary main_c_35 main_call1_v3 id,
    unary main_call1_v3 main_call1_v4 (broadcastInDim S4x200000x5x5 ![] bcast_S_S4x200000x5x5),
    binary main_call1_v4 main_call1_v2 main_v169 minsi,
    nullary main_c_36 (constantI S_ 32 0#32),
    nullary main_c_37 (constantI S_ 32 639#32),
    unary main_c_36 main_call2_v0 id,
    unary main_call2_v0 main_call2_v1 (broadcastInDim S4x200000x5x5 ![] bcast_S_S4x200000x5x5),
    binary main_call2_v1 main_v157 main_call2_v2 maxsi,
    unary main_c_37 main_call2_v3 id,
    unary main_call2_v3 main_call2_v4 (broadcastInDim S4x200000x5x5 ![] bcast_S_S4x200000x5x5),
    binary main_call2_v4 main_call2_v2 main_v170 minsi ]

/-- The gather's index vectors and the depth image read at them (main_v171 … main_v193). -/
abbrev p8 : List (HloOp τ sig (Elt F)) :=
  [ nullary main_v171 (iotaInDim S4 32 0),
    unary main_v171 main_v172 (broadcastInDim S4x1x1x1 ![0] bcast_S4_S4x1x1x1_0),
    nullary main_c_38 (constantI S_ 32 0#32),
    unary main_c_38 main_v173 (broadcastInDim S4x1x1x1 ![] bcast_S_S4x1x1x1),
    binary main_v172 main_v173 main_v174 (cmpi .slt),
    nullary main_c_39 (constantI S_ 32 4#32),
    unary main_c_39 main_v175 (broadcastInDim S4x1x1x1 ![] bcast_S_S4x1x1x1),
    binary main_v172 main_v175 main_v176 addi,
    ternary main_v174 main_v176 main_v172 main_v177 select,
    nullary main_c_40 (constantI S_ 32 0#32),
    unary main_c_40 main_v178 (broadcastInDim S4x200000x5x5 ![] bcast_S_S4x200000x5x5),
    binary main_v169 main_v178 main_v179 (cmpi .slt),
    nullary main_c_41 (constantI S_ 32 480#32),
    unary main_c_41 main_v180 (broadcastInDim S4x200000x5x5 ![] bcast_S_S4x200000x5x5),
    binary main_v169 main_v180 main_v181 addi,
    ternary main_v179 main_v181 main_v169 main_v182 select,
    nullary main_c_42 (constantI S_ 32 0#32),
    unary main_c_42 main_v183 (broadcastInDim S4x200000x5x5 ![] bcast_S_S4x200000x5x5),
    binary main_v170 main_v183 main_v184 (cmpi .slt),
    nullary main_c_43 (constantI S_ 32 640#32),
    unary main_c_43 main_v185 (broadcastInDim S4x200000x5x5 ![] bcast_S_S4x200000x5x5),
    binary main_v170 main_v185 main_v186 addi,
    ternary main_v184 main_v186 main_v170 main_v187 select,
    unary main_v177 main_v188 (broadcastInDim S4x200000x5x5 ![0, 1, 2, 3] bcast_S4x1x1x1_S4x200000x5x5_0_1_2_3),
    unary main_v188 main_v189 (broadcastInDim S4x200000x5x5x1 ![0, 1, 2, 3] bcast_S4x200000x5x5_S4x200000x5x5x1_0_1_2_3),
    unary main_v182 main_v190 (broadcastInDim S4x200000x5x5x1 ![0, 1, 2, 3] bcast_S4x200000x5x5_S4x200000x5x5x1_0_1_2_3),
    unary main_v187 main_v191 (broadcastInDim S4x200000x5x5x1 ![0, 1, 2, 3] bcast_S4x200000x5x5_S4x200000x5x5x1_0_1_2_3),
    nary ![main_v189, main_v190, main_v191] main_v192
      (fun u => concatenate S4x200000x5x5x3 4 [⟨S4x200000x5x5x1, u 0⟩, ⟨S4x200000x5x5x1, u 1⟩, ⟨S4x200000x5x5x1, u 2⟩]
        concatenates_S4x200000x5x5x1_S4x200000x5x5x1_S4x200000x5x5x1_S4x200000x5x5x3_d4),
    binary main_arg3 main_v192 main_v193
      (fun x i => Host.gather gather_S4x480x640_S4x200000x5x5x3_S4x200000x5x5_n_012_n_n_012_4_111 x i) ]

/-- The validity mask, the updates, the scatter's index vectors and the scatter (main_v194 … main_v224; the call
    of _where_0 in its place). -/
abbrev p9 : List (HloOp τ sig (Elt F)) :=
  [ unary main_v102 main_v194 (broadcastInDim S4x200000x1x1 ![0, 1] bcast_S4x200000_S4x200000x1x1_0_1),
    nullary main_cst_44 (constant S_ .f32 0x00000000#32),
    unary main_cst_44 main_v195 (broadcastInDim S4x200000x1x1 ![] bcast_S_S4x200000x1x1),
    binary main_v194 main_v195 main_v196 (cmpf .ogt),
    unary main_v196 main_v197 (broadcastInDim S4x200000x5x5 ![0, 1, 2, 3] bcast_S4x200000x1x1_S4x200000x5x5_0_1_2_3),
    binary main_v168 main_v197 main_v198 andi,
    unary main_v194 main_v199 (broadcastInDim S4x200000x5x5 ![0, 1, 2, 3] bcast_S4x200000x1x1_S4x200000x5x5_0_1_2_3),
    binary main_v199 main_v193 main_v200 (cmpf .ole),
    binary main_v198 main_v200 main_v201 andi,
    nullary main_cst_45 (constant S_ .f32 0x00000000#32),
    unary main_cst_45 main_call3_v0 id,
    unary main_call3_v0 main_call3_v1 (broadcastInDim S4x200000x5x5 ![] bcast_S_S4x200000x5x5),
    ternary main_v201 main_v153 main_call3_v1 main_v202 select,
    nullary main_cst_46 (constant S_ .f32 0x00000000#32),
    unary main_cst_46 main_v203 (broadcastInDim S4x480x640 ![] bcast_S_S4x480x640),
    nullary main_c_47 (constantI S_ 32 0#32),
    unary main_c_47 main_v204 (broadcastInDim S4x1x1x1 ![] bcast_S_S4x1x1x1),
    binary main_v172 main_v204 main_v205 (cmpi .slt),
    nullary main_c_48 (constantI S_ 32 4#32),
    unary main_c_48 main_v206 (broadcastInDim S4x1x1x1 ![] bcast_S_S4x1x1x1),
    binary main_v172 main_v206 main_v207 addi,
    ternary main_v205 main_v207 main_v172 main_v208 select,
    nullary main_c_49 (constantI S_ 32 0#32),
    unary main_c_49 main_v209 (broadcastInDim S4x200000x5x5 ![] bcast_S_S4x200000x5x5),
    binary main_v169 main_v209 main_v210 (cmpi .slt),
    nullary main_c_50 (constantI S_ 32 480#32),
    unary main_c_50 main_v211 (broadcastInDim S4x200000x5x5 ![] bcast_S_S4x200000x5x5),
    binary main_v169 main_v211 main_v212 addi,
    ternary main_v210 main_v212 main_v169 main_v213 select,
    nullary main_c_51 (constantI S_ 32 0#32),
    unary main_c_51 main_v214 (broadcastInDim S4x200000x5x5 ![] bcast_S_S4x200000x5x5),
    binary main_v170 main_v214 main_v215 (cmpi .slt),
    nullary main_c_52 (constantI S_ 32 640#32),
    unary main_c_52 main_v216 (broadcastInDim S4x200000x5x5 ![] bcast_S_S4x200000x5x5),
    binary main_v170 main_v216 main_v217 addi,
    ternary main_v215 main_v217 main_v170 main_v218 select,
    unary main_v208 main_v219 (broadcastInDim S4x200000x5x5 ![0, 1, 2, 3] bcast_S4x1x1x1_S4x200000x5x5_0_1_2_3),
    unary main_v219 main_v220 (broadcastInDim S4x200000x5x5x1 ![0, 1, 2, 3] bcast_S4x200000x5x5_S4x200000x5x5x1_0_1_2_3),
    unary main_v213 main_v221 (broadcastInDim S4x200000x5x5x1 ![0, 1, 2, 3] bcast_S4x200000x5x5_S4x200000x5x5x1_0_1_2_3),
    unary main_v218 main_v222 (broadcastInDim S4x200000x5x5x1 ![0, 1, 2, 3] bcast_S4x200000x5x5_S4x200000x5x5x1_0_1_2_3),
    nary ![main_v220, main_v221, main_v222] main_v223
      (fun u => concatenate S4x200000x5x5x3 4 [⟨S4x200000x5x5x1, u 0⟩, ⟨S4x200000x5x5x1, u 1⟩, ⟨S4x200000x5x5x1, u 2⟩]
        concatenates_S4x200000x5x5x1_S4x200000x5x5x1_S4x200000x5x5x1_S4x200000x5x5x3_d4),
    ternary main_v203 main_v223 main_v202 main_v224
      (fun x i u => Host.scatterAdd scatter_S4x480x640_S4x200000x5x5x3_S4x200000x5x5_n_012_012_4 x i u) ]

/-- All 294 operations, in order. -/
abbrev ops : List (HloOp τ sig (Elt F)) :=
  p0 ++ (p1 ++ (p2 ++ (p3 ++ (p4 ++ (p5 ++ (p6 ++ (p7 ++ (p8 ++ p9))))))))

/-- The fold over two lines run one after the other is the second's fold of the first's. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- A TensorCore reference as the device buffer it names. -/
scoped notation:max "↟" r:max => Proc.devRef Proc.tc r

/-- The fold of a literal piece at one buffer, as ONE rewriting pass: each operation's result at its own buffer is its
    function's value, at another buffer what was there; a concatenation is folded to its three-argument form so that
    the pass goes on inside its pieces. -/
macro "stage_results" : tactic =>
  `(tactic| (simp (disch := decide) only [after_cons, after_nil,
      nullary_result', unary_result', binary_result', ternary_result', reshape_result', nary_result',
      nullary_result_ne', unary_result_ne', binary_result_ne', ternary_result_ne', reshape_result_ne', nary_result_ne',
      Cert.Lib.cat3_fold, Matrix.cons_val_zero, Matrix.cons_val_one, Matrix.cons_val]))

end Cert.ReferenceIdeal.Hand

end
-- ==== Proof.RI.Eq01.lean ====
/-
  The reference program's first two windows are the lines of the pieces p0 ++ p1 and p2: both sides are one chain of
  operation steps.
-/
import proofs.«147334_j72576357367816_1_alg».proof.Proof.RI.Ops

noncomputable section

namespace Cert.ReferenceIdeal.Hand

open Cert.ReferenceIdeal Idealize.ShloMosaic Idealize.ShloMosaic.TcCoe Idealize.SL.Sem Idealize.ShloMosaic.StableHlo

variable {F : FTy → Type} [FloatOps F]
variable [Facts]
open Facts₀ Facts

set_option maxRecDepth 8192 in
theorem part0_eq (c : Dev nD) : main_part0 (F := F) c = seq (p0 ++ p1) := rfl
set_option maxRecDepth 8192 in
theorem part1_eq (c : Dev nD) : main_part1 (F := F) c = seq p2 := rfl

end Cert.ReferenceIdeal.Hand

end
-- ==== Proof.RI.Eq2.lean ====
/-
  The reference program's third window is the line of the pieces p3 ++ (p4 ++ p5): both sides are one chain of
  operation steps, the call's body grafted in its place by the definition of sequencing.
-/
import proofs.«147334_j72576357367816_1_alg».proof.Proof.RI.Ops

noncomputable section

namespace Cert.ReferenceIdeal.Hand

open Cert.ReferenceIdeal Idealize.ShloMosaic Idealize.ShloMosaic.TcCoe Idealize.SL.Sem Idealize.ShloMosaic.StableHlo

variable {F : FTy → Type} [FloatOps F]
variable [Facts]
open Facts₀ Facts

set_option maxRecDepth 8192 in
theorem part2_eq (c : Dev nD) : main_part2 (F := F) c = seq (p3 ++ (p4 ++ p5)) := rfl

end Cert.ReferenceIdeal.Hand

end
-- ==== Proof.RI.Eq3.lean ====
/-
  The reference program's fourth window is the line of the pieces p6 ++ (p7 ++ p8): both sides are one chain of
  operation steps, the two calls' bodies grafted in their places by the definition of sequencing.
-/
import proofs.«147334_j72576357367816_1_alg».proof.Proof.RI.Ops

noncomputable section

namespace Cert.ReferenceIdeal.Hand

open Cert.ReferenceIdeal Idealize.ShloMosaic Idealize.ShloMosaic.TcCoe Idealize.SL.Sem Idealize.ShloMosaic.StableHlo

variable {F : FTy → Type} [FloatOps F]
variable [Facts]
open Facts₀ Facts

set_option maxRecDepth 8192 in
theorem part3_eq (c : Dev nD) : main_part3 (F := F) c = seq (p6 ++ (p7 ++ p8)) := rfl

end Cert.ReferenceIdeal.Hand

end
-- ==== Proof.RI.Eq4.lean ====
/-
  The reference program's last window is the line of the piece p9: both sides are one chain of operation steps, the
  call's body grafted in its place by the definition of sequencing.
-/
import proofs.«147334_j72576357367816_1_alg».proof.Proof.RI.Ops

noncomputable section

namespace Cert.ReferenceIdeal.Hand

open Cert.ReferenceIdeal Idealize.ShloMosaic Idealize.ShloMosaic.TcCoe Idealize.SL.Sem Idealize.ShloMosaic.StableHlo

variable {F : FTy → Type} [FloatOps F]
variable [Facts]
open Facts₀ Facts

set_option maxRecDepth 8192 in
theorem part4_eq (c : Dev nD) : main_part4 (F := F) c = seq p9 := rfl

end Cert.ReferenceIdeal.Hand

end
-- ==== Proof.RI.SubTab0.lean ====
/-
  Every operation of piece p0 of the reference program touches TensorCore buffers only, and determines its results
  (it leaves no buffer at unspecified contents): the list's claim is the conjunction of its elements' claims, each the
  library's fact about the operation's builder, or true by definition.
-/
import proofs.«147334_j72576357367816_1_alg».proof.Proof.RI.Ops

noncomputable section

namespace Cert.ReferenceIdeal.Hand

open Cert.ReferenceIdeal Idealize.ShloMosaic Idealize.ShloMosaic.TcCoe Idealize.SL.Sem Idealize.ShloMosaic.StableHlo

variable {F : FTy → Type} [FloatOps F]
variable [Facts]
open Facts₀ Facts

set_option maxHeartbeats 40000000 in
/-- The 14 operations of piece p0 touch TensorCore buffers only. -/
theorem p0_sub : (p0 : List (HloOp τ sig (Elt F))).Forall fun op => op.bufs ⊆ tcRefs τ sig :=
  ⟨nullary_bufs_sub .., unary_bufs_sub .., unary_bufs_sub .., binary_bufs_sub .., binary_bufs_sub .., nullary_bufs_sub .., binary_bufs_sub .., unary_bufs_sub .., unary_bufs_sub .., unary_bufs_sub .., binary_bufs_sub .., unary_bufs_sub .., unary_bufs_sub .., binary_bufs_sub ..⟩

set_option maxHeartbeats 40000000 in
/-- Each of them determines its results. -/
theorem p0_fresh : (p0 : List (HloOp τ sig (Elt F))).Forall fun op => op.fresh = ∅ :=
  ⟨rfl, rfl, rfl, rfl, rfl, rfl, rfl, rfl, rfl, rfl, rfl, rfl, rfl, rfl⟩

end Cert.ReferenceIdeal.Hand

end
-- ==== Proof.RI.SubTab1.lean ====
/-
  Every operation of piece p1 of the reference program touches TensorCore buffers only, and determines its results
  (it leaves no buffer at unspecified contents): the list's claim is the conjunction of its elements' claims, each the
  library's fact about the operation's builder, or true by definition.
-/
import proofs.«147334_j72576357367816_1_alg».proof.Proof.RI.Ops

noncomputable section

namespace Cert.ReferenceIdeal.Hand

open Cert.ReferenceIdeal Idealize.ShloMosaic Idealize.ShloMosaic.TcCoe Idealize.SL.Sem Idealize.ShloMosaic.StableHlo

variable {F : FTy → Type} [FloatOps F]
variable [Facts]
open Facts₀ Facts

set_option maxHeartbeats 40000000 in
/-- The 46 operations of piece p1 touch TensorCore buffers only. -/
theorem p1_sub : (p1 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., binary_bufs_sub .., binary_bufs_sub .., binary_bufs_sub .., binary_bufs_sub .., binary_bufs_sub .., binary_bufs_sub .., binary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub ..⟩

set_option maxHeartbeats 40000000 in
/-- Each of them determines its results. -/
theorem p1_fresh : (p1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.Hand

end
-- ==== Proof.RI.SubTab2.lean ====
/-
  Every operation of piece p2 of the reference program touches TensorCore buffers only, and determines its results
  (it leaves no buffer at unspecified contents): the list's claim is the conjunction of its elements' claims, each the
  library's fact about the operation's builder, or true by definition.
-/
import proofs.«147334_j72576357367816_1_alg».proof.Proof.RI.Ops

noncomputable section

namespace Cert.ReferenceIdeal.Hand

open Cert.ReferenceIdeal Idealize.ShloMosaic Idealize.ShloMosaic.TcCoe Idealize.SL.Sem Idealize.ShloMosaic.StableHlo

variable {F : FTy → Type} [FloatOps F]
variable [Facts]
open Facts₀ Facts

set_option maxHeartbeats 40000000 in
/-- The 60 operations of piece p2 touch TensorCore buffers only. -/
theorem p2_sub : (p2 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., unary_bufs_sub .., unary_bufs_sub .., nary_bufs_sub .., unary_bufs_sub .., unary_bufs_sub .., unary_bufs_sub .., nary_bufs_sub .., unary_bufs_sub .., unary_bufs_sub .., unary_bufs_sub .., nary_bufs_sub .., unary_bufs_sub .., unary_bufs_sub .., unary_bufs_sub .., nary_bufs_sub .., binary_bufs_sub ..⟩

set_option maxHeartbeats 40000000 in
/-- Each of them determines its results. -/
theorem p2_fresh : (p2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.Hand

end
-- ==== Proof.RI.SubTab3.lean ====
/-
  Every operation of piece p3 of the reference program touches TensorCore buffers only, and determines its results
  (it leaves no buffer at unspecified contents): the list's claim is the conjunction of its elements' claims, each the
  library's fact about the operation's builder, or true by definition.
-/
import proofs.«147334_j72576357367816_1_alg».proof.Proof.RI.Ops

noncomputable section

namespace Cert.ReferenceIdeal.Hand

open Cert.ReferenceIdeal Idealize.ShloMosaic Idealize.ShloMosaic.TcCoe Idealize.SL.Sem Idealize.ShloMosaic.StableHlo

variable {F : FTy → Type} [FloatOps F]
variable [Facts]
open Facts₀ Facts

set_option maxHeartbeats 40000000 in
/-- The 27 operations of piece p3 touch TensorCore buffers only. -/
theorem p3_sub : (p3 : List (HloOp τ sig (Elt F))).Forall fun op => op.bufs ⊆ tcRefs τ sig :=
  ⟨unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., unary_bufs_sub .., ternary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub ..⟩

set_option maxHeartbeats 40000000 in
/-- Each of them determines its results. -/
theorem p3_fresh : (p3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.Hand

end
-- ==== Proof.RI.SubTab4.lean ====
/-
  Every operation of piece p4 of the reference program touches TensorCore buffers only, and determines its results
  (it leaves no buffer at unspecified contents): the list's claim is the conjunction of its elements' claims, each the
  library's fact about the operation's builder, or true by definition.
-/
import proofs.«147334_j72576357367816_1_alg».proof.Proof.RI.Ops

noncomputable section

namespace Cert.ReferenceIdeal.Hand

open Cert.ReferenceIdeal Idealize.ShloMosaic Idealize.ShloMosaic.TcCoe Idealize.SL.Sem Idealize.ShloMosaic.StableHlo

variable {F : FTy → Type} [FloatOps F]
variable [Facts]
open Facts₀ Facts

set_option maxHeartbeats 40000000 in
/-- The 18 operations of piece p4 touch TensorCore buffers only. -/
theorem p4_sub : (p4 : List (HloOp τ sig (Elt F))).Forall fun op => op.bufs ⊆ tcRefs τ sig :=
  ⟨nullary_bufs_sub .., nullary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., binary_bufs_sub ..⟩

set_option maxHeartbeats 40000000 in
/-- Each of them determines its results. -/
theorem p4_fresh : (p4 : List (HloOp τ sig (Elt F))).Forall fun op => op.fresh = ∅ :=
  ⟨rfl, rfl, rfl, rfl, rfl, rfl, rfl, rfl, rfl, rfl, rfl, rfl, rfl, rfl, rfl, rfl, rfl, rfl⟩

end Cert.ReferenceIdeal.Hand

end
-- ==== Proof.RI.SubTab5.lean ====
/-
  Every operation of piece p5 of the reference program touches TensorCore buffers only, and determines its results
  (it leaves no buffer at unspecified contents): the list's claim is the conjunction of its elements' claims, each the
  library's fact about the operation's builder, or true by definition.
-/
import proofs.«147334_j72576357367816_1_alg».proof.Proof.RI.Ops

noncomputable section

namespace Cert.ReferenceIdeal.Hand

open Cert.ReferenceIdeal Idealize.ShloMosaic Idealize.ShloMosaic.TcCoe Idealize.SL.Sem Idealize.ShloMosaic.StableHlo

variable {F : FTy → Type} [FloatOps F]
variable [Facts]
open Facts₀ Facts

set_option maxHeartbeats 40000000 in
/-- The 17 operations of piece p5 touch TensorCore buffers only. -/
theorem p5_sub : (p5 : List (HloOp τ sig (Elt F))).Forall fun op => op.bufs ⊆ tcRefs τ sig :=
  ⟨unary_bufs_sub .., unary_bufs_sub .., unary_bufs_sub .., binary_bufs_sub .., unary_bufs_sub .., unary_bufs_sub .., unary_bufs_sub .., binary_bufs_sub .., unary_bufs_sub .., binary_bufs_sub .., unary_bufs_sub .., binary_bufs_sub .., unary_bufs_sub .., unary_bufs_sub .., binary_bufs_sub .., unary_bufs_sub .., nullary_bufs_sub ..⟩

set_option maxHeartbeats 40000000 in
/-- Each of them determines its results. -/
theorem p5_fresh : (p5 : List (HloOp τ sig (Elt F))).Forall fun op => op.fresh = ∅ :=
  ⟨rfl, rfl, rfl, rfl, rfl, rfl, rfl, rfl, rfl, rfl, rfl, rfl, rfl, rfl, rfl, rfl, rfl⟩

end Cert.ReferenceIdeal.Hand

end
-- ==== Proof.RI.SubTab6.lean ====
/-
  Every operation of piece p6 of the reference program touches TensorCore buffers only, and determines its results
  (it leaves no buffer at unspecified contents): the list's claim is the conjunction of its elements' claims, each the
  library's fact about the operation's builder, or true by definition.
-/
import proofs.«147334_j72576357367816_1_alg».proof.Proof.RI.Ops

noncomputable section

namespace Cert.ReferenceIdeal.Hand

open Cert.ReferenceIdeal Idealize.ShloMosaic Idealize.ShloMosaic.TcCoe Idealize.SL.Sem Idealize.ShloMosaic.StableHlo

variable {F : FTy → Type} [FloatOps F]
variable [Facts]
open Facts₀ Facts

set_option maxHeartbeats 40000000 in
/-- The 6 operations of piece p6 touch TensorCore buffers only. -/
theorem p6_sub : (p6 : List (HloOp τ sig (Elt F))).Forall fun op => op.bufs ⊆ tcRefs τ sig :=
  ⟨unary_bufs_sub .., binary_bufs_sub .., unary_bufs_sub .., nullary_bufs_sub .., unary_bufs_sub .., binary_bufs_sub ..⟩

set_option maxHeartbeats 40000000 in
/-- Each of them determines its results. -/
theorem p6_fresh : (p6 : List (HloOp τ sig (Elt F))).Forall fun op => op.fresh = ∅ :=
  ⟨rfl, rfl, rfl, rfl, rfl, rfl⟩

end Cert.ReferenceIdeal.Hand

end
-- ==== Proof.RI.SubTab7.lean ====
/-
  Every operation of piece p7 of the reference program touches TensorCore buffers only, and determines its results
  (it leaves no buffer at unspecified contents): the list's claim is the conjunction of its elements' claims, each the
  library's fact about the operation's builder, or true by definition.
-/
import proofs.«147334_j72576357367816_1_alg».proof.Proof.RI.Ops

noncomputable section

namespace Cert.ReferenceIdeal.Hand

open Cert.ReferenceIdeal Idealize.ShloMosaic Idealize.ShloMosaic.TcCoe Idealize.SL.Sem Idealize.ShloMosaic.StableHlo

variable {F : FTy → Type} [FloatOps F]
variable [Facts]
open Facts₀ Facts

set_option maxHeartbeats 40000000 in
/-- The 35 operations of piece p7 touch TensorCore buffers only. -/
theorem p7_sub : (p7 : List (HloOp τ sig (Elt F))).Forall fun op => op.bufs ⊆ tcRefs τ sig :=
  ⟨unary_bufs_sub .., unary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub ..⟩

set_option maxHeartbeats 40000000 in
/-- Each of them determines its results. -/
theorem p7_fresh : (p7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.Hand

end
-- ==== Proof.RI.SubTab8.lean ====
/-
  Every operation of piece p8 of the reference program touches TensorCore buffers only, and determines its results
  (it leaves no buffer at unspecified contents): the list's claim is the conjunction of its elements' claims, each the
  library's fact about the operation's builder, or true by definition.
-/
import proofs.«147334_j72576357367816_1_alg».proof.Proof.RI.Ops

noncomputable section

namespace Cert.ReferenceIdeal.Hand

open Cert.ReferenceIdeal Idealize.ShloMosaic Idealize.ShloMosaic.TcCoe Idealize.SL.Sem Idealize.ShloMosaic.StableHlo

variable {F : FTy → Type} [FloatOps F]
variable [Facts]
open Facts₀ Facts

set_option maxHeartbeats 40000000 in
/-- The 29 operations of piece p8 touch TensorCore buffers only. -/
theorem p8_sub : (p8 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., binary_bufs_sub ..⟩

set_option maxHeartbeats 40000000 in
/-- Each of them determines its results. -/
theorem p8_fresh : (p8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.Hand

end
-- ==== Proof.RI.SubTab9.lean ====
/-
  Every operation of piece p9 of the reference program touches TensorCore buffers only, and determines its results
  (it leaves no buffer at unspecified contents): the list's claim is the conjunction of its elements' claims, each the
  library's fact about the operation's builder, or true by definition.
-/
import proofs.«147334_j72576357367816_1_alg».proof.Proof.RI.Ops

noncomputable section

namespace Cert.ReferenceIdeal.Hand

open Cert.ReferenceIdeal Idealize.ShloMosaic Idealize.ShloMosaic.TcCoe Idealize.SL.Sem Idealize.ShloMosaic.StableHlo

variable {F : FTy → Type} [FloatOps F]
variable [Facts]
open Facts₀ Facts

set_option maxHeartbeats 40000000 in
/-- The 42 operations of piece p9 touch TensorCore buffers only. -/
theorem p9_sub : (p9 : List (HloOp τ sig (Elt F))).Forall fun op => op.bufs ⊆ tcRefs τ sig :=
  ⟨unary_bufs_sub .., nullary_bufs_sub .., unary_bufs_sub .., binary_bufs_sub .., unary_bufs_sub .., binary_bufs_sub .., unary_bufs_sub .., binary_bufs_sub .., binary_bufs_sub .., nullary_bufs_sub .., unary_bufs_sub .., unary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., ternary_bufs_sub ..⟩

set_option maxHeartbeats 40000000 in
/-- Each of them determines its results. -/
theorem p9_fresh : (p9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.Hand

end
-- ==== Proof.RI.SubTab.lean ====
/-
  The ten pieces' facts together: every operation of the reference program touches TensorCore buffers only and determines
  its results.
-/
import proofs.«147334_j72576357367816_1_alg».proof.Proof.RI.SubTab0
import proofs.«147334_j72576357367816_1_alg».proof.Proof.RI.SubTab1
import proofs.«147334_j72576357367816_1_alg».proof.Proof.RI.SubTab2
import proofs.«147334_j72576357367816_1_alg».proof.Proof.RI.SubTab3
import proofs.«147334_j72576357367816_1_alg».proof.Proof.RI.SubTab4
import proofs.«147334_j72576357367816_1_alg».proof.Proof.RI.SubTab5
import proofs.«147334_j72576357367816_1_alg».proof.Proof.RI.SubTab6
import proofs.«147334_j72576357367816_1_alg».proof.Proof.RI.SubTab7
import proofs.«147334_j72576357367816_1_alg».proof.Proof.RI.SubTab8
import proofs.«147334_j72576357367816_1_alg».proof.Proof.RI.SubTab9
-- ==== Proof.RI.Fresh.lean ====
/-
  The reference program scopes no buffer and no semaphore.
-/
import proofs.«147334_j72576357367816_1_alg».proof.Proof.RI.Ops

noncomputable section

namespace Cert.ReferenceIdeal.Hand

open Cert.ReferenceIdeal Idealize.ShloMosaic Idealize.ShloMosaic.TcCoe Idealize.SL.Sem Idealize.ShloMosaic.StableHlo

variable {F : FTy → Type} [FloatOps F]
variable [Facts]
open Facts₀ Facts

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.Hand

end
-- ==== Proof.RI.Args.lean ====
/-
  No operation of the reference program writes an argument's buffer: each piece leaves the four arguments as they were.
-/
import proofs.«147334_j72576357367816_1_alg».proof.Proof.RI.Ops

noncomputable section

namespace Cert.ReferenceIdeal.Hand

open Cert.ReferenceIdeal Idealize.ShloMosaic Idealize.ShloMosaic.TcCoe Idealize.SL.Sem Idealize.ShloMosaic.StableHlo

variable {F : FTy → Type} [FloatOps F]
variable [Facts]
open Facts₀ Facts

/-! ### The arguments are written by no operation -/

set_option maxRecDepth 8192 in
set_option maxHeartbeats 4000000 in
theorem p0_args (V : Valuation τ sig (Elt F)) :
    after p0 V ↟main_arg0 = V ↟main_arg0 ∧ after p0 V ↟main_arg1 = V ↟main_arg1
      ∧ after p0 V ↟main_arg2 = V ↟main_arg2 ∧ after p0 V ↟main_arg3 = V ↟main_arg3 := by
  refine ⟨?_, ?_, ?_, ?_⟩ <;> stage_results
set_option maxRecDepth 8192 in
set_option maxHeartbeats 4000000 in
theorem p1_args (V : Valuation τ sig (Elt F)) :
    after p1 V ↟main_arg0 = V ↟main_arg0 ∧ after p1 V ↟main_arg1 = V ↟main_arg1
      ∧ after p1 V ↟main_arg2 = V ↟main_arg2 ∧ after p1 V ↟main_arg3 = V ↟main_arg3 := by
  refine ⟨?_, ?_, ?_, ?_⟩ <;> stage_results
set_option maxRecDepth 8192 in
set_option maxHeartbeats 4000000 in
theorem p2_args (V : Valuation τ sig (Elt F)) :
    after p2 V ↟main_arg0 = V ↟main_arg0 ∧ after p2 V ↟main_arg1 = V ↟main_arg1
      ∧ after p2 V ↟main_arg2 = V ↟main_arg2 ∧ after p2 V ↟main_arg3 = V ↟main_arg3 := by
  refine ⟨?_, ?_, ?_, ?_⟩ <;> stage_results
set_option maxRecDepth 8192 in
set_option maxHeartbeats 4000000 in
theorem p3_args (V : Valuation τ sig (Elt F)) :
    after p3 V ↟main_arg0 = V ↟main_arg0 ∧ after p3 V ↟main_arg1 = V ↟main_arg1
      ∧ after p3 V ↟main_arg2 = V ↟main_arg2 ∧ after p3 V ↟main_arg3 = V ↟main_arg3 := by
  refine ⟨?_, ?_, ?_, ?_⟩ <;> stage_results
set_option maxRecDepth 8192 in
set_option maxHeartbeats 4000000 in
theorem p4_args (V : Valuation τ sig (Elt F)) :
    after p4 V ↟main_arg0 = V ↟main_arg0 ∧ after p4 V ↟main_arg1 = V ↟main_arg1
      ∧ after p4 V ↟main_arg2 = V ↟main_arg2 ∧ after p4 V ↟main_arg3 = V ↟main_arg3 := by
  refine ⟨?_, ?_, ?_, ?_⟩ <;> stage_results
set_option maxRecDepth 8192 in
set_option maxHeartbeats 4000000 in
theorem p5_args (V : Valuation τ sig (Elt F)) :
    after p5 V ↟main_arg0 = V ↟main_arg0 ∧ after p5 V ↟main_arg1 = V ↟main_arg1
      ∧ after p5 V ↟main_arg2 = V ↟main_arg2 ∧ after p5 V ↟main_arg3 = V ↟main_arg3 := by
  refine ⟨?_, ?_, ?_, ?_⟩ <;> stage_results
set_option maxRecDepth 8192 in
set_option maxHeartbeats 4000000 in
theorem p6_args (V : Valuation τ sig (Elt F)) :
    after p6 V ↟main_arg0 = V ↟main_arg0 ∧ after p6 V ↟main_arg1 = V ↟main_arg1
      ∧ after p6 V ↟main_arg2 = V ↟main_arg2 ∧ after p6 V ↟main_arg3 = V ↟main_arg3 := by
  refine ⟨?_, ?_, ?_, ?_⟩ <;> stage_results
set_option maxRecDepth 8192 in
set_option maxHeartbeats 4000000 in
theorem p7_args (V : Valuation τ sig (Elt F)) :
    after p7 V ↟main_arg0 = V ↟main_arg0 ∧ after p7 V ↟main_arg1 = V ↟main_arg1
      ∧ after p7 V ↟main_arg2 = V ↟main_arg2 ∧ after p7 V ↟main_arg3 = V ↟main_arg3 := by
  refine ⟨?_, ?_, ?_, ?_⟩ <;> stage_results
set_option maxRecDepth 8192 in
set_option maxHeartbeats 4000000 in
theorem p8_args (V : Valuation τ sig (Elt F)) :
    after p8 V ↟main_arg0 = V ↟main_arg0 ∧ after p8 V ↟main_arg1 = V ↟main_arg1
      ∧ after p8 V ↟main_arg2 = V ↟main_arg2 ∧ after p8 V ↟main_arg3 = V ↟main_arg3 := by
  refine ⟨?_, ?_, ?_, ?_⟩ <;> stage_results
set_option maxRecDepth 8192 in
set_option maxHeartbeats 4000000 in
theorem p9_args (V : Valuation τ sig (Elt F)) :
    after p9 V ↟main_arg0 = V ↟main_arg0 ∧ after p9 V ↟main_arg1 = V ↟main_arg1
      ∧ after p9 V ↟main_arg2 = V ↟main_arg2 ∧ after p9 V ↟main_arg3 = V ↟main_arg3 := by
  refine ⟨?_, ?_, ?_, ?_⟩ <;> stage_results

end Cert.ReferenceIdeal.Hand

end
-- ==== Proof.RI.St01.lean ====
/-
  What the first three pieces of the reference program leave: the translated points, the conjugate unit quaternion, and
  the points in the camera frame.
-/
import proofs.«147334_j72576357367816_1_alg».proof.Proof.RI.Ops

noncomputable section

namespace Cert.ReferenceIdeal.Hand

open Cert.ReferenceIdeal Idealize.ShloMosaic Idealize.ShloMosaic.TcCoe Idealize.SL.Sem Idealize.ShloMosaic.StableHlo

variable {F : FTy → Type} [FloatOps F]
variable [Facts]
open Facts₀ Facts

/-! ### The translated points and the quaternion -/

set_option maxRecDepth 8192 in
set_option maxHeartbeats 4000000 in
theorem t0_v2 (V : Valuation τ sig (Elt F)) :
    after p0 V ↟main_v2
      = subf (V ↟main_arg0)
          (broadcastInDim S4x200000x3 ![0, 1, 2] bcast_S4x1x3_S4x200000x3_0_1_2
            (broadcastInDim S4x1x3 ![0, 2] bcast_S4x3_S4x1x3_0_2 (V ↟main_arg1))) := by
  stage_results <;> rfl

set_option maxRecDepth 8192 in
set_option maxHeartbeats 4000000 in
theorem t0_v11 (V : Valuation τ sig (Elt F)) : after p0 V ↟main_v11 = qn (V ↟main_arg2) := by
  stage_results <;> rfl

/-! ### The points in the camera frame -/

set_option maxRecDepth 8192 in
set_option maxHeartbeats 4000000 in
theorem t1_v96 (V : Valuation τ sig (Elt F)) (locs : FVec F S4x200000x3 .f32) (pose : FVec F S4x3 .f32)
    (rot : FVec F S4x4 .f32)
    (h2 : V ↟main_v2
      = subf locs
          (broadcastInDim S4x200000x3 ![0, 1, 2] bcast_S4x1x3_S4x200000x3_0_1_2
            (broadcastInDim S4x1x3 ![0, 2] bcast_S4x3_S4x1x3_0_2 pose)))
    (h11 : V ↟main_v11 = qn rot) :
    after p2 (after p1 V) ↟main_v96 = pcam locs pose rot := by
  stage_results
  rw [h2, h11]
  rfl

end Cert.ReferenceIdeal.Hand

end
-- ==== Proof.RI.St23.lean ====
/-
  What the pieces p3 and p4 of the reference program leave: the camera-frame depth, the pixel coordinates, and the
  footprint's column and row indices.
-/
import proofs.«147334_j72576357367816_1_alg».proof.Proof.RI.Ops

noncomputable section

namespace Cert.ReferenceIdeal.Hand

open Cert.ReferenceIdeal Idealize.ShloMosaic Idealize.ShloMosaic.TcCoe Idealize.SL.Sem Idealize.ShloMosaic.StableHlo

variable {F : FTy → Type} [FloatOps F]
variable [Facts]
open Facts₀ Facts

/-! ### The camera-frame coordinates and the pixel coordinates -/

set_option maxRecDepth 8192 in
set_option maxHeartbeats 4000000 in
theorem t2_v102 (V : Valuation τ sig (Elt F)) (locs : FVec F S4x200000x3 .f32) (pose : FVec F S4x3 .f32)
    (rot : FVec F S4x4 .f32) (h96 : V ↟main_v96 = pcam locs pose rot) :
    after p3 V ↟main_v102 = zc locs pose rot := by
  stage_results
  rw [h96]
  rfl

set_option maxRecDepth 8192 in
set_option maxHeartbeats 4000000 in
theorem t2_v110 (V : Valuation τ sig (Elt F)) (locs : FVec F S4x200000x3 .f32) (pose : FVec F S4x3 .f32)
    (rot : FVec F S4x4 .f32) (h96 : V ↟main_v96 = pcam locs pose rot) :
    after p3 V ↟main_v110 = px locs pose rot := by
  stage_results
  rw [h96]
  rfl

set_option maxRecDepth 8192 in
set_option maxHeartbeats 4000000 in
theorem t2_v115 (V : Valuation τ sig (Elt F)) (locs : FVec F S4x200000x3 .f32) (pose : FVec F S4x3 .f32)
    (rot : FVec F S4x4 .f32) (h96 : V ↟main_v96 = pcam locs pose rot) :
    after p3 V ↟main_v115 = py locs pose rot := by
  stage_results
  rw [h96]
  rfl

/-! ### The footprint's indices -/

set_option maxRecDepth 8192 in
set_option maxHeartbeats 4000000 in
theorem p4_keep (V : Valuation τ sig (Elt F)) :
    after p4 V ↟main_v102 = V ↟main_v102 ∧ after p4 V ↟main_v110 = V ↟main_v110
      ∧ after p4 V ↟main_v115 = V ↟main_v115 := by
  refine ⟨?_, ?_, ?_⟩ <;> stage_results

set_option maxRecDepth 8192 in
set_option maxHeartbeats 4000000 in
theorem t3_v125 (V : Valuation τ sig (Elt F)) (locs : FVec F S4x200000x3 .f32) (pose : FVec F S4x3 .f32)
    (rot : FVec F S4x4 .f32) (h110 : V ↟main_v110 = px locs pose rot) :
    after p4 V ↟main_v125 = jx locs pose rot := by
  stage_results
  rw [h110]
  rfl

set_option maxRecDepth 8192 in
set_option maxHeartbeats 4000000 in
theorem t3_v132 (V : Valuation τ sig (Elt F)) (locs : FVec F S4x200000x3 .f32) (pose : FVec F S4x3 .f32)
    (rot : FVec F S4x4 .f32) (h115 : V ↟main_v115 = py locs pose rot) :
    after p4 V ↟main_v132 = iy locs pose rot := by
  stage_results
  rw [h115]
  rfl

end Cert.ReferenceIdeal.Hand

end
-- ==== Proof.RI.St45.lean ====
/-
  What the pieces p5 ++ p6 and p7 of the reference program leave: the weights, the in-image mask and the clamped indices.
-/
import proofs.«147334_j72576357367816_1_alg».proof.Proof.RI.Ops

noncomputable section

namespace Cert.ReferenceIdeal.Hand

open Cert.ReferenceIdeal Idealize.ShloMosaic Idealize.ShloMosaic.TcCoe Idealize.SL.Sem Idealize.ShloMosaic.StableHlo

variable {F : FTy → Type} [FloatOps F]
variable [Facts]
open Facts₀ Facts

/-! ### The weights -/

set_option maxRecDepth 8192 in
set_option maxHeartbeats 4000000 in
theorem p56_keep (V : Valuation τ sig (Elt F)) :
    after p6 (after p5 V) ↟main_v102 = V ↟main_v102 ∧ after p6 (after p5 V) ↟main_v125 = V ↟main_v125
      ∧ after p6 (after p5 V) ↟main_v132 = V ↟main_v132 ∧ after p6 (after p5 V) ↟main_arg3 = V ↟main_arg3 := by
  refine ⟨?_, ?_, ?_, ?_⟩ <;> stage_results

set_option maxRecDepth 8192 in
set_option maxHeartbeats 4000000 in
theorem t4_v153 (V : Valuation τ sig (Elt F)) (locs : FVec F S4x200000x3 .f32) (pose : FVec F S4x3 .f32)
    (rot : FVec F S4x4 .f32) (h125 : V ↟main_v125 = jx locs pose rot) (h132 : V ↟main_v132 = iy locs pose rot)
    (h110 : V ↟main_v110 = px locs pose rot) (h115 : V ↟main_v115 = py locs pose rot) :
    after p6 (after p5 V) ↟main_v153 = wgt locs pose rot := by
  stage_results
  rw [h125, h132, h110, h115]
  rfl

/-! ### The in-image mask and the clamped indices -/

set_option maxRecDepth 8192 in
set_option maxHeartbeats 4000000 in
theorem p7_keep (V : Valuation τ sig (Elt F)) :
    after p7 V ↟main_v102 = V ↟main_v102 ∧ after p7 V ↟main_v153 = V ↟main_v153 := by
  refine ⟨?_, ?_⟩ <;> stage_results

set_option maxRecDepth 8192 in
set_option maxHeartbeats 4000000 in
theorem t5_v168 (V : Valuation τ sig (Elt F)) (locs : FVec F S4x200000x3 .f32) (pose : FVec F S4x3 .f32)
    (rot : FVec F S4x4 .f32) (h125 : V ↟main_v125 = jx locs pose rot) (h132 : V ↟main_v132 = iy locs pose rot) :
    after p7 V ↟main_v168 = inb locs pose rot := by
  stage_results
  rw [h125, h132]
  rfl

set_option maxRecDepth 8192 in
set_option maxHeartbeats 4000000 in
theorem t5_v169 (V : Valuation τ sig (Elt F)) (locs : FVec F S4x200000x3 .f32) (pose : FVec F S4x3 .f32)
    (rot : FVec F S4x4 .f32) (h132 : V ↟main_v132 = iy locs pose rot) :
    after p7 V ↟main_v169 = iic locs pose rot := by
  stage_results
  rw [h132]
  rfl

set_option maxRecDepth 8192 in
set_option maxHeartbeats 4000000 in
theorem t5_v170 (V : Valuation τ sig (Elt F)) (locs : FVec F S4x200000x3 .f32) (pose : FVec F S4x3 .f32)
    (rot : FVec F S4x4 .f32) (h125 : V ↟main_v125 = jx locs pose rot) :
    after p7 V ↟main_v170 = jjc locs pose rot := by
  stage_results
  rw [h125]
  rfl

end Cert.ReferenceIdeal.Hand

end
-- ==== Proof.RI.St67.lean ====
/-
  What the pieces p8 and p9 of the reference program leave: the gathered depths, and the result.
-/
import proofs.«147334_j72576357367816_1_alg».proof.Proof.RI.Ops

noncomputable section

namespace Cert.ReferenceIdeal.Hand

open Cert.ReferenceIdeal Idealize.ShloMosaic Idealize.ShloMosaic.TcCoe Idealize.SL.Sem Idealize.ShloMosaic.StableHlo

variable {F : FTy → Type} [FloatOps F]
variable [Facts]
open Facts₀ Facts

/-! ### The gathered depths -/

set_option maxRecDepth 8192 in
set_option maxHeartbeats 4000000 in
theorem p8_keep (V : Valuation τ sig (Elt F)) :
    after p8 V ↟main_v102 = V ↟main_v102 ∧ after p8 V ↟main_v153 = V ↟main_v153
      ∧ after p8 V ↟main_v168 = V ↟main_v168 ∧ after p8 V ↟main_v169 = V ↟main_v169
      ∧ after p8 V ↟main_v170 = V ↟main_v170 := by
  refine ⟨?_, ?_, ?_, ?_, ?_⟩ <;> stage_results

set_option maxRecDepth 8192 in
set_option maxHeartbeats 4000000 in
theorem t6_v172 (V : Valuation τ sig (Elt F)) : after p8 V ↟main_v172 = bidx := by
  stage_results <;> rfl

set_option maxRecDepth 8192 in
set_option maxHeartbeats 4000000 in
theorem t6_v193 (V : Valuation τ sig (Elt F)) (locs : FVec F S4x200000x3 .f32) (pose : FVec F S4x3 .f32)
    (rot : FVec F S4x4 .f32) (depth : FVec F S4x480x640 .f32)
    (h169 : V ↟main_v169 = iic locs pose rot) (h170 : V ↟main_v170 = jjc locs pose rot)
    (h3 : V ↟main_arg3 = depth) :
    after p8 V ↟main_v193 = dgat locs pose rot depth := by
  stage_results
  rw [h169, h170, h3]
  rfl

/-! ### The updates and the scatter -/

set_option maxRecDepth 8192 in
set_option maxHeartbeats 4000000 in
theorem t7_v224 (V : Valuation τ sig (Elt F)) (locs : FVec F S4x200000x3 .f32) (pose : FVec F S4x3 .f32)
    (rot : FVec F S4x4 .f32) (depth : FVec F S4x480x640 .f32)
    (h102 : V ↟main_v102 = zc locs pose rot) (h193 : V ↟main_v193 = dgat locs pose rot depth)
    (h168 : V ↟main_v168 = inb locs pose rot) (h153 : V ↟main_v153 = wgt locs pose rot)
    (h172 : V ↟main_v172 = bidx) (h169 : V ↟main_v169 = iic locs pose rot)
    (h170 : V ↟main_v170 = jjc locs pose rot) :
    after p9 V ↟main_v224 = out locs pose rot depth := by
  stage_results
  rw [h102, h193, h168, h153, h172, h169, h170]
  rfl

end Cert.ReferenceIdeal.Hand

end
-- ==== Proof.RI.Run.lean ====
/-
  The run of the reference program: @main is the line of its 294 operations; every weakly fair execution terminates with
  each buffer at the fold of the operations over the launch contents; and that fold, read piece by piece over the named
  stages, leaves the result buffer at out of the four arguments and the arguments as they were.
-/
import proofs.«147334_j72576357367816_1_alg».proof.Proof.RI.Ops
import proofs.«147334_j72576357367816_1_alg».proof.Proof.RI.Eq01
import proofs.«147334_j72576357367816_1_alg».proof.Proof.RI.Eq2
import proofs.«147334_j72576357367816_1_alg».proof.Proof.RI.Eq3
import proofs.«147334_j72576357367816_1_alg».proof.Proof.RI.Eq4
import proofs.«147334_j72576357367816_1_alg».proof.Proof.RI.SubTab
import proofs.«147334_j72576357367816_1_alg».proof.Proof.RI.Fresh
import proofs.«147334_j72576357367816_1_alg».proof.Proof.RI.Args
import proofs.«147334_j72576357367816_1_alg».proof.Proof.RI.St01
import proofs.«147334_j72576357367816_1_alg».proof.Proof.RI.St23
import proofs.«147334_j72576357367816_1_alg».proof.Proof.RI.St45
import proofs.«147334_j72576357367816_1_alg».proof.Proof.RI.St67

noncomputable section

namespace Cert.ReferenceIdeal.Hand

open Cert.ReferenceIdeal Idealize.ShloMosaic Idealize.ShloMosaic.TcCoe Idealize.SL.Sem Idealize.ShloMosaic.StableHlo

variable {F : FTy → Type} [FloatOps F]
variable [Facts]
open Facts₀ Facts

theorem main_eq (c : Dev nD) : main (F := F) c = seq ops := by
  simp only [main, part0_eq, part1_eq, part2_eq, part3_eq, part4_eq, ops, seq_append, bind_assoc]

/-- Every operation touches TensorCore buffers only: piece by piece. -/
theorem ops_sub : (ops : List (HloOp τ sig (Elt F))).Forall fun op => op.bufs ⊆ tcRefs τ sig :=
  List.forall_append.mpr ⟨p0_sub, List.forall_append.mpr ⟨p1_sub, List.forall_append.mpr ⟨p2_sub,
    List.forall_append.mpr ⟨p3_sub, List.forall_append.mpr ⟨p4_sub, List.forall_append.mpr ⟨p5_sub,
      List.forall_append.mpr ⟨p6_sub, List.forall_append.mpr ⟨p7_sub, List.forall_append.mpr ⟨p8_sub, p9_sub⟩⟩⟩⟩⟩⟩⟩⟩⟩

/-- Every operation determines its results: piece by piece. -/
theorem ops_fresh : ∀ op ∈ (ops : List (HloOp τ sig (Elt F))), op.fresh = ∅ :=
  List.forall_iff_forall_mem.mp
    (List.forall_append.mpr ⟨p0_fresh, List.forall_append.mpr ⟨p1_fresh, List.forall_append.mpr ⟨p2_fresh,
      List.forall_append.mpr ⟨p3_fresh, List.forall_append.mpr ⟨p4_fresh, List.forall_append.mpr ⟨p5_fresh,
        List.forall_append.mpr ⟨p6_fresh, List.forall_append.mpr ⟨p7_fresh,
          List.forall_append.mpr ⟨p8_fresh, p9_fresh⟩⟩⟩⟩⟩⟩⟩⟩⟩)

/-- On every device, for any float values, from any memory with zero counters: every weakly fair execution of @main
    terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

/-! ## The whole fold -/

/-- The result buffer after all the pieces, from contents holding the four arguments. -/
theorem after_pieces_v224 (V : Valuation τ sig (Elt F)) (locs : FVec F S4x200000x3 .f32) (pose : FVec F S4x3 .f32)
    (rot : FVec F S4x4 .f32) (depth : FVec F S4x480x640 .f32)
    (h0 : V ↟main_arg0 = locs) (h1 : V ↟main_arg1 = pose) (h2 : V ↟main_arg2 = rot) (h3 : V ↟main_arg3 = depth) :
    after p9 (after p8 (after p7 (after p6 (after p5 (after p4 (after p3 (after p2 (after p1 (after p0 V)))))))))
        ↟main_v224
      = out locs pose rot depth := by
  -- the translated points and the quaternion
  have e2 := t0_v2 V
  have e11 := t0_v11 V
  rw [h0, h1] at e2
  rw [h2] at e11
  have a3 : after p0 V ↟main_arg3 = depth := (p0_args V).2.2.2.trans h3
  generalize after p0 V = V0 at e2 e11 a3 ⊢
  -- the camera frame
  have e96 := t1_v96 V0 locs pose rot e2 e11
  have a3' : after p2 (after p1 V0) ↟main_arg3 = depth :=
    ((p2_args _).2.2.2.trans (p1_args _).2.2.2).trans a3
  clear e2 e11 a3
  generalize after p2 (after p1 V0) = V1 at e96 a3' ⊢
  -- the coordinates
  have e102 := t2_v102 V1 locs pose rot e96
  have e110 := t2_v110 V1 locs pose rot e96
  have e115 := t2_v115 V1 locs pose rot e96
  have a3 : after p3 V1 ↟main_arg3 = depth := (p3_args V1).2.2.2.trans a3'
  clear e96 a3'
  generalize after p3 V1 = V2 at e102 e110 e115 a3 ⊢
  -- the indices
  have e125 := t3_v125 V2 locs pose rot e110
  have e132 := t3_v132 V2 locs pose rot e115
  have k102 : after p4 V2 ↟main_v102 = zc locs pose rot := (p4_keep V2).1.trans e102
  have k110 : after p4 V2 ↟main_v110 = px locs pose rot := (p4_keep V2).2.1.trans e110
  have k115 : after p4 V2 ↟main_v115 = py locs pose rot := (p4_keep V2).2.2.trans e115
  have a3' : after p4 V2 ↟main_arg3 = depth := (p4_args V2).2.2.2.trans a3
  clear e102 e110 e115 a3
  generalize after p4 V2 = V3 at e125 e132 k102 k110 k115 a3' ⊢
  -- the weights
  have e153 := t4_v153 V3 locs pose rot e125 e132 k110 k115
  have k102' : after p6 (after p5 V3) ↟main_v102 = zc locs pose rot := (p56_keep V3).1.trans k102
  have k125 : after p6 (after p5 V3) ↟main_v125 = jx locs pose rot := (p56_keep V3).2.1.trans e125
  have k132 : after p6 (after p5 V3) ↟main_v132 = iy locs pose rot := (p56_keep V3).2.2.1.trans e132
  have a3 : after p6 (after p5 V3) ↟main_arg3 = depth := (p56_keep V3).2.2.2.trans a3'
  clear e125 e132 k102 k110 k115 a3'
  generalize after p6 (after p5 V3) = V4 at e153 k102' k125 k132 a3 ⊢
  -- the mask and the clamped indices
  have e168 := t5_v168 V4 locs pose rot k125 k132
  have e169 := t5_v169 V4 locs pose rot k132
  have e170 := t5_v170 V4 locs pose rot k125
  have k102 : after p7 V4 ↟main_v102 = zc locs pose rot := (p7_keep V4).1.trans k102'
  have k153 : after p7 V4 ↟main_v153 = wgt locs pose rot := (p7_keep V4).2.trans e153
  have a3' : after p7 V4 ↟main_arg3 = depth := (p7_args V4).2.2.2.trans a3
  clear e153 k102' k125 k132 a3
  generalize after p7 V4 = V5 at e168 e169 e170 k102 k153 a3' ⊢
  -- the gathered depths
  have e193 := t6_v193 V5 locs pose rot depth e169 e170 a3'
  have e172 := t6_v172 V5
  have k102' : after p8 V5 ↟main_v102 = zc locs pose rot := (p8_keep V5).1.trans k102
  have k153' : after p8 V5 ↟main_v153 = wgt locs pose rot := (p8_keep V5).2.1.trans k153
  have k168 : after p8 V5 ↟main_v168 = inb locs pose rot := (p8_keep V5).2.2.1.trans e168
  have k169 : after p8 V5 ↟main_v169 = iic locs pose rot := (p8_keep V5).2.2.2.1.trans e169
  have k170 : after p8 V5 ↟main_v170 = jjc locs pose rot := (p8_keep V5).2.2.2.2.trans e170
  -- the scatter
  exact t7_v224 (after p8 V5) locs pose rot depth k102' e193 k168 k153' e172 k169 k170

/-- The result buffer after all the operations is out of the four arguments' contents. -/
theorem after_v224 (V : Valuation τ sig (Elt F)) :
    after ops V ↟main_v224 = out (V ↟main_arg0) (V ↟main_arg1) (V ↟main_arg2) (V ↟main_arg3) := by
  simp only [ops, after_append']
  exact after_pieces_v224 V _ _ _ _ rfl rfl rfl rfl

/-- The arguments' buffers after all the operations are as they were. -/
theorem after_args (V : Valuation τ sig (Elt F)) :
    after ops V ↟main_arg0 = V ↟main_arg0 ∧ after ops V ↟main_arg1 = V ↟main_arg1
      ∧ after ops V ↟main_arg2 = V ↟main_arg2 ∧ after ops V ↟main_arg3 = V ↟main_arg3 := by
  simp only [ops, after_append']
  refine ⟨?_, ?_, ?_, ?_⟩
  · rw [(p9_args _).1, (p8_args _).1, (p7_args _).1, (p6_args _).1, (p5_args _).1, (p4_args _).1, (p3_args _).1,
      (p2_args _).1, (p1_args _).1, (p0_args _).1]
  · rw [(p9_args _).2.1, (p8_args _).2.1, (p7_args _).2.1, (p6_args _).2.1, (p5_args _).2.1, (p4_args _).2.1,
      (p3_args _).2.1, (p2_args _).2.1, (p1_args _).2.1, (p0_args _).2.1]
  · rw [(p9_args _).2.2.1, (p8_args _).2.2.1, (p7_args _).2.2.1, (p6_args _).2.2.1, (p5_args _).2.2.1,
      (p4_args _).2.2.1, (p3_args _).2.2.1, (p2_args _).2.2.1, (p1_args _).2.2.1, (p0_args _).2.2.1]
  · rw [(p9_args _).2.2.2, (p8_args _).2.2.2, (p7_args _).2.2.2, (p6_args _).2.2.2, (p5_args _).2.2.2,
      (p4_args _).2.2.2, (p3_args _).2.2.2, (p2_args _).2.2.2, (p1_args _).2.2.2, (p0_args _).2.2.2]

/-! ## The run -/

/-- On every device, for any float values, from any memory with zero counters: every weakly fair execution of @main
    terminates with the result buffer at out of the four arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v224)
          = out (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨(h c main_v224).trans (after_v224 (launchContents m c)),
      (h c main_arg0).trans (after_args (launchContents m c)).1,
      (h c main_arg1).trans (after_args (launchContents m c)).2.1,
      (h c main_arg2).trans (after_args (launchContents m c)).2.2.1,
      (h c main_arg3).trans (after_args (launchContents m c)).2.2.2⟩)
    (run_main m ρ)

/-- The same run, keeping only that the four arguments are unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => (h c).2) (run m ρ)

end Cert.ReferenceIdeal.Hand

end
-- ==== Proof.RI.Value1.lean ====
/-
  The reference's projection read at an index.

  The camera-frame point is the three-term product of the position relative to the camera with a column of the
  rotation matrix; its three coordinates are the three unit slices of it; the safe depth, and the projected point,
  are the specification's scalar functions of them.
-/
import proofs.«147334_j72576357367816_1_alg».proof.Proof.Spec
import proofs.«147334_j72576357367816_1_alg».proof.Proof.RI.Stages
import Idealize.ShloMosaic.Lib.ValueIdx
import Idealize.ShloMosaic.Lib.Pipeline.Value
import Idealize.ShloMosaic.Lib.StackMember
import Idealize.ShloMosaic.PureOps.Ideal.Laws

noncomputable section

open scoped BigOperators

namespace Cert.ReferenceIdeal.Hand

open Cert.ReferenceIdeal Idealize.ShloMosaic Idealize.ShloMosaic.ValueIdx

variable [Facts]
open Facts₀ Facts

/-! ## The layout operations of the projection, read at coordinates -/

section Layout
variable {α : Type}

/-- The camera position given a unit particle axis reads the position. -/
theorem bc_pose_unit (x : S4x3.Idx → α) (b : Fin 4) (c : Fin 3) :
    broadcastInDim S4x1x3 ![0, 2] bcast_S4x3_S4x1x3_0_2 x (ix3 b (0 : Fin 1) c) = x (ix2 b c) :=
  broadcastInDim_apply _ _ x _ (ix2 b c) fun a => match a with
    | ⟨0, _⟩ => rfl
    | ⟨1, _⟩ => rfl

/-- Copied along the particle axis, it reads the unit particle. -/
theorem bc_pose_all (x : S4x1x3.Idx → α) (b : Fin 4) (n : Fin 200000) (c : Fin 3) :
    broadcastInDim S4x200000x3 ![0, 1, 2] bcast_S4x1x3_S4x200000x3_0_1_2 x (ix3 b n c) = x (ix3 b (0 : Fin 1) c) :=
  broadcastInDim_apply _ _ x _ (ix3 b (0 : Fin 1) c) fun a => match a with
    | ⟨0, _⟩ => rfl
    | ⟨1, _⟩ => rfl
    | ⟨2, _⟩ => rfl

/-- Dropping the trailing unit axis of a per-particle array. -/
theorem cast_particle (x : S4x200000x1.Idx → α) (b : Fin 4) (n : Fin 200000) :
    shapeCast S4x200000 x shapeCasts_S4x200000x1_S4x200000 (ix2 b n) = x (ix3 b n (0 : Fin 1)) :=
  shapeCast_apply x _ _ _ (by
    rw [Shape.rowMajor_val_three, Shape.rowMajor_val_two]
    show (b.val * 200000 + n.val) * 1 + 0 = b.val * 200000 + n.val
    omega)

/-- The unit slice at coordinate 0 of the last axis. -/
theorem slice_coord0 (x : S4x200000x3.Idx → α) (b : Fin 4) (n : Fin 200000) :
    extractStridedSlice S4x200000x1 ![0, 0, 0] x slices_S4x200000x3_S4x200000x1_0_0_0 (ix3 b n (0 : Fin 1)) = x (ix3 b n 0) :=
  extractStridedSlice_apply _ x _ _ _ fun a => match a with
    | ⟨0, _⟩ => by show b.val = 0 + b.val; omega
    | ⟨1, _⟩ => by show n.val = 0 + n.val; omega
    | ⟨2, _⟩ => rfl

/-- The unit slice at coordinate 1 of the last axis. -/
theorem slice_coord1 (x : S4x200000x3.Idx → α) (b : Fin 4) (n : Fin 200000) :
    extractStridedSlice S4x200000x1 ![0, 0, 1] x slices_S4x200000x3_S4x200000x1_0_0_1 (ix3 b n (0 : Fin 1)) = x (ix3 b n 1) :=
  extractStridedSlice_apply _ x _ _ _ fun a => match a with
    | ⟨0, _⟩ => by show b.val = 0 + b.val; omega
    | ⟨1, _⟩ => by show n.val = 0 + n.val; omega
    | ⟨2, _⟩ => rfl

/-- The unit slice at coordinate 2 of the last axis. -/
theorem slice_coord2 (x : S4x200000x3.Idx → α) (b : Fin 4) (n : Fin 200000) :
    extractStridedSlice S4x200000x1 ![0, 0, 2] x slices_S4x200000x3_S4x200000x1_0_0_2 (ix3 b n (0 : Fin 1)) = x (ix3 b n 2) :=
  extractStridedSlice_apply _ x _ _ _ fun a => match a with
    | ⟨0, _⟩ => by show b.val = 0 + b.val; omega
    | ⟨1, _⟩ => by show n.val = 0 + n.val; omega
    | ⟨2, _⟩ => rfl

end Layout

/-! ## The stages -/

section Stages
variable (locs : FVec Ideal S4x200000x3 .f32) (pose : FVec Ideal S4x3 .f32) (rot : FVec Ideal S4x4 .f32)

/-- The camera-frame point: the contraction over the three coordinates, term by term. -/
theorem pcam_apply (b : Fin 4) (n : Fin 200000) (j : Fin 3) :
    pcam locs pose rot (ix3 b n j) = Spec.cam locs pose (rotm rot) b n j := by
  refine (StackMember.dotGeneral_stack_apply dot_S4x200000x3_S4x3x3_S4x200000x3_2_1_1_2_0_0_wf none _ (rotm rot) b n j).trans ?_
  rw [Fin.sum_univ_three]
  simp only [subf_apply]
  rw [bc_pose_all, bc_pose_unit, bc_pose_all, bc_pose_unit, bc_pose_all, bc_pose_unit]
  rfl

/-- Its three coordinates. -/
theorem xc_apply (b : Fin 4) (n : Fin 200000) : xc locs pose rot (ix2 b n) = Spec.cam locs pose (rotm rot) b n 0 := by
  unfold xc
  rw [cast_particle, slice_coord0, pcam_apply]

theorem yc_apply (b : Fin 4) (n : Fin 200000) : yc locs pose rot (ix2 b n) = Spec.cam locs pose (rotm rot) b n 1 := by
  unfold yc
  rw [cast_particle, slice_coord1, pcam_apply]

theorem zc_apply (b : Fin 4) (n : Fin 200000) : zc locs pose rot (ix2 b n) = Spec.cam locs pose (rotm rot) b n 2 := by
  unfold zc
  rw [cast_particle, slice_coord2, pcam_apply]

/-- The depth where it is positive, one elsewhere. -/
theorem zsafe_apply (b : Fin 4) (n : Fin 200000) : zsafe locs pose rot (ix2 b n) = Spec.zs locs pose (rotm rot) b n := by
  show Scalar.select (FloatOps.cmpf .ogt (zc locs pose rot (ix2 b n)) Spec.k0) (zc locs pose rot (ix2 b n)) Spec.k1 = _
  rw [zc_apply]
  rfl

/-- The projected point. -/
theorem px_apply (b : Fin 4) (n : Fin 200000) : px locs pose rot (ix2 b n) = Spec.px locs pose (rotm rot) b n := by
  show FloatOps.addf (FloatOps.mulf (FloatOps.hostDivf (xc locs pose rot (ix2 b n)) (zsafe locs pose rot (ix2 b n))) Spec.kf) Spec.kcx = _
  rw [xc_apply, zsafe_apply]
  rfl

theorem py_apply (b : Fin 4) (n : Fin 200000) : py locs pose rot (ix2 b n) = Spec.py locs pose (rotm rot) b n := by
  show FloatOps.addf (FloatOps.mulf (FloatOps.hostDivf (yc locs pose rot (ix2 b n)) (zsafe locs pose rot (ix2 b n))) Spec.kf) Spec.kcy = _
  rw [yc_apply, zsafe_apply]
  rfl

end Stages

end Cert.ReferenceIdeal.Hand

end
-- ==== Proof.RI.Value2.lean ====
/-
  The reference's footprint read at an index.

  The five offsets are the words k - 2; a footprint column is the floor of the projected abscissa plus an offset, a
  footprint row the floor of the ordinate plus an offset; the Gaussian weight is the specification's function of the
  distances from the projected point; the test that the pixel lies in the image and the two clamps are the
  specification's. The reference negates where the specification subtracts from zero: the two agree on the
  extended reals.
-/
import proofs.«147334_j72576357367816_1_alg».proof.Proof.RI.Value1

noncomputable section

open scoped BigOperators

namespace Cert.ReferenceIdeal.Hand

open Cert.ReferenceIdeal Idealize.ShloMosaic Idealize.ShloMosaic.ValueIdx

variable [Facts]
open Facts₀ Facts

/-! ## The integer operations at an index (definitional) -/

section Words
variable {s : Shape} {w : Nat}

theorem addi_apply (x y : IVec s w) (i : s.Idx) : addi x y i = IntOp.addi (x i) (y i) := rfl
theorem subi_apply (x y : IVec s w) (i : s.Idx) : subi x y i = IntOp.subi (x i) (y i) := rfl
theorem andi_apply (x y : IVec s w) (i : s.Idx) : andi x y i = IntOp.andi (x i) (y i) := rfl
theorem minsi_apply (x y : IVec s w) (i : s.Idx) : minsi x y i = IntOp.minsi (x i) (y i) := rfl
theorem maxsi_apply (x y : IVec s w) (i : s.Idx) : maxsi x y i = IntOp.maxsi (x i) (y i) := rfl
theorem cmpi_apply (p : CmpIPredicate) (x y : IVec s w) (i : s.Idx) : cmpi p x y i = IntOp.cmpi p (x i) (y i) := rfl

end Words

/-! ## The layout operations of the footprint, read at coordinates -/

section Layout
variable {α : Type}

/-- A per-particle array given a trailing unit axis. -/
theorem bc_part_unit (x : S4x200000.Idx → α) (b : Fin 4) (n : Fin 200000) :
    broadcastInDim S4x200000x1 ![0, 1] bcast_S4x200000_S4x200000x1_0_1 x (ix3 b n (0 : Fin 1)) = x (ix2 b n) :=
  broadcastInDim_apply _ _ x _ (ix2 b n) fun a => match a with
    | ⟨0, _⟩ => rfl
    | ⟨1, _⟩ => rfl

/-- Copied along the five offsets. -/
theorem bc_part_five (x : S4x200000x1.Idx → α) (b : Fin 4) (n : Fin 200000) (k : Fin 5) :
    broadcastInDim S4x200000x5 ![0, 1, 2] bcast_S4x200000x1_S4x200000x5_0_1_2 x (ix3 b n k) = x (ix3 b n (0 : Fin 1)) :=
  broadcastInDim_apply _ _ x _ (ix3 b n (0 : Fin 1)) fun a => match a with
    | ⟨0, _⟩ => rfl
    | ⟨1, _⟩ => rfl
    | ⟨2, _⟩ => rfl

/-- The offsets given two leading unit axes. -/
theorem bc_off_unit (x : S5.Idx → α) (k : Fin 5) :
    broadcastInDim S1x1x5 ![2] bcast_S5_S1x1x5_2 x (ix3 (0 : Fin 1) (0 : Fin 1) k) = x (ix1 k) :=
  broadcastInDim_apply _ _ x _ (ix1 k) fun a => match a with
    | ⟨0, _⟩ => rfl

/-- Copied along batches and particles. -/
theorem bc_off_all (x : S1x1x5.Idx → α) (b : Fin 4) (n : Fin 200000) (k : Fin 5) :
    broadcastInDim S4x200000x5 ![0, 1, 2] bcast_S1x1x5_S4x200000x5_0_1_2 x (ix3 b n k) = x (ix3 (0 : Fin 1) (0 : Fin 1) k) :=
  broadcastInDim_apply _ _ x _ (ix3 (0 : Fin 1) (0 : Fin 1) k) fun a => match a with
    | ⟨0, _⟩ => rfl
    | ⟨1, _⟩ => rfl
    | ⟨2, _⟩ => rfl

/-- A per-row array given a trailing unit axis. -/
theorem bc_row_unit (x : S4x200000x5.Idx → α) (b : Fin 4) (n : Fin 200000) (ky : Fin 5) :
    broadcastInDim S4x200000x5x1 ![0, 1, 2] bcast_S4x200000x5_S4x200000x5x1_0_1_2 x (ix4 b n ky (0 : Fin 1)) = x (ix3 b n ky) :=
  broadcastInDim_apply _ _ x _ (ix3 b n ky) fun a => match a with
    | ⟨0, _⟩ => rfl
    | ⟨1, _⟩ => rfl
    | ⟨2, _⟩ => rfl

/-- Copied along the footprint's columns. -/
theorem bc_row_all (x : S4x200000x5x1.Idx → α) (b : Fin 4) (n : Fin 200000) (ky kx : Fin 5) :
    broadcastInDim S4x200000x5x5 ![0, 1, 2, 3] bcast_S4x200000x5x1_S4x200000x5x5_0_1_2_3 x (ix4 b n ky kx) = x (ix4 b n ky (0 : Fin 1)) :=
  broadcastInDim_apply _ _ x _ (ix4 b n ky (0 : Fin 1)) fun a => match a with
    | ⟨0, _⟩ => rfl
    | ⟨1, _⟩ => rfl
    | ⟨2, _⟩ => rfl
    | ⟨3, _⟩ => rfl

/-- A per-column array given a unit row axis. -/
theorem bc_col_unit (x : S4x200000x5.Idx → α) (b : Fin 4) (n : Fin 200000) (kx : Fin 5) :
    broadcastInDim S4x200000x1x5 ![0, 1, 3] bcast_S4x200000x5_S4x200000x1x5_0_1_3 x (ix4 b n (0 : Fin 1) kx) = x (ix3 b n kx) :=
  broadcastInDim_apply _ _ x _ (ix3 b n kx) fun a => match a with
    | ⟨0, _⟩ => rfl
    | ⟨1, _⟩ => rfl
    | ⟨2, _⟩ => rfl

/-- Copied along the footprint's rows. -/
theorem bc_col_all (x : S4x200000x1x5.Idx → α) (b : Fin 4) (n : Fin 200000) (ky kx : Fin 5) :
    broadcastInDim S4x200000x5x5 ![0, 1, 2, 3] bcast_S4x200000x1x5_S4x200000x5x5_0_1_2_3 x (ix4 b n ky kx) = x (ix4 b n (0 : Fin 1) kx) :=
  broadcastInDim_apply _ _ x _ (ix4 b n (0 : Fin 1) kx) fun a => match a with
    | ⟨0, _⟩ => rfl
    | ⟨1, _⟩ => rfl
    | ⟨2, _⟩ => rfl
    | ⟨3, _⟩ => rfl

end Layout

/-! ## The reference's negation is the specification's subtraction from zero -/

theorem hostNegf_eq_zero_sub (x : Ideal .f32) : FloatOps.hostNegf x = FloatOps.subf Spec.k0 x := by
  show -x = Ideal.ofBits .f32 0x00000000#32 - x
  rw [Ideal.ofBits_zero_f32, zero_sub]

/-! ## The stages -/

/-- The five offsets. -/
theorem koff_apply (k : Fin 5) : koff (ix1 k) = Spec.off k := rfl

section Stages
variable (locs : FVec Ideal S4x200000x3 .f32) (pose : FVec Ideal S4x3 .f32) (rot : FVec Ideal S4x4 .f32)

/-- A footprint column: the floor of the projected abscissa plus the offset. -/
theorem jx_apply (b : Fin 4) (n : Fin 200000) (kx : Fin 5) :
    jx locs pose rot (ix3 b n kx) = Spec.col locs pose (rotm rot) b n kx := by
  unfold jx
  rw [addi_apply, bc_part_five, bc_part_unit, bc_off_all, bc_off_unit, koff_apply]
  show IntOp.addi (FloatOps.fptosi 32 (FloatOps.hostUnary .floor (px locs pose rot (ix2 b n)))) (Spec.off kx) = _
  rw [px_apply]
  rfl

/-- A footprint row: the floor of the projected ordinate plus the offset. -/
theorem iy_apply (b : Fin 4) (n : Fin 200000) (ky : Fin 5) :
    iy locs pose rot (ix3 b n ky) = Spec.row locs pose (rotm rot) b n ky := by
  unfold iy
  rw [addi_apply, bc_part_five, bc_part_unit, bc_off_all, bc_off_unit, koff_apply]
  show IntOp.addi (FloatOps.fptosi 32 (FloatOps.hostUnary .floor (py locs pose rot (ix2 b n)))) (Spec.off ky) = _
  rw [py_apply]
  rfl

/-- The horizontal distance from the projected point to a footprint column. -/
theorem dxf_apply (b : Fin 4) (n : Fin 200000) (kx : Fin 5) :
    dxf locs pose rot (ix3 b n kx)
      = FloatOps.subf (FloatOps.sitofp .f32 (Spec.col locs pose (rotm rot) b n kx)) (Spec.px locs pose (rotm rot) b n) := by
  unfold dxf
  rw [subf_apply, bc_part_five, bc_part_unit, sitofp_apply, jx_apply, px_apply]
  rfl

/-- The vertical distance from the projected point to a footprint row. -/
theorem dyf_apply (b : Fin 4) (n : Fin 200000) (ky : Fin 5) :
    dyf locs pose rot (ix3 b n ky)
      = FloatOps.subf (FloatOps.sitofp .f32 (Spec.row locs pose (rotm rot) b n ky)) (Spec.py locs pose (rotm rot) b n) := by
  unfold dyf
  rw [subf_apply, bc_part_five, bc_part_unit, sitofp_apply, iy_apply, py_apply]
  rfl

/-- The Gaussian weight of a footprint pixel. -/
theorem wgt_apply (b : Fin 4) (n : Fin 200000) (ky kx : Fin 5) :
    wgt locs pose rot (ix4 b n ky kx) = Spec.gw locs pose (rotm rot) b n ky kx := by
  unfold wgt
  show FloatOps.mulf Spec.k1 (FloatOps.hostUnary .exp (FloatOps.hostDivf (FloatOps.hostNegf
    (FloatOps.addf
      (broadcastInDim S4x200000x5x5 ![0, 1, 2, 3] bcast_S4x200000x5x1_S4x200000x5x5_0_1_2_3
        (mulf (broadcastInDim S4x200000x5x1 ![0, 1, 2] bcast_S4x200000x5_S4x200000x5x1_0_1_2 (dyf locs pose rot))
          (broadcastInDim S4x200000x5x1 ![0, 1, 2] bcast_S4x200000x5_S4x200000x5x1_0_1_2 (dyf locs pose rot))) (ix4 b n ky kx))
      (broadcastInDim S4x200000x5x5 ![0, 1, 2, 3] bcast_S4x200000x1x5_S4x200000x5x5_0_1_2_3
        (mulf (broadcastInDim S4x200000x1x5 ![0, 1, 3] bcast_S4x200000x5_S4x200000x1x5_0_1_3 (dxf locs pose rot))
          (broadcastInDim S4x200000x1x5 ![0, 1, 3] bcast_S4x200000x5_S4x200000x1x5_0_1_3 (dxf locs pose rot))) (ix4 b n ky kx))))
    Spec.k2)) = _
  rw [bc_row_all, bc_col_all, mulf_apply, mulf_apply, bc_row_unit, bc_col_unit, dyf_apply, dxf_apply, hostNegf_eq_zero_sub]
  rfl

/-- The row and the column of a footprint pixel. -/
theorem ii_apply (b : Fin 4) (n : Fin 200000) (ky kx : Fin 5) :
    ii locs pose rot (ix4 b n ky kx) = Spec.row locs pose (rotm rot) b n ky := by
  unfold ii
  rw [bc_row_all, bc_row_unit, iy_apply]

theorem jj_apply (b : Fin 4) (n : Fin 200000) (ky kx : Fin 5) :
    jj locs pose rot (ix4 b n ky kx) = Spec.col locs pose (rotm rot) b n kx := by
  unfold jj
  rw [bc_col_all, bc_col_unit, jx_apply]

/-- The footprint pixel lies in the image. -/
theorem inb_apply (b : Fin 4) (n : Fin 200000) (ky kx : Fin 5) :
    inb locs pose rot (ix4 b n ky kx) = Spec.inb locs pose (rotm rot) b n ky kx := by
  show IntOp.andi (IntOp.andi (IntOp.andi
      (IntOp.cmpi .sge (ii locs pose rot (ix4 b n ky kx)) 0#32) (IntOp.cmpi .slt (ii locs pose rot (ix4 b n ky kx)) 480#32))
      (IntOp.cmpi .sge (jj locs pose rot (ix4 b n ky kx)) 0#32)) (IntOp.cmpi .slt (jj locs pose rot (ix4 b n ky kx)) 640#32) = _
  rw [ii_apply, jj_apply]
  rfl

/-- The clamped row and the clamped column. -/
theorem iic_apply (b : Fin 4) (n : Fin 200000) (ky kx : Fin 5) :
    iic locs pose rot (ix4 b n ky kx) = Spec.rowc locs pose (rotm rot) b n ky := by
  show IntOp.minsi 479#32 (IntOp.maxsi 0#32 (ii locs pose rot (ix4 b n ky kx))) = _
  rw [ii_apply]
  rfl

theorem jjc_apply (b : Fin 4) (n : Fin 200000) (ky kx : Fin 5) :
    jjc locs pose rot (ix4 b n ky kx) = Spec.colc locs pose (rotm rot) b n kx := by
  show IntOp.minsi 639#32 (IntOp.maxsi 0#32 (jj locs pose rot (ix4 b n ky kx))) = _
  rw [jj_apply]
  rfl

end Stages

end Cert.ReferenceIdeal.Hand

end
-- ==== Proof.RI.Index.lean ====
/-
  The reference's POINT GATHER and POINT SCATTER-ADD read at an index.

  The reference program reads the depth mask at integer pixel positions with a `stablehlo.gather` whose every operand
  axis is collapsed (slice sizes 1) and accumulates into the image with a `stablehlo.scatter` whose every operand axis is
  an inserted window axis: both address ONE operand element per update position `j = (b, n, ky, kx)`, namely the element
  whose three coordinates are the three integers the index array holds at `(b, n, ky, kx, 0..2)`.  This module states
  that reading:

  * `gather_point`: when the three integers are the coordinates `k0, k1, k2` of an operand element (so the clamp of the
    gather does nothing), the gathered value at `j` is the operand at `(k0, k1, k2)`;
  * `scatter_point_iff`: update position `j` lands at operand index `i` exactly when the three integers are the
    coordinates of `i` (an update whose integers leave the operand lands nowhere);
  * `scatterAdd_point_apply`: at the ideal instance the accumulating scatter at `i` is the operand at `i` plus the sum
    over ALL update positions of the update where the three integers are `i`'s coordinates and `0` elsewhere;
  * `sum_idx4`: a sum over the update positions is the fourfold sum over their coordinates.
-/
import proofs.«147334_j72576357367816_1_alg».proof.ReferenceIdeal
import proofs.«147334_j72576357367816_1_alg».proof.Proof.Gen.ReferenceIdeal
import Idealize.ShloMosaic.Lib.ValueIdx
import Idealize.ShloMosaic.PureOps.Ideal.Laws

noncomputable section

open scoped BigOperators

namespace Cert.ReferenceIdeal.Hand

open Cert.ReferenceIdeal Idealize.ShloMosaic Idealize.ShloMosaic.ValueIdx

/-! ## The index of the index array -/

/-- The index of the index array: update position `j = (b, n, ky, kx)` with component `a ∈ {0, 1, 2}` on the last axis. -/
def comp (j : S4x200000x5x5.Idx) (a : Fin 3) : S4x200000x5x5x3.Idx := ix5 (j 0) (j 1) (j 2) (j 3) a

@[simp] theorem comp_apply_0 (j : S4x200000x5x5.Idx) (a : Fin 3) : comp j a 0 = j 0 := rfl
@[simp] theorem comp_apply_1 (j : S4x200000x5x5.Idx) (a : Fin 3) : comp j a 1 = j 1 := rfl
@[simp] theorem comp_apply_2 (j : S4x200000x5x5.Idx) (a : Fin 3) : comp j a 2 = j 2 := rfl
@[simp] theorem comp_apply_3 (j : S4x200000x5x5.Idx) (a : Fin 3) : comp j a 3 = j 3 := rfl
@[simp] theorem comp_apply_4 (j : S4x200000x5x5.Idx) (a : Fin 3) : comp j a 4 = a := rfl

/-! ## Sums over the update positions -/

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_ix4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-- A sum over the update positions `(b, n, ky, kx)` is the fourfold sum over batch, particle and footprint row and column. -/
theorem sum_idx4 {M : Type} [AddCommMonoid M] (f : S4x200000x5x5.Idx → M) :
    ∑ j : S4x200000x5x5.Idx, f j = ∑ b : Fin 4, ∑ n : Fin 200000, ∑ ky : Fin 5, ∑ kx : Fin 5, f (ix4 b n ky kx) :=
  sum_ix4 f

/-! ## Where a scatter's update lands, for any dimension numbers -/

/-- For any scatter: an update position lands at `i` exactly when start plus window coordinate is `i`'s coordinate on
    every operand axis. -/
theorem resultIdx?_eq_some_iff {s si u : Shape} (d : ScatterDims s si u) {w : Nat} (j : u.Idx) (idx : IVec si w) (i : s.Idx) :
    d.resultIdx? j idx = some i ↔ ∀ a, d.start j idx a + d.window j a = ((i a).val : Int) := by
  unfold ScatterDims.resultIdx?
  constructor
  · intro h
    split at h
    · rename_i hc
      intro a
      have hf := congrFun (Option.some.inj h) a
      have hv : (d.start j idx a + d.window j a).toNat = (i a).val := congrArg Fin.val hf
      have := (hc a).1
      omega
    · cases h
  · intro h
    have hc : ∀ a, 0 ≤ d.start j idx a + d.window j a ∧ d.start j idx a + d.window j a < s.size a := fun a => by
      rw [h a]; exact ⟨Int.natCast_nonneg _, by exact_mod_cast (i a).isLt⟩
    rw [dif_pos hc]
    congr 1
    funext a; refine Fin.ext ?_
    show (d.start j idx a + d.window j a).toNat = (i a).val
    rw [h a, Int.toNat_natCast]

/-! ## The program's two records

From here on the program's stated side conditions are in scope: the two records carry their well-formedness from them. -/

variable [Facts]
open Facts₀ Facts

/-- The gather's dimension numbers, under a short name. -/
abbrev gD : GatherDims S4x480x640 S4x200000x5x5x3 S4x200000x5x5 := gather_S4x480x640_S4x200000x5x5x3_S4x200000x5x5_n_012_n_n_012_4_111
/-- The scatter's dimension numbers, under a short name. -/
abbrev sD : ScatterDims S4x480x640 S4x200000x5x5x3 S4x200000x5x5 := scatter_S4x480x640_S4x200000x5x5x3_S4x200000x5x5_n_012_012_4

/-! ## The gather -/

/-- Every operand axis is named by the start index map. -/
theorem gather_mem_map (a : Fin S4x480x640.rank) : a ∈ gD.startIndexMap := by
  show a ∈ ([0, 1, 2] : List (Fin 3))
  revert a; decide

/-- Every operand axis is collapsed. -/
theorem gather_mem_collapsed (a : Fin S4x480x640.rank) : a ∈ gD.collapsedSliceDims := by
  show a ∈ ([0, 1, 2] : List (Fin 3))
  revert a; decide

/-- The position of operand axis `a` in the start index map is `a`. -/
theorem gather_idxOf (a : Fin S4x480x640.rank) : gD.startIndexMap.idxOf a = a.val := by
  show ([0, 1, 2] : List (Fin 3)).idxOf a = a.val
  revert a; decide

/-- The start-indices index at which update position `j` reads component `c` of its start index. -/
theorem gather_siIdx (j : S4x200000x5x5.Idx) (c : Fin gD.startIndexMap.length) :
    gD.siIdx j c = comp j ⟨c.val, c.isLt⟩ := by
  funext b; refine Fin.ext ?_
  match b with
  | ⟨0, _⟩ => rfl
  | ⟨1, _⟩ => rfl
  | ⟨2, _⟩ => rfl
  | ⟨3, _⟩ => rfl
  | ⟨4, _⟩ => rfl

/-- The clamped start of the slice on operand axis `a`. -/
theorem gather_start (j : S4x200000x5x5.Idx) (idx : IVec S4x200000x5x5x3 32) (a : Fin 3) :
    gD.start j idx a = min (idx (comp j a)).toInt.toNat (S4x480x640.size a - 1) := by
  unfold GatherDims.start
  rw [dif_pos (gather_mem_map a)]
  have hsi : gD.siIdx j ⟨gD.startIndexMap.idxOf a, List.idxOf_lt_length_iff.2 (gather_mem_map a)⟩ = comp j a := by
    rw [gather_siIdx]; congr 1; exact Fin.ext (gather_idxOf a)
  rw [hsi]
  match a with
  | ⟨0, _⟩ => rfl
  | ⟨1, _⟩ => rfl
  | ⟨2, _⟩ => rfl

/-- THE GATHER READ AT `j`, the three integers in range: the operand at those coordinates. -/
theorem gather_point {α : Type} (x : S4x480x640.Idx → α) (idx : IVec S4x200000x5x5x3 32) (j : S4x200000x5x5.Idx)
    (k0 : Fin 4) (k1 : Fin 480) (k2 : Fin 640)
    (h0 : (idx (comp j 0)).toInt = (k0.val : Int)) (h1 : (idx (comp j 1)).toInt = (k1.val : Int))
    (h2 : (idx (comp j 2)).toInt = (k2.val : Int)) :
    Host.gather gather_S4x480x640_S4x200000x5x5x3_S4x200000x5x5_n_012_n_n_012_4_111 x idx j = x (ix3 k0 k1 k2) := by
  show Host.gather gD x idx j = _
  unfold Host.gather
  congr 1
  funext a; refine Fin.ext ?_
  show gD.start j idx a + gD.batchCoord j a + gD.offCoord j a = _
  rw [GatherDims.batchCoord_eq_zero _ _ _ List.not_mem_nil,
    GatherDims.offCoord_eq_zero _ _ _ (fun h => ((GatherDims.mem_sKept _ _).mp h).1 (gather_mem_collapsed a)),
    Nat.add_zero, gather_start]
  match a with
  | ⟨0, _⟩ =>
    show min (idx (comp j 0)).toInt.toNat (4 - 1) = k0.val
    rw [h0, Int.toNat_natCast]; have := k0.isLt; omega
  | ⟨1, _⟩ =>
    show min (idx (comp j 1)).toInt.toNat (480 - 1) = k1.val
    rw [h1, Int.toNat_natCast]; have := k1.isLt; omega
  | ⟨2, _⟩ =>
    show min (idx (comp j 2)).toInt.toNat (640 - 1) = k2.val
    rw [h2, Int.toNat_natCast]; have := k2.isLt; omega

/-! ## The scatter -/

/-- Every operand axis is named by the scatter-dims-to-operand-dims map. -/
theorem scatter_mem_map (a : Fin S4x480x640.rank) : a ∈ sD.scatterDimsToOperandDims := by
  show a ∈ ([0, 1, 2] : List (Fin 3))
  revert a; decide

/-- Every operand axis is an inserted window axis. -/
theorem scatter_mem_inserted (a : Fin S4x480x640.rank) : a ∈ sD.insertedWindowDims := by
  show a ∈ ([0, 1, 2] : List (Fin 3))
  revert a; decide

/-- The position of operand axis `a` in the map is `a`. -/
theorem scatter_idxOf (a : Fin S4x480x640.rank) : sD.scatterDimsToOperandDims.idxOf a = a.val := by
  show ([0, 1, 2] : List (Fin 3)).idxOf a = a.val
  revert a; decide

/-- The scatter-indices index at which update position `j` reads component `c` of its start index. -/
theorem scatter_siIdx (j : S4x200000x5x5.Idx) (c : Fin sD.scatterDimsToOperandDims.length) :
    sD.siIdx j c = comp j ⟨c.val, c.isLt⟩ := by
  funext b; refine Fin.ext ?_
  match b with
  | ⟨0, _⟩ => rfl
  | ⟨1, _⟩ => rfl
  | ⟨2, _⟩ => rfl
  | ⟨3, _⟩ => rfl
  | ⟨4, _⟩ => rfl

/-- The start of the window on operand axis `a`: the integer the index array holds for `a`, not clamped. -/
theorem scatter_start (j : S4x200000x5x5.Idx) (idx : IVec S4x200000x5x5x3 32) (a : Fin 3) :
    sD.start j idx a = (idx (comp j a)).toInt := by
  unfold ScatterDims.start
  rw [dif_pos (scatter_mem_map a)]
  have hsi : sD.siIdx j ⟨sD.scatterDimsToOperandDims.idxOf a, List.idxOf_lt_length_iff.2 (scatter_mem_map a)⟩ = comp j a := by
    rw [scatter_siIdx]; congr 1; exact Fin.ext (scatter_idxOf a)
  rw [hsi]

/-- No operand axis carries a window coordinate. -/
theorem scatter_window (j : S4x200000x5x5.Idx) (a : Fin S4x480x640.rank) : sD.window j a = 0 := by
  unfold ScatterDims.window
  rw [dif_neg]
  intro h
  have : a ∉ sD.insertedWindowDims := by
    simpa [ScatterDims.sKept, Shape.kept, List.mem_filter, List.mem_finRange] using h
  exact this (scatter_mem_inserted a)

/-- WHERE AN UPDATE LANDS: at `i` exactly when the three integers are `i`'s coordinates. -/
theorem scatter_point_iff (idx : IVec S4x200000x5x5x3 32) (j : S4x200000x5x5.Idx) (i : S4x480x640.Idx) :
    scatter_S4x480x640_S4x200000x5x5x3_S4x200000x5x5_n_012_012_4.resultIdx? j idx = some i
      ↔ (idx (comp j 0)).toInt = ((i 0).val : Int) ∧ (idx (comp j 1)).toInt = ((i 1).val : Int)
        ∧ (idx (comp j 2)).toInt = ((i 2).val : Int) := by
  show sD.resultIdx? j idx = some i ↔ _
  rw [resultIdx?_eq_some_iff]
  have key : ∀ a : Fin 3, sD.start j idx a + sD.window j a = (idx (comp j a)).toInt := fun a => by
    rw [scatter_start, scatter_window]; simp
  constructor
  · intro h
    exact ⟨(key 0).symm.trans (h 0), (key 1).symm.trans (h 1), (key 2).symm.trans (h 2)⟩
  · rintro ⟨h0, h1, h2⟩ a
    match a with
    | ⟨0, _⟩ => exact (key 0).trans h0
    | ⟨1, _⟩ => exact (key 1).trans h1
    | ⟨2, _⟩ => exact (key 2).trans h2

/-- THE ACCUMULATING SCATTER READ AT `i` (ideal instance): the operand plus the sum over all update positions of the
    update where it lands at `i`. -/
theorem scatterAdd_point_apply (x : FVec Ideal S4x480x640 .f32) (idx : IVec S4x200000x5x5x3 32)
    (upd : FVec Ideal S4x200000x5x5 .f32) (i : S4x480x640.Idx) :
    Host.scatterAdd (F := Ideal) scatter_S4x480x640_S4x200000x5x5x3_S4x200000x5x5_n_012_012_4 x idx upd i
      = x i + ∑ j : S4x200000x5x5.Idx,
          if ((idx (comp j 0)).toInt = ((i 0).val : Int) ∧ (idx (comp j 1)).toInt = ((i 1).val : Int)
            ∧ (idx (comp j 2)).toInt = ((i 2).val : Int)) then upd j else 0 := by
  unfold Host.scatterAdd
  rw [Ideal.hostScatterAdd_def]
  unfold Ideal.hostScatterAdd
  rw [Finset.sum_filter]
  refine congrArg (x i + ·) ?_
  refine Finset.sum_congr rfl fun j _ => ?_
  exact if_congr (scatter_point_iff idx j i) rfl rfl

end Cert.ReferenceIdeal.Hand
-- ==== Proof.Words.lean ====
/-
  Facts about 32-bit words: a word that is non-negative in the signed order is left alone by the negative-index
  normalisation (add N when below zero); a clamp to [0, hi] with hi below 2^31 is such a word, equal to its own natural
  number; and so the clamped row and column of the specification are the words of their image indices.
-/
import proofs.«147334_j72576357367816_1_alg».proof.Proof.Spec
import Idealize.ShloMosaic.PureOps.Ideal

namespace Cert.Words

open Idealize.ShloMosaic Cert.Spec

/-- A word below 2^31 as a natural number is that number as a signed integer. -/
theorem toInt_ofNat_small (k : ℕ) (hk : k < 2 ^ 31) : (BitVec.ofNat 32 k).toInt = (k : Int) := by
  have hmod : k % 2 ^ 32 = k := Nat.mod_eq_of_lt (by omega)
  rw [BitVec.toInt_eq_toNat_cond, BitVec.toNat_ofNat, hmod, if_pos (by omega)]

/-- A word that is not negative in the signed order is left alone by the normalisation. -/
theorem norm_nonneg (N y : BitVec 32) (hy : 0 ≤ y.toInt) :
    Scalar.select (IntOp.cmpi .slt y 0#32) (IntOp.addi y N) y = y := by
  have h0 : (0#32 : BitVec 32).toInt = 0 := by decide
  have hs : y.slt 0#32 = false := by
    rw [Bool.eq_false_iff]
    intro h
    have := BitVec.slt_iff_toInt_lt.mp h
    omega
  have hc : IntOp.cmpi .slt y 0#32 = 0#1 := by
    show BitVec.ofBool (y.slt 0#32) = 0#1
    rw [hs]; rfl
  rw [hc]
  unfold Scalar.select
  rw [if_neg (by decide)]

/-- jnp's negative-index normalisation leaves a clamped index alone -/
theorem norm_clamp (hi N x : BitVec 32) (hhi : hi.toNat < 2 ^ 31) :
    Scalar.select (IntOp.cmpi .slt (clamp 0#32 hi x) 0#32) (IntOp.addi (clamp 0#32 hi x) N) (clamp 0#32 hi x) = clamp 0#32 hi x := by
  apply norm_nonneg
  rw [(clamp_range hi x hhi).2]
  exact Int.natCast_nonneg _

theorem norm_small (N : BitVec 32) (k : ℕ) (hk : k < 2 ^ 31) :
    Scalar.select (IntOp.cmpi .slt (BitVec.ofNat 32 k) 0#32) (IntOp.addi (BitVec.ofNat 32 k) N) (BitVec.ofNat 32 k) = BitVec.ofNat 32 k := by
  apply norm_nonneg
  rw [toInt_ofNat_small k hk]
  exact Int.natCast_nonneg _

theorem toInt_clamp_eq_iff (hi x : BitVec 32) (hhi : hi.toNat < 2 ^ 31) (r : ℕ) (hr : r ≤ hi.toNat) :
    (clamp 0#32 hi x).toInt = (r : Int) ↔ BitVec.ofNat 32 r = clamp 0#32 hi x := by
  obtain ⟨hle, hI⟩ := clamp_range hi x hhi
  constructor
  · intro h
    rw [hI] at h
    have hn : (clamp 0#32 hi x).toNat = r := by exact_mod_cast h
    apply BitVec.eq_of_toNat_eq
    rw [BitVec.toNat_ofNat, hn]
    exact Nat.mod_eq_of_lt (by omega)
  · intro h
    rw [← h]
    exact toInt_ofNat_small r (by omega)

/-- A word whose natural number is below N ≤ 2^32 is the word of r < N exactly when r is that number. -/
theorem ofNat_eq_iff_mod (c : BitVec 32) (N : ℕ) (hN : N ≤ 2 ^ 32) (hc : c.toNat < N) (r : ℕ) (hr : r < N) :
    BitVec.ofNat 32 r = c ↔ r = c.toNat % N := by
  rw [Nat.mod_eq_of_lt hc]
  constructor
  · intro h
    have h' := congrArg BitVec.toNat h
    rw [BitVec.toNat_ofNat, Nat.mod_eq_of_lt (by omega)] at h'
    exact h'
  · intro h
    apply BitVec.eq_of_toNat_eq
    rw [BitVec.toNat_ofNat, h]
    exact Nat.mod_eq_of_lt c.isLt

section
variable (L : SLocs.Idx → E) (P : SPose.Idx → E) (R : SRotm.Idx → E)

theorem rowc_lt (b : Fin 4) (n : Fin 200000) (ky : Fin 5) : (rowc L P R b n ky).toNat < 480 := by
  have h := (clamp_range 479#32 (row L P R b n ky) (by decide)).1
  have h479 : (479#32 : BitVec 32).toNat = 479 := by decide
  rw [h479] at h
  show (clamp 0#32 479#32 (row L P R b n ky)).toNat < 480
  omega

theorem colc_lt (b : Fin 4) (n : Fin 200000) (kx : Fin 5) : (colc L P R b n kx).toNat < 640 := by
  have h := (clamp_range 639#32 (col L P R b n kx) (by decide)).1
  have h639 : (639#32 : BitVec 32).toNat = 639 := by decide
  rw [h639] at h
  show (clamp 0#32 639#32 (col L P R b n kx)).toNat < 640
  omega

/-- the clamped row IS its image index: for r : Fin 480, the word of r equals the clamped row iff r is `rI`; likewise columns -/
theorem ofNat_eq_rowc_iff (b : Fin 4) (n : Fin 200000) (ky : Fin 5) (r : Fin 480) :
    BitVec.ofNat 32 r.val = rowc L P R b n ky ↔ r = rI L P R b n ky := by
  rw [ofNat_eq_iff_mod (rowc L P R b n ky) 480 (by decide) (rowc_lt L P R b n ky) r.val r.isLt]
  constructor
  · intro h; exact Fin.ext h
  · intro h; rw [h]; rfl

theorem ofNat_eq_colc_iff (b : Fin 4) (n : Fin 200000) (kx : Fin 5) (c : Fin 640) :
    BitVec.ofNat 32 c.val = colc L P R b n kx ↔ c = cI L P R b n kx := by
  rw [ofNat_eq_iff_mod (colc L P R b n kx) 640 (by decide) (colc_lt L P R b n kx) c.val c.isLt]
  constructor
  · intro h; exact Fin.ext h
  · intro h; rw [h]; rfl

theorem rowc_toInt (b : Fin 4) (n : Fin 200000) (ky : Fin 5) :
    (rowc L P R b n ky).toInt = ((rI L P R b n ky).val : Int) := by
  have hI : (rowc L P R b n ky).toInt = ((rowc L P R b n ky).toNat : Int) :=
    (clamp_range 479#32 (row L P R b n ky) (by decide)).2
  have hv : (rI L P R b n ky).val = (rowc L P R b n ky).toNat := Nat.mod_eq_of_lt (rowc_lt L P R b n ky)
  rw [hI, hv]

theorem colc_toInt (b : Fin 4) (n : Fin 200000) (kx : Fin 5) :
    (colc L P R b n kx).toInt = ((cI L P R b n kx).val : Int) := by
  have hI : (colc L P R b n kx).toInt = ((colc L P R b n kx).toNat : Int) :=
    (clamp_range 639#32 (col L P R b n kx) (by decide)).2
  have hv : (cI L P R b n kx).val = (colc L P R b n kx).toNat := Nat.mod_eq_of_lt (colc_lt L P R b n kx)
  rw [hI, hv]

end

end Cert.Words
-- ==== Proof.RI.Value3.lean ====
/-
  The reference's index arrays, gathered depth and updates read at an index.

  The batch number is a small word and the clamped row and column are words between zero and the image's last row and
  column, so the normalisation that moves a negative index up by the axis length leaves all three alone: the three
  components of an index vector are the word of the batch, the clamped row and the clamped column. The gather then
  reads the depth image at the clamped pixel; the visibility test and the kept weight are the specification's.
-/
import proofs.«147334_j72576357367816_1_alg».proof.Proof.RI.Value2
import proofs.«147334_j72576357367816_1_alg».proof.Proof.RI.Index
import proofs.«147334_j72576357367816_1_alg».proof.Proof.Words

noncomputable section

open scoped BigOperators

namespace Cert.ReferenceIdeal.Hand

open Cert.ReferenceIdeal Idealize.ShloMosaic Idealize.ShloMosaic.ValueIdx

variable [Facts]
open Facts₀ Facts

/-! ## The layout operations of the index arrays and of the depth test, read at coordinates -/

section Layout
variable {α : Type}

/-- A per-batch array given three trailing unit axes. -/
theorem bc_batch_unit (x : S4.Idx → α) (b : Fin 4) :
    broadcastInDim S4x1x1x1 ![0] bcast_S4_S4x1x1x1_0 x (ix4 b (0 : Fin 1) (0 : Fin 1) (0 : Fin 1)) = x (ix1 b) :=
  broadcastInDim_apply _ _ x _ (ix1 b) fun a => match a with
    | ⟨0, _⟩ => rfl

/-- Copied along particles and the footprint. -/
theorem bc_batch_all (x : S4x1x1x1.Idx → α) (b : Fin 4) (n : Fin 200000) (ky kx : Fin 5) :
    broadcastInDim S4x200000x5x5 ![0, 1, 2, 3] bcast_S4x1x1x1_S4x200000x5x5_0_1_2_3 x (ix4 b n ky kx)
      = x (ix4 b (0 : Fin 1) (0 : Fin 1) (0 : Fin 1)) :=
  broadcastInDim_apply _ _ x _ (ix4 b (0 : Fin 1) (0 : Fin 1) (0 : Fin 1)) fun a => match a with
    | ⟨0, _⟩ => rfl
    | ⟨1, _⟩ => rfl
    | ⟨2, _⟩ => rfl
    | ⟨3, _⟩ => rfl

/-- A per-pixel array given a trailing unit axis. -/
theorem bc_comp_unit (x : S4x200000x5x5.Idx → α) (b : Fin 4) (n : Fin 200000) (ky kx : Fin 5) :
    broadcastInDim S4x200000x5x5x1 ![0, 1, 2, 3] bcast_S4x200000x5x5_S4x200000x5x5x1_0_1_2_3 x (ix5 b n ky kx (0 : Fin 1))
      = x (ix4 b n ky kx) :=
  broadcastInDim_apply _ _ x _ (ix4 b n ky kx) fun a => match a with
    | ⟨0, _⟩ => rfl
    | ⟨1, _⟩ => rfl
    | ⟨2, _⟩ => rfl
    | ⟨3, _⟩ => rfl

/-- A per-particle array given two trailing unit axes. -/
theorem bc_depth_unit (x : S4x200000.Idx → α) (b : Fin 4) (n : Fin 200000) :
    broadcastInDim S4x200000x1x1 ![0, 1] bcast_S4x200000_S4x200000x1x1_0_1 x (ix4 b n (0 : Fin 1) (0 : Fin 1)) = x (ix2 b n) :=
  broadcastInDim_apply _ _ x _ (ix2 b n) fun a => match a with
    | ⟨0, _⟩ => rfl
    | ⟨1, _⟩ => rfl

/-- Copied along the footprint. -/
theorem bc_depth_all (x : S4x200000x1x1.Idx → α) (b : Fin 4) (n : Fin 200000) (ky kx : Fin 5) :
    broadcastInDim S4x200000x5x5 ![0, 1, 2, 3] bcast_S4x200000x1x1_S4x200000x5x5_0_1_2_3 x (ix4 b n ky kx)
      = x (ix4 b n (0 : Fin 1) (0 : Fin 1)) :=
  broadcastInDim_apply _ _ x _ (ix4 b n (0 : Fin 1) (0 : Fin 1)) fun a => match a with
    | ⟨0, _⟩ => rfl
    | ⟨1, _⟩ => rfl
    | ⟨2, _⟩ => rfl
    | ⟨3, _⟩ => rfl

/-- Three unit pieces laid along the last axis: component 0 is the first piece. -/
theorem cat3_apply0 (x0 x1 x2 : S4x200000x5x5x1.Idx → α) (b : Fin 4) (n : Fin 200000) (ky kx : Fin 5) :
    concatenate S4x200000x5x5x3 4 [⟨S4x200000x5x5x1, x0⟩, ⟨S4x200000x5x5x1, x1⟩, ⟨S4x200000x5x5x1, x2⟩]
        concatenates_S4x200000x5x5x1_S4x200000x5x5x1_S4x200000x5x5x1_S4x200000x5x5x3_d4 (ix5 b n ky kx (0 : Fin 3))
      = x0 (ix5 b n ky kx (0 : Fin 1)) :=
  concatenate_apply_piece (t := S4x200000x5x5x3) 4
    [⟨S4x200000x5x5x1, x0⟩, ⟨S4x200000x5x5x1, x1⟩, ⟨S4x200000x5x5x1, x2⟩]
    concatenates_S4x200000x5x5x1_S4x200000x5x5x1_S4x200000x5x5x1_S4x200000x5x5x3_d4 (ix5 b n ky kx (0 : Fin 3))
    0 (by show (0 : Nat) < 3; omega) S4x200000x5x5x1 x0 rfl rfl 0 rfl (ix5 b n ky kx (0 : Fin 1))
    (fun a => match a with
      | ⟨0, _⟩ => fun _ => rfl
      | ⟨1, _⟩ => fun _ => rfl
      | ⟨2, _⟩ => fun _ => rfl
      | ⟨3, _⟩ => fun _ => rfl
      | ⟨4, _⟩ => fun h => absurd rfl h)
    rfl

/-- Component 1 is the second piece. -/
theorem cat3_apply1 (x0 x1 x2 : S4x200000x5x5x1.Idx → α) (b : Fin 4) (n : Fin 200000) (ky kx : Fin 5) :
    concatenate S4x200000x5x5x3 4 [⟨S4x200000x5x5x1, x0⟩, ⟨S4x200000x5x5x1, x1⟩, ⟨S4x200000x5x5x1, x2⟩]
        concatenates_S4x200000x5x5x1_S4x200000x5x5x1_S4x200000x5x5x1_S4x200000x5x5x3_d4 (ix5 b n ky kx (1 : Fin 3))
      = x1 (ix5 b n ky kx (0 : Fin 1)) :=
  concatenate_apply_piece (t := S4x200000x5x5x3) 4
    [⟨S4x200000x5x5x1, x0⟩, ⟨S4x200000x5x5x1, x1⟩, ⟨S4x200000x5x5x1, x2⟩]
    concatenates_S4x200000x5x5x1_S4x200000x5x5x1_S4x200000x5x5x1_S4x200000x5x5x3_d4 (ix5 b n ky kx (1 : Fin 3))
    1 (by show (1 : Nat) < 3; omega) S4x200000x5x5x1 x1 rfl rfl 1 rfl (ix5 b n ky kx (0 : Fin 1))
    (fun a => match a with
      | ⟨0, _⟩ => fun _ => rfl
      | ⟨1, _⟩ => fun _ => rfl
      | ⟨2, _⟩ => fun _ => rfl
      | ⟨3, _⟩ => fun _ => rfl
      | ⟨4, _⟩ => fun h => absurd rfl h)
    rfl

/-- Component 2 is the third piece. -/
theorem cat3_apply2 (x0 x1 x2 : S4x200000x5x5x1.Idx → α) (b : Fin 4) (n : Fin 200000) (ky kx : Fin 5) :
    concatenate S4x200000x5x5x3 4 [⟨S4x200000x5x5x1, x0⟩, ⟨S4x200000x5x5x1, x1⟩, ⟨S4x200000x5x5x1, x2⟩]
        concatenates_S4x200000x5x5x1_S4x200000x5x5x1_S4x200000x5x5x1_S4x200000x5x5x3_d4 (ix5 b n ky kx (2 : Fin 3))
      = x2 (ix5 b n ky kx (0 : Fin 1)) :=
  concatenate_apply_piece (t := S4x200000x5x5x3) 4
    [⟨S4x200000x5x5x1, x0⟩, ⟨S4x200000x5x5x1, x1⟩, ⟨S4x200000x5x5x1, x2⟩]
    concatenates_S4x200000x5x5x1_S4x200000x5x5x1_S4x200000x5x5x1_S4x200000x5x5x3_d4 (ix5 b n ky kx (2 : Fin 3))
    2 (by show (2 : Nat) < 3; omega) S4x200000x5x5x1 x2 rfl rfl 2 rfl (ix5 b n ky kx (0 : Fin 1))
    (fun a => match a with
      | ⟨0, _⟩ => fun _ => rfl
      | ⟨1, _⟩ => fun _ => rfl
      | ⟨2, _⟩ => fun _ => rfl
      | ⟨3, _⟩ => fun _ => rfl
      | ⟨4, _⟩ => fun h => absurd rfl h)
    rfl

end Layout

/-! ## The batch index -/

/-- The batch number along the first axis, as a word. -/
theorem bidx_apply (b : Fin 4) : bidx (ix4 b (0 : Fin 1) (0 : Fin 1) (0 : Fin 1)) = BitVec.ofNat 32 b.val := by
  unfold bidx
  rw [bc_batch_unit]
  rfl

/-- The normalisation leaves it alone. -/
theorem bwrap_apply (b : Fin 4) : bwrap (ix4 b (0 : Fin 1) (0 : Fin 1) (0 : Fin 1)) = BitVec.ofNat 32 b.val := by
  show Scalar.select (IntOp.cmpi .slt (bidx (ix4 b (0 : Fin 1) (0 : Fin 1) (0 : Fin 1))) 0#32)
    (IntOp.addi (bidx (ix4 b (0 : Fin 1) (0 : Fin 1) (0 : Fin 1))) 4#32) (bidx (ix4 b (0 : Fin 1) (0 : Fin 1) (0 : Fin 1))) = _
  rw [bidx_apply]
  exact Words.norm_small 4#32 b.val (by have := b.isLt; omega)

section Stages
variable (locs : FVec Ideal S4x200000x3 .f32) (pose : FVec Ideal S4x3 .f32) (rot : FVec Ideal S4x4 .f32)

/-! ## The row and column indices after normalisation -/

theorem iiw_apply (b : Fin 4) (n : Fin 200000) (ky kx : Fin 5) :
    iiw locs pose rot (ix4 b n ky kx) = Spec.rowc locs pose (rotm rot) b n ky := by
  show Scalar.select (IntOp.cmpi .slt (iic locs pose rot (ix4 b n ky kx)) 0#32)
    (IntOp.addi (iic locs pose rot (ix4 b n ky kx)) 480#32) (iic locs pose rot (ix4 b n ky kx)) = _
  rw [iic_apply]
  exact Words.norm_clamp 479#32 480#32 (Spec.row locs pose (rotm rot) b n ky) (by decide)

theorem jjw_apply (b : Fin 4) (n : Fin 200000) (ky kx : Fin 5) :
    jjw locs pose rot (ix4 b n ky kx) = Spec.colc locs pose (rotm rot) b n kx := by
  show Scalar.select (IntOp.cmpi .slt (jjc locs pose rot (ix4 b n ky kx)) 0#32)
    (IntOp.addi (jjc locs pose rot (ix4 b n ky kx)) 640#32) (jjc locs pose rot (ix4 b n ky kx)) = _
  rw [jjc_apply]
  exact Words.norm_clamp 639#32 640#32 (Spec.col locs pose (rotm rot) b n kx) (by decide)

/-! ## The three components of an index vector -/

theorem gidx_comp0 (b : Fin 4) (n : Fin 200000) (ky kx : Fin 5) :
    gidx locs pose rot (comp (ix4 b n ky kx) 0) = BitVec.ofNat 32 b.val := by
  show gidx locs pose rot (ix5 b n ky kx (0 : Fin 3)) = _
  unfold gidx
  rw [cat3_apply0, bc_comp_unit, bc_batch_all, bwrap_apply]

theorem gidx_comp1 (b : Fin 4) (n : Fin 200000) (ky kx : Fin 5) :
    gidx locs pose rot (comp (ix4 b n ky kx) 1) = Spec.rowc locs pose (rotm rot) b n ky := by
  show gidx locs pose rot (ix5 b n ky kx (1 : Fin 3)) = _
  unfold gidx
  rw [cat3_apply1, bc_comp_unit, iiw_apply]

theorem gidx_comp2 (b : Fin 4) (n : Fin 200000) (ky kx : Fin 5) :
    gidx locs pose rot (comp (ix4 b n ky kx) 2) = Spec.colc locs pose (rotm rot) b n kx := by
  show gidx locs pose rot (ix5 b n ky kx (2 : Fin 3)) = _
  unfold gidx
  rw [cat3_apply2, bc_comp_unit, jjw_apply]

/-- The scatter's index vectors are the gather's. -/
theorem sidx_comp0 (b : Fin 4) (n : Fin 200000) (ky kx : Fin 5) :
    sidx locs pose rot (comp (ix4 b n ky kx) 0) = BitVec.ofNat 32 b.val := gidx_comp0 locs pose rot b n ky kx
theorem sidx_comp1 (b : Fin 4) (n : Fin 200000) (ky kx : Fin 5) :
    sidx locs pose rot (comp (ix4 b n ky kx) 1) = Spec.rowc locs pose (rotm rot) b n ky := gidx_comp1 locs pose rot b n ky kx
theorem sidx_comp2 (b : Fin 4) (n : Fin 200000) (ky kx : Fin 5) :
    sidx locs pose rot (comp (ix4 b n ky kx) 2) = Spec.colc locs pose (rotm rot) b n kx := gidx_comp2 locs pose rot b n ky kx

/-! ## The gathered depth, the visibility test and the update -/

variable (depth : FVec Ideal S4x480x640 .f32)

/-- The depth image at the clamped pixel. -/
theorem dgat_apply (b : Fin 4) (n : Fin 200000) (ky kx : Fin 5) :
    dgat locs pose rot depth (ix4 b n ky kx) = Spec.dval locs pose (rotm rot) depth b n ky kx := by
  unfold dgat
  exact gather_point depth (gidx locs pose rot) (ix4 b n ky kx) b
    (Spec.rI locs pose (rotm rot) b n ky) (Spec.cI locs pose (rotm rot) b n kx)
    (by rw [gidx_comp0]; exact Words.toInt_ofNat_small b.val (by have := b.isLt; omega))
    (by rw [gidx_comp1]; exact Words.rowc_toInt locs pose (rotm rot) b n ky)
    (by rw [gidx_comp2]; exact Words.colc_toInt locs pose (rotm rot) b n kx)

/-- The point's depth along two unit axes. -/
theorem zb_apply (b : Fin 4) (n : Fin 200000) :
    zb locs pose rot (ix4 b n (0 : Fin 1) (0 : Fin 1)) = Spec.cam locs pose (rotm rot) b n 2 := by
  unfold zb
  rw [bc_depth_unit, zc_apply]

/-- In the image, in front of the camera, and not behind the depth image. -/
theorem valid_apply (b : Fin 4) (n : Fin 200000) (ky kx : Fin 5) :
    valid locs pose rot depth (ix4 b n ky kx) = Spec.valid locs pose (rotm rot) depth b n ky kx := by
  unfold valid
  rw [andi_apply, andi_apply, cmpf_apply, bc_depth_all, bc_depth_all, cmpf_apply, zb_apply, inb_apply, dgat_apply]
  rfl

/-- The weight kept when visible. -/
theorem upd_apply (b : Fin 4) (n : Fin 200000) (ky kx : Fin 5) :
    upd locs pose rot depth (ix4 b n ky kx) = Spec.wt locs pose (rotm rot) depth b n ky kx := by
  show Scalar.select (valid locs pose rot depth (ix4 b n ky kx)) (wgt locs pose rot (ix4 b n ky kx)) Spec.k0 = _
  rw [valid_apply, wgt_apply]
  rfl

end Stages

end Cert.ReferenceIdeal.Hand

end
-- ==== Proof.RI.Value4.lean ====
/-
  The reference's result read at an index: the specification's image.

  The accumulating scatter into the zero image is, at a pixel, the sum over all update positions of the update where the
  three components of its index vector are the pixel's coordinates. The components are the word of the batch, the
  clamped row and the clamped column; a clamped index equals a coordinate as an integer exactly when it is that
  coordinate's word; and only the pixel's own batch contributes.
-/
import proofs.«147334_j72576357367816_1_alg».proof.Proof.RI.Value3
import proofs.«147334_j72576357367816_1_alg».proof.Proof.Alg

noncomputable section

open scoped BigOperators

namespace Cert.ReferenceIdeal.Hand

open Cert.ReferenceIdeal Idealize.ShloMosaic Idealize.ShloMosaic.ValueIdx

variable [Facts]
open Facts₀ Facts

/-- One update position's term of the scatter at pixel (b, r, c): the kept weight where the position's batch is b and its
    clamped pixel is (r, c). -/
theorem out_term (locs : FVec Ideal S4x200000x3 .f32) (pose : FVec Ideal S4x3 .f32) (rot : FVec Ideal S4x4 .f32)
    (depth : FVec Ideal S4x480x640 .f32) (b : Fin 4) (r : Fin 480) (c : Fin 640)
    (b' : Fin 4) (n : Fin 200000) (ky kx : Fin 5) :
    (if ((sidx locs pose rot (comp (ix4 b' n ky kx) 0)).toInt = (((ix3 b r c) 0).val : Int)
          ∧ (sidx locs pose rot (comp (ix4 b' n ky kx) 1)).toInt = (((ix3 b r c) 1).val : Int)
          ∧ (sidx locs pose rot (comp (ix4 b' n ky kx) 2)).toInt = (((ix3 b r c) 2).val : Int))
        then upd locs pose rot depth (ix4 b' n ky kx) else 0)
      = if (b' = b ∧ (BitVec.ofNat 32 r.val = Spec.rowc locs pose (rotm rot) b' n ky
            ∧ BitVec.ofNat 32 c.val = Spec.colc locs pose (rotm rot) b' n kx))
          then Spec.wt locs pose (rotm rot) depth b' n ky kx else 0 := by
  refine if_congr (and_congr ?_ (and_congr ?_ ?_)) (upd_apply locs pose rot depth b' n ky kx) rfl
  · rw [sidx_comp0, Words.toInt_ofNat_small b'.val (by have := b'.isLt; omega)]
    show ((b'.val : Int) = (b.val : Int)) ↔ b' = b
    constructor
    · intro h; exact Fin.ext (by exact_mod_cast h)
    · intro h; rw [h]
  · rw [sidx_comp1]
    exact Words.toInt_clamp_eq_iff 479#32 (Spec.row locs pose (rotm rot) b' n ky) (by decide) r.val
      (by have := r.isLt; show r.val ≤ 479; omega)
  · rw [sidx_comp2]
    exact Words.toInt_clamp_eq_iff 639#32 (Spec.col locs pose (rotm rot) b' n kx) (by decide) c.val
      (by have := c.isLt; show c.val ≤ 639; omega)

/-- THE RESULT at pixel (r, c) of batch b is the specification's image there. -/
theorem out_apply (locs : FVec Ideal S4x200000x3 .f32) (pose : FVec Ideal S4x3 .f32) (rot : FVec Ideal S4x4 .f32)
    (depth : FVec Ideal S4x480x640 .f32) (b : Fin 4) (r : Fin 480) (c : Fin 640) :
    out locs pose rot depth (ix3 b r c) = Cert.Spec.splat locs pose (rotm rot) depth b r c := by
  unfold out
  rw [scatterAdd_point_apply, sum_idx4]
  have hz : broadcastInDim S4x480x640 ![] bcast_S_S4x480x640 (constant (F := Ideal) S_ .f32 0x00000000#32) (ix3 b r c) = 0 :=
    Ideal.ofBits_zero_f32
  rw [hz, zero_add]
  refine (Finset.sum_congr rfl fun b' _ => Finset.sum_congr rfl fun n _ => Finset.sum_congr rfl fun ky _ =>
    Finset.sum_congr rfl fun kx _ => out_term locs pose rot depth b r c b' n ky kx).trans ?_
  exact Alg.sum_batch_select b
    (fun b' n ky kx => BitVec.ofNat 32 r.val = Spec.rowc locs pose (rotm rot) b' n ky
      ∧ BitVec.ofNat 32 c.val = Spec.colc locs pose (rotm rot) b' n kx)
    (fun b' n ky kx => Spec.wt locs pose (rotm rot) depth b' n ky kx)

end Cert.ReferenceIdeal.Hand

end
-- ==== Proof.lean ====
/-
  The certificate of the Gaussian-splat kernel against its scatter-add reference.

  Frames. The kernel program (at the word-level instance and at the exact instance) is ninety-two host operations — the
  rotation matrices from the normalised quaternion, a reshape of the camera position — and one pipelined region over the grid
  (4 batches × 200 chunks of 1000 particles); its frame is the launch theorem over the body's two control cases (the output
  block set at a batch's first chunk, added to at the others), the 25-trip footprint loop carried by an invariant that holds no
  memory. The reference is a straight host program; its frame is its run.

  Values, at the exact instance. The kernel's result at (b, r, c) is the sum over the batch's chunks of the point's accumulated
  image; a point's image is the sum over the 25 footprint offsets and the 1000 particles of the product of a row one-hot, the
  kept weight and a column one-hot, which is the kept weight where the clamped pixel is (r, c) and zero elsewhere (on the
  extended reals 0·x = 0 and 1·x = x with no finiteness needed); the occlusion depth read through a one-hot matrix product is
  the depth image at the clamped pixel. The reference's result is the scatter-add's sum over all (batch, particle, offset) whose
  index triple is (b, r, c) of the same kept weight, its gather the depth image at the same pixel. Both are the specification's
  image `Cert.Spec.splat`: the two sums range over the same terms, regrouped (chunk · 1000 + lane, 5 · ky + kx), and addition
  of extended reals is commutative and associative.
-/
import proofs.«147334_j72576357367816_1_alg».proof.Defs
import proofs.«147334_j72576357367816_1_alg».proof.Proof.Gen.Kernel
import proofs.«147334_j72576357367816_1_alg».proof.Proof.Gen.KernelIdeal
import proofs.«147334_j72576357367816_1_alg».proof.Proof.Gen.ReferenceIdeal
import proofs.«147334_j72576357367816_1_alg».proof.Proof.Gen.Pre_finite_inputs
import proofs.«147334_j72576357367816_1_alg».proof.Proof.KB.Frame
import proofs.«147334_j72576357367816_1_alg».proof.Proof.KI.Frame
import proofs.«147334_j72576357367816_1_alg».proof.Proof.KI.Value
import proofs.«147334_j72576357367816_1_alg».proof.Proof.KI.Total
import proofs.«147334_j72576357367816_1_alg».proof.Proof.RI.Run
import proofs.«147334_j72576357367816_1_alg».proof.Proof.RI.Value4

noncomputable section

namespace Cert.Proof

open Idealize.ShloMosaic Idealize.ShloMosaic.ValueIdx Idealize.SL.Sem

/-- The word-level kernel program runs to the end and leaves its arguments as they were. -/
theorem frame_k : Cert.frame_Kernel := fun m ρ _ => Cert.Kernel.Hand.frame (F := Bits) m ρ
/-- So does the idealized kernel program. -/
theorem frame_ki : Cert.frame_KernelIdeal := fun m ρ _ => Cert.KernelIdeal.Hand.frame (F := Ideal) m ρ
/-- And the idealized reference: its run with the result dropped. -/
theorem frame_ri : Cert.frame_ReferenceIdeal := fun m ρ _ => Cert.ReferenceIdeal.Hand.frame (F := Ideal) m ρ
/-- The idealization rewrote nothing. -/
theorem preserves : Cert.preserves_Kernel_KernelIdeal := trivial

/-- From memories agreeing on the arguments both programs end with the specification's image. -/
theorem algebraic : Cert.algebraic_KernelIdeal_ReferenceIdeal := by
  intro m ρ m' ρ' _ hagree
  refine ⟨fun c => Cert.KernelIdeal.Hand.result m c, Cert.KernelIdeal.Hand.run_value (F := Ideal) m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2]
  funext i
  obtain ⟨b, r, q, rfl⟩ : ∃ (b : Fin 4) (r : Fin 480) (q : Fin 640), i = ix3 b r q := ⟨i 0, i 1, i 2, eq_ix3 i⟩
  rw [Cert.ReferenceIdeal.Hand.out_apply]
  exact (Cert.KernelIdeal.Hand.result_eq_splat m c b r q).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
